-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x6 : Shape := ⟨2, ![131072, 6]⟩
abbrev S131072x10 : Shape := ⟨2, ![131072, 10]⟩
abbrev S131072x15 : Shape := ⟨2, ![131072, 15]⟩
abbrev S6x6 : Shape := ⟨2, ![6, 6]⟩
abbrev S10x10 : Shape := ⟨2, ![10, 10]⟩
abbrev S15x15 : Shape := ⟨2, ![15, 15]⟩
abbrev S6 : Shape := ⟨1, ![6]⟩
abbrev S10 : Shape := ⟨1, ![10]⟩
abbrev S15 : Shape := ⟨1, ![15]⟩
abbrev S100x100 : Shape := ⟨2, ![100, 100]⟩
abbrev S100 : Shape := ⟨1, ![100]⟩
abbrev S_ : Shape := ⟨0, ![]⟩

class Facts : Prop where
  bcast_S_S131072x6 : S_.BroadcastsInDim S131072x6 (![] : Fin 0 → Fin S131072x6.rank)
  reducesTo_S131072x6_S_d0_1 : S131072x6.ReducesTo [0, 1] S_
  h_S_ : 0 < S_.numel
  bcast_S_S131072x10 : S_.BroadcastsInDim S131072x10 (![] : Fin 0 → Fin S131072x10.rank)
  reducesTo_S131072x10_S_d0_1 : S131072x10.ReducesTo [0, 1] S_
  bcast_S_S131072x15 : S_.BroadcastsInDim S131072x15 (![] : Fin 0 → Fin S131072x15.rank)
  reducesTo_S131072x15_S_d0_1 : S131072x15.ReducesTo [0, 1] S_
  bcast_S_S6x6 : S_.BroadcastsInDim S6x6 (![] : Fin 0 → Fin S6x6.rank)
  reducesTo_S6x6_S_d0_1 : S6x6.ReducesTo [0, 1] S_
  bcast_S_S10x10 : S_.BroadcastsInDim S10x10 (![] : Fin 0 → Fin S10x10.rank)
  reducesTo_S10x10_S_d0_1 : S10x10.ReducesTo [0, 1] S_
  bcast_S_S15x15 : S_.BroadcastsInDim S15x15 (![] : Fin 0 → Fin S15x15.rank)
  reducesTo_S15x15_S_d0_1 : S15x15.ReducesTo [0, 1] S_
  bcast_S_S6 : S_.BroadcastsInDim S6 (![] : Fin 0 → Fin S6.rank)
  reducesTo_S6_S_d0 : S6.ReducesTo [0] S_
  bcast_S_S10 : S_.BroadcastsInDim S10 (![] : Fin 0 → Fin S10.rank)
  reducesTo_S10_S_d0 : S10.ReducesTo [0] S_
  bcast_S_S15 : S_.BroadcastsInDim S15 (![] : Fin 0 → Fin S15.rank)
  reducesTo_S15_S_d0 : S15.ReducesTo [0] S_
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_

variable [Facts]

def fn_part4 {F : FTy → Type} [FloatOps F] (main_arg14 : IVec S100 32) (main_v63 : IVec S_ 1) (main_v67 : IVec S_ 1) : IVec S_ 1 :=
  let main_v68 : IVec S_ 1 := andi main_v63 main_v67
  let main_c_26 : IVec S_ 32 := constantI S_ 32 0#32
  let main_v69 : IVec S100 32 := broadcastInDim S100 ![] bcast_S_S100 main_c_26
  let main_v70 : IVec S100 1 := cmpi .sge main_arg14 main_v69
  let main_c_27 : IVec S_ 1 := constantI S_ 1 1#1
  let main_v71 : IVec S_ 1 := (fun x v => Host.reduce IntOp.andi x v reducesTo_S100_S_d0 h_S_) main_v70 main_c_27
  let main_v72 : IVec S_ 1 := andi main_v68 main_v71
  let main_c_28 : IVec S_ 32 := constantI S_ 32 900#32
  let main_v73 : IVec S100 32 := broadcastInDim S100 ![] bcast_S_S100 main_c_28
  let main_v74 : IVec S100 1 := cmpi .slt main_arg14 main_v73
  let main_c_29 : IVec S_ 1 := constantI S_ 1 1#1
  let main_v75 : IVec S_ 1 := (fun x v => Host.reduce IntOp.andi x v reducesTo_S100_S_d0 h_S_) main_v74 main_c_29
  let main_v76 : IVec S_ 1 := andi main_v72 main_v75
  main_v76

def fn_part3 {F : FTy → Type} [FloatOps F] (main_arg11 : FVec F S15 .f32) (main_arg12 : FVec F S100x100 .f32) (main_arg13 : FVec F S100 .f32) (main_arg14 : IVec S100 32) (main_v48 : IVec S_ 1) (main_v49 : FVec F S15 .f32) (main_v50 : FVec F S15 .f32) : IVec S_ 1 :=
  let main_v51 : IVec S15 1 := cmpf .olt main_v49 main_v50
  let main_c_19 : IVec S_ 1 := constantI S_ 1 1#1
  let main_v52 : IVec S_ 1 := (fun x v => Host.reduce IntOp.andi x v reducesTo_S15_S_d0 h_S_) main_v51 main_c_19
  let main_v53 : IVec S_ 1 := andi main_v48 main_v52
  let main_v54 : FVec F S15 .f32 := Host.absf main_arg11
  let main_cst_20 : FVec F S_ .f32 := constant S_ .f32 0x7F800000#32
  let main_v55 : FVec F S15 .f32 := broadcastInDim S15 ![] bcast_S_S15 main_cst_20
  let main_v56 : IVec S15 1 := cmpf .olt main_v54 main_v55
  let main_c_21 : IVec S_ 1 := constantI S_ 1 1#1
  let main_v57 : IVec S_ 1 := (fun x v => Host.reduce IntOp.andi x v reducesTo_S15_S_d0 h_S_) main_v56 main_c_21
  let main_v58 : IVec S_ 1 := andi main_v53 main_v57
  let main_v59 : FVec F S100x100 .f32 := Host.absf main_arg12
  let main_cst_22 : FVec F S_ .f32 := constant S_ .f32 0x7F800000#32
  let main_v60 : FVec F S100x100 .f32 := broadcastInDim S100x100 ![] bcast_S_S100x100 main_cst_22
  let main_v61 : IVec S100x100 1 := cmpf .olt main_v59 main_v60
  let main_c_23 : IVec S_ 1 := constantI S_ 1 1#1
  let main_v62 : IVec S_ 1 := (fun x v => Host.reduce IntOp.andi x v reducesTo_S100x100_S_d0_1 h_S_) main_v61 main_c_23
  let main_v63 : IVec S_ 1 := andi main_v58 main_v62
  let main_v64 : FVec F S100 .f32 := Host.absf main_arg13
  let main_cst_24 : FVec F S_ .f32 := constant S_ .f32 0x7F800000#32
  let main_v65 : FVec F S100 .f32 := broadcastInDim S100 ![] bcast_S_S100 main_cst_24
  let main_v66 : IVec S100 1 := cmpf .olt main_v64 main_v65
  let main_c_25 : IVec S_ 1 := constantI S_ 1 1#1
  let main_v67 : IVec S_ 1 := (fun x v => Host.reduce IntOp.andi x v reducesTo_S100_S_d0 h_S_) main_v66 main_c_25
  fn_part4 (F := F) main_arg14 main_v63 main_v67

def fn_part2 {F : FTy → Type} [FloatOps F] (main_arg7 : FVec F S6 .f32) (main_arg8 : FVec F S10 .f32) (main_arg9 : FVec F S10 .f32) (main_arg10 : FVec F S15 .f32) (main_arg11 : FVec F S15 .f32) (main_arg12 : FVec F S100x100 .f32) (main_arg13 : FVec F S100 .f32) (main_arg14 : IVec S100 32) (main_v33 : IVec S_ 1) : IVec S_ 1 :=
  let main_v34 : FVec F S6 .f32 := Host.absf main_arg7
  let main_cst_12 : FVec F S_ .f32 := constant S_ .f32 0x7F800000#32
  let main_v35 : FVec F S6 .f32 := broadcastInDim S6 ![] bcast_S_S6 main_cst_12
  let main_v36 : IVec S6 1 := cmpf .olt main_v34 main_v35
  let main_c_13 : IVec S_ 1 := constantI S_ 1 1#1
  let main_v37 : IVec S_ 1 := (fun x v => Host.reduce IntOp.andi x v reducesTo_S6_S_d0 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S10 .f32 := Host.absf main_arg9
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S15 .f32 := Host.absf main_arg10
  let main_cst_18 : FVec F S_ .f32 := constant S_ .f32 0x7F800000#32
  let main_v50 : FVec F S15 .f32 := broadcastInDim S15 ![] bcast_S_S15 main_cst_18
  fn_part3 (F := F) main_arg11 main_arg12 main_arg13 main_arg14 main_v48 main_v49 main_v50

def fn_part1 {F : FTy → Type} [FloatOps F] (main_arg4 : FVec F S10x10 .f32) (main_arg5 : FVec F S15x15 .f32) (main_arg6 : FVec F S6 .f32) (main_arg7 : FVec F S6 .f32) (main_arg8 : FVec F S10 .f32) (main_arg9 : FVec F S10 .f32) (main_arg10 : FVec F S15 .f32) (main_arg11 : FVec F S15 .f32) (main_arg12 : FVec F S100x100 .f32) (main_arg13 : FVec F S100 .f32) (main_arg14 : IVec S100 32) (main_v13 : IVec S_ 1) (main_v16 : IVec S6x6 1) : IVec S_ 1 :=
  let main_c_5 : IVec S_ 1 := constantI S_ 1 1#1
  let main_v17 : IVec S_ 1 := (fun x v => Host.reduce IntOp.andi x v reducesTo_S6x6_S_d0_1 h_S_) main_v16 main_c_5
  let main_v18 : IVec S_ 1 := andi main_v13 main_v17
  let main_v19 : FVec F S10x10 .f32 := Host.absf main_arg4
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S15x15 .f32 := Host.absf main_arg5
  let main_cst_8 : FVec F S_ .f32 := constant S_ .f32 0x7F800000#32
  let main_v25 : FVec F S15x15 .f32 := broadcastInDim S15x15 ![] bcast_S_S15x15 main_cst_8
  let main_v26 : IVec S15x15 1 := cmpf .olt main_v24 main_v25
  let main_c_9 : IVec S_ 1 := constantI S_ 1 1#1
  let main_v27 : IVec S_ 1 := (fun x v => Host.reduce IntOp.andi x v reducesTo_S15x15_S_d0_1 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S131072x6 .f32) (main_arg1 : FVec F S131072x10 .f32) (main_arg2 : FVec F S131072x15 .f32) (main_arg3 : FVec F S6x6 .f32) (main_arg4 : FVec F S10x10 .f32) (main_arg5 : FVec F S15x15 .f32) (main_arg6 : FVec F S6 .f32) (main_arg7 : FVec F S6 .f32) (main_arg8 : FVec F S10 .f32) (main_arg9 : FVec F S10 .f32) (main_arg10 : FVec F S15 .f32) (main_arg11 : FVec F S15 .f32) (main_arg12 : FVec F S100x100 .f32) (main_arg13 : FVec F S100 .f32) (main_arg14 : IVec S100 32) : IVec S_ 1 :=
  let main_v0 : FVec F S131072x6 .f32 := Host.absf main_arg0
  let main_cst : FVec F S_ .f32 := constant S_ .f32 0x7F800000#32
  let main_v1 : FVec F S131072x6 .f32 := broadcastInDim S131072x6 ![] bcast_S_S131072x6 main_cst
  let main_v2 : IVec S131072x6 1 := cmpf .olt main_v0 main_v1
  let main_c : IVec S_ 1 := constantI S_ 1 1#1
  let main_v3 : IVec S_ 1 := (fun x v => Host.reduce IntOp.andi x v reducesTo_S131072x6_S_d0_1 h_S_) main_v2 main_c
  let main_v4 : FVec F S131072x10 .f32 := Host.absf main_arg1
  let main_cst_0 : FVec F S_ .f32 := constant S_ .f32 0x7F800000#32
  let main_v5 : FVec F S131072x10 .f32 := broadcastInDim S131072x10 ![] bcast_S_S131072x10 main_cst_0
  let main_v6 : IVec S131072x10 1 := cmpf .olt main_v4 main_v5
  let main_c_1 : IVec S_ 1 := constantI S_ 1 1#1
  let main_v7 : IVec S_ 1 := (fun x v => Host.reduce IntOp.andi x v reducesTo_S131072x10_S_d0_1 h_S_) main_v6 main_c_1
  let main_v8 : IVec S_ 1 := andi main_v3 main_v7
  let main_v9 : FVec F S131072x15 .f32 := Host.absf main_arg2
  let main_cst_2 : FVec F S_ .f32 := constant S_ .f32 0x7F800000#32
  let main_v10 : FVec F S131072x15 .f32 := broadcastInDim S131072x15 ![] bcast_S_S131072x15 main_cst_2
  let main_v11 : IVec S131072x15 1 := cmpf .olt main_v9 main_v10
  let main_c_3 : IVec S_ 1 := constantI S_ 1 1#1
  let main_v12 : IVec S_ 1 := (fun x v => Host.reduce IntOp.andi x v reducesTo_S131072x15_S_d0_1 h_S_) main_v11 main_c_3
  let main_v13 : IVec S_ 1 := andi main_v8 main_v12
  let main_v14 : FVec F S6x6 .f32 := Host.absf main_arg3
  let main_cst_4 : FVec F S_ .f32 := constant S_ .f32 0x7F800000#32
  let main_v15 : FVec F S6x6 .f32 := broadcastInDim S6x6 ![] bcast_S_S6x6 main_cst_4
  let main_v16 : IVec S6x6 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S131072x6 : Shape := ⟨2, ![131072, 6]⟩
abbrev S131072x10 : Shape := ⟨2, ![131072, 10]⟩
abbrev S131072x15 : Shape := ⟨2, ![131072, 15]⟩
abbrev S6x6 : Shape := ⟨2, ![6, 6]⟩
abbrev S10x10 : Shape := ⟨2, ![10, 10]⟩
abbrev S15x15 : Shape := ⟨2, ![15, 15]⟩
abbrev S6 : Shape := ⟨1, ![6]⟩
abbrev S10 : Shape := ⟨1, ![10]⟩
abbrev S15 : Shape := ⟨1, ![15]⟩
abbrev S100x100 : Shape := ⟨2, ![100, 100]⟩
abbrev S100 : Shape := ⟨1, ![100]⟩
abbrev S1x6 : Shape := ⟨2, ![1, 6]⟩
abbrev S1x10 : Shape := ⟨2, ![1, 10]⟩
abbrev S1x15 : Shape := ⟨2, ![1, 15]⟩
abbrev S2048x6 : Shape := ⟨2, ![2048, 6]⟩
abbrev S2048x10 : Shape := ⟨2, ![2048, 10]⟩
abbrev S2048x15 : Shape := ⟨2, ![2048, 15]⟩
abbrev S_ : Shape := ⟨0, ![]⟩
abbrev S100x1 : Shape := ⟨2, ![100, 1]⟩
abbrev S100x6 : Shape := ⟨2, ![100, 6]⟩
abbrev S6x100 : Shape := ⟨2, ![6, 100]⟩
abbrev S100x10 : Shape := ⟨2, ![100, 10]⟩
abbrev S10x100 : Shape := ⟨2, ![10, 100]⟩
abbrev S100x15 : Shape := ⟨2, ![100, 15]⟩
abbrev S15x100 : Shape := ⟨2, ![15, 100]⟩
abbrev S1x100 : Shape := ⟨2, ![1, 100]⟩
abbrev S131072x100 : Shape := ⟨2, ![131072, 100]⟩
abbrev S1024x6 : Shape := ⟨2, ![1024, 6]⟩
abbrev S1024x10 : Shape := ⟨2, ![1024, 10]⟩
abbrev S1024x15 : Shape := ⟨2, ![1024, 15]⟩
abbrev S1024x100 : Shape := ⟨2, ![1024, 100]⟩

abbrev nBuf : Space → Nat
  | .hbm => 164
  | .vmem => 43
  | .smem => 0
  | _ => 0

abbrev hbmTy0_0 (i : Nat) : BufTy := match i % 128 with
  | 0 => ⟨S131072x6, .f32⟩
  | 1 => ⟨S131072x10, .f32⟩
  | 2 => ⟨S131072x15, .f32⟩
  | 3 => ⟨S6x6, .f32⟩
  | 4 => ⟨S10x10, .f32⟩
  | 5 => ⟨S15x15, .f32⟩
  | 6 => ⟨S6, .f32⟩
  | 7 => ⟨S6, .f32⟩
  | 8 => ⟨S10, .f32⟩
  | 9 => ⟨S10, .f32⟩
  | 10 => ⟨S15, .f32⟩
  | 11 => ⟨S15, .f32⟩
  | 12 => ⟨S100x100, .f32⟩
  | 13 => ⟨S100, .f32⟩
  | 14 => ⟨S100, .i32⟩
  | 15 => ⟨S1x6, .f32⟩
  | 16 => ⟨S1x6, .f32⟩
  | 17 => ⟨S1x10, .f32⟩
  | 18 => ⟨S1x10, .f32⟩
  | 19 => ⟨S1x15, .f32⟩
  | 20 => ⟨S1x15, .f32⟩
  | 21 => ⟨S_, .f32⟩
  | 22 => ⟨S1x6, .f32⟩
  | 23 => ⟨S1x6, .f32⟩
  | 24 => ⟨S_, .f32⟩
  | 25 => ⟨S1x6, .f32⟩
  | 26 => ⟨S1x6, .f32⟩
  | 27 => ⟨S1x6, .f32⟩
  | 28 => ⟨S1x6, .f32⟩
  | 29 => ⟨S_, .f32⟩
  | 30 => ⟨S1x6, .f32⟩
  | 31 => ⟨S1x6, .f32⟩
  | 32 => ⟨S_, .f32⟩
  | 33 => ⟨S1x10, .f32⟩
  | 34 => ⟨S1x10, .f32⟩
  | 35 => ⟨S_, .f32⟩
  | 36 => ⟨S1x10, .f32⟩
  | 37 => ⟨S1x10, .f32⟩
  | 38 => ⟨S1x10, .f32⟩
  | 39 => ⟨S1x10, .f32⟩
  | 40 => ⟨S_, .f32⟩
  | 41 => ⟨S1x10, .f32⟩
  | 42 => ⟨S1x10, .f32⟩
  | 43 => ⟨S_, .f32⟩
  | 44 => ⟨S1x15, .f32⟩
  | 45 => ⟨S1x15, .f32⟩
  | 46 => ⟨S_, .f32⟩
  | 47 => ⟨S1x15, .f32⟩
  | 48 => ⟨S1x15, .f32⟩
  | 49 => ⟨S1x15, .f32⟩
  | 50 => ⟨S1x15, .f32⟩
  | 51 => ⟨S_, .f32⟩
  | 52 => ⟨S1x15, .f32⟩
  | 53 => ⟨S1x15, .f32⟩
  | 54 => ⟨S1x6, .f32⟩
  | 55 => ⟨S1x6, .f32⟩
  | 56 => ⟨S1x10, .f32⟩
  | 57 => ⟨S1x10, .f32⟩
  | 58 => ⟨S1x15, .f32⟩
  | 59 => ⟨S1x15, .f32⟩
  | 60 => ⟨S_, .i32⟩
  | 61 => ⟨S_, .i32⟩
  | 62 => ⟨S100, .i32⟩
  | 63 => ⟨S100, .i32⟩
  | 64 => ⟨S100, .i32⟩
  | 65 => ⟨S_, .i32⟩
  | 66 => ⟨S100, .i32⟩
  | 67 => ⟨S100, .i1⟩
  | 68 => ⟨S100, .i32⟩
  | 69 => ⟨S100, .i32⟩
  | 70 => ⟨S_, .i32⟩
  | 71 => ⟨S100, .i32⟩
  | 72 => ⟨S100, .i1⟩
  | 73 => ⟨S100, .i1⟩
  | 74 => ⟨S_, .i32⟩
  | 75 => ⟨S100, .i32⟩
  | 76 => ⟨S100, .i32⟩
  | 77 => ⟨S100, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S100, .i32⟩
  | 85 => ⟨S100, .i32⟩
  | 86 => ⟨S_, .i32⟩
  | 87 => ⟨S100, .i32⟩
  | 88 => ⟨S100, .i1⟩
  | 89 => ⟨S_, .i32⟩
  | 90 => ⟨S100, .i32⟩
  | 91 => ⟨S100, .i1⟩
  | 92 => ⟨S_, .i32⟩
  | 93 => ⟨S_, .i1⟩
  | 94 => ⟨S100, .i1⟩
  | 95 => ⟨S100, .i1⟩
  | 96 => ⟨S100, .i1⟩
  | 97 => ⟨S100, .i32⟩
  | 98 => ⟨S100, .i32⟩
  | 99 => ⟨S100, .i32⟩
  | 100 => ⟨S_, .i32⟩
  | 101 => ⟨S_, .i32⟩
  | 102 => ⟨S100, .i32⟩
  | 103 => ⟨S100, .i32⟩
  | 104 => ⟨S100, .i32⟩
  | 105 => ⟨S_, .i32⟩
  | 106 => ⟨S100, .i32⟩
  | 107 => ⟨S100, .i1⟩
  | 108 => ⟨S100, .i32⟩
  | 109 => ⟨S100, .i32⟩
  | 110 => ⟨S_, .i32⟩
  | 111 => ⟨S100, .i32⟩
  | 112 => ⟨S100, .i1⟩
  | 113 => ⟨S100, .i1⟩
  | 114 => ⟨S_, .i32⟩
  | 115 => ⟨S100, .i32⟩
  | 116 => ⟨S100, .i32⟩
  | 117 => ⟨S100, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S100, .i32⟩
  | 125 => ⟨S100, .i32⟩
  | 126 => ⟨S_, .i32⟩
  | 127 => ⟨S100, .i32⟩
  | _ => ⟨S131072x6, .f32⟩

abbrev hbmTy0_1 (i : Nat) : BufTy := match i % 128 with
  | 0 => ⟨S100, .i1⟩
  | 1 => ⟨S_, .i32⟩
  | 2 => ⟨S100, .i32⟩
  | 3 => ⟨S100, .i1⟩
  | 4 => ⟨S_, .i32⟩
  | 5 => ⟨S_, .i1⟩
  | 6 => ⟨S100, .i1⟩
  | 7 => ⟨S100, .i1⟩
  | 8 => ⟨S100, .i1⟩
  | 9 => ⟨S100, .i32⟩
  | 10 => ⟨S100, .i32⟩
  | 11 => ⟨S100, .i32⟩
  | 12 => ⟨S100x1, .i32⟩
  | 13 => ⟨S1x6, .i32⟩
  | 14 => ⟨S100x6, .i32⟩
  | 15 => ⟨S100x6, .i32⟩
  | 16 => ⟨S100x6, .i1⟩
  | 17 => ⟨S100x6, .f32⟩
  | 18 => ⟨S6x100, .f32⟩
  | 19 => ⟨S100x1, .i32⟩
  | 20 => ⟨S1x10, .i32⟩
  | 21 => ⟨S100x10, .i32⟩
  | 22 => ⟨S100x10, .i32⟩
  | 23 => ⟨S100x10, .i1⟩
  | 24 => ⟨S100x10, .f32⟩
  | 25 => ⟨S10x100, .f32⟩
  | 26 => ⟨S100x1, .i32⟩
  | 27 => ⟨S1x15, .i32⟩
  | 28 => ⟨S100x15, .i32⟩
  | 29 => ⟨S100x15, .i32⟩
  | 30 => ⟨S100x15, .i1⟩
  | 31 => ⟨S100x15, .f32⟩
  | 32 => ⟨S15x100, .f32⟩
  | 33 => ⟨S100x100, .f32⟩
  | 34 => ⟨S1x100, .f32⟩
  | 35 => ⟨S131072x100, .f32⟩
  | _ => ⟨S131072x6, .f32⟩

abbrev hbmTy (i : Nat) : BufTy := match i / 128 with
  | 0 => hbmTy0_0 i
  | 1 => hbmTy0_1 i
  | _ => ⟨S131072x6, .f32⟩

abbrev bufTy : (tb : Table) → Fin (tcTables nBuf tb) → BufTy
  | .hbm, ⟨i, _⟩ => hbmTy i
  | .local _ .vmem, ⟨0, _⟩ => ⟨S2048x6, .f32⟩
  | .local _ .vmem, ⟨1, _⟩ => ⟨S2048x6, .f32⟩
  | .local _ .vmem, ⟨2, _⟩ => ⟨S2048x10, .f32⟩
  | .local _ .vmem, ⟨3, _⟩ => ⟨S2048x10, .f32⟩
  | .local _ .vmem, ⟨4, _⟩ => ⟨S2048x15, .f32⟩
  | .local _ .vmem, ⟨5, _⟩ => ⟨S2048x15, .f32⟩
  | .local _ .vmem, ⟨6, _⟩ => ⟨S6x6, .f32⟩
  | .local _ .vmem, ⟨7, _⟩ => ⟨S10x10, .f32⟩
  | .local _ .vmem, ⟨8, _⟩ => ⟨S15x15, .f32⟩
  | .local _ .vmem, ⟨9, _⟩ => ⟨S1x6, .f32⟩
  | .local _ .vmem, ⟨10, _⟩ => ⟨S1x6, .f32⟩
  | .local _ .vmem, ⟨11, _⟩ => ⟨S1x10, .f32⟩
  | .local _ .vmem, ⟨12, _⟩ => ⟨S1x10, .f32⟩
  | .local _ .vmem, ⟨13, _⟩ => ⟨S1x15, .f32⟩
  | .local _ .vmem, ⟨14, _⟩ => ⟨S1x15, .f32⟩
  | .local _ .vmem, ⟨15, _⟩ => ⟨S1024x6, .f32⟩
  | .local _ .vmem, ⟨16, _⟩ => ⟨S1024x6, .f32⟩
  | .local _ .vmem, ⟨17, _⟩ => ⟨S1024x10, .f32⟩
  | .local _ .vmem, ⟨18, _⟩ => ⟨S1024x10, .f32⟩
  | .local _ .vmem, ⟨19, _⟩ => ⟨S1024x15, .f32⟩
  | .local _ .vmem, ⟨20, _⟩ => ⟨S1024x15, .f32⟩
  | .local _ .vmem, ⟨21, _⟩ => ⟨S6x6, .f32⟩
  | .local _ .vmem, ⟨22, _⟩ => ⟨S10x10, .f32⟩
  | .local _ .vmem, ⟨23, _⟩ => ⟨S15x15, .f32⟩
  | .local _ .vmem, ⟨24, _⟩ => ⟨S1x6, .f32⟩
  | .local _ .vmem, ⟨25, _⟩ => ⟨S1x6, .f32⟩
  | .local _ .vmem, ⟨26, _⟩ => ⟨S1x6, .f32⟩
  | .local _ .vmem, ⟨27, _⟩ => ⟨S1x6, .f32⟩
  | .local _ .vmem, ⟨28, _⟩ => ⟨S1x10, .f32⟩
  | .local _ .vmem, ⟨29, _⟩ => ⟨S1x10, .f32⟩
  | .local _ .vmem, ⟨30, _⟩ => ⟨S1x10, .f32⟩
  | .local _ .vmem, ⟨31, _⟩ => ⟨S1x10, .f32⟩
  | .local _ .vmem, ⟨32, _⟩ => ⟨S1x15, .f32⟩
  | .local _ .vmem, ⟨33, _⟩ => ⟨S1x15, .f32⟩
  | .local _ .vmem, ⟨34, _⟩ => ⟨S1x15, .f32⟩
  | .local _ .vmem, ⟨35, _⟩ => ⟨S1x15, .f32⟩
  | .local _ .vmem, ⟨36, _⟩ => ⟨S6x100, .f32⟩
  | .local _ .vmem, ⟨37, _⟩ => ⟨S10x100, .f32⟩
  | .local _ .vmem, ⟨38, _⟩ => ⟨S15x100, .f32⟩
  | .local _ .vmem, ⟨39, _⟩ => ⟨S100x100, .f32⟩
  | .local _ .vmem, ⟨40, _⟩ => ⟨S1x100, .f32⟩
  | .local _ .vmem, ⟨41, _⟩ => ⟨S1024x100, .f32⟩
  | .local _ .vmem, ⟨42, _⟩ => ⟨S1024x100, .f32⟩
  | _, _ => ⟨S131072x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_4 : Ref sig .tc := ⟨.hbm, 40, rfl⟩
abbrev main_v15 : Ref sig .tc := ⟨.hbm, 41, rfl⟩
abbrev main_v16 : Ref sig .tc := ⟨.hbm, 42, rfl⟩
abbrev main_cst_5 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_7 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_c : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_0 : Ref sig .tc := ⟨.hbm, 74, rfl⟩
abbrev main_call0_v12 : Ref sig .tc := ⟨.hbm, 75, rfl⟩
abbrev main_call0_v13 : Ref sig .tc := ⟨.hbm, 76, rfl⟩
abbrev main_v31 : Ref sig .tc := ⟨.hbm, 77, rfl⟩
abbrev main_c_8 : Ref sig .tc := ⟨.hbm, 78, rfl⟩
abbrev main_call1_v0 : Ref sig .tc := ⟨.hbm, 79, rfl⟩
abbrev main_call1_c : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_c_1 : Ref sig .tc := ⟨.hbm, 86, rfl⟩
abbrev main_call1_v5 : Ref sig .tc := ⟨.hbm, 87, rfl⟩
abbrev main_call1_v6 : Ref sig .tc := ⟨.hbm, 88, rfl⟩
abbrev main_call1_c_2 : Ref sig .tc := ⟨.hbm, 89, rfl⟩
abbrev main_call1_v7 : Ref sig .tc := ⟨.hbm, 90, rfl⟩
abbrev main_call1_v8 : Ref sig .tc := ⟨.hbm, 91, rfl⟩
abbrev main_call1_c_3 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_v12 : Ref sig .tc := ⟨.hbm, 96, rfl⟩
abbrev main_call1_v13 : Ref sig .tc := ⟨.hbm, 97, rfl⟩
abbrev main_call1_v14 : Ref sig .tc := ⟨.hbm, 98, rfl⟩
abbrev main_v32 : Ref sig .tc := ⟨.hbm, 99, rfl⟩
abbrev main_c_9 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_c : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_0 : Ref sig .tc := ⟨.hbm, 114, rfl⟩
abbrev main_call2_v12 : Ref sig .tc := ⟨.hbm, 115, rfl⟩
abbrev main_call2_v13 : Ref sig .tc := ⟨.hbm, 116, rfl⟩
abbrev main_v33 : Ref sig .tc := ⟨.hbm, 117, rfl⟩
abbrev main_c_10 : Ref sig .tc := ⟨.hbm, 118, rfl⟩
abbrev main_call3_v0 : Ref sig .tc := ⟨.hbm, 119, rfl⟩
abbrev main_call3_c : Ref sig .tc := ⟨.hbm, 120, rfl⟩
abbrev main_call3_v1 : Ref sig .tc := ⟨.hbm, 121, rfl⟩
abbrev main_call3_c_0 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_c_1 : Ref sig .tc := ⟨.hbm, 126, rfl⟩
abbrev main_call3_v5 : Ref sig .tc := ⟨.hbm, 127, rfl⟩
abbrev main_call3_v6 : Ref sig .tc := ⟨.hbm, 128, rfl⟩
abbrev main_call3_c_2 : Ref sig .tc := ⟨.hbm, 129, rfl⟩
abbrev main_call3_v7 : Ref sig .tc := ⟨.hbm, 130, rfl⟩
abbrev main_call3_v8 : Ref sig .tc := ⟨.hbm, 131, rfl⟩
abbrev main_call3_c_3 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_v12 : Ref sig .tc := ⟨.hbm, 136, rfl⟩
abbrev main_call3_v13 : Ref sig .tc := ⟨.hbm, 137, rfl⟩
abbrev main_call3_v14 : Ref sig .tc := ⟨.hbm, 138, rfl⟩
abbrev main_v34 : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_v35 : Ref sig .tc := ⟨.hbm, 145, rfl⟩
abbrev main_v36 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_v37 : Ref sig .tc := ⟨.hbm, 152, rfl⟩
abbrev main_v38 : Ref sig .tc := ⟨.hbm, 153, rfl⟩
abbrev main_call6_v0 : Ref sig .tc := ⟨.hbm, 154, rfl⟩
abbrev main_call6_v1 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_v39 : Ref sig .tc := ⟨.hbm, 159, rfl⟩
abbrev main_v40 : Ref sig .tc := ⟨.hbm, 160, rfl⟩
abbrev main_v41 : Ref sig .tc := ⟨.hbm, 161, rfl⟩
abbrev main_v42 : Ref sig .tc := ⟨.hbm, 162, rfl⟩
abbrev main_v43 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg14_0 : Ref sig .tc := ⟨.vmem, 32, rfl⟩
abbrev cc1_stg15_0 : Ref sig .tc := ⟨.vmem, 33, rfl⟩
abbrev cc1_stg16_0 : Ref sig .tc := ⟨.vmem, 34, rfl⟩
abbrev cc1_stg17_0 : Ref sig .tc := ⟨.vmem, 35, rfl⟩
abbrev cc1_stg18_0 : Ref sig .tc := ⟨.vmem, 36, rfl⟩
abbrev cc1_stg19_0 : Ref sig .tc := ⟨.vmem, 37, rfl⟩
abbrev cc1_stg20_0 : Ref sig .tc := ⟨.vmem, 38, rfl⟩
abbrev cc1_stg21_0 : Ref sig .tc := ⟨.vmem, 39, rfl⟩
abbrev cc1_stg22_0 : Ref sig .tc := ⟨.vmem, 40, rfl⟩
abbrev cc1_stg23_0 : Ref sig .tc := ⟨.vmem, 41, rfl⟩
abbrev cc1_stg23_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem14_0 : DmaSem sig := 32
abbrev cc1_sem15_0 : DmaSem sig := 33
abbrev cc1_sem16_0 : DmaSem sig := 34
abbrev cc1_sem17_0 : DmaSem sig := 35
abbrev cc1_sem18_0 : DmaSem sig := 36
abbrev cc1_sem19_0 : DmaSem sig := 37
abbrev cc1_sem20_0 : DmaSem sig := 38
abbrev cc1_sem21_0 : DmaSem sig := 39
abbrev cc1_sem22_0 : DmaSem sig := 40
abbrev cc1_sem23_0 : DmaSem sig := 41
abbrev cc1_sem23_1 : DmaSem sig := 42

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x15 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x15 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x15 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x15 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x10 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x15 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S6x6 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S10x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S15x15 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x6 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x6 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x6 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x6 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x10 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x10 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x10 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x10 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x15 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x15 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x15 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x15 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S6x100 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S10x100 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S15x100 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S100x100 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x100 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 2 → Memref sig .tc .vmem S1024x100 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]

class Facts₀ : Prop where
  inb_S1x6_S1x6_0_0 : ∀ a, (![0, 0] : Fin 2 → Nat) a + S1x6.size a ≤ S1x6.size a
  h_S1x6 : 0 < S1x6.numel
  inb_S1x10_S1x10_0_0 : ∀ a, (![0, 0] : Fin 2 → Nat) a + S1x10.size a ≤ S1x10.size a
  h_S1x10 : 0 < S1x10.numel
  inb_S1x15_S1x15_0_0 : ∀ a, (![0, 0] : Fin 2 → Nat) a + S1x15.size a ≤ S1x15.size a
  h_S1x15 : 0 < S1x15.numel
  inb_S2048x6_S2048x6_0_0 : ∀ a, (![0, 0] : Fin 2 → Nat) a + S2048x6.size a ≤ S2048x6.size a
  h_S2048x6 : 0 < S2048x6.numel
  bitsLt_bf16_f32 : FTy.bits .bf16 < FTy.bits .f32
  inb_S6x6_S6x6_0_0 : ∀ a, (![0, 0] : Fin 2 → Nat) a + S6x6.size a ≤ S6x6.size a
  h_S6x6 : 0 < S6x6.numel
  shapeCasts_S1x6_S1x6 : S1x6.ShapeCasts S1x6
  reduces_S2048x6_S6 : S2048x6.Reduces [0] S6
  shapeCasts_S6_S1x6 : S6.ShapeCasts S1x6
  inb_S2048x10_S2048x10_0_0 : ∀ a, (![0, 0] : Fin 2 → Nat) a + S2048x10.size a ≤ S2048x10.size a
  h_S2048x10 : 0 < S2048x10.numel
  inb_S10x10_S10x10_0_0 : ∀ a, (![0, 0] : Fin 2 → Nat) a + S10x10.size a ≤ S10x10.size a
  h_S10x10 : 0 < S10x10.numel
  shapeCasts_S1x10_S1x10 : S1x10.ShapeCasts S1x10
  reduces_S2048x10_S10 : S2048x10.Reduces [0] S10
  shapeCasts_S10_S1x10 : S10.ShapeCasts S1x10
  inb_S2048x15_S2048x15_0_0 : ∀ a, (![0, 0] : Fin 2 → Nat) a + S2048x15.size a ≤ S2048x15.size a
  h_S2048x15 : 0 < S2048x15.numel
  inb_S15x15_S15x15_0_0 : ∀ a, (![0, 0] : Fin 2 → Nat) a + S15x15.size a ≤ S15x15.size a
  h_S15x15 : 0 < S15x15.numel
  shapeCasts_S1x15_S1x15 : S1x15.ShapeCasts S1x15
  reduces_S2048x15_S15 : S2048x15.Reduces [0] S15
  shapeCasts_S15_S1x15 : S15.ShapeCasts S1x15
  bcast_S_S1x6 : S_.BroadcastsInDim S1x6 (![] : Fin 0 → Fin S1x6.rank)
  bcast_S_S1x10 : S_.BroadcastsInDim S1x10 (![] : Fin 0 → Fin S1x10.rank)
  bcast_S_S1x15 : S_.BroadcastsInDim S1x15 (![] : Fin 0 → Fin S1x15.rank)
  bcast_S_S100 : S_.BroadcastsInDim S100 (![] : Fin 0 → Fin S100.rank)
  bcast_S100_S100x1_0 : S100.BroadcastsInDim S100x1 (![0] : Fin 1 → Fin S100x1.rank)
  bcast_S100x1_S100x6_0_1 : S100x1.BroadcastsInDim S100x6 (![0, 1] : Fin 2 → Fin S100x6.rank)
  bcast_S1x6_S100x6_0_1 : S1x6.BroadcastsInDim S100x6 (![0, 1] : Fin 2 → Fin S100x6.rank)
  transposes_S100x6_S6x100_1_0 : S100x6.Transposes [1, 0] S6x100
  bcast_S100x1_S100x10_0_1 : S100x1.BroadcastsInDim S100x10 (![0, 1] : Fin 2 → Fin S100x10.rank)
  bcast_S1x10_S100x10_0_1 : S1x10.BroadcastsInDim S100x10 (![0, 1] : Fin 2 → Fin S100x10.rank)
  transposes_S100x10_S10x100_1_0 : S100x10.Transposes [1, 0] S10x100
  bcast_S100x1_S100x15_0_1 : S100x1.BroadcastsInDim S100x15 (![0, 1] : Fin 2 → Fin S100x15.rank)
  bcast_S1x15_S100x15_0_1 : S1x15.BroadcastsInDim S100x15 (![0, 1] : Fin 2 → Fin S100x15.rank)
  transposes_S100x15_S15x100_1_0 : S100x15.Transposes [1, 0] S15x100
  transposes_S100x100_S100x100_1_0 : S100x100.Transposes [1, 0] S100x100
  shapeCasts_S100_S1x100 : S100.ShapeCasts S1x100
  inb_S1024x6_S1024x6_0_0 : ∀ a, (![0, 0] : Fin 2 → Nat) a + S1024x6.size a ≤ S1024x6.size a
  h_S1024x6 : 0 < S1024x6.numel
  broadcasts_S1x6_S1024x6 : S1x6.Broadcasts S1024x6
  inb_S1024x10_S1024x10_0_0 : ∀ a, (![0, 0] : Fin 2 → Nat) a + S1024x10.size a ≤ S1024x10.size a
  h_S1024x10 : 0 < S1024x10.numel
  broadcasts_S1x10_S1024x10 : S1x10.Broadcasts S1024x10
  inb_S1024x15_S1024x15_0_0 : ∀ a, (![0, 0] : Fin 2 → Nat) a + S1024x15.size a ≤ S1024x15.size a
  h_S1024x15 : 0 < S1024x15.numel
  broadcasts_S1x15_S1024x15 : S1x15.Broadcasts S1024x15
  inb_S6x100_S6x100_0_0 : ∀ a, (![0, 0] : Fin 2 → Nat) a + S6x100.size a ≤ S6x100.size a
  h_S6x100 : 0 < S6x100.numel
  shapeCasts_S6x100_S6x100 : S6x100.ShapeCasts S6x100
  inb_S10x100_S10x100_0_0 : ∀ a, (![0, 0] : Fin 2 → Nat) a + S10x100.size a ≤ S10x100.size a
  h_S10x100 : 0 < S10x100.numel
  shapeCasts_S10x100_S10x100 : S10x100.ShapeCasts S10x100
  inb_S15x100_S15x100_0_0 : ∀ a, (![0, 0] : Fin 2 → Nat) a + S15x100.size a ≤ S15x100.size a
  h_S15x100 : 0 < S15x100.numel
  shapeCasts_S15x100_S15x100 : S15x100.ShapeCasts S15x100
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S1024x100 : S1x100.Broadcasts S1024x100
  inb_S1024x100_S1024x100_0_0 : ∀ a, (![0, 0] : Fin 2 → Nat) a + S1024x100.size a ≤ S1024x100.size a
  h_S1024x100 : 0 < S1024x100.numel
  dot_S2048x6_S6x6_S2048x6_1_0_0_1_n_n_wf : DotDims.WF S2048x6 S6x6 S2048x6 [1] [0] [0] [1] [] []
  dot_S2048x10_S10x10_S2048x10_1_0_0_1_n_n_wf : DotDims.WF S2048x10 S10x10 S2048x10 [1] [0] [0] [1] [] []
  dot_S2048x15_S15x15_S2048x15_1_0_0_1_n_n_wf : DotDims.WF S2048x15 S15x15 S2048x15 [1] [0] [0] [1] [] []
  dot_S1024x6_S6x6_S1024x6_1_0_0_1_n_n_wf : DotDims.WF S1024x6 S6x6 S1024x6 [1] [0] [0] [1] [] []
  dot_S1024x10_S10x10_S1024x10_1_0_0_1_n_n_wf : DotDims.WF S1024x10 S10x10 S1024x10 [1] [0] [0] [1] [] []
  dot_S1024x15_S15x15_S1024x15_1_0_0_1_n_n_wf : DotDims.WF S1024x15 S15x15 S1024x15 [1] [0] [0] [1] [] []
  dot_S1024x6_S6x100_S1024x100_1_0_0_1_n_n_wf : DotDims.WF S1024x6 S6x100 S1024x100 [1] [0] [0] [1] [] []
  dot_S1024x10_S10x100_S1024x100_1_0_0_1_n_n_wf : DotDims.WF S1024x10 S10x100 S1024x100 [1] [0] [0] [1] [] []
  dot_S1024x15_S15x100_S1024x100_1_0_0_1_n_n_wf : DotDims.WF S1024x15 S15x100 S1024x100 [1] [0] [0] [1] [] []
  dot_S1024x100_S100x100_S1024x100_1_0_0_1_n_n_wf : DotDims.WF S1024x100 S100x100 S1024x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x6.size a ≤ S131072x6.size a
  hwx0_0 : ∀ i : grid0.Coords, EltTy.bits .f32 = 32 ∨ (Rect.block (s := S131072x6) S2048x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x10.size a ≤ S131072x10.size a
  hwx0_1 : ∀ i : grid0.Coords, EltTy.bits .f32 = 32 ∨ (Rect.block (s := S131072x10) S2048x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x15.size a ≤ S131072x15.size a
  hwx0_2 : ∀ i : grid0.Coords, EltTy.bits .f32 = 32 ∨ (Rect.block (s := S131072x15) S2048x15.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x6.size a ≤ S6x6.size a
  hwx0_3 : ∀ i : grid0.Coords, EltTy.bits .f32 = 32 ∨ (Rect.block (s := S6x6) S6x6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x10.size a ≤ S10x10.size a
  hwx0_4 : ∀ i : grid0.Coords, EltTy.bits .f32 = 32 ∨ (Rect.block (s := S10x10) S10x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x15.size a ≤ S15x15.size a
  hwx0_5 : ∀ i : grid0.Coords, EltTy.bits .f32 = 32 ∨ (Rect.block (s := S15x15) S15x15.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x6.size a ≤ S1x6.size a
  hwx0_6 : ∀ i : grid0.Coords, EltTy.bits .f32 = 32 ∨ (Rect.block (s := S1x6) S1x6.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x6.size a ≤ S1x6.size a
  hwx0_7 : ∀ i : grid0.Coords, EltTy.bits .f32 = 32 ∨ (Rect.block (s := S1x6) S1x6.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x10.size a ≤ S1x10.size a
  hwx0_9 : ∀ i : grid0.Coords, EltTy.bits .f32 = 32 ∨ (Rect.block (s := S1x10) S1x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x15.size a ≤ S1x15.size a
  hwx0_10 : ∀ i : grid0.Coords, EltTy.bits .f32 = 32 ∨ (Rect.block (s := S1x15) S1x15.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x15.size a ≤ S1x15.size a
  hwx0_11 : ∀ i : grid0.Coords, EltTy.bits .f32 = 32 ∨ (Rect.block (s := S1x15) S1x15.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x6.size a ≤ S131072x6.size a
  hwx1_0 : ∀ i : grid1.Coords, EltTy.bits .f32 = 32 ∨ (Rect.block (s := S131072x6) S1024x6.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x10.size a ≤ S131072x10.size a
  hwx1_1 : ∀ i : grid1.Coords, EltTy.bits .f32 = 32 ∨ (Rect.block (s := S131072x10) S1024x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x15.size a ≤ S131072x15.size a
  hwx1_2 : ∀ i : grid1.Coords, EltTy.bits .f32 = 32 ∨ (Rect.block (s := S131072x15) S1024x15.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6x6.size a ≤ S6x6.size a
  hwx1_3 : ∀ i : grid1.Coords, EltTy.bits .f32 = 32 ∨ (Rect.block (s := S6x6) S6x6.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S10x10.size a ≤ S10x10.size a
  hwx1_4 : ∀ i : grid1.Coords, EltTy.bits .f32 = 32 ∨ (Rect.block (s := S10x10) S10x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S15x15.size a ≤ S15x15.size a
  hwx1_5 : ∀ i : grid1.Coords, EltTy.bits .f32 = 32 ∨ (Rect.block (s := S15x15) S15x15.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x6.size a ≤ S1x6.size a
  hwx1_6 : ∀ i : grid1.Coords, EltTy.bits .f32 = 32 ∨ (Rect.block (s := S1x6) S1x6.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x6.size a ≤ S1x6.size a
  hwx1_7 : ∀ i : grid1.Coords, EltTy.bits .f32 = 32 ∨ (Rect.block (s := S1x6) S1x6.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x6.size a ≤ S1x6.size a
  hwx1_8 : ∀ i : grid1.Coords, EltTy.bits .f32 = 32 ∨ (Rect.block (s := S1x6) S1x6.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x6.size a ≤ S1x6.size a
  hwx1_9 : ∀ i : grid1.Coords, EltTy.bits .f32 = 32 ∨ (Rect.block (s := S1x6) S1x6.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x10.size a ≤ S1x10.size a
  hwx1_10 : ∀ i : grid1.Coords, EltTy.bits .f32 = 32 ∨ (Rect.block (s := S1x10) S1x10.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x10.size a ≤ S1x10.size a
  hwx1_11 : ∀ i : grid1.Coords, EltTy.bits .f32 = 32 ∨ (Rect.block (s := S1x10) S1x10.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x10.size a ≤ S1x10.size a
  hwx1_12 : ∀ i : grid1.Coords, EltTy.bits .f32 = 32 ∨ (Rect.block (s := S1x10) S1x10.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x10.size a ≤ S1x10.size a
  hwx1_13 : ∀ i : grid1.Coords, EltTy.bits .f32 = 32 ∨ (Rect.block (s := S1x10) S1x10.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x15.size a ≤ S1x15.size a
  hwx1_14 : ∀ i : grid1.Coords, EltTy.bits .f32 = 32 ∨ (Rect.block (s := S1x15) S1x15.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x15.size a ≤ S1x15.size a
  hwx1_15 : ∀ i : grid1.Coords, EltTy.bits .f32 = 32 ∨ (Rect.block (s := S1x15) S1x15.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x15.size a ≤ S1x15.size a
  hwx1_16 : ∀ i : grid1.Coords, EltTy.bits .f32 = 32 ∨ (Rect.block (s := S1x15) S1x15.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x15.size a ≤ S1x15.size a
  hwx1_17 : ∀ i : grid1.Coords, EltTy.bits .f32 = 32 ∨ (Rect.block (s := S1x15) S1x15.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S6x100.size a ≤ S6x100.size a
  hwx1_18 : ∀ i : grid1.Coords, EltTy.bits .f32 = 32 ∨ (Rect.block (s := S6x100) S6x100.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S10x100.size a ≤ S10x100.size a
  hwx1_19 : ∀ i : grid1.Coords, EltTy.bits .f32 = 32 ∨ (Rect.block (s := S10x100) S10x100.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S15x100.size a ≤ S15x100.size a
  hwx1_20 : ∀ i : grid1.Coords, EltTy.bits .f32 = 32 ∨ (Rect.block (s := S15x100) S15x100.size (cc1_transform_20 i) (hinb1_20 i)).WholeWords (EltTy.packing .f32)
  hstage1_21 : ∀ j, (stage1_21 j).IsWhole
  nbuf1_21 : grid1.bufCount reads1_21 true = 1
  hreads1_21 : ∀ i i' : grid1.Coords, (∀ a, reads1_21 a = true → i a = i' a) → cc1_transform_21 i = cc1_transform_21 i'
  hinb1_21 : ∀ (i : grid1.Coords) a, (cc1_transform_21 i a + 1) * S100x100.size a ≤ S100x100.size a
  hwx1_21 : ∀ i : grid1.Coords, EltTy.bits .f32 = 32 ∨ (Rect.block (s := S100x100) S100x100.size (cc1_transform_21 i) (hinb1_21 i)).WholeWords (EltTy.packing .f32)
  hstage1_22 : ∀ j, (stage1_22 j).IsWhole
  nbuf1_22 : grid1.bufCount reads1_22 true = 1
  hreads1_22 : ∀ i i' : grid1.Coords, (∀ a, reads1_22 a = true → i a = i' a) → cc1_transform_22 i = cc1_transform_22 i'
  hinb1_22 : ∀ (i : grid1.Coords) a, (cc1_transform_22 i a + 1) * S1x100.size a ≤ S1x100.size a
  hwx1_22 : ∀ i : grid1.Coords, EltTy.bits .f32 = 32 ∨ (Rect.block (s := S1x100) S1x100.size (cc1_transform_22 i) (hinb1_22 i)).WholeWords (EltTy.packing .f32)
  hstage1_23 : ∀ j, (stage1_23 j).IsWhole
  nbuf1_23 : grid1.bufCount reads1_23 false = 2
  hreads1_23 : ∀ i i' : grid1.Coords, (∀ a, reads1_23 a = true → i a = i' a) → cc1_transform_23 i = cc1_transform_23 i'
  hinb1_23 : ∀ (i : grid1.Coords) a, (cc1_transform_23 i a + 1) * S1024x100.size a ≤ S131072x100.size a
  hwx1_23 : ∀ i : grid1.Coords, EltTy.bits .f32 = 32 ∨ (Rect.block (s := S131072x100) S1024x100.size (cc1_transform_23 i) (hinb1_23 i)).WholeWords (EltTy.packing .f32)

variable [Facts₀]

def dot_S2048x6_S6x6_S2048x6_1_0_0_1_n_n : DotDims S2048x6 S6x6 S2048x6 where
  lhsContracting := [1]
  rhsContracting := [0]
  lhsNonContracting := [0]
  rhsNonContracting := [1]
  lhsBatch := []
  rhsBatch := []
  wf := dot_S2048x6_S6x6_S2048x6_1_0_0_1_n_n_wf
def dot_S2048x10_S10x10_S2048x10_1_0_0_1_n_n : DotDims S2048x10 S10x10 S2048x10 where
  lhsContracting := [1]
  rhsContracting := [0]
  lhsNonContracting := [0]
  rhsNonContracting := [1]
  lhsBatch := []
  rhsBatch := []
  wf := dot_S2048x10_S10x10_S2048x10_1_0_0_1_n_n_wf
def dot_S2048x15_S15x15_S2048x15_1_0_0_1_n_n : DotDims S2048x15 S15x15 S2048x15 where
  lhsContracting := [1]
  rhsContracting := [0]
  lhsNonContracting := [0]
  rhsNonContracting := [1]
  lhsBatch := []
  rhsBatch := []
  wf := dot_S2048x15_S15x15_S2048x15_1_0_0_1_n_n_wf
def dot_S1024x6_S6x6_S1024x6_1_0_0_1_n_n : DotDims S1024x6 S6x6 S1024x6 where
  lhsContracting := [1]
  rhsContracting := [0]
  lhsNonContracting := [0]
  rhsNonContracting := [1]
  lhsBatch := []
  rhsBatch := []
  wf := dot_S1024x6_S6x6_S1024x6_1_0_0_1_n_n_wf
def dot_S1024x10_S10x10_S1024x10_1_0_0_1_n_n : DotDims S1024x10 S10x10 S1024x10 where
  lhsContracting := [1]
  rhsContracting := [0]
  lhsNonContracting := [0]
  rhsNonContracting := [1]
  lhsBatch := []
  rhsBatch := []
  wf := dot_S1024x10_S10x10_S1024x10_1_0_0_1_n_n_wf
def dot_S1024x15_S15x15_S1024x15_1_0_0_1_n_n : DotDims S1024x15 S15x15 S1024x15 where
  lhsContracting := [1]
  rhsContracting := [0]
  lhsNonContracting := [0]
  rhsNonContracting := [1]
  lhsBatch := []
  rhsBatch := []
  wf := dot_S1024x15_S15x15_S1024x15_1_0_0_1_n_n_wf
def dot_S1024x6_S6x100_S1024x100_1_0_0_1_n_n : DotDims S1024x6 S6x100 S1024x100 where
  lhsContracting := [1]
  rhsContracting := [0]
  lhsNonContracting := [0]
  rhsNonContracting := [1]
  lhsBatch := []
  rhsBatch := []
  wf := dot_S1024x6_S6x100_S1024x100_1_0_0_1_n_n_wf
def dot_S1024x10_S10x100_S1024x100_1_0_0_1_n_n : DotDims S1024x10 S10x100 S1024x100 where
  lhsContracting := [1]
  rhsContracting := [0]
  lhsNonContracting := [0]
  rhsNonContracting := [1]
  lhsBatch := []
  rhsBatch := []
  wf := dot_S1024x10_S10x100_S1024x100_1_0_0_1_n_n_wf
def dot_S1024x15_S15x100_S1024x100_1_0_0_1_n_n : DotDims S1024x15 S15x100 S1024x100 where
  lhsContracting := [1]
  rhsContracting := [0]
  lhsNonContracting := [0]
  rhsNonContracting := [1]
  lhsBatch := []
  rhsBatch := []
  wf := dot_S1024x15_S15x100_S1024x100_1_0_0_1_n_n_wf
def dot_S1024x100_S100x100_S1024x100_1_0_0_1_n_n : DotDims S1024x100 S100x100 S1024x100 where
  lhsContracting := [1]
  rhsContracting := [0]
  lhsNonContracting := [0]
  rhsNonContracting := [1]
  lhsBatch := []
  rhsBatch := []
  wf := dot_S1024x100_S100x100_S1024x100_1_0_0_1_n_n_wf

abbrev win0_0 : Pipeline.Window sig grid0 :=
  Pipeline.Window.ofSpec (Memref.whole main_arg0) S2048x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x15.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S15x15.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x6.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x6.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S1x10.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_3) S1x10.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_4) S1x15.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_5) S1x15.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S1024x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x10.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x15.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S6x6.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S10x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S15x15.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x6.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S1x6.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v25) S1x6.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S1x6.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v10) S1x10.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v16) S1x10.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v27) S1x10.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v28) S1x10.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v18) S1x15.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v24) S1x15.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v29) S1x15.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v30) S1x15.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v36) S6x100.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v38) S10x100.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v40) S15x100.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_v41) S100x100.size cc1_transform_21 reads1_21 false true 1 stage1_21 sem1_21
    hrank1 hreads1_21 hinb1_21 nbuf1_21 (Memref.isWhole_whole _) hwx1_21 hstage1_21

abbrev win1_22 : Pipeline.Window sig grid1 :=
  Pipeline.Window.ofSpec (Memref.whole main_v42) S1x100.size cc1_transform_22 reads1_22 false true 1 stage1_22 sem1_22
    hrank1 hreads1_22 hinb1_22 nbuf1_22 (Memref.isWhole_whole _) hwx1_22 hstage1_22

abbrev win1_23 : Pipeline.Window sig grid1 :=
  Pipeline.Window.ofSpec (Memref.whole main_v43) S1024x100.size cc1_transform_23 reads1_23 true false 2 stage1_23 sem1_23
    hrank1 hreads1_23 hinb1_23 nbuf1_23 (Memref.isWhole_whole _) hwx1_23 hstage1_23

abbrev win1 : Fin 24 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | ⟨_ + 24, h⟩ => absurd h (Nat.not_lt.2 (Nat.le_add_left _ _))
abbrev spec1 : Fin 24 → Pipeline.WinSpec sig grid1.rank := fun w => (win1 w).toWinSpec

class Facts : Prop extends Facts₀ where

variable [Facts]
-- ==== ReferenceIdeal.lean ====
abbrev S131072x6 : Shape := ⟨2, ![131072, 6]⟩
abbrev S131072x10 : Shape := ⟨2, ![131072, 10]⟩
abbrev S131072x15 : Shape := ⟨2, ![131072, 15]⟩
abbrev S6x6 : Shape := ⟨2, ![6, 6]⟩
abbrev S10x10 : Shape := ⟨2, ![10, 10]⟩
abbrev S15x15 : Shape := ⟨2, ![15, 15]⟩
abbrev S6 : Shape := ⟨1, ![6]⟩
abbrev S10 : Shape := ⟨1, ![10]⟩
abbrev S15 : Shape := ⟨1, ![15]⟩
abbrev S100x100 : Shape := ⟨2, ![100, 100]⟩
abbrev S100 : Shape := ⟨1, ![100]⟩
abbrev S_ : Shape := ⟨0, ![]⟩
abbrev S1x6 : Shape := ⟨2, ![1, 6]⟩
abbrev S1x10 : Shape := ⟨2, ![1, 10]⟩
abbrev S1x15 : Shape := ⟨2, ![1, 15]⟩
abbrev S100x1 : Shape := ⟨2, ![100, 1]⟩
abbrev S131072x100 : Shape := ⟨2, ![131072, 100]⟩
abbrev S1x100 : Shape := ⟨2, ![1, 100]⟩

abbrev nBuf : Space → Nat
  | .hbm => 309
  | .vmem => 0
  | .smem => 0
  | _ => 0

abbrev hbmTy0_0 (i : Nat) : BufTy := match i % 128 with
  | 0 => ⟨S131072x6, .f32⟩
  | 1 => ⟨S131072x10, .f32⟩
  | 2 => ⟨S131072x15, .f32⟩
  | 3 => ⟨S6x6, .f32⟩
  | 4 => ⟨S10x10, .f32⟩
  | 5 => ⟨S15x15, .f32⟩
  | 6 => ⟨S6, .f32⟩
  | 7 => ⟨S6, .f32⟩
  | 8 => ⟨S10, .f32⟩
  | 9 => ⟨S10, .f32⟩
  | 10 => ⟨S15, .f32⟩
  | 11 => ⟨S15, .f32⟩
  | 12 => ⟨S100x100, .f32⟩
  | 13 => ⟨S100, .f32⟩
  | 14 => ⟨S100, .i32⟩
  | 15 => ⟨S131072x6, .f32⟩
  | 16 => ⟨S_, .f32⟩
  | 17 => ⟨S6, .f32⟩
  | 18 => ⟨S_, .f32⟩
  | 19 => ⟨S6, .f32⟩
  | 20 => ⟨S6, .f32⟩
  | 21 => ⟨S_, .i32⟩
  | 22 => ⟨S_, .f32⟩
  | 23 => ⟨S6, .f32⟩
  | 24 => ⟨S1x6, .f32⟩
  | 25 => ⟨S_, .f32⟩
  | 26 => ⟨S1x6, .f32⟩
  | 27 => ⟨S1x6, .f32⟩
  | 28 => ⟨S131072x6, .f32⟩
  | 29 => ⟨S131072x6, .f32⟩
  | 30 => ⟨S131072x6, .f32⟩
  | 31 => ⟨S_, .f32⟩
  | 32 => ⟨S_, .f32⟩
  | 33 => ⟨S_, .f32⟩
  | 34 => ⟨S_, .f32⟩
  | 35 => ⟨S6, .f32⟩
  | 36 => ⟨S6, .f32⟩
  | 37 => ⟨S6, .f32⟩
  | 38 => ⟨S_, .f32⟩
  | 39 => ⟨S_, .i1⟩
  | 40 => ⟨S_, .f32⟩
  | 41 => ⟨S_, .f32⟩
  | 42 => ⟨S6, .f32⟩
  | 43 => ⟨S6, .f32⟩
  | 44 => ⟨S1x6, .f32⟩
  | 45 => ⟨S131072x6, .f32⟩
  | 46 => ⟨S131072x6, .f32⟩
  | 47 => ⟨S_, .f32⟩
  | 48 => ⟨S6, .f32⟩
  | 49 => ⟨S6, .f32⟩
  | 50 => ⟨S6, .f32⟩
  | 51 => ⟨S1x6, .f32⟩
  | 52 => ⟨S131072x6, .f32⟩
  | 53 => ⟨S131072x6, .f32⟩
  | 54 => ⟨S1x6, .f32⟩
  | 55 => ⟨S131072x6, .f32⟩
  | 56 => ⟨S131072x6, .f32⟩
  | 57 => ⟨S1x6, .f32⟩
  | 58 => ⟨S131072x6, .f32⟩
  | 59 => ⟨S131072x6, .f32⟩
  | 60 => ⟨S_, .f32⟩
  | 61 => ⟨S131072x6, .f32⟩
  | 62 => ⟨S131072x6, .i1⟩
  | 63 => ⟨S_, .f32⟩
  | 64 => ⟨S131072x6, .f32⟩
  | 65 => ⟨S131072x6, .i1⟩
  | 66 => ⟨S_, .f32⟩
  | 67 => ⟨S_, .f32⟩
  | 68 => ⟨S131072x6, .f32⟩
  | 69 => ⟨S131072x6, .f32⟩
  | 70 => ⟨S131072x6, .f32⟩
  | 71 => ⟨S_, .f32⟩
  | 72 => ⟨S131072x6, .f32⟩
  | 73 => ⟨S131072x6, .f32⟩
  | 74 => ⟨S131072x6, .f32⟩
  | 75 => ⟨S131072x10, .f32⟩
  | 76 => ⟨S_, .f32⟩
  | 77 => ⟨S10, .f32⟩
  | 78 => ⟨S_, .f32⟩
  | 79 => ⟨S10, .f32⟩
  | 80 => ⟨S10, .f32⟩
  | 81 => ⟨S_, .i32⟩
  | 82 => ⟨S_, .f32⟩
  | 83 => ⟨S10, .f32⟩
  | 84 => ⟨S1x10, .f32⟩
  | 85 => ⟨S_, .f32⟩
  | 86 => ⟨S1x10, .f32⟩
  | 87 => ⟨S1x10, .f32⟩
  | 88 => ⟨S131072x10, .f32⟩
  | 89 => ⟨S131072x10, .f32⟩
  | 90 => ⟨S131072x10, .f32⟩
  | 91 => ⟨S_, .f32⟩
  | 92 => ⟨S_, .f32⟩
  | 93 => ⟨S_, .f32⟩
  | 94 => ⟨S_, .f32⟩
  | 95 => ⟨S10, .f32⟩
  | 96 => ⟨S10, .f32⟩
  | 97 => ⟨S10, .f32⟩
  | 98 => ⟨S_, .f32⟩
  | 99 => ⟨S_, .i1⟩
  | 100 => ⟨S_, .f32⟩
  | 101 => ⟨S_, .f32⟩
  | 102 => ⟨S10, .f32⟩
  | 103 => ⟨S10, .f32⟩
  | 104 => ⟨S1x10, .f32⟩
  | 105 => ⟨S131072x10, .f32⟩
  | 106 => ⟨S131072x10, .f32⟩
  | 107 => ⟨S_, .f32⟩
  | 108 => ⟨S10, .f32⟩
  | 109 => ⟨S10, .f32⟩
  | 110 => ⟨S10, .f32⟩
  | 111 => ⟨S1x10, .f32⟩
  | 112 => ⟨S131072x10, .f32⟩
  | 113 => ⟨S131072x10, .f32⟩
  | 114 => ⟨S1x10, .f32⟩
  | 115 => ⟨S131072x10, .f32⟩
  | 116 => ⟨S131072x10, .f32⟩
  | 117 => ⟨S1x10, .f32⟩
  | 118 => ⟨S131072x10, .f32⟩
  | 119 => ⟨S131072x10, .f32⟩
  | 120 => ⟨S_, .f32⟩
  | 121 => ⟨S131072x10, .f32⟩
  | 122 => ⟨S131072x10, .i1⟩
  | 123 => ⟨S_, .f32⟩
  | 124 => ⟨S131072x10, .f32⟩
  | 125 => ⟨S131072x10, .i1⟩
  | 126 => ⟨S_, .f32⟩
  | 127 => ⟨S_, .f32⟩
  | _ => ⟨S131072x6, .f32⟩

abbrev hbmTy0_1 (i : Nat) : BufTy := match i % 128 with
  | 0 => ⟨S131072x10, .f32⟩
  | 1 => ⟨S131072x10, .f32⟩
  | 2 => ⟨S131072x10, .f32⟩
  | 3 => ⟨S_, .f32⟩
  | 4 => ⟨S131072x10, .f32⟩
  | 5 => ⟨S131072x10, .f32⟩
  | 6 => ⟨S131072x10, .f32⟩
  | 7 => ⟨S131072x15, .f32⟩
  | 8 => ⟨S_, .f32⟩
  | 9 => ⟨S15, .f32⟩
  | 10 => ⟨S_, .f32⟩
  | 11 => ⟨S15, .f32⟩
  | 12 => ⟨S15, .f32⟩
  | 13 => ⟨S_, .i32⟩
  | 14 => ⟨S_, .f32⟩
  | 15 => ⟨S15, .f32⟩
  | 16 => ⟨S1x15, .f32⟩
  | 17 => ⟨S_, .f32⟩
  | 18 => ⟨S1x15, .f32⟩
  | 19 => ⟨S1x15, .f32⟩
  | 20 => ⟨S131072x15, .f32⟩
  | 21 => ⟨S131072x15, .f32⟩
  | 22 => ⟨S131072x15, .f32⟩
  | 23 => ⟨S_, .f32⟩
  | 24 => ⟨S_, .f32⟩
  | 25 => ⟨S_, .f32⟩
  | 26 => ⟨S_, .f32⟩
  | 27 => ⟨S15, .f32⟩
  | 28 => ⟨S15, .f32⟩
  | 29 => ⟨S15, .f32⟩
  | 30 => ⟨S_, .f32⟩
  | 31 => ⟨S_, .i1⟩
  | 32 => ⟨S_, .f32⟩
  | 33 => ⟨S_, .f32⟩
  | 34 => ⟨S15, .f32⟩
  | 35 => ⟨S15, .f32⟩
  | 36 => ⟨S1x15, .f32⟩
  | 37 => ⟨S131072x15, .f32⟩
  | 38 => ⟨S131072x15, .f32⟩
  | 39 => ⟨S_, .f32⟩
  | 40 => ⟨S15, .f32⟩
  | 41 => ⟨S15, .f32⟩
  | 42 => ⟨S15, .f32⟩
  | 43 => ⟨S1x15, .f32⟩
  | 44 => ⟨S131072x15, .f32⟩
  | 45 => ⟨S131072x15, .f32⟩
  | 46 => ⟨S1x15, .f32⟩
  | 47 => ⟨S131072x15, .f32⟩
  | 48 => ⟨S131072x15, .f32⟩
  | 49 => ⟨S1x15, .f32⟩
  | 50 => ⟨S131072x15, .f32⟩
  | 51 => ⟨S131072x15, .f32⟩
  | 52 => ⟨S_, .f32⟩
  | 53 => ⟨S131072x15, .f32⟩
  | 54 => ⟨S131072x15, .i1⟩
  | 55 => ⟨S_, .f32⟩
  | 56 => ⟨S131072x15, .f32⟩
  | 57 => ⟨S131072x15, .i1⟩
  | 58 => ⟨S_, .f32⟩
  | 59 => ⟨S_, .f32⟩
  | 60 => ⟨S131072x15, .f32⟩
  | 61 => ⟨S131072x15, .f32⟩
  | 62 => ⟨S131072x15, .f32⟩
  | 63 => ⟨S_, .f32⟩
  | 64 => ⟨S131072x15, .f32⟩
  | 65 => ⟨S131072x15, .f32⟩
  | 66 => ⟨S131072x15, .f32⟩
  | 67 => ⟨S_, .i32⟩
  | 68 => ⟨S_, .i32⟩
  | 69 => ⟨S100, .i32⟩
  | 70 => ⟨S100, .i32⟩
  | 71 => ⟨S100, .i32⟩
  | 72 => ⟨S_, .i32⟩
  | 73 => ⟨S100, .i32⟩
  | 74 => ⟨S100, .i1⟩
  | 75 => ⟨S100, .i32⟩
  | 76 => ⟨S100, .i32⟩
  | 77 => ⟨S_, .i32⟩
  | 78 => ⟨S100, .i32⟩
  | 79 => ⟨S100, .i1⟩
  | 80 => ⟨S100, .i1⟩
  | 81 => ⟨S_, .i32⟩
  | 82 => ⟨S100, .i32⟩
  | 83 => ⟨S100, .i32⟩
  | 84 => ⟨S100, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S100, .i32⟩
  | 92 => ⟨S100, .i32⟩
  | 93 => ⟨S_, .i32⟩
  | 94 => ⟨S100, .i32⟩
  | 95 => ⟨S100, .i1⟩
  | 96 => ⟨S_, .i32⟩
  | 97 => ⟨S100, .i32⟩
  | 98 => ⟨S100, .i1⟩
  | 99 => ⟨S_, .i32⟩
  | 100 => ⟨S_, .i1⟩
  | 101 => ⟨S100, .i1⟩
  | 102 => ⟨S100, .i1⟩
  | 103 => ⟨S100, .i1⟩
  | 104 => ⟨S100, .i32⟩
  | 105 => ⟨S100, .i32⟩
  | 106 => ⟨S100, .i32⟩
  | 107 => ⟨S_, .i32⟩
  | 108 => ⟨S_, .i32⟩
  | 109 => ⟨S100, .i32⟩
  | 110 => ⟨S100, .i32⟩
  | 111 => ⟨S100, .i32⟩
  | 112 => ⟨S_, .i32⟩
  | 113 => ⟨S100, .i32⟩
  | 114 => ⟨S100, .i1⟩
  | 115 => ⟨S100, .i32⟩
  | 116 => ⟨S100, .i32⟩
  | 117 => ⟨S_, .i32⟩
  | 118 => ⟨S100, .i32⟩
  | 119 => ⟨S100, .i1⟩
  | 120 => ⟨S100, .i1⟩
  | 121 => ⟨S_, .i32⟩
  | 122 => ⟨S100, .i32⟩
  | 123 => ⟨S100, .i32⟩
  | 124 => ⟨S100, .i32⟩
  | 125 => ⟨S_, .i32⟩
  | 126 => ⟨S_, .i32⟩
  | 127 => ⟨S_, .i32⟩
  | _ => ⟨S131072x6, .f32⟩

abbrev hbmTy0_2 (i : Nat) : BufTy := match i % 128 with
  | 0 => ⟨S_, .i1⟩
  | 1 => ⟨S_, .i32⟩
  | 2 => ⟨S_, .i32⟩
  | 3 => ⟨S100, .i32⟩
  | 4 => ⟨S100, .i32⟩
  | 5 => ⟨S_, .i32⟩
  | 6 => ⟨S100, .i32⟩
  | 7 => ⟨S100, .i1⟩
  | 8 => ⟨S_, .i32⟩
  | 9 => ⟨S100, .i32⟩
  | 10 => ⟨S100, .i1⟩
  | 11 => ⟨S_, .i32⟩
  | 12 => ⟨S_, .i1⟩
  | 13 => ⟨S100, .i1⟩
  | 14 => ⟨S100, .i1⟩
  | 15 => ⟨S100, .i1⟩
  | 16 => ⟨S100, .i32⟩
  | 17 => ⟨S100, .i32⟩
  | 18 => ⟨S100, .i32⟩
  | 19 => ⟨S_, .i32⟩
  | 20 => ⟨S100, .i32⟩
  | 21 => ⟨S100, .i1⟩
  | 22 => ⟨S_, .i32⟩
  | 23 => ⟨S100, .i32⟩
  | 24 => ⟨S100, .i32⟩
  | 25 => ⟨S100, .i32⟩
  | 26 => ⟨S100x1, .i32⟩
  | 27 => ⟨S131072x100, .f32⟩
  | 28 => ⟨S_, .i32⟩
  | 29 => ⟨S100, .i32⟩
  | 30 => ⟨S100, .i1⟩
  | 31 => ⟨S_, .i32⟩
  | 32 => ⟨S100, .i32⟩
  | 33 => ⟨S100, .i32⟩
  | 34 => ⟨S100, .i32⟩
  | 35 => ⟨S100x1, .i32⟩
  | 36 => ⟨S131072x100, .f32⟩
  | 37 => ⟨S131072x100, .f32⟩
  | 38 => ⟨S_, .i32⟩
  | 39 => ⟨S100, .i32⟩
  | 40 => ⟨S100, .i1⟩
  | 41 => ⟨S_, .i32⟩
  | 42 => ⟨S100, .i32⟩
  | 43 => ⟨S100, .i32⟩
  | 44 => ⟨S100, .i32⟩
  | 45 => ⟨S100x1, .i32⟩
  | 46 => ⟨S131072x100, .f32⟩
  | 47 => ⟨S131072x100, .f32⟩
  | 48 => ⟨S100x100, .f32⟩
  | 49 => ⟨S131072x100, .f32⟩
  | 50 => ⟨S1x100, .f32⟩
  | 51 => ⟨S131072x100, .f32⟩
  | 52 => ⟨S131072x100, .f32⟩
  | _ => ⟨S131072x6, .f32⟩

abbrev hbmTy (i : Nat) : BufTy := match i / 128 with
  | 0 => hbmTy0_0 i
  | 1 => hbmTy0_1 i
  | 2 => hbmTy0_2 i
  | _ => ⟨S131072x6, .f32⟩

abbrev bufTy : (tb : Table) → Fin (tcTables nBuf tb) → BufTy
  | .hbm, ⟨i, _⟩ => hbmTy i
  | _, _ => ⟨S131072x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst_3 : Ref sig .tc := ⟨.hbm, 38, rfl⟩
abbrev main_call0_v12 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_1 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_cst_0 : Ref sig .tc := ⟨.hbm, 63, rfl⟩
abbrev main_call1_v2 : Ref sig .tc := ⟨.hbm, 64, rfl⟩
abbrev main_call1_v3 : Ref sig .tc := ⟨.hbm, 65, rfl⟩
abbrev main_call1_cst_1 : Ref sig .tc := ⟨.hbm, 66, rfl⟩
abbrev main_call1_call0_v0 : Ref sig .tc := ⟨.hbm, 67, rfl⟩
abbrev main_call1_call0_v1 : Ref sig .tc := ⟨.hbm, 68, rfl⟩
abbrev main_call1_v4 : Ref sig .tc := ⟨.hbm, 69, rfl⟩
abbrev main_call1_v5 : Ref sig .tc := ⟨.hbm, 70, rfl⟩
abbrev main_call1_cst_2 : Ref sig .tc := ⟨.hbm, 71, rfl⟩
abbrev main_call1_v6 : Ref sig .tc := ⟨.hbm, 72, rfl⟩
abbrev main_call1_v7 : Ref sig .tc := ⟨.hbm, 73, rfl⟩
abbrev main_v20 : Ref sig .tc := ⟨.hbm, 74, rfl⟩
abbrev main_v21 : Ref sig .tc := ⟨.hbm, 75, rfl⟩
abbrev main_cst_2 : Ref sig .tc := ⟨.hbm, 76, rfl⟩
abbrev main_v22 : Ref sig .tc := ⟨.hbm, 77, rfl⟩
abbrev main_cst_3 : Ref sig .tc := ⟨.hbm, 78, rfl⟩
abbrev main_v23 : Ref sig .tc := ⟨.hbm, 79, rfl⟩
abbrev main_v24 : Ref sig .tc := ⟨.hbm, 80, rfl⟩
abbrev main_c_4 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_cst_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_cst_1 : Ref sig .tc := ⟨.hbm, 92, rfl⟩
abbrev main_call2_v8 : Ref sig .tc := ⟨.hbm, 93, rfl⟩
abbrev main_call2_cst_2 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_cst_3 : Ref sig .tc := ⟨.hbm, 98, rfl⟩
abbrev main_call2_v12 : Ref sig .tc := ⟨.hbm, 99, rfl⟩
abbrev main_call2_cst_4 : Ref sig .tc := ⟨.hbm, 100, rfl⟩
abbrev main_call2_call0_v0 : Ref sig .tc := ⟨.hbm, 101, rfl⟩
abbrev main_call2_call0_v1 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_cst_5 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_call3_cst : Ref sig .tc := ⟨.hbm, 120, rfl⟩
abbrev main_call3_v0 : Ref sig .tc := ⟨.hbm, 121, rfl⟩
abbrev main_call3_v1 : Ref sig .tc := ⟨.hbm, 122, rfl⟩
abbrev main_call3_cst_0 : Ref sig .tc := ⟨.hbm, 123, rfl⟩
abbrev main_call3_v2 : Ref sig .tc := ⟨.hbm, 124, rfl⟩
abbrev main_call3_v3 : Ref sig .tc := ⟨.hbm, 125, rfl⟩
abbrev main_call3_cst_1 : Ref sig .tc := ⟨.hbm, 126, rfl⟩
abbrev main_call3_call0_v0 : Ref sig .tc := ⟨.hbm, 127, rfl⟩
abbrev main_call3_call0_v1 : Ref sig .tc := ⟨.hbm, 128, rfl⟩
abbrev main_call3_v4 : Ref sig .tc := ⟨.hbm, 129, rfl⟩
abbrev main_call3_v5 : Ref sig .tc := ⟨.hbm, 130, rfl⟩
abbrev main_call3_cst_2 : Ref sig .tc := ⟨.hbm, 131, rfl⟩
abbrev main_call3_v6 : Ref sig .tc := ⟨.hbm, 132, rfl⟩
abbrev main_call3_v7 : Ref sig .tc := ⟨.hbm, 133, rfl⟩
abbrev main_v41 : Ref sig .tc := ⟨.hbm, 134, rfl⟩
abbrev main_v42 : Ref sig .tc := ⟨.hbm, 135, rfl⟩
abbrev main_cst_6 : Ref sig .tc := ⟨.hbm, 136, rfl⟩
abbrev main_v43 : Ref sig .tc := ⟨.hbm, 137, rfl⟩
abbrev main_cst_7 : Ref sig .tc := ⟨.hbm, 138, rfl⟩
abbrev main_v44 : Ref sig .tc := ⟨.hbm, 139, rfl⟩
abbrev main_v45 : Ref sig .tc := ⟨.hbm, 140, rfl⟩
abbrev main_c_8 : Ref sig .tc := ⟨.hbm, 141, rfl⟩
abbrev main_call4_cst : Ref sig .tc := ⟨.hbm, 142, rfl⟩
abbrev main_call4_v0 : Ref sig .tc := ⟨.hbm, 143, rfl⟩
abbrev main_call4_v1 : Ref sig .tc := ⟨.hbm, 144, rfl⟩
abbrev main_call4_cst_0 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_call4_v5 : Ref sig .tc := ⟨.hbm, 149, rfl⟩
abbrev main_call4_v6 : Ref sig .tc := ⟨.hbm, 150, rfl⟩
abbrev main_call4_v7 : Ref sig .tc := ⟨.hbm, 151, rfl⟩
abbrev main_call4_cst_1 : Ref sig .tc := ⟨.hbm, 152, rfl⟩
abbrev main_call4_v8 : Ref sig .tc := ⟨.hbm, 153, rfl⟩
abbrev main_call4_cst_2 : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_cst_3 : Ref sig .tc := ⟨.hbm, 158, rfl⟩
abbrev main_call4_v12 : Ref sig .tc := ⟨.hbm, 159, rfl⟩
abbrev main_call4_cst_4 : Ref sig .tc := ⟨.hbm, 160, rfl⟩
abbrev main_call4_call0_v0 : Ref sig .tc := ⟨.hbm, 161, rfl⟩
abbrev main_call4_call0_v1 : Ref sig .tc := ⟨.hbm, 162, rfl⟩
abbrev main_v46 : Ref sig .tc := ⟨.hbm, 163, rfl⟩
abbrev main_v47 : Ref sig .tc := ⟨.hbm, 164, rfl⟩
abbrev main_v48 : Ref sig .tc := ⟨.hbm, 165, rfl⟩
abbrev main_v49 : Ref sig .tc := ⟨.hbm, 166, rfl⟩
abbrev main_cst_9 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩
abbrev main_v61 : Ref sig .tc := ⟨.hbm, 179, rfl⟩
abbrev main_call5_cst : Ref sig .tc := ⟨.hbm, 180, rfl⟩
abbrev main_call5_v0 : Ref sig .tc := ⟨.hbm, 181, rfl⟩
abbrev main_call5_v1 : Ref sig .tc := ⟨.hbm, 182, rfl⟩
abbrev main_call5_cst_0 : Ref sig .tc := ⟨.hbm, 183, rfl⟩
abbrev main_call5_v2 : Ref sig .tc := ⟨.hbm, 184, rfl⟩
abbrev main_call5_v3 : Ref sig .tc := ⟨.hbm, 185, rfl⟩
abbrev main_call5_cst_1 : Ref sig .tc := ⟨.hbm, 186, rfl⟩
abbrev main_call5_call0_v0 : Ref sig .tc := ⟨.hbm, 187, rfl⟩
abbrev main_call5_call0_v1 : Ref sig .tc := ⟨.hbm, 188, rfl⟩
abbrev main_call5_v4 : Ref sig .tc := ⟨.hbm, 189, rfl⟩
abbrev main_call5_v5 : Ref sig .tc := ⟨.hbm, 190, rfl⟩
abbrev main_call5_cst_2 : Ref sig .tc := ⟨.hbm, 191, rfl⟩
abbrev main_call5_v6 : Ref sig .tc := ⟨.hbm, 192, rfl⟩
abbrev main_call5_v7 : Ref sig .tc := ⟨.hbm, 193, rfl⟩
abbrev main_v62 : Ref sig .tc := ⟨.hbm, 194, rfl⟩
abbrev main_c_10 : Ref sig .tc := ⟨.hbm, 195, rfl⟩
abbrev main_call6_v0 : Ref sig .tc := ⟨.hbm, 196, rfl⟩
abbrev main_call6_v1 : Ref sig .tc := ⟨.hbm, 197, rfl⟩
abbrev main_call6_v2 : Ref sig .tc := ⟨.hbm, 198, rfl⟩
abbrev main_call6_v3 : Ref sig .tc := ⟨.hbm, 199, rfl⟩
abbrev main_call6_v4 : Ref sig .tc := ⟨.hbm, 200, rfl⟩
abbrev main_call6_v5 : Ref sig .tc := ⟨.hbm, 201, rfl⟩
abbrev main_call6_v6 : Ref sig .tc := ⟨.hbm, 202, rfl⟩
abbrev main_call6_v7 : Ref sig .tc := ⟨.hbm, 203, rfl⟩
abbrev main_call6_v8 : Ref sig .tc := ⟨.hbm, 204, rfl⟩
abbrev main_call6_c : Ref sig .tc := ⟨.hbm, 205, rfl⟩
abbrev main_call6_v9 : Ref sig .tc := ⟨.hbm, 206, rfl⟩
abbrev main_call6_v10 : Ref sig .tc := ⟨.hbm, 207, rfl⟩
abbrev main_call6_v11 : Ref sig .tc := ⟨.hbm, 208, rfl⟩
abbrev main_call6_c_0 : Ref sig .tc := ⟨.hbm, 209, rfl⟩
abbrev main_call6_v12 : Ref sig .tc := ⟨.hbm, 210, rfl⟩
abbrev main_call6_v13 : Ref sig .tc := ⟨.hbm, 211, rfl⟩
abbrev main_v63 : Ref sig .tc := ⟨.hbm, 212, rfl⟩
abbrev main_c_11 : Ref sig .tc := ⟨.hbm, 213, rfl⟩
abbrev main_call7_v0 : Ref sig .tc := ⟨.hbm, 214, rfl⟩
abbrev main_call7_c : Ref sig .tc := ⟨.hbm, 215, rfl⟩
abbrev main_call7_v1 : Ref sig .tc := ⟨.hbm, 216, rfl⟩
abbrev main_call7_c_0 : Ref sig .tc := ⟨.hbm, 217, rfl⟩
abbrev main_call7_v2 : Ref sig .tc := ⟨.hbm, 218, rfl⟩
abbrev main_call7_v3 : Ref sig .tc := ⟨.hbm, 219, rfl⟩
abbrev main_call7_v4 : Ref sig .tc := ⟨.hbm, 220, rfl⟩
abbrev main_call7_c_1 : Ref sig .tc := ⟨.hbm, 221, rfl⟩
abbrev main_call7_v5 : Ref sig .tc := ⟨.hbm, 222, rfl⟩
abbrev main_call7_v6 : Ref sig .tc := ⟨.hbm, 223, rfl⟩
abbrev main_call7_c_2 : Ref sig .tc := ⟨.hbm, 224, rfl⟩
abbrev main_call7_v7 : Ref sig .tc := ⟨.hbm, 225, rfl⟩
abbrev main_call7_v8 : Ref sig .tc := ⟨.hbm, 226, rfl⟩
abbrev main_call7_c_3 : Ref sig .tc := ⟨.hbm, 227, rfl⟩
abbrev main_call7_v9 : Ref sig .tc := ⟨.hbm, 228, rfl⟩
abbrev main_call7_v10 : Ref sig .tc := ⟨.hbm, 229, rfl⟩
abbrev main_call7_v11 : Ref sig .tc := ⟨.hbm, 230, rfl⟩
abbrev main_call7_v12 : Ref sig .tc := ⟨.hbm, 231, rfl⟩
abbrev main_call7_v13 : Ref sig .tc := ⟨.hbm, 232, rfl⟩
abbrev main_call7_v14 : Ref sig .tc := ⟨.hbm, 233, rfl⟩
abbrev main_v64 : Ref sig .tc := ⟨.hbm, 234, rfl⟩
abbrev main_c_12 : Ref sig .tc := ⟨.hbm, 235, rfl⟩
abbrev main_call8_v0 : Ref sig .tc := ⟨.hbm, 236, rfl⟩
abbrev main_call8_v1 : Ref sig .tc := ⟨.hbm, 237, rfl⟩
abbrev main_call8_v2 : Ref sig .tc := ⟨.hbm, 238, rfl⟩
abbrev main_call8_v3 : Ref sig .tc := ⟨.hbm, 239, rfl⟩
abbrev main_call8_v4 : Ref sig .tc := ⟨.hbm, 240, rfl⟩
abbrev main_call8_v5 : Ref sig .tc := ⟨.hbm, 241, rfl⟩
abbrev main_call8_v6 : Ref sig .tc := ⟨.hbm, 242, rfl⟩
abbrev main_call8_v7 : Ref sig .tc := ⟨.hbm, 243, rfl⟩
abbrev main_call8_v8 : Ref sig .tc := ⟨.hbm, 244, rfl⟩
abbrev main_call8_c : Ref sig .tc := ⟨.hbm, 245, rfl⟩
abbrev main_call8_v9 : Ref sig .tc := ⟨.hbm, 246, rfl⟩
abbrev main_call8_v10 : Ref sig .tc := ⟨.hbm, 247, rfl⟩
abbrev main_call8_v11 : Ref sig .tc := ⟨.hbm, 248, rfl⟩
abbrev main_call8_c_0 : Ref sig .tc := ⟨.hbm, 249, rfl⟩
abbrev main_call8_v12 : Ref sig .tc := ⟨.hbm, 250, rfl⟩
abbrev main_call8_v13 : Ref sig .tc := ⟨.hbm, 251, rfl⟩
abbrev main_v65 : Ref sig .tc := ⟨.hbm, 252, rfl⟩
abbrev main_c_13 : Ref sig .tc := ⟨.hbm, 253, rfl⟩
abbrev main_call9_v0 : Ref sig .tc := ⟨.hbm, 254, rfl⟩
abbrev main_call9_c : Ref sig .tc := ⟨.hbm, 255, rfl⟩
abbrev main_call9_v1 : Ref sig .tc := ⟨.hbm, 256, rfl⟩
abbrev main_call9_c_0 : Ref sig .tc := ⟨.hbm, 257, rfl⟩
abbrev main_call9_v2 : Ref sig .tc := ⟨.hbm, 258, rfl⟩
abbrev main_call9_v3 : Ref sig .tc := ⟨.hbm, 259, rfl⟩
abbrev main_call9_v4 : Ref sig .tc := ⟨.hbm, 260, rfl⟩
abbrev main_call9_c_1 : Ref sig .tc := ⟨.hbm, 261, rfl⟩
abbrev main_call9_v5 : Ref sig .tc := ⟨.hbm, 262, rfl⟩
abbrev main_call9_v6 : Ref sig .tc := ⟨.hbm, 263, rfl⟩
abbrev main_call9_c_2 : Ref sig .tc := ⟨.hbm, 264, rfl⟩
abbrev main_call9_v7 : Ref sig .tc := ⟨.hbm, 265, rfl⟩
abbrev main_call9_v8 : Ref sig .tc := ⟨.hbm, 266, rfl⟩
abbrev main_call9_c_3 : Ref sig .tc := ⟨.hbm, 267, rfl⟩
abbrev main_call9_v9 : Ref sig .tc := ⟨.hbm, 268, rfl⟩
abbrev main_call9_v10 : Ref sig .tc := ⟨.hbm, 269, rfl⟩
abbrev main_call9_v11 : Ref sig .tc := ⟨.hbm, 270, rfl⟩
abbrev main_call9_v12 : Ref sig .tc := ⟨.hbm, 271, rfl⟩
abbrev main_call9_v13 : Ref sig .tc := ⟨.hbm, 272, rfl⟩
abbrev main_call9_v14 : Ref sig .tc := ⟨.hbm, 273, rfl⟩
abbrev main_v66 : Ref sig .tc := ⟨.hbm, 274, rfl⟩
abbrev main_c_14 : Ref sig .tc := ⟨.hbm, 275, rfl⟩
abbrev main_v67 : Ref sig .tc := ⟨.hbm, 276, rfl⟩
abbrev main_v68 : Ref sig .tc := ⟨.hbm, 277, rfl⟩
abbrev main_c_15 : Ref sig .tc := ⟨.hbm, 278, rfl⟩
abbrev main_v69 : Ref sig .tc := ⟨.hbm, 279, rfl⟩
abbrev main_v70 : Ref sig .tc := ⟨.hbm, 280, rfl⟩
abbrev main_v71 : Ref sig .tc := ⟨.hbm, 281, rfl⟩
abbrev main_v72 : Ref sig .tc := ⟨.hbm, 282, rfl⟩
abbrev main_v73 : Ref sig .tc := ⟨.hbm, 283, rfl⟩
abbrev main_c_16 : Ref sig .tc := ⟨.hbm, 284, rfl⟩
abbrev main_v74 : Ref sig .tc := ⟨.hbm, 285, rfl⟩
abbrev main_v75 : Ref sig .tc := ⟨.hbm, 286, rfl⟩
abbrev main_c_17 : Ref sig .tc := ⟨.hbm, 287, rfl⟩
abbrev main_v76 : Ref sig .tc := ⟨.hbm, 288, rfl⟩
abbrev main_v77 : Ref sig .tc := ⟨.hbm, 289, rfl⟩
abbrev main_v78 : Ref sig .tc := ⟨.hbm, 290, rfl⟩
abbrev main_v79 : Ref sig .tc := ⟨.hbm, 291, rfl⟩
abbrev main_v80 : Ref sig .tc := ⟨.hbm, 292, rfl⟩
abbrev main_v81 : Ref sig .tc := ⟨.hbm, 293, rfl⟩
abbrev main_c_18 : Ref sig .tc := ⟨.hbm, 294, rfl⟩
abbrev main_v82 : Ref sig .tc := ⟨.hbm, 295, rfl⟩
abbrev main_v83 : Ref sig .tc := ⟨.hbm, 296, rfl⟩
abbrev main_c_19 : Ref sig .tc := ⟨.hbm, 297, rfl⟩
abbrev main_v84 : Ref sig .tc := ⟨.hbm, 298, rfl⟩
abbrev main_v85 : Ref sig .tc := ⟨.hbm, 299, rfl⟩
abbrev main_v86 : Ref sig .tc := ⟨.hbm, 300, rfl⟩
abbrev main_v87 : Ref sig .tc := ⟨.hbm, 301, rfl⟩
abbrev main_v88 : Ref sig .tc := ⟨.hbm, 302, rfl⟩
abbrev main_v89 : Ref sig .tc := ⟨.hbm, 303, rfl⟩
abbrev main_v90 : Ref sig .tc := ⟨.hbm, 304, rfl⟩
abbrev main_v91 : Ref sig .tc := ⟨.hbm, 305, rfl⟩
abbrev main_v92 : Ref sig .tc := ⟨.hbm, 306, rfl⟩
abbrev main_v93 : Ref sig .tc := ⟨.hbm, 307, rfl⟩
abbrev main_v94 : Ref sig .tc := ⟨.hbm, 308, rfl⟩

abbrev nD : Nat := 1
abbrev τ : Topo := Topo.v7x

variable {F : FTy → Type} [FloatOps F]

class Facts₀ : Prop where
  reducesTo_S131072x6_S6_d0 : S131072x6.ReducesTo [0] S6
  h_S_ : 0 < S_.numel
  bcast_S_S6 : S_.BroadcastsInDim S6 (![] : Fin 0 → Fin S6.rank)
  bcast_S6_S1x6_1 : S6.BroadcastsInDim S1x6 (![1] : Fin 1 → Fin S1x6.rank)
  bcast_S_S1x6 : S_.BroadcastsInDim S1x6 (![] : Fin 0 → Fin S1x6.rank)
  bcast_S1x6_S131072x6_0_1 : S1x6.BroadcastsInDim S131072x6 (![0, 1] : Fin 2 → Fin S131072x6.rank)
  bcast_S_S131072x6 : S_.BroadcastsInDim S131072x6 (![] : Fin 0 → Fin S131072x6.rank)
  reducesTo_S131072x10_S10_d0 : S131072x10.ReducesTo [0] S10
  bcast_S_S10 : S_.BroadcastsInDim S10 (![] : Fin 0 → Fin S10.rank)
  bcast_S10_S1x10_1 : S10.BroadcastsInDim S1x10 (![1] : Fin 1 → Fin S1x10.rank)
  bcast_S_S1x10 : S_.BroadcastsInDim S1x10 (![] : Fin 0 → Fin S1x10.rank)
  bcast_S1x10_S131072x10_0_1 : S1x10.BroadcastsInDim S131072x10 (![0, 1] : Fin 2 → Fin S131072x10.rank)
  bcast_S_S131072x10 : S_.BroadcastsInDim S131072x10 (![] : Fin 0 → Fin S131072x10.rank)
  reducesTo_S131072x15_S15_d0 : S131072x15.ReducesTo [0] S15
  bcast_S_S15 : S_.BroadcastsInDim S15 (![] : Fin 0 → Fin S15.rank)
  bcast_S15_S1x15_1 : S15.BroadcastsInDim S1x15 (![1] : Fin 1 → Fin S1x15.rank)
  bcast_S_S1x15 : S_.BroadcastsInDim S1x15 (![] : Fin 0 → Fin S1x15.rank)
  bcast_S1x15_S131072x15_0_1 : S1x15.BroadcastsInDim S131072x15 (![0, 1] : Fin 2 → Fin S131072x15.rank)
  bcast_S_S131072x15 : S_.BroadcastsInDim S131072x15 (![] : Fin 0 → Fin S131072x15.rank)
  bcast_S_S100 : S_.BroadcastsInDim S100 (![] : Fin 0 → Fin S100.rank)
  bcast_S100_S100x1_0 : S100.BroadcastsInDim S100x1 (![0] : Fin 1 → Fin S100x1.rank)
  transposes_S100x100_S100x100_1_0 : S100x100.Transposes [1, 0] S100x100
  bcast_S100_S1x100_1 : S100.BroadcastsInDim S1x100 (![1] : Fin 1 → Fin S1x100.rank)
  bcast_S1x100_S131072x100_0_1 : S1x100.BroadcastsInDim S131072x100 (![0, 1] : Fin 2 → Fin S131072x100.rank)
  dot_S131072x6_S6x6_S131072x6_1_0_0_1_n_n_wf : DotDims.WF S131072x6 S6x6 S131072x6 [1] [0] [0] [1] [] []
  dot_S131072x10_S10x10_S131072x10_1_0_0_1_n_n_wf : DotDims.WF S131072x10 S10x10 S131072x10 [1] [0] [0] [1] [] []
  dot_S131072x15_S15x15_S131072x15_1_0_0_1_n_n_wf : DotDims.WF S131072x15 S15x15 S131072x15 [1] [0] [0] [1] [] []
  gather_S131072x6_S100x1_S131072x100_0_1_n_n_1_1_1310721_wf : GatherDims.WF S131072x6 S100x1 S131072x100 [0] [1] [] [1] [] 1 ![131072, 1]
  gather_S131072x10_S100x1_S131072x100_0_1_n_n_1_1_1310721_wf : GatherDims.WF S131072x10 S100x1 S131072x100 [0] [1] [] [1] [] 1 ![131072, 1]
  gather_S131072x15_S100x1_S131072x100_0_1_n_n_1_1_1310721_wf : GatherDims.WF S131072x15 S100x1 S131072x100 [0] [1] [] [1] [] 1 ![131072, 1]
  dot_S131072x100_S100x100_S131072x100_1_0_0_1_n_n_wf : DotDims.WF S131072x100 S100x100 S131072x100 [1] [0] [0] [1] [] []

variable [Facts₀]

def dot_S131072x6_S6x6_S131072x6_1_0_0_1_n_n : DotDims S131072x6 S6x6 S131072x6 where
  lhsContracting := [1]
  rhsContracting := [0]
  lhsNonContracting := [0]
  rhsNonContracting := [1]
  lhsBatch := []
  rhsBatch := []
  wf := dot_S131072x6_S6x6_S131072x6_1_0_0_1_n_n_wf
def dot_S131072x10_S10x10_S131072x10_1_0_0_1_n_n : DotDims S131072x10 S10x10 S131072x10 where
  lhsContracting := [1]
  rhsContracting := [0]
  lhsNonContracting := [0]
  rhsNonContracting := [1]
  lhsBatch := []
  rhsBatch := []
  wf := dot_S131072x10_S10x10_S131072x10_1_0_0_1_n_n_wf
def dot_S131072x15_S15x15_S131072x15_1_0_0_1_n_n : DotDims S131072x15 S15x15 S131072x15 where
  lhsContracting := [1]
  rhsContracting := [0]
  lhsNonContracting := [0]
  rhsNonContracting := [1]
  lhsBatch := []
  rhsBatch := []
  wf := dot_S131072x15_S15x15_S131072x15_1_0_0_1_n_n_wf
def gather_S131072x6_S100x1_S131072x100_0_1_n_n_1_1_1310721 : GatherDims S131072x6 S100x1 S131072x100 where
  offsetDims := [0]
  collapsedSliceDims := [1]
  operandBatchingDims := []
  startIndicesBatchingDims := []
  startIndexMap := [1]
  indexVectorDim := 1
  sliceSizes := ![131072, 1]
  wf := gather_S131072x6_S100x1_S131072x100_0_1_n_n_1_1_1310721_wf
def gather_S131072x10_S100x1_S131072x100_0_1_n_n_1_1_1310721 : GatherDims S131072x10 S100x1 S131072x100 where
  offsetDims := [0]
  collapsedSliceDims := [1]
  operandBatchingDims := []
  startIndicesBatchingDims := []
  startIndexMap := [1]
  indexVectorDim := 1
  sliceSizes := ![131072, 1]
  wf := gather_S131072x10_S100x1_S131072x100_0_1_n_n_1_1_1310721_wf
def gather_S131072x15_S100x1_S131072x100_0_1_n_n_1_1_1310721 : GatherDims S131072x15 S100x1 S131072x100 where
  offsetDims := [0]
  collapsedSliceDims := [1]
  operandBatchingDims := []
  startIndicesBatchingDims := []
  startIndexMap := [1]
  indexVectorDim := 1
  sliceSizes := ![131072, 1]
  wf := gather_S131072x15_S100x1_S131072x100_0_1_n_n_1_1_1310721_wf
def dot_S131072x100_S100x100_S131072x100_1_0_0_1_n_n : DotDims S131072x100 S100x100 S131072x100 where
  lhsContracting := [1]
  rhsContracting := [0]
  lhsNonContracting := [0]
  rhsNonContracting := [1]
  lhsBatch := []
  rhsBatch := []
  wf := dot_S131072x100_S100x100_S131072x100_1_0_0_1_n_n_wf

class Facts : Prop extends Facts₀ where

variable [Facts]
-- ==== Proof.Spec.lean ====
/-
  What the two programs compute, index by index, over the extended reals.

  Three branches (widths 6, 10, 15) each take a batch of 131072 rows `x`, multiply by a square matrix `w`
  (`y r j = ∑ i, x r i * w i j`), normalise every column by the batch's mean and variance, scale and shift by
  `g`, `b`, and apply ELU. Then for each of 100 positions `p` one column of each branch is picked — the columns
  `i p`, `v p`, `t p` that the flat position `vp p = i·150 + v·15 + t` decomposes into —, the three picked
  values are multiplied, and a linear layer `∑ p, valid r p * mw q p + mb q` is applied.

  The two programs differ in how the statistics are formed. One accumulates `∑ y` and `∑ y²`, scales both by the
  dyadic `2⁻¹⁷`, and takes `max (E[y²] − E[y]²) 0`; the other divides `∑ y` by `131072`, subtracts that mean from
  every entry, and divides `∑ (y − mean)²` by `131072`. They also spell ELU's negative side differently:
  `exp z − 1` against `1 · (exp (if z > 0 then 0 else z) − 1)`. Both differences vanish on real entries.

  Arrays are read here as curried functions of their coordinates (`cur2`, `cur1`).
-/
import Idealize.ShloMosaic.PureOps.Ideal
import Idealize.ShloMosaic.Lib.ValueIdx

noncomputable section

namespace Cert.Tri

open Idealize.ShloMosaic Idealize.ShloMosaic.ValueIdx
open scoped BigOperators

/-- The batch: 131072 rows. -/
abbrev NB : ℕ := 131072
/-- The picked positions: 100. -/
abbrev NP : ℕ := 100

/-- A rank-2 array as a function of its row and column. -/
abbrev cur2 {α : Type} {a b : ℕ} (f : (⟨2, ![a, b]⟩ : Shape).Idx → α) : Fin a → Fin b → α := fun r i => f (ix2 r i)
/-- A rank-1 array as a function of its coordinate. -/
abbrev cur1 {α : Type} {a : ℕ} (f : (⟨1, ![a]⟩ : Shape).Idx → α) : Fin a → α := fun i => f (ix1 i)

/-! ## The float constants the programs spell, by their words -/

/-- `+0.0`. -/
def lit0 : EReal := Ideal.ofBits .f32 0x00000000#32
/-- `1.0`. -/
def lit1 : EReal := Ideal.ofBits .f32 0x3F800000#32
/-- The variance's guard `1e-5` as f32. -/
def litEps : EReal := Ideal.ofBits .f32 0x3727C5AC#32
/-- `2⁻¹⁷`, the reciprocal of the batch size, an exact dyadic. -/
def litInvN : EReal := Ideal.ofBits .f32 0x37000000#32
/-- `131072.0`, the batch size. -/
def litN : EReal := Ideal.ofBits .f32 0x48000000#32

/-! ## One branch -/

/-- A row of `x` against a column of `w`. -/
def ymat {d : ℕ} (x : Fin NB → Fin d → EReal) (w : Fin d → Fin d → EReal) (r : Fin NB) (j : Fin d) : EReal :=
  ∑ i : Fin d, x r i * w i j

/-- A column's sum over the batch. -/
def colSum {d : ℕ} (y : Fin NB → Fin d → EReal) (j : Fin d) : EReal := ∑ r : Fin NB, y r j
/-- A column's sum of squares over the batch. -/
def colSumSq {d : ℕ} (y : Fin NB → Fin d → EReal) (j : Fin d) : EReal := ∑ r : Fin NB, y r j * y r j

/-- The mean as sum times `2⁻¹⁷`. -/
def meanK {d : ℕ} (y : Fin NB → Fin d → EReal) (j : Fin d) : EReal := colSum y j * litInvN
/-- The variance as `max (E[y²] − E[y]²) 0`. -/
def varK {d : ℕ} (y : Fin NB → Fin d → EReal) (j : Fin d) : EReal :=
  max (colSumSq y j * litInvN - meanK y j * meanK y j) lit0

/-- The mean as sum divided by `131072`. -/
def meanR {d : ℕ} (y : Fin NB → Fin d → EReal) (j : Fin d) : EReal := Ideal.div (colSum y j) litN
/-- The variance as the mean of the squared deviations. -/
def varR {d : ℕ} (y : Fin NB → Fin d → EReal) (j : Fin d) : EReal :=
  Ideal.div (∑ r : Fin NB, (y r j - meanR y j) * (y r j - meanR y j)) litN

/-- Normalise, scale, shift: `(y − mean) · rsqrt (var + ε) · g + b`, associated as written. -/
def normd {d : ℕ} (y : Fin NB → Fin d → EReal) (mean var g b : Fin d → EReal) (r : Fin NB) (j : Fin d) : EReal :=
  (y r j - mean j) * Ideal.rsqrt (var j + litEps) * g j + b j

/-- ELU with its negative side written `exp z − 1`. -/
def eluK (z : EReal) : EReal := if z > lit0 then z else Ideal.exp z - lit1
/-- ELU with its negative side written `1 · expm1 (if z > 0 then 0 else z)`. -/
def eluR (z : EReal) : EReal := if z > lit0 then z else lit1 * (Ideal.exp (if z > lit0 then lit0 else z) - 1)

/-- A branch with the statistics accumulated as sums and sums of squares. -/
def branchK {d : ℕ} (x : Fin NB → Fin d → EReal) (w : Fin d → Fin d → EReal) (g b : Fin d → EReal)
    (r : Fin NB) (j : Fin d) : EReal :=
  eluK (normd (ymat x w) (meanK (ymat x w)) (varK (ymat x w)) g b r j)
/-- A branch with the statistics as mean and mean squared deviation. -/
def branchR {d : ℕ} (x : Fin NB → Fin d → EReal) (w : Fin d → Fin d → EReal) (g b : Fin d → EReal)
    (r : Fin NB) (j : Fin d) : EReal :=
  eluR (normd (ymat x w) (meanR (ymat x w)) (varR (ymat x w)) g b r j)

/-! ## The picked columns: a flat position split into its three coordinates, on 32-bit words -/

/-- The sign of a word: `0`, `−1` or `1`. -/
def sgnW (a : BitVec 32) : BitVec 32 := if a = 0 then 0 else if a.msb then -1 else 1

/-- Floor division as jnp spells it: the truncated quotient, less one when the signs differ and the remainder is
    not zero. -/
def fdivW (a d : BitVec 32) : BitVec 32 :=
  Scalar.select (IntOp.andi (IntOp.cmpi .ne (sgnW a) (sgnW d)) (IntOp.cmpi .ne (IntOp.remsi .host a d) 0))
    (IntOp.subi (IntOp.divsi .host a d) 1) (IntOp.divsi .host a d)

/-- The divisor a remainder is taken by: `1` in place of `0`. -/
def dvsr (d : BitVec 32) : BitVec 32 := Scalar.select (IntOp.cmpi .eq d 0) 1 d

/-- The floor remainder as jnp spells it: the truncated remainder, plus the divisor when it is not zero and its sign
    differs from the divisor's. -/
def fremW (a d : BitVec 32) : BitVec 32 :=
  Scalar.select
    (IntOp.andi (IntOp.cmpi .ne (IntOp.cmpi .slt (IntOp.remsi .host a (dvsr d)) 0) (IntOp.cmpi .slt (dvsr d) 0))
      (IntOp.cmpi .ne (IntOp.remsi .host a (dvsr d)) 0))
    (IntOp.addi (IntOp.remsi .host a (dvsr d)) (dvsr d)) (IntOp.remsi .host a (dvsr d))

/-- The first coordinate of position `p`: `vp p ÷ 150`. -/
def iIdx (vp : Fin NP → BitVec 32) (p : Fin NP) : BitVec 32 := fdivW (vp p) 150#32
/-- What is left after the first coordinate: `vp p mod 150`. -/
def remI (vp : Fin NP → BitVec 32) (p : Fin NP) : BitVec 32 := fremW (vp p) 150#32
/-- The second coordinate: `(vp p mod 150) ÷ 15`. -/
def vIdx (vp : Fin NP → BitVec 32) (p : Fin NP) : BitVec 32 := fdivW (remI vp p) 15#32
/-- The third coordinate: `(vp p mod 150) mod 15`. -/
def tIdx (vp : Fin NP → BitVec 32) (p : Fin NP) : BitVec 32 := fremW (remI vp p) 15#32

/-- The column a word names, for a word below the width. -/
def colOf (d : ℕ) [NeZero d] (a : BitVec 32) : Fin d := Fin.ofNat d a.toNat

/-- Column `idx p` of `e`, at every row. -/
def gat {d : ℕ} [NeZero d] (e : Fin NB → Fin d → EReal) (idx : Fin NP → BitVec 32) (r : Fin NB) (p : Fin NP) : EReal :=
  e r (colOf d (idx p))

/-! ## The result -/

/-- The product of the three picked values through the linear layer. -/
def outF (gt gv gg : Fin NB → Fin NP → EReal) (mw : Fin NP → Fin NP → EReal) (mb : Fin NP → EReal)
    (r : Fin NB) (q : Fin NP) : EReal :=
  (∑ p : Fin NP, gt r p * gv r p * gg r p * mw q p) + mb q

/-- The result with each branch's statistics as accumulated sums. -/
def outK (x0 : Fin NB → Fin 6 → EReal) (x1 : Fin NB → Fin 10 → EReal) (x2 : Fin NB → Fin 15 → EReal)
    (w0 : Fin 6 → Fin 6 → EReal) (w1 : Fin 10 → Fin 10 → EReal) (w2 : Fin 15 → Fin 15 → EReal)
    (g0 b0 : Fin 6 → EReal) (g1 b1 : Fin 10 → EReal) (g2 b2 : Fin 15 → EReal)
    (mw : Fin NP → Fin NP → EReal) (mb : Fin NP → EReal) (vp : Fin NP → BitVec 32) (r : Fin NB) (q : Fin NP) : EReal :=
  outF (gat (branchK x0 w0 g0 b0) (iIdx vp)) (gat (branchK x1 w1 g1 b1) (vIdx vp)) (gat (branchK x2 w2 g2 b2) (tIdx vp))
    mw mb r q

/-- The result with each branch's statistics as mean and mean squared deviation. -/
def outR (x0 : Fin NB → Fin 6 → EReal) (x1 : Fin NB → Fin 10 → EReal) (x2 : Fin NB → Fin 15 → EReal)
    (w0 : Fin 6 → Fin 6 → EReal) (w1 : Fin 10 → Fin 10 → EReal) (w2 : Fin 15 → Fin 15 → EReal)
    (g0 b0 : Fin 6 → EReal) (g1 b1 : Fin 10 → EReal) (g2 b2 : Fin 15 → EReal)
    (mw : Fin NP → Fin NP → EReal) (mb : Fin NP → EReal) (vp : Fin NP → BitVec 32) (r : Fin NB) (q : Fin NP) : EReal :=
  outF (gat (branchR x0 w0 g0 b0) (iIdx vp)) (gat (branchR x1 w1 g1 b1) (vIdx vp)) (gat (branchR x2 w2 g2 b2) (tIdx vp))
    mw mb r q

/-! ## The same pick written as a product with a 0/1 table, and the second pass at given statistics -/

/-- The 0/1 table: entry `(j, p)` is `1` where position `p`'s coordinate is `j`. -/
def ohW {d : ℕ} (idx : Fin NP → BitVec 32) (j : Fin d) (p : Fin NP) : EReal :=
  FloatOps.uitofp (F := Ideal) .f32 (IntOp.cmpi .eq (idx p) (BitVec.ofNat 32 j.val))

/-- A pick as a product of `e` with a table. -/
def gatOH {d : ℕ} (e : Fin NB → Fin d → EReal) (oh : Fin d → Fin NP → EReal) (r : Fin NB) (p : Fin NP) : EReal :=
  ∑ j : Fin d, e r j * oh j p

/-- A branch at given mean and variance, ELU's negative side as `exp z − 1`. -/
def branchAt {d : ℕ} (x : Fin NB → Fin d → EReal) (w : Fin d → Fin d → EReal) (mean var g b : Fin d → EReal)
    (r : Fin NB) (j : Fin d) : EReal :=
  eluK (normd (ymat x w) mean var g b r j)

/-- The second pass: the three branches at given statistics, picked through given tables, multiplied, through the
    linear layer with the weight already transposed. -/
def stage1 (x0 : Fin NB → Fin 6 → EReal) (x1 : Fin NB → Fin 10 → EReal) (x2 : Fin NB → Fin 15 → EReal)
    (w0 : Fin 6 → Fin 6 → EReal) (w1 : Fin 10 → Fin 10 → EReal) (w2 : Fin 15 → Fin 15 → EReal)
    (m0 v0 g0 b0 : Fin 6 → EReal) (m1 v1 g1 b1 : Fin 10 → EReal) (m2 v2 g2 b2 : Fin 15 → EReal)
    (oh0 : Fin 6 → Fin NP → EReal) (oh1 : Fin 10 → Fin NP → EReal) (oh2 : Fin 15 → Fin NP → EReal)
    (mwT : Fin NP → Fin NP → EReal) (mb : Fin NP → EReal) (r : Fin NB) (q : Fin NP) : EReal :=
  (∑ p : Fin NP, gatOH (branchAt x0 w0 m0 v0 g0 b0) oh0 r p * gatOH (branchAt x1 w1 m1 v1 g1 b1) oh1 r p
      * gatOH (branchAt x2 w2 m2 v2 g2 b2) oh2 r p * mwT p q) + mb q

/-- The flat positions are in range: each lies in `[0, 900)` read as a signed word. -/
def InRange (vp : Fin NP → BitVec 32) : Prop := ∀ p : Fin NP, 0 ≤ (vp p).toInt ∧ (vp p).toInt < 900

end Cert.Tri

end
-- ==== Proof.KStats.lean ====
/-
  The first pass's statistics, as sums over the whole batch.

  The first kernel walks the batch in 64 blocks of 2048 rows. For each of the three branches it forms the block's
  product `y = x · w` (row `r`, column `j`: `∑ i, x r i * w i j`), sums `y` and `y²` down the block's rows, and adds the
  two row vectors to two accumulators of shape [1, d] that stay in place from point to point; the first point clears
  them first. Each accumulator is written back once, after the last point.

  So after point `n` an accumulator holds `0 + b 0 + … + b n`, with `b t` block `t`'s share; after the last point that is
  the sum of all 64 shares, and since the blocks' rows `2048 t + s` run exactly once through the batch, and addition of
  extended reals is commutative and associative, it is the column's sum over all 131072 rows.
-/
import proofs.«431318_j31860067402336_2_alg».proof.Proof.Gen.KernelIdeal.Frame
import proofs.«431318_j31860067402336_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Algebra.BigOperators.Fin

set_option maxRecDepth 16384

noncomputable section

namespace Cert.KernelIdeal.KStats

open Idealize.ShloMosaic Idealize.ShloMosaic.TcCoe Idealize.SL.Sem
open Idealize.ShloMosaic.Pipeline (Dat)
open Cert.KernelIdeal Cert.KernelIdeal.Gen Cert.Tri Idealize.ShloMosaic.ValueIdx
open scoped BigOperators

theorem hz : (![0, 0] : Fin 2 → Nat) = fun _ => 0 := funext fun a => by fin_cases a <;> rfl

section Pieces
variable {F : FTy → Type} [FloatOps F]
variable (c : Dev nD) (i : grid0.Coords)
  (a1 : Memref sig .tc .vmem S2048x6 .f32) (h1 : a1.IsWhole) (a2 : Memref sig .tc .vmem S2048x10 .f32) (h2 : a2.IsWhole)
  (a3 : Memref sig .tc .vmem S2048x15 .f32) (h3 : a3.IsWhole) (a4 : Memref sig .tc .vmem S6x6 .f32) (h4 : a4.IsWhole)
  (a5 : Memref sig .tc .vmem S10x10 .f32) (h5 : a5.IsWhole) (a6 : Memref sig .tc .vmem S15x15 .f32) (h6 : a6.IsWhole)
  (a7 : Memref sig .tc .vmem S1x6 .f32) (h7 : a7.IsWhole) (a8 : Memref sig .tc .vmem S1x6 .f32) (h8 : a8.IsWhole)
  (a9 : Memref sig .tc .vmem S1x10 .f32) (h9 : a9.IsWhole) (a10 : Memref sig .tc .vmem S1x10 .f32) (h10 : a10.IsWhole)
  (a11 : Memref sig .tc .vmem S1x15 .f32) (h11 : a11.IsWhole) (a12 : Memref sig .tc .vmem S1x15 .f32) (h12 : a12.IsWhole)
  (x0 : Vec F S2048x6 .f32) (x1 : Vec F S2048x10 .f32) (x2 : Vec F S2048x15 .f32)
  (x3 : Vec F S6x6 .f32) (x4 : Vec F S10x10 .f32) (x5 : Vec F S15x15 .f32)

/-! ## What each control case leaves in each accumulator: the value of its last store -/

theorem pieceB_6 (hc : ¬cond0_0 i) (xo6 xo7 : Vec F S1x6 .f32) (xo8 xo9 : Vec F S1x10 .f32) (xo10 xo11 : Vec F S1x15 .f32) :
    out0_B_6 c i a1 h1 a2 h2 a3 h3 a4 h4 a5 h5 a6 h6 a7 h7 a8 h8 a9 h9 a10 h10 a11 h11 a12 h12 hc x0 x1 x2 x3 x4 x5 xo6 xo7 xo8 xo9 xo10 xo11
      = k0_pay12 x0 x3 xo6 := by
  unfold out0_B_6
  rw [View.read_writes_eq_canon _ _ _ (cover0_B_6 c i a1 h1 a2 h2 a3 h3 a4 h4 a5 h5 a6 h6 a7 h7 a8 h8 a9 h9 a10 h10 a11 h11 a12 h12 hc x0 x1 x2 x3 x4 x5 xo6 xo7 xo8 xo9 xo10 xo11)]
  unfold kernelRun0_B
  dsimp only
  sl_unfold_words
  rw [View.canon_unit_zero hz]
  simp only [View.readAt_eq_ld, h1.read_unread, h4.read_unread, h7.read_unread, View.ld_unit_zero (S := S2048x6) hz,
    View.ld_unit_zero (S := S6x6) hz, View.ld_unit_zero (S := S1x6) hz]

theorem pieceA_6 (hc : cond0_0 i) :
    out0_A_6 c i a1 h1 a2 h2 a3 h3 a4 h4 a5 h5 a6 h6 a7 h7 a8 h8 a9 h9 a10 h10 a11 h11 a12 h12 hc x0 x1 x2 x3 x4 x5
      = k0_pay12 x0 x3 (k0_pay5 (F := F)) := by
  unfold out0_A_6
  rw [View.read_writes_eq_canon _ _ _ (cover0_A_6 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  rw [View.canon_cons_unit_zero (S := S1x6) hz, View.readCov_unit_zero (S := S1x6) _ hz]
  simp only [View.readAt_eq_ld, h1.read_unread, h4.read_unread, View.ld_unit_zero (S := S2048x6) hz,
    View.ld_unit_zero (S := S6x6) hz]

theorem pieceB_7 (hc : ¬cond0_0 i) (xo6 xo7 : Vec F S1x6 .f32) (xo8 xo9 : Vec F S1x10 .f32) (xo10 xo11 : Vec F S1x15 .f32) :
    out0_B_7 c i a1 h1 a2 h2 a3 h3 a4 h4 a5 h5 a6 h6 a7 h7 a8 h8 a9 h9 a10 h10 a11 h11 a12 h12 hc x0 x1 x2 x3 x4 x5 xo6 xo7 xo8 xo9 xo10 xo11
      = k0_pay13 x0 x3 xo7 := by
  unfold out0_B_7
  rw [View.read_writes_eq_canon _ _ _ (cover0_B_7 c i a1 h1 a2 h2 a3 h3 a4 h4 a5 h5 a6 h6 a7 h7 a8 h8 a9 h9 a10 h10 a11 h11 a12 h12 hc x0 x1 x2 x3 x4 x5 xo6 xo7 xo8 xo9 xo10 xo11)]
  unfold kernelRun0_B
  dsimp only
  sl_unfold_words
  rw [View.canon_unit_zero hz]
  simp only [View.readAt_eq_ld, h1.read_unread, h4.read_unread, h8.read_unread, View.ld_unit_zero (S := S2048x6) hz,
    View.ld_unit_zero (S := S6x6) hz, View.ld_unit_zero (S := S1x6) hz]

theorem pieceA_7 (hc : cond0_0 i) :
    out0_A_7 c i a1 h1 a2 h2 a3 h3 a4 h4 a5 h5 a6 h6 a7 h7 a8 h8 a9 h9 a10 h10 a11 h11 a12 h12 hc x0 x1 x2 x3 x4 x5
      = k0_pay13 x0 x3 (k0_pay6 (F := F)) := by
  unfold out0_A_7
  rw [View.read_writes_eq_canon _ _ _ (cover0_A_7 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  rw [View.canon_cons_unit_zero (S := S1x6) hz, View.readCov_unit_zero (S := S1x6) _ hz]
  simp only [View.readAt_eq_ld, h1.read_unread, h4.read_unread, View.ld_unit_zero (S := S2048x6) hz,
    View.ld_unit_zero (S := S6x6) hz]

theorem pieceB_8 (hc : ¬cond0_0 i) (xo6 xo7 : Vec F S1x6 .f32) (xo8 xo9 : Vec F S1x10 .f32) (xo10 xo11 : Vec F S1x15 .f32) :
    out0_B_8 c i a1 h1 a2 h2 a3 h3 a4 h4 a5 h5 a6 h6 a7 h7 a8 h8 a9 h9 a10 h10 a11 h11 a12 h12 hc x0 x1 x2 x3 x4 x5 xo6 xo7 xo8 xo9 xo10 xo11
      = k0_pay15 x1 x4 xo8 := by
  unfold out0_B_8
  rw [View.read_writes_eq_canon _ _ _ (cover0_B_8 c i a1 h1 a2 h2 a3 h3 a4 h4 a5 h5 a6 h6 a7 h7 a8 h8 a9 h9 a10 h10 a11 h11 a12 h12 hc x0 x1 x2 x3 x4 x5 xo6 xo7 xo8 xo9 xo10 xo11)]
  unfold kernelRun0_B
  dsimp only
  sl_unfold_words
  rw [View.canon_unit_zero hz]
  simp only [View.readAt_eq_ld, h2.read_unread, h5.read_unread, h9.read_unread, View.ld_unit_zero (S := S2048x10) hz,
    View.ld_unit_zero (S := S10x10) hz, View.ld_unit_zero (S := S1x10) hz]

theorem pieceA_8 (hc : cond0_0 i) :
    out0_A_8 c i a1 h1 a2 h2 a3 h3 a4 h4 a5 h5 a6 h6 a7 h7 a8 h8 a9 h9 a10 h10 a11 h11 a12 h12 hc x0 x1 x2 x3 x4 x5
      = k0_pay15 x1 x4 (k0_pay7 (F := F)) := by
  unfold out0_A_8
  rw [View.read_writes_eq_canon _ _ _ (cover0_A_8 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  rw [View.canon_cons_unit_zero (S := S1x10) hz, View.readCov_unit_zero (S := S1x10) _ hz]
  simp only [View.readAt_eq_ld, h2.read_unread, h5.read_unread, View.ld_unit_zero (S := S2048x10) hz,
    View.ld_unit_zero (S := S10x10) hz]

theorem pieceB_9 (hc : ¬cond0_0 i) (xo6 xo7 : Vec F S1x6 .f32) (xo8 xo9 : Vec F S1x10 .f32) (xo10 xo11 : Vec F S1x15 .f32) :
    out0_B_9 c i a1 h1 a2 h2 a3 h3 a4 h4 a5 h5 a6 h6 a7 h7 a8 h8 a9 h9 a10 h10 a11 h11 a12 h12 hc x0 x1 x2 x3 x4 x5 xo6 xo7 xo8 xo9 xo10 xo11
      = k0_pay1 (k0_pay14 x1 x4) xo9 := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 xo6 xo7 xo8 xo9 xo10 xo11)]
  unfold kernelRun0_B
  dsimp only
  sl_unfold_words
  rw [View.canon_unit_zero hz]
  simp only [View.readAt_eq_ld, h2.read_unread, h5.read_unread, h10.read_unread, View.ld_unit_zero (S := S2048x10) hz,
    View.ld_unit_zero (S := S10x10) hz, View.ld_unit_zero (S := S1x10) hz]

theorem pieceA_9 (hc : cond0_0 i) :
    out0_A_9 c i a1 h1 a2 h2 a3 h3 a4 h4 a5 h5 a6 h6 a7 h7 a8 h8 a9 h9 a10 h10 a11 h11 a12 h12 hc x0 x1 x2 x3 x4 x5
      = k0_pay1 (k0_pay14 x1 x4) (k0_pay8 (F := F)) := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  rw [View.canon_cons_unit_zero (S := S1x10) hz, View.readCov_unit_zero (S := S1x10) _ hz]
  simp only [View.readAt_eq_ld, h2.read_unread, h5.read_unread, View.ld_unit_zero (S := S2048x10) hz,
    View.ld_unit_zero (S := S10x10) hz]

theorem pieceB_10 (hc : ¬cond0_0 i) (xo6 xo7 : Vec F S1x6 .f32) (xo8 xo9 : Vec F S1x10 .f32) (xo10 xo11 : Vec F S1x15 .f32) :
    out0_B_10 c i a1 h1 a2 h2 a3 h3 a4 h4 a5 h5 a6 h6 a7 h7 a8 h8 a9 h9 a10 h10 a11 h11 a12 h12 hc x0 x1 x2 x3 x4 x5 xo6 xo7 xo8 xo9 xo10 xo11
      = k0_pay3 x2 x5 xo10 := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 xo6 xo7 xo8 xo9 xo10 xo11)]
  unfold kernelRun0_B
  dsimp only
  sl_unfold_words
  rw [View.canon_unit_zero hz]
  simp only [View.readAt_eq_ld, h3.read_unread, h6.read_unread, h11.read_unread, View.ld_unit_zero (S := S2048x15) hz,
    View.ld_unit_zero (S := S15x15) hz, View.ld_unit_zero (S := S1x15) hz]

theorem pieceA_10 (hc : cond0_0 i) :
    out0_A_10 c i a1 h1 a2 h2 a3 h3 a4 h4 a5 h5 a6 h6 a7 h7 a8 h8 a9 h9 a10 h10 a11 h11 a12 h12 hc x0 x1 x2 x3 x4 x5
      = k0_pay3 x2 x5 (k0_pay9 (F := F)) := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  rw [View.canon_cons_unit_zero (S := S1x15) hz, View.readCov_unit_zero (S := S1x15) _ hz]
  simp only [View.readAt_eq_ld, h3.read_unread, h6.read_unread, View.ld_unit_zero (S := S2048x15) hz,
    View.ld_unit_zero (S := S15x15) hz]

theorem pieceB_11 (hc : ¬cond0_0 i) (xo6 xo7 : Vec F S1x6 .f32) (xo8 xo9 : Vec F S1x10 .f32) (xo10 xo11 : Vec F S1x15 .f32) :
    out0_B_11 c i a1 h1 a2 h2 a3 h3 a4 h4 a5 h5 a6 h6 a7 h7 a8 h8 a9 h9 a10 h10 a11 h11 a12 h12 hc x0 x1 x2 x3 x4 x5 xo6 xo7 xo8 xo9 xo10 xo11
      = k0_pay4 x2 x5 xo11 := by
  unfold out0_B_11
  rw [View.read_writes_eq_canon _ _ _ (cover0_B_11 c i a1 h1 a2 h2 a3 h3 a4 h4 a5 h5 a6 h6 a7 h7 a8 h8 a9 h9 a10 h10 a11 h11 a12 h12 hc x0 x1 x2 x3 x4 x5 xo6 xo7 xo8 xo9 xo10 xo11)]
  unfold kernelRun0_B
  dsimp only
  sl_unfold_words
  rw [View.canon_unit_zero hz]
  simp only [View.readAt_eq_ld, h3.read_unread, h6.read_unread, h12.read_unread, View.ld_unit_zero (S := S2048x15) hz,
    View.ld_unit_zero (S := S15x15) hz, View.ld_unit_zero (S := S1x15) hz]

theorem pieceA_11 (hc : cond0_0 i) :
    out0_A_11 c i a1 h1 a2 h2 a3 h3 a4 h4 a5 h5 a6 h6 a7 h7 a8 h8 a9 h9 a10 h10 a11 h11 a12 h12 hc x0 x1 x2 x3 x4 x5
      = k0_pay4 x2 x5 (k0_pay10 (F := F)) := by
  unfold out0_A_11
  rw [View.read_writes_eq_canon _ _ _ (cover0_A_11 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  rw [View.canon_cons_unit_zero (S := S1x15) hz, View.readCov_unit_zero (S := S1x15) _ hz]
  simp only [View.readAt_eq_ld, h3.read_unread, h6.read_unread, View.ld_unit_zero (S := S2048x15) hz,
    View.ld_unit_zero (S := S15x15) hz]
end Pieces

/-! ## One branch's arithmetic at an index -/

/-- The batch is 64 blocks of 2048 rows: a sum over it is the sum over the blocks of the sums over their rows.
    Addition of extended reals is commutative and associative, so the order does not matter. -/
theorem sum_rows (f : Fin NB → EReal) :
    ∑ r : Fin NB, f r = ∑ t : Fin 64, ∑ s : Fin 2048, f ⟨2048 * t.val + s.val, by have := t.isLt; have := s.isLt; show _ < 131072; omega⟩ := by
  show ∑ r : Fin (64 * 2048), f r = _
  rw [← Equiv.sum_comp (finProdFinEquiv (m := 64) (n := 2048)), Fintype.sum_prod_type]
  refine Finset.sum_congr rfl fun t _ => Finset.sum_congr rfl fun s _ => congrArg f (Fin.ext ?_)
  show s.val + 2048 * t.val = 2048 * t.val + s.val
  omega

/-! ### Width 6 -/

abbrev D6 : DotDims S2048x6 S6x6 S2048x6 := dot_S2048x6_S6x6_S2048x6_1_0_0_1_n_n

theorem lhs6_0 (j : S2048x6.Idx) (k : D6.contr.Idx) : (D6.lhsIdx j k 0).val = (j 0).val := rfl
theorem lhs6_1 (j : S2048x6.Idx) (k : D6.contr.Idx) : (D6.lhsIdx j k 1).val = (k ⟨0, by decide⟩).val :=
  D6.lhsIdx_val_of_single rfl j k
theorem rhs6_0 (j : S2048x6.Idx) (k : D6.contr.Idx) : (D6.rhsIdx j k 0).val = (k ⟨0, by decide⟩).val :=
  D6.rhsIdx_val_of_single rfl j k
theorem rhs6_1 (j : S2048x6.Idx) (k : D6.contr.Idx) : (D6.rhsIdx j k 1).val = (j 1).val := rfl

/-- The block product into the zero accumulator, at row `s` and column `j`: the row of the left factor against the
    column of the right one. -/
theorem mm6 {φ₁ φ₂ : FTy} (x : FVec Ideal S2048x6 φ₁) (w : FVec Ideal S6x6 φ₂) (s : Fin 2048) (j : Fin 6) :
    FloatOps.matmul D6 none x w (constant S2048x6 .f32 0x00000000#32) (ix2 s j) = ∑ i : Fin 6, x (ix2 s i) * w (ix2 i j) := by
  refine (Ideal.matmul_constant_zero_apply D6 none x w (ix2 s j)).trans ?_
  refine (Equiv.sum_comp (contrEquiv1 D6 6 rfl rfl).symm _).symm.trans ?_
  refine Finset.sum_congr rfl fun i _ => ?_
  have e := contrEquiv1_symm_val D6 6 rfl rfl i
  refine congrArg₂ (· * ·) (congrArg x ?_) (congrArg w ?_)
  · funext a
    apply Fin.ext
    match a with
    | ⟨0, _⟩ => exact lhs6_0 _ _
    | ⟨1, _⟩ => exact (lhs6_1 _ _).trans e
  · funext a
    apply Fin.ext
    match a with
    | ⟨0, _⟩ => exact (rhs6_0 _ _).trans e
    | ⟨1, _⟩ => exact rhs6_1 _ _

/-- The reduction over a block's rows, at column `j`: the sum over its 2048 rows. -/
theorem red6 (src : FVec Ideal S2048x6 .f32) (hφ : FKind.Formats .f32) (hacc : (0x00000000#32 : BitVec 32) = FKind.add.neutral .f32 hφ) (j : Fin 6) :
    multiReduction .add [0] S6 src 0x00000000#32 reduces_S2048x6_S6 hφ hacc (ix1 j) = ∑ s : Fin 2048, src (ix2 s j) := by
  refine (Ideal.multiReduction_add_single src 0x00000000#32 reduces_S2048x6_S6 hφ hacc (ix1 j)).trans ?_
  refine Finset.sum_congr rfl fun s _ => congrArg src ?_
  funext a
  match a with
  | ⟨0, _⟩ => rfl
  | ⟨1, _⟩ => rfl

/-- The block's product at an entry (the change of float format is the identity here). -/
theorem prod6_apply (x : Vec Ideal S2048x6 .f32) (w : Vec Ideal S6x6 .f32) (s : Fin 2048) (j : Fin 6) :
    k0_pay11 x w (ix2 s j) = ∑ i : Fin 6, x (ix2 s i) * w (ix2 i j) := by
  unfold k0_pay11
  exact mm6 _ _ s j

/-- The accumulator of sums gains the block's column sums. -/
theorem accSum6_apply (x : Vec Ideal S2048x6 .f32) (w : Vec Ideal S6x6 .f32) (acc : Vec Ideal S1x6 .f32) (j : Fin 6) :
    k0_pay12 x w acc (ix2 (0 : Fin 1) j) = acc (ix2 (0 : Fin 1) j) + ∑ s : Fin 2048, ∑ i : Fin 6, x (ix2 s i) * w (ix2 i j) := by
  unfold k0_pay12
  refine congrArg₂ (· + ·) (congrFun (shapeCast_self acc _) _) ?_
  refine (shapeCast_a_1a_apply _ _ (0 : Fin 1) j).trans ?_
  refine (red6 _ _ _ j).trans ?_
  exact Finset.sum_congr rfl fun s _ => prod6_apply x w s j

/-- The accumulator of squares gains the block's column sums of squares. -/
theorem accSq6_apply (x : Vec Ideal S2048x6 .f32) (w : Vec Ideal S6x6 .f32) (acc : Vec Ideal S1x6 .f32) (j : Fin 6) :
    k0_pay13 x w acc (ix2 (0 : Fin 1) j) = acc (ix2 (0 : Fin 1) j)
      + ∑ s : Fin 2048, (∑ i : Fin 6, x (ix2 s i) * w (ix2 i j)) * (∑ i : Fin 6, x (ix2 s i) * w (ix2 i j)) := by
  unfold k0_pay13
  refine congrArg₂ (· + ·) (congrFun (shapeCast_self acc _) _) ?_
  refine (shapeCast_a_1a_apply _ _ (0 : Fin 1) j).trans ?_
  refine (red6 _ _ _ j).trans ?_
  exact Finset.sum_congr rfl fun s _ => congrArg₂ (· * ·) (prod6_apply x w s j) (prod6_apply x w s j)

/-- The cleared accumulators hold zero. -/
theorem zeroSum6_apply (j : Fin 6) : (k0_pay5 (F := Ideal)) (ix2 (0 : Fin 1) j) = 0 := Ideal.ofBits_zero_f32
theorem zeroSq6_apply (j : Fin 6) : (k0_pay6 (F := Ideal)) (ix2 (0 : Fin 1) j) = 0 := Ideal.ofBits_zero_f32

/-! ### Width 10 -/

abbrev D10 : DotDims S2048x10 S10x10 S2048x10 := dot_S2048x10_S10x10_S2048x10_1_0_0_1_n_n

theorem lhs10_0 (j : S2048x10.Idx) (k : D10.contr.Idx) : (D10.lhsIdx j k 0).val = (j 0).val := rfl
theorem lhs10_1 (j : S2048x10.Idx) (k : D10.contr.Idx) : (D10.lhsIdx j k 1).val = (k ⟨0, by decide⟩).val :=
  D10.lhsIdx_val_of_single rfl j k
theorem rhs10_0 (j : S2048x10.Idx) (k : D10.contr.Idx) : (D10.rhsIdx j k 0).val = (k ⟨0, by decide⟩).val :=
  D10.rhsIdx_val_of_single rfl j k
theorem rhs10_1 (j : S2048x10.Idx) (k : D10.contr.Idx) : (D10.rhsIdx j k 1).val = (j 1).val := rfl

/-- The block product into the zero accumulator, at row `s` and column `j`: the row of the left factor against the
    column of the right one. -/
theorem mm10 {φ₁ φ₂ : FTy} (x : FVec Ideal S2048x10 φ₁) (w : FVec Ideal S10x10 φ₂) (s : Fin 2048) (j : Fin 10) :
    FloatOps.matmul D10 none x w (constant S2048x10 .f32 0x00000000#32) (ix2 s j) = ∑ i : Fin 10, x (ix2 s i) * w (ix2 i j) := by
  refine (Ideal.matmul_constant_zero_apply D10 none x w (ix2 s j)).trans ?_
  refine (Equiv.sum_comp (contrEquiv1 D10 10 rfl rfl).symm _).symm.trans ?_
  refine Finset.sum_congr rfl fun i _ => ?_
  have e := contrEquiv1_symm_val D10 10 rfl rfl i
  refine congrArg₂ (· * ·) (congrArg x ?_) (congrArg w ?_)
  · funext a
    apply Fin.ext
    match a with
    | ⟨0, _⟩ => exact lhs10_0 _ _
    | ⟨1, _⟩ => exact (lhs10_1 _ _).trans e
  · funext a
    apply Fin.ext
    match a with
    | ⟨0, _⟩ => exact (rhs10_0 _ _).trans e
    | ⟨1, _⟩ => exact rhs10_1 _ _

/-- The reduction over a block's rows, at column `j`: the sum over its 2048 rows. -/
theorem red10 (src : FVec Ideal S2048x10 .f32) (hφ : FKind.Formats .f32) (hacc : (0x00000000#32 : BitVec 32) = FKind.add.neutral .f32 hφ) (j : Fin 10) :
    multiReduction .add [0] S10 src 0x00000000#32 reduces_S2048x10_S10 hφ hacc (ix1 j) = ∑ s : Fin 2048, src (ix2 s j) := by
  refine (Ideal.multiReduction_add_single src 0x00000000#32 reduces_S2048x10_S10 hφ hacc (ix1 j)).trans ?_
  refine Finset.sum_congr rfl fun s _ => congrArg src ?_
  funext a
  match a with
  | ⟨0, _⟩ => rfl
  | ⟨1, _⟩ => rfl

/-- The block's product at an entry (the change of float format is the identity here). -/
theorem prod10_apply (x : Vec Ideal S2048x10 .f32) (w : Vec Ideal S10x10 .f32) (s : Fin 2048) (j : Fin 10) :
    k0_pay14 x w (ix2 s j) = ∑ i : Fin 10, x (ix2 s i) * w (ix2 i j) := by
  unfold k0_pay14
  exact mm10 _ _ s j

/-- The accumulator of sums gains the block's column sums. -/
theorem accSum10_apply (x : Vec Ideal S2048x10 .f32) (w : Vec Ideal S10x10 .f32) (acc : Vec Ideal S1x10 .f32) (j : Fin 10) :
    k0_pay15 x w acc (ix2 (0 : Fin 1) j) = acc (ix2 (0 : Fin 1) j) + ∑ s : Fin 2048, ∑ i : Fin 10, x (ix2 s i) * w (ix2 i j) := by
  unfold k0_pay15
  refine congrArg₂ (· + ·) (congrFun (shapeCast_self acc _) _) ?_
  refine (shapeCast_a_1a_apply _ _ (0 : Fin 1) j).trans ?_
  refine (red10 _ _ _ j).trans ?_
  exact Finset.sum_congr rfl fun s _ => prod10_apply x w s j

/-- The accumulator of squares gains the block's column sums of squares. -/
theorem accSq10_apply (x : Vec Ideal S2048x10 .f32) (w : Vec Ideal S10x10 .f32) (acc : Vec Ideal S1x10 .f32) (j : Fin 10) :
    k0_pay1 (k0_pay14 x w) acc (ix2 (0 : Fin 1) j) = acc (ix2 (0 : Fin 1) j)
      + ∑ s : Fin 2048, (∑ i : Fin 10, x (ix2 s i) * w (ix2 i j)) * (∑ i : Fin 10, x (ix2 s i) * w (ix2 i j)) := by
  unfold k0_pay1
  refine congrArg₂ (· + ·) (congrFun (shapeCast_self acc _) _) ?_
  refine (shapeCast_a_1a_apply _ _ (0 : Fin 1) j).trans ?_
  refine (red10 _ _ _ j).trans ?_
  exact Finset.sum_congr rfl fun s _ => congrArg₂ (· * ·) (prod10_apply x w s j) (prod10_apply x w s j)

/-- The cleared accumulators hold zero. -/
theorem zeroSum10_apply (j : Fin 10) : (k0_pay7 (F := Ideal)) (ix2 (0 : Fin 1) j) = 0 := Ideal.ofBits_zero_f32
theorem zeroSq10_apply (j : Fin 10) : (k0_pay8 (F := Ideal)) (ix2 (0 : Fin 1) j) = 0 := Ideal.ofBits_zero_f32

/-! ### Width 15 -/

abbrev D15 : DotDims S2048x15 S15x15 S2048x15 := dot_S2048x15_S15x15_S2048x15_1_0_0_1_n_n

theorem lhs15_0 (j : S2048x15.Idx) (k : D15.contr.Idx) : (D15.lhsIdx j k 0).val = (j 0).val := rfl
theorem lhs15_1 (j : S2048x15.Idx) (k : D15.contr.Idx) : (D15.lhsIdx j k 1).val = (k ⟨0, by decide⟩).val :=
  D15.lhsIdx_val_of_single rfl j k
theorem rhs15_0 (j : S2048x15.Idx) (k : D15.contr.Idx) : (D15.rhsIdx j k 0).val = (k ⟨0, by decide⟩).val :=
  D15.rhsIdx_val_of_single rfl j k
theorem rhs15_1 (j : S2048x15.Idx) (k : D15.contr.Idx) : (D15.rhsIdx j k 1).val = (j 1).val := rfl

/-- The block product into the zero accumulator, at row `s` and column `j`: the row of the left factor against the
    column of the right one. -/
theorem mm15 {φ₁ φ₂ : FTy} (x : FVec Ideal S2048x15 φ₁) (w : FVec Ideal S15x15 φ₂) (s : Fin 2048) (j : Fin 15) :
    FloatOps.matmul D15 none x w (constant S2048x15 .f32 0x00000000#32) (ix2 s j) = ∑ i : Fin 15, x (ix2 s i) * w (ix2 i j) := by
  refine (Ideal.matmul_constant_zero_apply D15 none x w (ix2 s j)).trans ?_
  refine (Equiv.sum_comp (contrEquiv1 D15 15 rfl rfl).symm _).symm.trans ?_
  refine Finset.sum_congr rfl fun i _ => ?_
  have e := contrEquiv1_symm_val D15 15 rfl rfl i
  refine congrArg₂ (· * ·) (congrArg x ?_) (congrArg w ?_)
  · funext a
    apply Fin.ext
    match a with
    | ⟨0, _⟩ => exact lhs15_0 _ _
    | ⟨1, _⟩ => exact (lhs15_1 _ _).trans e
  · funext a
    apply Fin.ext
    match a with
    | ⟨0, _⟩ => exact (rhs15_0 _ _).trans e
    | ⟨1, _⟩ => exact rhs15_1 _ _

/-- The reduction over a block's rows, at column `j`: the sum over its 2048 rows. -/
theorem red15 (src : FVec Ideal S2048x15 .f32) (hφ : FKind.Formats .f32) (hacc : (0x00000000#32 : BitVec 32) = FKind.add.neutral .f32 hφ) (j : Fin 15) :
    multiReduction .add [0] S15 src 0x00000000#32 reduces_S2048x15_S15 hφ hacc (ix1 j) = ∑ s : Fin 2048, src (ix2 s j) := by
  refine (Ideal.multiReduction_add_single src 0x00000000#32 reduces_S2048x15_S15 hφ hacc (ix1 j)).trans ?_
  refine Finset.sum_congr rfl fun s _ => congrArg src ?_
  funext a
  match a with
  | ⟨0, _⟩ => rfl
  | ⟨1, _⟩ => rfl

/-- The block's product at an entry (the change of float format is the identity here). -/
theorem prod15_apply (x : Vec Ideal S2048x15 .f32) (w : Vec Ideal S15x15 .f32) (s : Fin 2048) (j : Fin 15) :
    k0_pay2 x w (ix2 s j) = ∑ i : Fin 15, x (ix2 s i) * w (ix2 i j) := by
  unfold k0_pay2
  exact mm15 _ _ s j

/-- The accumulator of sums gains the block's column sums. -/
theorem accSum15_apply (x : Vec Ideal S2048x15 .f32) (w : Vec Ideal S15x15 .f32) (acc : Vec Ideal S1x15 .f32) (j : Fin 15) :
    k0_pay3 x w acc (ix2 (0 : Fin 1) j) = acc (ix2 (0 : Fin 1) j) + ∑ s : Fin 2048, ∑ i : Fin 15, x (ix2 s i) * w (ix2 i j) := by
  unfold k0_pay3
  refine congrArg₂ (· + ·) (congrFun (shapeCast_self acc _) _) ?_
  refine (shapeCast_a_1a_apply _ _ (0 : Fin 1) j).trans ?_
  refine (red15 _ _ _ j).trans ?_
  exact Finset.sum_congr rfl fun s _ => prod15_apply x w s j

/-- The accumulator of squares gains the block's column sums of squares. -/
theorem accSq15_apply (x : Vec Ideal S2048x15 .f32) (w : Vec Ideal S15x15 .f32) (acc : Vec Ideal S1x15 .f32) (j : Fin 15) :
    k0_pay4 x w acc (ix2 (0 : Fin 1) j) = acc (ix2 (0 : Fin 1) j)
      + ∑ s : Fin 2048, (∑ i : Fin 15, x (ix2 s i) * w (ix2 i j)) * (∑ i : Fin 15, x (ix2 s i) * w (ix2 i j)) := by
  unfold k0_pay4
  refine congrArg₂ (· + ·) (congrFun (shapeCast_self acc _) _) ?_
  refine (shapeCast_a_1a_apply _ _ (0 : Fin 1) j).trans ?_
  refine (red15 _ _ _ j).trans ?_
  exact Finset.sum_congr rfl fun s _ => congrArg₂ (· * ·) (prod15_apply x w s j) (prod15_apply x w s j)

/-- The cleared accumulators hold zero. -/
theorem zeroSum15_apply (j : Fin 15) : (k0_pay9 (F := Ideal)) (ix2 (0 : Fin 1) j) = 0 := Ideal.ofBits_zero_f32
theorem zeroSq15_apply (j : Fin 15) : (k0_pay10 (F := Ideal)) (ix2 (0 : Fin 1) j) = 0 := Ideal.ofBits_zero_f32

/-! ## The running sum over the grid -/

/-- Block `t`'s share of column `j`'s sum: rows `2048 t … 2048 t + 2047`. -/
def blkTerm {d : ℕ} (y : Fin NB → Fin d → EReal) (j : Fin d) (t : ℕ) : EReal :=
  if ht : t < 64 then ∑ s : Fin 2048, y ⟨2048 * t + s.val, by have := s.isLt; show _ < 131072; omega⟩ j else 0

/-- The 64 blocks' shares add up to the column's sum over the batch. -/
theorem sum_blkTerm {d : ℕ} (y : Fin NB → Fin d → EReal) (j : Fin d) :
    ∑ t ∈ Finset.range 64, blkTerm y j t = ∑ r : Fin NB, y r j := by
  rw [Finset.sum_range (f := blkTerm y j), sum_rows (fun r => y r j)]
  exact Finset.sum_congr rfl fun t _ => dif_pos t.isLt

/-- A quantity that starts at `0 + b 0` and gains `b (n + 1)` at step `n + 1` is the sum of the `b`s so far. -/
theorem chain_sum {N : ℕ} (a : (n : ℕ) → n < N → EReal) (b : ℕ → EReal)
    (h0 : ∀ h, a 0 h = 0 + b 0) (hs : ∀ n (h : n + 1 < N), a (n + 1) h = a n (Nat.lt_of_succ_lt h) + b (n + 1)) :
    ∀ n (h : n < N), a n h = ∑ t ∈ Finset.range (n + 1), b t
  | 0, h => by rw [h0 h, zero_add, Finset.sum_range_one]
  | n + 1, h => by rw [hs n h, chain_sum a b h0 hs n _, Finset.sum_range_succ _ (n + 1)]

variable (V : (c : Dev nD) → (b : Ref sig .tc) → Buf (Elt Ideal) ((c : Thread nD τ).loc b))

/-! ## The first branch (width 6): its arrays and blocks -/

/-- Where the input windows' blocks sit: the batch window's block `t` starts at row `t` times its height, the weight's at the origin. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)

/-- Row `s` of block `t` of the input is row `2048 t + s` of the array. -/
theorem xblk0 (c : Dev nD) (t : Fin cfg0.N) (ht : t.val < 64) (s : Fin 2048) (i : Fin 6) :
    (iblk0 V c 0 t : Vec Ideal S2048x6 .f32) (ix2 s i)
      = cur2 (V c main_arg0 : S131072x6.Idx → EReal) ⟨2048 * t.val + s.val, by have := s.isLt; show _ < 131072; omega⟩ i := by
  have hi := idx0_0 t
  unfold iblk0
  rw [View.read_apply]
  show V c main_arg0 _ = V c main_arg0 _
  congr 1
  funext a
  apply Fin.ext
  match a with
  | ⟨0, _⟩ => show win0_0.index t 0 * 2048 + 1 * s.val = 2048 * t.val + s.val; rw [hi.1]; omega
  | ⟨1, _⟩ => show win0_0.index t 1 * 6 + 1 * i.val = i.val; rw [hi.2]; omega

/-- The weight's one block is the weight. -/
theorem wblk0 (c : Dev nD) (t : Fin cfg0.N) (i j : Fin 6) :
    (iblk0 V c 3 t : Vec Ideal S6x6 .f32) (ix2 i j) = cur2 (V c main_arg3 : S6x6.Idx → EReal) i j := by
  have hi := idx0_3 t
  unfold iblk0
  rw [View.read_apply]
  show V c main_arg3 _ = V c main_arg3 _
  congr 1
  funext a
  apply Fin.ext
  match a with
  | ⟨0, _⟩ => show win0_3.index t 0 * 6 + 1 * i.val = i.val; rw [hi.1]; omega
  | ⟨1, _⟩ => show win0_3.index t 1 * 6 + 1 * j.val = j.val; rw [hi.2]; omega

/-- The branch's product `x · w` over the arrays as the region finds them, and its entrywise square. -/
abbrev Y0 (c : Dev nD) : Fin NB → Fin 6 → EReal :=
  ymat (cur2 (V c main_arg0 : S131072x6.Idx → EReal)) (cur2 (V c main_arg3 : S6x6.Idx → EReal))
abbrev Q0 (c : Dev nD) : Fin NB → Fin 6 → EReal := fun r j => Y0 V c r j * Y0 V c r j

/-- The input block and the weight block at a point, at their literal shapes. -/
abbrev xb0 (c : Dev nD) (t : Fin cfg0.N) : Vec Ideal S2048x6 .f32 := iblk0 V c 0 t
abbrev wb0 (c : Dev nD) (t : Fin cfg0.N) : Vec Ideal S6x6 .f32 := iblk0 V c 3 t

/-- A row of the block's product is a row of the batch's. -/
theorem row0 (c : Dev nD) (t : Fin cfg0.N) (ht : t.val < 64) (s : Fin 2048) (j : Fin 6) :
    ∑ i : Fin 6, xb0 V c t (ix2 s i) * wb0 V c t (ix2 i j)
      = Y0 V c ⟨2048 * t.val + s.val, by have := s.isLt; show _ < 131072; omega⟩ j :=
  Finset.sum_congr rfl fun i _ => congrArg₂ (· * ·) (xblk0 V c t ht s i) (wblk0 V c t i j)

/-- A block's product summed over its rows is the block's share of the column sum; likewise for the squares. -/
theorem blk0_sum (c : Dev nD) (t : Fin cfg0.N) (j : Fin 6) :
    ∑ s : Fin 2048, ∑ i : Fin 6, xb0 V c t (ix2 s i) * wb0 V c t (ix2 i j) = blkTerm (Y0 V c) j t.val := by
  have ht : t.val < 64 := lt_of_lt_of_eq t.isLt (show cfg0.N = 64 from N_0)
  rw [blkTerm, dif_pos ht]
  exact Finset.sum_congr rfl fun s _ => row0 V c t ht s j
theorem blk0_sumsq (c : Dev nD) (t : Fin cfg0.N) (j : Fin 6) :
    ∑ s : Fin 2048, (∑ i : Fin 6, xb0 V c t (ix2 s i) * wb0 V c t (ix2 i j)) * (∑ i : Fin 6, xb0 V c t (ix2 s i) * wb0 V c t (ix2 i j))
      = blkTerm (Q0 V c) j t.val := by
  have ht : t.val < 64 := lt_of_lt_of_eq t.isLt (show cfg0.N = 64 from N_0)
  rw [blkTerm, dif_pos ht]
  exact Finset.sum_congr rfl fun s _ => congrArg₂ (· * ·) (row0 V c t ht s j) (row0 V c t ht s j)

/-! ### The first branch's accumulator of sums (output 6) -/

theorem step6_A (c : Dev nD) (j : Fin 6) (h : 0 < cfg0.N) :
    (outsAt0 V c 0 h).1 (ix2 (0 : Fin 1) j) = 0 + blkTerm (Y0 V c) j 0 := by
  rw [outsAt0_A V c ⟨0, h⟩ rfl]
  dsimp only
  rw [pieceA_6]
  refine (accSum6_apply (xb0 V c ⟨0, h⟩) (wb0 V c ⟨0, h⟩) (k0_pay5 (F := Ideal)) j).trans ?_
  exact congrArg₂ (· + ·) (zeroSum6_apply j) (blk0_sum V c ⟨0, h⟩ j)

theorem step6_B (c : Dev nD) (j : Fin 6) (n : ℕ) (h : n + 1 < cfg0.N) :
    (outsAt0 V c (n + 1) h).1 (ix2 (0 : Fin 1) j)
      = (outsAt0 V c n (Nat.lt_of_succ_lt h)).1 (ix2 (0 : Fin 1) j) + blkTerm (Y0 V c) j (n + 1) := by
  have hN : cfg0.N = 64 := N_0
  have hB : ¬(⟨n + 1, h⟩ : Fin cfg0.N).val % 64 = 0 := by dsimp only; omega
  rw [outsAt0_B V c ⟨n + 1, h⟩ hB]
  dsimp only
  rw [pieceB_6]
  simp only [Nat.add_sub_cancel]
  refine (accSum6_apply (xb0 V c ⟨n + 1, h⟩) (wb0 V c ⟨n + 1, h⟩) (outsAt0 V c n (Nat.lt_of_succ_lt h)).1 j).trans ?_
  exact congrArg (_ + ·) (blk0_sum V c ⟨n + 1, h⟩ j)

/-- After point `n` the accumulator holds the shares of the first `n + 1` blocks. -/
theorem outs6 (c : Dev nD) (j : Fin 6) (n : ℕ) (h : n < cfg0.N) :
    (outsAt0 V c n h).1 (ix2 (0 : Fin 1) j) = ∑ t ∈ Finset.range (n + 1), blkTerm (Y0 V c) j t :=
  chain_sum (fun n h => (outsAt0 V c n h).1 (ix2 (0 : Fin 1) j)) (blkTerm (Y0 V c) j) (step6_A V c j) (step6_B V c j) n h

/-- The accumulator's one block sits at the origin at every point, and is the whole array. -/
theorem idx0_6 : ∀ t : Fin cfg0.N, (win0_6.index t 0 = 0 ∧ win0_6.index t 1 = 0)
      ∧ (win0_6.xsize (grid0.coords t) 0 = 1 ∧ win0_6.xsize (grid0.coords t) 1 = 6) :=
  (by decide +kernel : ∀ t : Fin grid0.N, (win0_6.index t 0 = 0 ∧ win0_6.index t 1 = 0)
      ∧ (win0_6.xsize (grid0.coords t) 0 = 1 ∧ win0_6.xsize (grid0.coords t) 1 = 6))

/-- What the array ends holding: the column sums of the first branch's product. -/
abbrev G6 (c : Dev nD) : Buf (Elt Ideal) ((c : Thread nD τ).loc main_v0_0) :=
  (fun idx => colSum (Y0 V c) (idx 1) : S1x6.Idx → EReal)

/-- After the last point the accumulator holds all 64 blocks' shares: the sum over the batch. -/
theorem last6 (c : Dev nD) (h : 63 < cfg0.N) : (outsAt0 V c 63 h).1 = G6 V c := by
  funext idx
  obtain ⟨u, j, rfl⟩ : ∃ (u : Fin 1) (j : Fin 6), idx = ix2 u j := ⟨idx 0, idx 1, eq_ix2 idx⟩
  obtain rfl : u = 0 := Subsingleton.elim _ _
  rw [outs6 V c j 63 h]
  exact sum_blkTerm (Y0 V c) j

/-- The one write-back, after the last point, writes it. -/
theorem flushed6 (c : Dev nD) (t : Fin cfg0.N) (hf : (cfg0.win 6).flush t = true) :
    (dat0 V c).flushed 6 t = ((cfg0.win 6).blk t).view.read (Elt Ideal) (G6 V c) := by
  have hN : cfg0.N = 64 := N_0
  have h63 : t.val = 63 := by have := (flush0_6 t).mp hf; have := t.isLt; omega
  obtain ⟨n, hn⟩ := t
  obtain rfl : n = 63 := h63
  show (cfg0.win 6).cut (grid0.coords ⟨63, hn⟩) ((dat0 V c).after 6 ⟨63, hn⟩) = _
  rw [after0_6, last6]
  have hi := idx0_6 ⟨63, hn⟩
  have hz' : (fun a => win0_6.index ⟨63, hn⟩ a * main_v0_0.ty.shape.size a) = fun _ => 0 := funext fun (a : Fin 2) => by
    match a with
    | ⟨0, _⟩ => show win0_6.index ⟨63, hn⟩ 0 * _ = 0; rw [hi.1.1, Nat.zero_mul]
    | ⟨1, _⟩ => show win0_6.index ⟨63, hn⟩ 1 * _ = 0; rw [hi.1.2, Nat.zero_mul]
  exact (Memref.read_access_unit_zero (Elt Ideal) main_v0_0 hz' (fun a => by rw [congrFun hz' a]; simp) (G6 V c)).symm

/-- So the array ends holding the column sums. -/
theorem final6 (c : Dev nD) : (dat0 V c).arrAt 6 cfg0.N = G6 V c :=
  (dat0 V c).arrAt_eq_of_cover 6 (G6 V c) (flushed6 V c) fun i => by
    have hN : cfg0.N = 64 := N_0
    have h63 : 63 < cfg0.N := by omega
    refine ⟨⟨63, h63⟩, (flush0_6 ⟨63, h63⟩).mpr rfl, ?_⟩
    have hi := idx0_6 ⟨63, h63⟩
    show i ∈ ((View.whole main_v0_0).slice (win0_6.rect ⟨63, h63⟩)).set
    rw [View.set_slice_whole, Rect.mem_set_unit]
    intro a
    have h0 : (i 0 : Nat) < 1 := (i 0).isLt
    have h1 : (i 1 : Nat) < 6 := (i 1).isLt
    match a with
    | ⟨0, _⟩ =>
      show win0_6.index ⟨63, h63⟩ 0 * win0_6.size 0 ≤ (i 0 : Nat)
        ∧ (i 0 : Nat) < win0_6.index ⟨63, h63⟩ 0 * win0_6.size 0 + win0_6.xsize (grid0.coords ⟨63, h63⟩) 0
      rw [hi.1.1, hi.2.1]; omega
    | ⟨1, _⟩ =>
      show win0_6.index ⟨63, h63⟩ 1 * win0_6.size 1 ≤ (i 1 : Nat)
        ∧ (i 1 : Nat) < win0_6.index ⟨63, h63⟩ 1 * win0_6.size 1 + win0_6.xsize (grid0.coords ⟨63, h63⟩) 1
      rw [hi.1.2, hi.2.2]; omega

theorem sum_tool (c : Dev nD) (j : Fin 6) :
    (dat0 (F := Ideal) V c).arrAt 6 cfg0.N (ix2 (0 : Fin 1) j)
      = colSum (ymat (cur2 (V c main_arg0)) (cur2 (V c main_arg3))) j :=
  congrFun (final6 V c) (ix2 (0 : Fin 1) j)

/-! ### The first branch's accumulator of sums of squares (output 7) -/

theorem step7_A (c : Dev nD) (j : Fin 6) (h : 0 < cfg0.N) :
    (outsAt0 V c 0 h).2.1 (ix2 (0 : Fin 1) j) = 0 + blkTerm (Q0 V c) j 0 := by
  rw [outsAt0_A V c ⟨0, h⟩ rfl]
  dsimp only
  rw [pieceA_7]
  refine (accSq6_apply (xb0 V c ⟨0, h⟩) (wb0 V c ⟨0, h⟩) (k0_pay6 (F := Ideal)) j).trans ?_
  exact congrArg₂ (· + ·) (zeroSq6_apply j) (blk0_sumsq V c ⟨0, h⟩ j)

theorem step7_B (c : Dev nD) (j : Fin 6) (n : ℕ) (h : n + 1 < cfg0.N) :
    (outsAt0 V c (n + 1) h).2.1 (ix2 (0 : Fin 1) j)
      = (outsAt0 V c n (Nat.lt_of_succ_lt h)).2.1 (ix2 (0 : Fin 1) j) + blkTerm (Q0 V c) j (n + 1) := by
  have hN : cfg0.N = 64 := N_0
  have hB : ¬(⟨n + 1, h⟩ : Fin cfg0.N).val % 64 = 0 := by dsimp only; omega
  rw [outsAt0_B V c ⟨n + 1, h⟩ hB]
  dsimp only
  rw [pieceB_7]
  simp only [Nat.add_sub_cancel]
  refine (accSq6_apply (xb0 V c ⟨n + 1, h⟩) (wb0 V c ⟨n + 1, h⟩) (outsAt0 V c n (Nat.lt_of_succ_lt h)).2.1 j).trans ?_
  exact congrArg (_ + ·) (blk0_sumsq V c ⟨n + 1, h⟩ j)

/-- After point `n` the accumulator holds the shares of the first `n + 1` blocks. -/
theorem outs7 (c : Dev nD) (j : Fin 6) (n : ℕ) (h : n < cfg0.N) :
    (outsAt0 V c n h).2.1 (ix2 (0 : Fin 1) j) = ∑ t ∈ Finset.range (n + 1), blkTerm (Q0 V c) j t :=
  chain_sum (fun n h => (outsAt0 V c n h).2.1 (ix2 (0 : Fin 1) j)) (blkTerm (Q0 V c) j) (step7_A V c j) (step7_B V c j) n h

/-- The accumulator's one block sits at the origin at every point, and is the whole array. -/
theorem idx0_7 : ∀ t : Fin cfg0.N, (win0_7.index t 0 = 0 ∧ win0_7.index t 1 = 0)
      ∧ (win0_7.xsize (grid0.coords t) 0 = 1 ∧ win0_7.xsize (grid0.coords t) 1 = 6) :=
  (by decide +kernel : ∀ t : Fin grid0.N, (win0_7.index t 0 = 0 ∧ win0_7.index t 1 = 0)
      ∧ (win0_7.xsize (grid0.coords t) 0 = 1 ∧ win0_7.xsize (grid0.coords t) 1 = 6))

/-- What the array ends holding: the column sums of squares of the first branch's product. -/
abbrev G7 (c : Dev nD) : Buf (Elt Ideal) ((c : Thread nD τ).loc main_v0_1) :=
  (fun idx => colSumSq (Y0 V c) (idx 1) : S1x6.Idx → EReal)

/-- After the last point the accumulator holds all 64 blocks' shares: the sum over the batch. -/
theorem last7 (c : Dev nD) (h : 63 < cfg0.N) : (outsAt0 V c 63 h).2.1 = G7 V c := by
  funext idx
  obtain ⟨u, j, rfl⟩ : ∃ (u : Fin 1) (j : Fin 6), idx = ix2 u j := ⟨idx 0, idx 1, eq_ix2 idx⟩
  obtain rfl : u = 0 := Subsingleton.elim _ _
  rw [outs7 V c j 63 h]
  exact sum_blkTerm (Q0 V c) j

/-- The one write-back, after the last point, writes it. -/
theorem flushed7 (c : Dev nD) (t : Fin cfg0.N) (hf : (cfg0.win 7).flush t = true) :
    (dat0 V c).flushed 7 t = ((cfg0.win 7).blk t).view.read (Elt Ideal) (G7 V c) := by
  have hN : cfg0.N = 64 := N_0
  have h63 : t.val = 63 := by have := (flush0_7 t).mp hf; have := t.isLt; omega
  obtain ⟨n, hn⟩ := t
  obtain rfl : n = 63 := h63
  show (cfg0.win 7).cut (grid0.coords ⟨63, hn⟩) ((dat0 V c).after 7 ⟨63, hn⟩) = _
  rw [after0_7, last7]
  have hi := idx0_7 ⟨63, hn⟩
  have hz' : (fun a => win0_7.index ⟨63, hn⟩ a * main_v0_1.ty.shape.size a) = fun _ => 0 := funext fun (a : Fin 2) => by
    match a with
    | ⟨0, _⟩ => show win0_7.index ⟨63, hn⟩ 0 * _ = 0; rw [hi.1.1, Nat.zero_mul]
    | ⟨1, _⟩ => show win0_7.index ⟨63, hn⟩ 1 * _ = 0; rw [hi.1.2, Nat.zero_mul]
  exact (Memref.read_access_unit_zero (Elt Ideal) main_v0_1 hz' (fun a => by rw [congrFun hz' a]; simp) (G7 V c)).symm

/-- So the array ends holding the column sums of squares. -/
theorem final7 (c : Dev nD) : (dat0 V c).arrAt 7 cfg0.N = G7 V c :=
  (dat0 V c).arrAt_eq_of_cover 7 (G7 V c) (flushed7 V c) fun i => by
    have hN : cfg0.N = 64 := N_0
    have h63 : 63 < cfg0.N := by omega
    refine ⟨⟨63, h63⟩, (flush0_7 ⟨63, h63⟩).mpr rfl, ?_⟩
    have hi := idx0_7 ⟨63, h63⟩
    show i ∈ ((View.whole main_v0_1).slice (win0_7.rect ⟨63, h63⟩)).set
    rw [View.set_slice_whole, Rect.mem_set_unit]
    intro a
    have h0 : (i 0 : Nat) < 1 := (i 0).isLt
    have h1 : (i 1 : Nat) < 6 := (i 1).isLt
    match a with
    | ⟨0, _⟩ =>
      show win0_7.index ⟨63, h63⟩ 0 * win0_7.size 0 ≤ (i 0 : Nat)
        ∧ (i 0 : Nat) < win0_7.index ⟨63, h63⟩ 0 * win0_7.size 0 + win0_7.xsize (grid0.coords ⟨63, h63⟩) 0
      rw [hi.1.1, hi.2.1]; omega
    | ⟨1, _⟩ =>
      show win0_7.index ⟨63, h63⟩ 1 * win0_7.size 1 ≤ (i 1 : Nat)
        ∧ (i 1 : Nat) < win0_7.index ⟨63, h63⟩ 1 * win0_7.size 1 + win0_7.xsize (grid0.coords ⟨63, h63⟩) 1
      rw [hi.1.2, hi.2.2]; omega

theorem sumsq_tool (c : Dev nD) (j : Fin 6) :
    (dat0 (F := Ideal) V c).arrAt 7 cfg0.N (ix2 (0 : Fin 1) j)
      = colSumSq (ymat (cur2 (V c main_arg0)) (cur2 (V c main_arg3))) j :=
  congrFun (final7 V c) (ix2 (0 : Fin 1) j)

/-! ## The second branch (width 10): its arrays and blocks -/

/-- Where the input windows' blocks sit: the batch window's block `t` starts at row `t` times its height, the weight's at the origin. -/
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)

/-- Row `s` of block `t` of the input is row `2048 t + s` of the array. -/
theorem xblk1 (c : Dev nD) (t : Fin cfg0.N) (ht : t.val < 64) (s : Fin 2048) (i : Fin 10) :
    (iblk0 V c 1 t : Vec Ideal S2048x10 .f32) (ix2 s i)
      = cur2 (V c main_arg1 : S131072x10.Idx → EReal) ⟨2048 * t.val + s.val, by have := s.isLt; show _ < 131072; omega⟩ i := by
  have hi := idx0_1 t
  unfold iblk0
  rw [View.read_apply]
  show V c main_arg1 _ = V c main_arg1 _
  congr 1
  funext a
  apply Fin.ext
  match a with
  | ⟨0, _⟩ => show win0_1.index t 0 * 2048 + 1 * s.val = 2048 * t.val + s.val; rw [hi.1]; omega
  | ⟨1, _⟩ => show win0_1.index t 1 * 10 + 1 * i.val = i.val; rw [hi.2]; omega

/-- The weight's one block is the weight. -/
theorem wblk1 (c : Dev nD) (t : Fin cfg0.N) (i j : Fin 10) :
    (iblk0 V c 4 t : Vec Ideal S10x10 .f32) (ix2 i j) = cur2 (V c main_arg4 : S10x10.Idx → EReal) i j := by
  have hi := idx0_4 t
  unfold iblk0
  rw [View.read_apply]
  show V c main_arg4 _ = V c main_arg4 _
  congr 1
  funext a
  apply Fin.ext
  match a with
  | ⟨0, _⟩ => show win0_4.index t 0 * 10 + 1 * i.val = i.val; rw [hi.1]; omega
  | ⟨1, _⟩ => show win0_4.index t 1 * 10 + 1 * j.val = j.val; rw [hi.2]; omega

/-- The branch's product `x · w` over the arrays as the region finds them, and its entrywise square. -/
abbrev Y1 (c : Dev nD) : Fin NB → Fin 10 → EReal :=
  ymat (cur2 (V c main_arg1 : S131072x10.Idx → EReal)) (cur2 (V c main_arg4 : S10x10.Idx → EReal))
abbrev Q1 (c : Dev nD) : Fin NB → Fin 10 → EReal := fun r j => Y1 V c r j * Y1 V c r j

/-- The input block and the weight block at a point, at their literal shapes. -/
abbrev xb1 (c : Dev nD) (t : Fin cfg0.N) : Vec Ideal S2048x10 .f32 := iblk0 V c 1 t
abbrev wb1 (c : Dev nD) (t : Fin cfg0.N) : Vec Ideal S10x10 .f32 := iblk0 V c 4 t

/-- A row of the block's product is a row of the batch's. -/
theorem row1 (c : Dev nD) (t : Fin cfg0.N) (ht : t.val < 64) (s : Fin 2048) (j : Fin 10) :
    ∑ i : Fin 10, xb1 V c t (ix2 s i) * wb1 V c t (ix2 i j)
      = Y1 V c ⟨2048 * t.val + s.val, by have := s.isLt; show _ < 131072; omega⟩ j :=
  Finset.sum_congr rfl fun i _ => congrArg₂ (· * ·) (xblk1 V c t ht s i) (wblk1 V c t i j)

/-- A block's product summed over its rows is the block's share of the column sum; likewise for the squares. -/
theorem blk1_sum (c : Dev nD) (t : Fin cfg0.N) (j : Fin 10) :
    ∑ s : Fin 2048, ∑ i : Fin 10, xb1 V c t (ix2 s i) * wb1 V c t (ix2 i j) = blkTerm (Y1 V c) j t.val := by
  have ht : t.val < 64 := lt_of_lt_of_eq t.isLt (show cfg0.N = 64 from N_0)
  rw [blkTerm, dif_pos ht]
  exact Finset.sum_congr rfl fun s _ => row1 V c t ht s j
theorem blk1_sumsq (c : Dev nD) (t : Fin cfg0.N) (j : Fin 10) :
    ∑ s : Fin 2048, (∑ i : Fin 10, xb1 V c t (ix2 s i) * wb1 V c t (ix2 i j)) * (∑ i : Fin 10, xb1 V c t (ix2 s i) * wb1 V c t (ix2 i j))
      = blkTerm (Q1 V c) j t.val := by
  have ht : t.val < 64 := lt_of_lt_of_eq t.isLt (show cfg0.N = 64 from N_0)
  rw [blkTerm, dif_pos ht]
  exact Finset.sum_congr rfl fun s _ => congrArg₂ (· * ·) (row1 V c t ht s j) (row1 V c t ht s j)

/-! ### The second branch's accumulator of sums (output 8) -/

theorem step8_A (c : Dev nD) (j : Fin 10) (h : 0 < cfg0.N) :
    (outsAt0 V c 0 h).2.2.1 (ix2 (0 : Fin 1) j) = 0 + blkTerm (Y1 V c) j 0 := by
  rw [outsAt0_A V c ⟨0, h⟩ rfl]
  dsimp only
  rw [pieceA_8]
  refine (accSum10_apply (xb1 V c ⟨0, h⟩) (wb1 V c ⟨0, h⟩) (k0_pay7 (F := Ideal)) j).trans ?_
  exact congrArg₂ (· + ·) (zeroSum10_apply j) (blk1_sum V c ⟨0, h⟩ j)

theorem step8_B (c : Dev nD) (j : Fin 10) (n : ℕ) (h : n + 1 < cfg0.N) :
    (outsAt0 V c (n + 1) h).2.2.1 (ix2 (0 : Fin 1) j)
      = (outsAt0 V c n (Nat.lt_of_succ_lt h)).2.2.1 (ix2 (0 : Fin 1) j) + blkTerm (Y1 V c) j (n + 1) := by
  have hN : cfg0.N = 64 := N_0
  have hB : ¬(⟨n + 1, h⟩ : Fin cfg0.N).val % 64 = 0 := by dsimp only; omega
  rw [outsAt0_B V c ⟨n + 1, h⟩ hB]
  dsimp only
  rw [pieceB_8]
  simp only [Nat.add_sub_cancel]
  refine (accSum10_apply (xb1 V c ⟨n + 1, h⟩) (wb1 V c ⟨n + 1, h⟩) (outsAt0 V c n (Nat.lt_of_succ_lt h)).2.2.1 j).trans ?_
  exact congrArg (_ + ·) (blk1_sum V c ⟨n + 1, h⟩ j)

/-- After point `n` the accumulator holds the shares of the first `n + 1` blocks. -/
theorem outs8 (c : Dev nD) (j : Fin 10) (n : ℕ) (h : n < cfg0.N) :
    (outsAt0 V c n h).2.2.1 (ix2 (0 : Fin 1) j) = ∑ t ∈ Finset.range (n + 1), blkTerm (Y1 V c) j t :=
  chain_sum (fun n h => (outsAt0 V c n h).2.2.1 (ix2 (0 : Fin 1) j)) (blkTerm (Y1 V c) j) (step8_A V c j) (step8_B V c j) n h

/-- The accumulator's one block sits at the origin at every point, and is the whole array. -/
theorem idx0_8 : ∀ t : Fin cfg0.N, (win0_8.index t 0 = 0 ∧ win0_8.index t 1 = 0)
      ∧ (win0_8.xsize (grid0.coords t) 0 = 1 ∧ win0_8.xsize (grid0.coords t) 1 = 10) :=
  (by decide +kernel : ∀ t : Fin grid0.N, (win0_8.index t 0 = 0 ∧ win0_8.index t 1 = 0)
      ∧ (win0_8.xsize (grid0.coords t) 0 = 1 ∧ win0_8.xsize (grid0.coords t) 1 = 10))

/-- What the array ends holding: the column sums of the second branch's product. -/
abbrev G8 (c : Dev nD) : Buf (Elt Ideal) ((c : Thread nD τ).loc main_v0_2) :=
  (fun idx => colSum (Y1 V c) (idx 1) : S1x10.Idx → EReal)

/-- After the last point the accumulator holds all 64 blocks' shares: the sum over the batch. -/
theorem last8 (c : Dev nD) (h : 63 < cfg0.N) : (outsAt0 V c 63 h).2.2.1 = G8 V c := by
  funext idx
  obtain ⟨u, j, rfl⟩ : ∃ (u : Fin 1) (j : Fin 10), idx = ix2 u j := ⟨idx 0, idx 1, eq_ix2 idx⟩
  obtain rfl : u = 0 := Subsingleton.elim _ _
  rw [outs8 V c j 63 h]
  exact sum_blkTerm (Y1 V c) j

/-- The one write-back, after the last point, writes it. -/
theorem flushed8 (c : Dev nD) (t : Fin cfg0.N) (hf : (cfg0.win 8).flush t = true) :
    (dat0 V c).flushed 8 t = ((cfg0.win 8).blk t).view.read (Elt Ideal) (G8 V c) := by
  have hN : cfg0.N = 64 := N_0
  have h63 : t.val = 63 := by have := (flush0_8 t).mp hf; have := t.isLt; omega
  obtain ⟨n, hn⟩ := t
  obtain rfl : n = 63 := h63
  show (cfg0.win 8).cut (grid0.coords ⟨63, hn⟩) ((dat0 V c).after 8 ⟨63, hn⟩) = _
  rw [after0_8, last8]
  have hi := idx0_8 ⟨63, hn⟩
  have hz' : (fun a => win0_8.index ⟨63, hn⟩ a * main_v0_2.ty.shape.size a) = fun _ => 0 := funext fun (a : Fin 2) => by
    match a with
    | ⟨0, _⟩ => show win0_8.index ⟨63, hn⟩ 0 * _ = 0; rw [hi.1.1, Nat.zero_mul]
    | ⟨1, _⟩ => show win0_8.index ⟨63, hn⟩ 1 * _ = 0; rw [hi.1.2, Nat.zero_mul]
  exact (Memref.read_access_unit_zero (Elt Ideal) main_v0_2 hz' (fun a => by rw [congrFun hz' a]; simp) (G8 V c)).symm

/-- So the array ends holding the column sums. -/
theorem final8 (c : Dev nD) : (dat0 V c).arrAt 8 cfg0.N = G8 V c :=
  (dat0 V c).arrAt_eq_of_cover 8 (G8 V c) (flushed8 V c) fun i => by
    have hN : cfg0.N = 64 := N_0
    have h63 : 63 < cfg0.N := by omega
    refine ⟨⟨63, h63⟩, (flush0_8 ⟨63, h63⟩).mpr rfl, ?_⟩
    have hi := idx0_8 ⟨63, h63⟩
    show i ∈ ((View.whole main_v0_2).slice (win0_8.rect ⟨63, h63⟩)).set
    rw [View.set_slice_whole, Rect.mem_set_unit]
    intro a
    have h0 : (i 0 : Nat) < 1 := (i 0).isLt
    have h1 : (i 1 : Nat) < 10 := (i 1).isLt
    match a with
    | ⟨0, _⟩ =>
      show win0_8.index ⟨63, h63⟩ 0 * win0_8.size 0 ≤ (i 0 : Nat)
        ∧ (i 0 : Nat) < win0_8.index ⟨63, h63⟩ 0 * win0_8.size 0 + win0_8.xsize (grid0.coords ⟨63, h63⟩) 0
      rw [hi.1.1, hi.2.1]; omega
    | ⟨1, _⟩ =>
      show win0_8.index ⟨63, h63⟩ 1 * win0_8.size 1 ≤ (i 1 : Nat)
        ∧ (i 1 : Nat) < win0_8.index ⟨63, h63⟩ 1 * win0_8.size 1 + win0_8.xsize (grid0.coords ⟨63, h63⟩) 1
      rw [hi.1.2, hi.2.2]; omega

theorem sum_verb (c : Dev nD) (j : Fin 10) :
    (dat0 (F := Ideal) V c).arrAt 8 cfg0.N (ix2 (0 : Fin 1) j)
      = colSum (ymat (cur2 (V c main_arg1)) (cur2 (V c main_arg4))) j :=
  congrFun (final8 V c) (ix2 (0 : Fin 1) j)

/-! ### The second branch's accumulator of sums of squares (output 9) -/

theorem step9_A (c : Dev nD) (j : Fin 10) (h : 0 < cfg0.N) :
    (outsAt0 V c 0 h).2.2.2.1 (ix2 (0 : Fin 1) j) = 0 + blkTerm (Q1 V c) j 0 := by
  rw [outsAt0_A V c ⟨0, h⟩ rfl]
  dsimp only
  rw [pieceA_9]
  refine (accSq10_apply (xb1 V c ⟨0, h⟩) (wb1 V c ⟨0, h⟩) (k0_pay8 (F := Ideal)) j).trans ?_
  exact congrArg₂ (· + ·) (zeroSq10_apply j) (blk1_sumsq V c ⟨0, h⟩ j)

theorem step9_B (c : Dev nD) (j : Fin 10) (n : ℕ) (h : n + 1 < cfg0.N) :
    (outsAt0 V c (n + 1) h).2.2.2.1 (ix2 (0 : Fin 1) j)
      = (outsAt0 V c n (Nat.lt_of_succ_lt h)).2.2.2.1 (ix2 (0 : Fin 1) j) + blkTerm (Q1 V c) j (n + 1) := by
  have hN : cfg0.N = 64 := N_0
  have hB : ¬(⟨n + 1, h⟩ : Fin cfg0.N).val % 64 = 0 := by dsimp only; omega
  rw [outsAt0_B V c ⟨n + 1, h⟩ hB]
  dsimp only
  rw [pieceB_9]
  simp only [Nat.add_sub_cancel]
  refine (accSq10_apply (xb1 V c ⟨n + 1, h⟩) (wb1 V c ⟨n + 1, h⟩) (outsAt0 V c n (Nat.lt_of_succ_lt h)).2.2.2.1 j).trans ?_
  exact congrArg (_ + ·) (blk1_sumsq V c ⟨n + 1, h⟩ j)

/-- After point `n` the accumulator holds the shares of the first `n + 1` blocks. -/
theorem outs9 (c : Dev nD) (j : Fin 10) (n : ℕ) (h : n < cfg0.N) :
    (outsAt0 V c n h).2.2.2.1 (ix2 (0 : Fin 1) j) = ∑ t ∈ Finset.range (n + 1), blkTerm (Q1 V c) j t :=
  chain_sum (fun n h => (outsAt0 V c n h).2.2.2.1 (ix2 (0 : Fin 1) j)) (blkTerm (Q1 V c) j) (step9_A V c j) (step9_B V c j) n h

/-- The accumulator's one block sits at the origin at every point, and is the whole array. -/
theorem idx0_9 : ∀ t : Fin cfg0.N, (win0_9.index t 0 = 0 ∧ win0_9.index t 1 = 0)
      ∧ (win0_9.xsize (grid0.coords t) 0 = 1 ∧ win0_9.xsize (grid0.coords t) 1 = 10) :=
  (by decide +kernel : ∀ t : Fin grid0.N, (win0_9.index t 0 = 0 ∧ win0_9.index t 1 = 0)
      ∧ (win0_9.xsize (grid0.coords t) 0 = 1 ∧ win0_9.xsize (grid0.coords t) 1 = 10))

/-- What the array ends holding: the column sums of squares of the second branch's product. -/
abbrev G9 (c : Dev nD) : Buf (Elt Ideal) ((c : Thread nD τ).loc main_v0_3) :=
  (fun idx => colSumSq (Y1 V c) (idx 1) : S1x10.Idx → EReal)

/-- After the last point the accumulator holds all 64 blocks' shares: the sum over the batch. -/
theorem last9 (c : Dev nD) (h : 63 < cfg0.N) : (outsAt0 V c 63 h).2.2.2.1 = G9 V c := by
  funext idx
  obtain ⟨u, j, rfl⟩ : ∃ (u : Fin 1) (j : Fin 10), idx = ix2 u j := ⟨idx 0, idx 1, eq_ix2 idx⟩
  obtain rfl : u = 0 := Subsingleton.elim _ _
  rw [outs9 V c j 63 h]
  exact sum_blkTerm (Q1 V c) j

/-- The one write-back, after the last point, writes it. -/
theorem flushed9 (c : Dev nD) (t : Fin cfg0.N) (hf : (cfg0.win 9).flush t = true) :
    (dat0 V c).flushed 9 t = ((cfg0.win 9).blk t).view.read (Elt Ideal) (G9 V c) := by
  have hN : cfg0.N = 64 := N_0
  have h63 : t.val = 63 := by have := (flush0_9 t).mp hf; have := t.isLt; omega
  obtain ⟨n, hn⟩ := t
  obtain rfl : n = 63 := h63
  show (cfg0.win 9).cut (grid0.coords ⟨63, hn⟩) ((dat0 V c).after 9 ⟨63, hn⟩) = _
  rw [after0_9, last9]
  have hi := idx0_9 ⟨63, hn⟩
  have hz' : (fun a => win0_9.index ⟨63, hn⟩ a * main_v0_3.ty.shape.size a) = fun _ => 0 := funext fun (a : Fin 2) => by
    match a with
    | ⟨0, _⟩ => show win0_9.index ⟨63, hn⟩ 0 * _ = 0; rw [hi.1.1, Nat.zero_mul]
    | ⟨1, _⟩ => show win0_9.index ⟨63, hn⟩ 1 * _ = 0; rw [hi.1.2, Nat.zero_mul]
  exact (Memref.read_access_unit_zero (Elt Ideal) main_v0_3 hz' (fun a => by rw [congrFun hz' a]; simp) (G9 V c)).symm

/-- So the array ends holding the column sums of squares. -/
theorem final9 (c : Dev nD) : (dat0 V c).arrAt 9 cfg0.N = G9 V c :=
  (dat0 V c).arrAt_eq_of_cover 9 (G9 V c) (flushed9 V c) fun i => by
    have hN : cfg0.N = 64 := N_0
    have h63 : 63 < cfg0.N := by omega
    refine ⟨⟨63, h63⟩, (flush0_9 ⟨63, h63⟩).mpr rfl, ?_⟩
    have hi := idx0_9 ⟨63, h63⟩
    show i ∈ ((View.whole main_v0_3).slice (win0_9.rect ⟨63, h63⟩)).set
    rw [View.set_slice_whole, Rect.mem_set_unit]
    intro a
    have h0 : (i 0 : Nat) < 1 := (i 0).isLt
    have h1 : (i 1 : Nat) < 10 := (i 1).isLt
    match a with
    | ⟨0, _⟩ =>
      show win0_9.index ⟨63, h63⟩ 0 * win0_9.size 0 ≤ (i 0 : Nat)
        ∧ (i 0 : Nat) < win0_9.index ⟨63, h63⟩ 0 * win0_9.size 0 + win0_9.xsize (grid0.coords ⟨63, h63⟩) 0
      rw [hi.1.1, hi.2.1]; omega
    | ⟨1, _⟩ =>
      show win0_9.index ⟨63, h63⟩ 1 * win0_9.size 1 ≤ (i 1 : Nat)
        ∧ (i 1 : Nat) < win0_9.index ⟨63, h63⟩ 1 * win0_9.size 1 + win0_9.xsize (grid0.coords ⟨63, h63⟩) 1
      rw [hi.1.2, hi.2.2]; omega

theorem sumsq_verb (c : Dev nD) (j : Fin 10) :
    (dat0 (F := Ideal) V c).arrAt 9 cfg0.N (ix2 (0 : Fin 1) j)
      = colSumSq (ymat (cur2 (V c main_arg1)) (cur2 (V c main_arg4))) j :=
  congrFun (final9 V c) (ix2 (0 : Fin 1) j)

/-! ## The third branch (width 15): its arrays and blocks -/

/-- Where the input windows' blocks sit: the batch window's block `t` starts at row `t` times its height, the weight's at the origin. -/
theorem idx0_2 : ∀ t : Fin cfg0.N, win0_2.index t 0 = t.val ∧ win0_2.index t 1 = 0 :=
  (by decide +kernel : ∀ t : Fin grid0.N, win0_2.index t 0 = t.val ∧ win0_2.index t 1 = 0)
theorem idx0_5 : ∀ t : Fin cfg0.N, win0_5.index t 0 = 0 ∧ win0_5.index t 1 = 0 :=
  (by decide +kernel : ∀ t : Fin grid0.N, win0_5.index t 0 = 0 ∧ win0_5.index t 1 = 0)

/-- Row `s` of block `t` of the input is row `2048 t + s` of the array. -/
theorem xblk2 (c : Dev nD) (t : Fin cfg0.N) (ht : t.val < 64) (s : Fin 2048) (i : Fin 15) :
    (iblk0 V c 2 t : Vec Ideal S2048x15 .f32) (ix2 s i)
      = cur2 (V c main_arg2 : S131072x15.Idx → EReal) ⟨2048 * t.val + s.val, by have := s.isLt; show _ < 131072; omega⟩ i := by
  have hi := idx0_2 t
  unfold iblk0
  rw [View.read_apply]
  show V c main_arg2 _ = V c main_arg2 _
  congr 1
  funext a
  apply Fin.ext
  match a with
  | ⟨0, _⟩ => show win0_2.index t 0 * 2048 + 1 * s.val = 2048 * t.val + s.val; rw [hi.1]; omega
  | ⟨1, _⟩ => show win0_2.index t 1 * 15 + 1 * i.val = i.val; rw [hi.2]; omega

/-- The weight's one block is the weight. -/
theorem wblk2 (c : Dev nD) (t : Fin cfg0.N) (i j : Fin 15) :
    (iblk0 V c 5 t : Vec Ideal S15x15 .f32) (ix2 i j) = cur2 (V c main_arg5 : S15x15.Idx → EReal) i j := by
  have hi := idx0_5 t
  unfold iblk0
  rw [View.read_apply]
  show V c main_arg5 _ = V c main_arg5 _
  congr 1
  funext a
  apply Fin.ext
  match a with
  | ⟨0, _⟩ => show win0_5.index t 0 * 15 + 1 * i.val = i.val; rw [hi.1]; omega
  | ⟨1, _⟩ => show win0_5.index t 1 * 15 + 1 * j.val = j.val; rw [hi.2]; omega

/-- The branch's product `x · w` over the arrays as the region finds them, and its entrywise square. -/
abbrev Y2 (c : Dev nD) : Fin NB → Fin 15 → EReal :=
  ymat (cur2 (V c main_arg2 : S131072x15.Idx → EReal)) (cur2 (V c main_arg5 : S15x15.Idx → EReal))
abbrev Q2 (c : Dev nD) : Fin NB → Fin 15 → EReal := fun r j => Y2 V c r j * Y2 V c r j

/-- The input block and the weight block at a point, at their literal shapes. -/
abbrev xb2 (c : Dev nD) (t : Fin cfg0.N) : Vec Ideal S2048x15 .f32 := iblk0 V c 2 t
abbrev wb2 (c : Dev nD) (t : Fin cfg0.N) : Vec Ideal S15x15 .f32 := iblk0 V c 5 t

/-- A row of the block's product is a row of the batch's. -/
theorem row2 (c : Dev nD) (t : Fin cfg0.N) (ht : t.val < 64) (s : Fin 2048) (j : Fin 15) :
    ∑ i : Fin 15, xb2 V c t (ix2 s i) * wb2 V c t (ix2 i j)
      = Y2 V c ⟨2048 * t.val + s.val, by have := s.isLt; show _ < 131072; omega⟩ j :=
  Finset.sum_congr rfl fun i _ => congrArg₂ (· * ·) (xblk2 V c t ht s i) (wblk2 V c t i j)

/-- A block's product summed over its rows is the block's share of the column sum; likewise for the squares. -/
theorem blk2_sum (c : Dev nD) (t : Fin cfg0.N) (j : Fin 15) :
    ∑ s : Fin 2048, ∑ i : Fin 15, xb2 V c t (ix2 s i) * wb2 V c t (ix2 i j) = blkTerm (Y2 V c) j t.val := by
  have ht : t.val < 64 := lt_of_lt_of_eq t.isLt (show cfg0.N = 64 from N_0)
  rw [blkTerm, dif_pos ht]
  exact Finset.sum_congr rfl fun s _ => row2 V c t ht s j
theorem blk2_sumsq (c : Dev nD) (t : Fin cfg0.N) (j : Fin 15) :
    ∑ s : Fin 2048, (∑ i : Fin 15, xb2 V c t (ix2 s i) * wb2 V c t (ix2 i j)) * (∑ i : Fin 15, xb2 V c t (ix2 s i) * wb2 V c t (ix2 i j))
      = blkTerm (Q2 V c) j t.val := by
  have ht : t.val < 64 := lt_of_lt_of_eq t.isLt (show cfg0.N = 64 from N_0)
  rw [blkTerm, dif_pos ht]
  exact Finset.sum_congr rfl fun s _ => congrArg₂ (· * ·) (row2 V c t ht s j) (row2 V c t ht s j)

/-! ### The third branch's accumulator of sums (output 10) -/

theorem step10_A (c : Dev nD) (j : Fin 15) (h : 0 < cfg0.N) :
    (outsAt0 V c 0 h).2.2.2.2.1 (ix2 (0 : Fin 1) j) = 0 + blkTerm (Y2 V c) j 0 := by
  rw [outsAt0_A V c ⟨0, h⟩ rfl]
  dsimp only
  rw [pieceA_10]
  refine (accSum15_apply (xb2 V c ⟨0, h⟩) (wb2 V c ⟨0, h⟩) (k0_pay9 (F := Ideal)) j).trans ?_
  exact congrArg₂ (· + ·) (zeroSum15_apply j) (blk2_sum V c ⟨0, h⟩ j)

theorem step10_B (c : Dev nD) (j : Fin 15) (n : ℕ) (h : n + 1 < cfg0.N) :
    (outsAt0 V c (n + 1) h).2.2.2.2.1 (ix2 (0 : Fin 1) j)
      = (outsAt0 V c n (Nat.lt_of_succ_lt h)).2.2.2.2.1 (ix2 (0 : Fin 1) j) + blkTerm (Y2 V c) j (n + 1) := by
  have hN : cfg0.N = 64 := N_0
  have hB : ¬(⟨n + 1, h⟩ : Fin cfg0.N).val % 64 = 0 := by dsimp only; omega
  rw [outsAt0_B V c ⟨n + 1, h⟩ hB]
  dsimp only
  rw [pieceB_10]
  simp only [Nat.add_sub_cancel]
  refine (accSum15_apply (xb2 V c ⟨n + 1, h⟩) (wb2 V c ⟨n + 1, h⟩) (outsAt0 V c n (Nat.lt_of_succ_lt h)).2.2.2.2.1 j).trans ?_
  exact congrArg (_ + ·) (blk2_sum V c ⟨n + 1, h⟩ j)

/-- After point `n` the accumulator holds the shares of the first `n + 1` blocks. -/
theorem outs10 (c : Dev nD) (j : Fin 15) (n : ℕ) (h : n < cfg0.N) :
    (outsAt0 V c n h).2.2.2.2.1 (ix2 (0 : Fin 1) j) = ∑ t ∈ Finset.range (n + 1), blkTerm (Y2 V c) j t :=
  chain_sum (fun n h => (outsAt0 V c n h).2.2.2.2.1 (ix2 (0 : Fin 1) j)) (blkTerm (Y2 V c) j) (step10_A V c j) (step10_B V c j) n h

/-- The accumulator's one block sits at the origin at every point, and is the whole array. -/
theorem idx0_10 : ∀ t : Fin cfg0.N, (win0_10.index t 0 = 0 ∧ win0_10.index t 1 = 0)
      ∧ (win0_10.xsize (grid0.coords t) 0 = 1 ∧ win0_10.xsize (grid0.coords t) 1 = 15) :=
  (by decide +kernel : ∀ t : Fin grid0.N, (win0_10.index t 0 = 0 ∧ win0_10.index t 1 = 0)
      ∧ (win0_10.xsize (grid0.coords t) 0 = 1 ∧ win0_10.xsize (grid0.coords t) 1 = 15))

/-- What the array ends holding: the column sums of the third branch's product. -/
abbrev G10 (c : Dev nD) : Buf (Elt Ideal) ((c : Thread nD τ).loc main_v0_4) :=
  (fun idx => colSum (Y2 V c) (idx 1) : S1x15.Idx → EReal)

/-- After the last point the accumulator holds all 64 blocks' shares: the sum over the batch. -/
theorem last10 (c : Dev nD) (h : 63 < cfg0.N) : (outsAt0 V c 63 h).2.2.2.2.1 = G10 V c := by
  funext idx
  obtain ⟨u, j, rfl⟩ : ∃ (u : Fin 1) (j : Fin 15), idx = ix2 u j := ⟨idx 0, idx 1, eq_ix2 idx⟩
  obtain rfl : u = 0 := Subsingleton.elim _ _
  rw [outs10 V c j 63 h]
  exact sum_blkTerm (Y2 V c) j

/-- The one write-back, after the last point, writes it. -/
theorem flushed10 (c : Dev nD) (t : Fin cfg0.N) (hf : (cfg0.win 10).flush t = true) :
    (dat0 V c).flushed 10 t = ((cfg0.win 10).blk t).view.read (Elt Ideal) (G10 V c) := by
  have hN : cfg0.N = 64 := N_0
  have h63 : t.val = 63 := by have := (flush0_10 t).mp hf; have := t.isLt; omega
  obtain ⟨n, hn⟩ := t
  obtain rfl : n = 63 := h63
  show (cfg0.win 10).cut (grid0.coords ⟨63, hn⟩) ((dat0 V c).after 10 ⟨63, hn⟩) = _
  rw [after0_10, last10]
  have hi := idx0_10 ⟨63, hn⟩
  have hz' : (fun a => win0_10.index ⟨63, hn⟩ a * main_v0_4.ty.shape.size a) = fun _ => 0 := funext fun (a : Fin 2) => by
    match a with
    | ⟨0, _⟩ => show win0_10.index ⟨63, hn⟩ 0 * _ = 0; rw [hi.1.1, Nat.zero_mul]
    | ⟨1, _⟩ => show win0_10.index ⟨63, hn⟩ 1 * _ = 0; rw [hi.1.2, Nat.zero_mul]
  exact (Memref.read_access_unit_zero (Elt Ideal) main_v0_4 hz' (fun a => by rw [congrFun hz' a]; simp) (G10 V c)).symm

/-- So the array ends holding the column sums. -/
theorem final10 (c : Dev nD) : (dat0 V c).arrAt 10 cfg0.N = G10 V c :=
  (dat0 V c).arrAt_eq_of_cover 10 (G10 V c) (flushed10 V c) fun i => by
    have hN : cfg0.N = 64 := N_0
    have h63 : 63 < cfg0.N := by omega
    refine ⟨⟨63, h63⟩, (flush0_10 ⟨63, h63⟩).mpr rfl, ?_⟩
    have hi := idx0_10 ⟨63, h63⟩
    show i ∈ ((View.whole main_v0_4).slice (win0_10.rect ⟨63, h63⟩)).set
    rw [View.set_slice_whole, Rect.mem_set_unit]
    intro a
    have h0 : (i 0 : Nat) < 1 := (i 0).isLt
    have h1 : (i 1 : Nat) < 15 := (i 1).isLt
    match a with
    | ⟨0, _⟩ =>
      show win0_10.index ⟨63, h63⟩ 0 * win0_10.size 0 ≤ (i 0 : Nat)
        ∧ (i 0 : Nat) < win0_10.index ⟨63, h63⟩ 0 * win0_10.size 0 + win0_10.xsize (grid0.coords ⟨63, h63⟩) 0
      rw [hi.1.1, hi.2.1]; omega
    | ⟨1, _⟩ =>
      show win0_10.index ⟨63, h63⟩ 1 * win0_10.size 1 ≤ (i 1 : Nat)
        ∧ (i 1 : Nat) < win0_10.index ⟨63, h63⟩ 1 * win0_10.size 1 + win0_10.xsize (grid0.coords ⟨63, h63⟩) 1
      rw [hi.1.2, hi.2.2]; omega

theorem sum_target (c : Dev nD) (j : Fin 15) :
    (dat0 (F := Ideal) V c).arrAt 10 cfg0.N (ix2 (0 : Fin 1) j)
      = colSum (ymat (cur2 (V c main_arg2)) (cur2 (V c main_arg5))) j :=
  congrFun (final10 V c) (ix2 (0 : Fin 1) j)

/-! ### The third branch's accumulator of sums of squares (output 11) -/

theorem step11_A (c : Dev nD) (j : Fin 15) (h : 0 < cfg0.N) :
    (outsAt0 V c 0 h).2.2.2.2.2 (ix2 (0 : Fin 1) j) = 0 + blkTerm (Q2 V c) j 0 := by
  rw [outsAt0_A V c ⟨0, h⟩ rfl]
  dsimp only
  rw [pieceA_11]
  refine (accSq15_apply (xb2 V c ⟨0, h⟩) (wb2 V c ⟨0, h⟩) (k0_pay10 (F := Ideal)) j).trans ?_
  exact congrArg₂ (· + ·) (zeroSq15_apply j) (blk2_sumsq V c ⟨0, h⟩ j)

theorem step11_B (c : Dev nD) (j : Fin 15) (n : ℕ) (h : n + 1 < cfg0.N) :
    (outsAt0 V c (n + 1) h).2.2.2.2.2 (ix2 (0 : Fin 1) j)
      = (outsAt0 V c n (Nat.lt_of_succ_lt h)).2.2.2.2.2 (ix2 (0 : Fin 1) j) + blkTerm (Q2 V c) j (n + 1) := by
  have hN : cfg0.N = 64 := N_0
  have hB : ¬(⟨n + 1, h⟩ : Fin cfg0.N).val % 64 = 0 := by dsimp only; omega
  rw [outsAt0_B V c ⟨n + 1, h⟩ hB]
  dsimp only
  rw [pieceB_11]
  simp only [Nat.add_sub_cancel]
  refine (accSq15_apply (xb2 V c ⟨n + 1, h⟩) (wb2 V c ⟨n + 1, h⟩) (outsAt0 V c n (Nat.lt_of_succ_lt h)).2.2.2.2.2 j).trans ?_
  exact congrArg (_ + ·) (blk2_sumsq V c ⟨n + 1, h⟩ j)

/-- After point `n` the accumulator holds the shares of the first `n + 1` blocks. -/
theorem outs11 (c : Dev nD) (j : Fin 15) (n : ℕ) (h : n < cfg0.N) :
    (outsAt0 V c n h).2.2.2.2.2 (ix2 (0 : Fin 1) j) = ∑ t ∈ Finset.range (n + 1), blkTerm (Q2 V c) j t :=
  chain_sum (fun n h => (outsAt0 V c n h).2.2.2.2.2 (ix2 (0 : Fin 1) j)) (blkTerm (Q2 V c) j) (step11_A V c j) (step11_B V c j) n h

/-- The accumulator's one block sits at the origin at every point, and is the whole array. -/
theorem idx0_11 : ∀ t : Fin cfg0.N, (win0_11.index t 0 = 0 ∧ win0_11.index t 1 = 0)
      ∧ (win0_11.xsize (grid0.coords t) 0 = 1 ∧ win0_11.xsize (grid0.coords t) 1 = 15) :=
  (by decide +kernel : ∀ t : Fin grid0.N, (win0_11.index t 0 = 0 ∧ win0_11.index t 1 = 0)
      ∧ (win0_11.xsize (grid0.coords t) 0 = 1 ∧ win0_11.xsize (grid0.coords t) 1 = 15))

/-- What the array ends holding: the column sums of squares of the third branch's product. -/
abbrev G11 (c : Dev nD) : Buf (Elt Ideal) ((c : Thread nD τ).loc main_v0_5) :=
  (fun idx => colSumSq (Y2 V c) (idx 1) : S1x15.Idx → EReal)

/-- After the last point the accumulator holds all 64 blocks' shares: the sum over the batch. -/
theorem last11 (c : Dev nD) (h : 63 < cfg0.N) : (outsAt0 V c 63 h).2.2.2.2.2 = G11 V c := by
  funext idx
  obtain ⟨u, j, rfl⟩ : ∃ (u : Fin 1) (j : Fin 15), idx = ix2 u j := ⟨idx 0, idx 1, eq_ix2 idx⟩
  obtain rfl : u = 0 := Subsingleton.elim _ _
  rw [outs11 V c j 63 h]
  exact sum_blkTerm (Q2 V c) j

/-- The one write-back, after the last point, writes it. -/
theorem flushed11 (c : Dev nD) (t : Fin cfg0.N) (hf : (cfg0.win 11).flush t = true) :
    (dat0 V c).flushed 11 t = ((cfg0.win 11).blk t).view.read (Elt Ideal) (G11 V c) := by
  have hN : cfg0.N = 64 := N_0
  have h63 : t.val = 63 := by have := (flush0_11 t).mp hf; have := t.isLt; omega
  obtain ⟨n, hn⟩ := t
  obtain rfl : n = 63 := h63
  show (cfg0.win 11).cut (grid0.coords ⟨63, hn⟩) ((dat0 V c).after 11 ⟨63, hn⟩) = _
  rw [after0_11, last11]
  have hi := idx0_11 ⟨63, hn⟩
  have hz' : (fun a => win0_11.index ⟨63, hn⟩ a * main_v0_5.ty.shape.size a) = fun _ => 0 := funext fun (a : Fin 2) => by
    match a with
    | ⟨0, _⟩ => show win0_11.index ⟨63, hn⟩ 0 * _ = 0; rw [hi.1.1, Nat.zero_mul]
    | ⟨1, _⟩ => show win0_11.index ⟨63, hn⟩ 1 * _ = 0; rw [hi.1.2, Nat.zero_mul]
  exact (Memref.read_access_unit_zero (Elt Ideal) main_v0_5 hz' (fun a => by rw [congrFun hz' a]; simp) (G11 V c)).symm

/-- So the array ends holding the column sums of squares. -/
theorem final11 (c : Dev nD) : (dat0 V c).arrAt 11 cfg0.N = G11 V c :=
  (dat0 V c).arrAt_eq_of_cover 11 (G11 V c) (flushed11 V c) fun i => by
    have hN : cfg0.N = 64 := N_0
    have h63 : 63 < cfg0.N := by omega
    refine ⟨⟨63, h63⟩, (flush0_11 ⟨63, h63⟩).mpr rfl, ?_⟩
    have hi := idx0_11 ⟨63, h63⟩
    show i ∈ ((View.whole main_v0_5).slice (win0_11.rect ⟨63, h63⟩)).set
    rw [View.set_slice_whole, Rect.mem_set_unit]
    intro a
    have h0 : (i 0 : Nat) < 1 := (i 0).isLt
    have h1 : (i 1 : Nat) < 15 := (i 1).isLt
    match a with
    | ⟨0, _⟩ =>
      show win0_11.index ⟨63, h63⟩ 0 * win0_11.size 0 ≤ (i 0 : Nat)
        ∧ (i 0 : Nat) < win0_11.index ⟨63, h63⟩ 0 * win0_11.size 0 + win0_11.xsize (grid0.coords ⟨63, h63⟩) 0
      rw [hi.1.1, hi.2.1]; omega
    | ⟨1, _⟩ =>
      show win0_11.index ⟨63, h63⟩ 1 * win0_11.size 1 ≤ (i 1 : Nat)
        ∧ (i 1 : Nat) < win0_11.index ⟨63, h63⟩ 1 * win0_11.size 1 + win0_11.xsize (grid0.coords ⟨63, h63⟩) 1
      rw [hi.1.2, hi.2.2]; omega

theorem sumsq_target (c : Dev nD) (j : Fin 15) :
    (dat0 (F := Ideal) V c).arrAt 11 cfg0.N (ix2 (0 : Fin 1) j)
      = colSumSq (ymat (cur2 (V c main_arg2)) (cur2 (V c main_arg5))) j :=
  congrFun (final11 V c) (ix2 (0 : Fin 1) j)

end Cert.KernelIdeal.KStats
end
-- ==== Proof.KMain.lean ====
/-
  The second region's result, index by index, at the extended reals.

  Grid point `t` reads rows `1024·t … 1024·t + 1023` of the three inputs and every other operand whole, and writes the same
  rows of the output. At an entry `(s, q)` of its block the body forms, per branch, the product `x · w` (a sum over the
  contracted coordinate), normalises it by the given mean and variance, scales, shifts and passes it through ELU (a
  select on "above zero" between the value and its exponential less one); multiplies each branch with its 0/1 table;
  multiplies the three picks entry by entry; multiplies with the transposed weight and adds the bias. That is one row
  of `Cert.Tri.stage1` (`rowStage`), which reads each input through that one row. The output's blocks tile its rows
  (row `r` lies in block `r / 1024`), so the array after the region is `stage1` of the arrays the region was entered
  with (`out_array`, `out_value`).
-/
import proofs.«431318_j31860067402336_2_alg».proof.Proof.Gen.KernelIdeal.Frame
import proofs.«431318_j31860067402336_2_alg».proof.Proof.Spec
import Idealize.ShloMosaic.Lib.StackMember
import Idealize.ShloMosaic.Lib.ValueLayout
import Idealize.ShloMosaic.Lib.Pipeline.Value
import Idealize.ShloMosaic.PureOps.Ideal.Laws

noncomputable section

namespace Cert.KernelIdeal.KMain

open Idealize.ShloMosaic Idealize.ShloMosaic.TcCoe Cert.KernelIdeal Cert.KernelIdeal.Gen Cert.Tri Idealize.ShloMosaic.ValueIdx
open scoped BigOperators

/-! ## Scalars and the pointwise operations the library's index vocabulary does not list -/

/-- A float constant of the program is the extended real its word encodes. -/
theorem scalar_ofBits (φ : FTy) (b : BitVec φ.bits) : Scalar.ofBits (F := Ideal) φ b = Ideal.ofBits φ b := rfl

/-- A reciprocal square root at an index is the element's. -/
theorem rsqrt_apply {s : Shape} {φ : FTy} (x : FVec Ideal s φ) (i : s.Idx) :
    Idealize.ShloMosaic.rsqrt x i = Ideal.rsqrt (x i) := rfl

/-- An exponential at an index is the element's. -/
theorem exp_apply {s : Shape} {φ : FTy} (x : FVec Ideal s φ) (i : s.Idx) :
    Idealize.ShloMosaic.exp x i = Ideal.exp (x i) := rfl

/-- Selecting, where `z` is above zero, `z` itself and elsewhere `exp z − 1` is ELU. -/
theorem elu_select (z : EReal) :
    Scalar.select (Ideal.cmp .ogt z (Ideal.ofBits .f32 0x00000000#32)) z (Ideal.exp z - Ideal.ofBits .f32 0x3F800000#32)
      = eluK z := by
  show (if BitVec.ofBool (decide (lit0 < z)) = 1#1 then z else Ideal.exp z - lit1) = if lit0 < z then z else Ideal.exp z - lit1
  by_cases h : lit0 < z
  · rw [if_pos h, decide_eq_true h]; rfl
  · rw [if_neg h, decide_eq_false h]; rfl

/-! ## A product of an m×k block by a k×n block into a zero accumulator

At an entry it is the sum over the contracted coordinate of the products of the entries: the accumulator is zero, and
the contraction's index set is that one coordinate's range. -/

theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The three square products `x · w`, one per branch. -/
theorem mm_6_6 (A : FVec Ideal S1024x6 .bf16) (B : FVec Ideal S6x6 .bf16) (s : Fin 1024) (j : Fin 6) :
    matmul dot_S1024x6_S6x6_S1024x6_1_0_0_1_n_n none A B (constant (F := Ideal) S1024x6 .f32 0x00000000#32) (ix2 s j)
      = ∑ c : Fin 6, A (ix2 s c) * B (ix2 c j) :=
  matmul_plain_apply none A B s j
theorem mm_10_10 (A : FVec Ideal S1024x10 .bf16) (B : FVec Ideal S10x10 .bf16) (s : Fin 1024) (j : Fin 10) :
    matmul dot_S1024x10_S10x10_S1024x10_1_0_0_1_n_n none A B (constant (F := Ideal) S1024x10 .f32 0x00000000#32) (ix2 s j)
      = ∑ c : Fin 10, A (ix2 s c) * B (ix2 c j) :=
  matmul_plain_apply none A B s j
theorem mm_15_15 (A : FVec Ideal S1024x15 .bf16) (B : FVec Ideal S15x15 .bf16) (s : Fin 1024) (j : Fin 15) :
    matmul dot_S1024x15_S15x15_S1024x15_1_0_0_1_n_n none A B (constant (F := Ideal) S1024x15 .f32 0x00000000#32) (ix2 s j)
      = ∑ c : Fin 15, A (ix2 s c) * B (ix2 c j) :=
  matmul_plain_apply none A B s j

/-- The three picks, each a product with a 0/1 table. -/
theorem mm_6_100 (A : FVec Ideal S1024x6 .bf16) (B : FVec Ideal S6x100 .bf16) (s : Fin 1024) (p : Fin 100) :
    matmul dot_S1024x6_S6x100_S1024x100_1_0_0_1_n_n none A B (constant (F := Ideal) S1024x100 .f32 0x00000000#32) (ix2 s p)
      = ∑ c : Fin 6, A (ix2 s c) * B (ix2 c p) :=
  matmul_plain_apply none A B s p
theorem mm_10_100 (A : FVec Ideal S1024x10 .bf16) (B : FVec Ideal S10x100 .bf16) (s : Fin 1024) (p : Fin 100) :
    matmul dot_S1024x10_S10x100_S1024x100_1_0_0_1_n_n none A B (constant (F := Ideal) S1024x100 .f32 0x00000000#32) (ix2 s p)
      = ∑ c : Fin 10, A (ix2 s c) * B (ix2 c p) :=
  matmul_plain_apply none A B s p
theorem mm_15_100 (A : FVec Ideal S1024x15 .bf16) (B : FVec Ideal S15x100 .bf16) (s : Fin 1024) (p : Fin 100) :
    matmul dot_S1024x15_S15x100_S1024x100_1_0_0_1_n_n none A B (constant (F := Ideal) S1024x100 .f32 0x00000000#32) (ix2 s p)
      = ∑ c : Fin 15, A (ix2 s c) * B (ix2 c p) :=
  matmul_plain_apply none A B s p

/-- The linear layer's product with the transposed weight. -/
theorem mm_100_100 (A : FVec Ideal S1024x100 .bf16) (B : FVec Ideal S100x100 .bf16) (s : Fin 1024) (q : Fin 100) :
    matmul dot_S1024x100_S100x100_S1024x100_1_0_0_1_n_n none A B (constant (F := Ideal) S1024x100 .f32 0x00000000#32) (ix2 s q)
      = ∑ c : Fin 100, A (ix2 s c) * B (ix2 c q) :=
  matmul_plain_apply none A B s q

/-! ## The body's values at an entry of the block -/

/-- The first branch: the product, normalised by the given mean and variance, scaled and shifted, through ELU. -/
theorem pay1_apply (x : Vec Ideal S1024x6 .f32) (w : Vec Ideal S6x6 .f32) (var mean g b : Vec Ideal S1x6 .f32)
    (s : Fin 1024) (j : Fin 6) :
    k1_pay1 x w var mean g b (ix2 s j)
      = eluK (((∑ i : Fin 6, x (ix2 s i) * w (ix2 i j)) - mean (ix2 (0 : Fin 1) j))
          * Ideal.rsqrt (var (ix2 (0 : Fin 1) j) + litEps) * g (ix2 (0 : Fin 1) j) + b (ix2 (0 : Fin 1) j)) := by
  unfold k1_pay1
  simp only [shapeCast_self, select_apply, cmpf_apply, subf_apply, addf_apply, mulf_apply, broadcast_apply,
    broadcastTo_1b_ab_apply, rsqrt_apply, exp_apply, truncf_apply, mm_6_6, scalar_ofBits, Ideal.cmpf_def, elu_select]
  rfl

/-- The second branch's product. -/
theorem pay2_apply (x : Vec Ideal S1024x10 .f32) (w : Vec Ideal S10x10 .f32) (s : Fin 1024) (j : Fin 10) :
    k1_pay2 x w (ix2 s j) = ∑ i : Fin 10, x (ix2 s i) * w (ix2 i j) := by
  unfold k1_pay2
  simp only [truncf_apply, mm_10_10]

/-- The second branch from its product on. -/
theorem pay3_apply (y : FVec Ideal S1024x10 .f32) (var mean g b : Vec Ideal S1x10 .f32) (s : Fin 1024) (j : Fin 10) :
    k1_pay3 y var mean g b (ix2 s j)
      = eluK ((y (ix2 s j) - mean (ix2 (0 : Fin 1) j)) * Ideal.rsqrt (var (ix2 (0 : Fin 1) j) + litEps)
          * g (ix2 (0 : Fin 1) j) + b (ix2 (0 : Fin 1) j)) := by
  unfold k1_pay3
  simp only [shapeCast_self, select_apply, cmpf_apply, subf_apply, addf_apply, mulf_apply, broadcast_apply,
    broadcastTo_1b_ab_apply, rsqrt_apply, exp_apply, scalar_ofBits, Ideal.cmpf_def, elu_select]
  rfl

/-- The third branch up to the normalisation. -/
theorem pay4_apply (x : Vec Ideal S1024x15 .f32) (w : Vec Ideal S15x15 .f32) (var mean : Vec Ideal S1x15 .f32)
    (s : Fin 1024) (j : Fin 15) :
    k1_pay4 x w var mean (ix2 s j)
      = ((∑ i : Fin 15, x (ix2 s i) * w (ix2 i j)) - mean (ix2 (0 : Fin 1) j))
          * Ideal.rsqrt (var (ix2 (0 : Fin 1) j) + litEps) := by
  unfold k1_pay4
  simp only [shapeCast_self, subf_apply, addf_apply, mulf_apply, broadcast_apply,
    broadcastTo_1b_ab_apply, rsqrt_apply, truncf_apply, mm_15_15, scalar_ofBits]
  rfl

/-- The rest: the third branch's scale, shift and ELU, the three picks multiplied, the linear layer and its bias. -/
theorem pay5_apply (e0 : FVec Ideal S1024x6 .f32) (e1 : FVec Ideal S1024x10 .f32) (z2 : FVec Ideal S1024x15 .f32)
    (g2 b2 : Vec Ideal S1x15 .f32) (oh0 : Vec Ideal S6x100 .f32) (oh1 : Vec Ideal S10x100 .f32) (oh2 : Vec Ideal S15x100 .f32)
    (mw : Vec Ideal S100x100 .f32) (mb : Vec Ideal S1x100 .f32) (s : Fin 1024) (q : Fin 100) :
    k1_pay5 e0 e1 z2 g2 b2 oh0 oh1 oh2 mw mb (ix2 s q)
      = (∑ p : Fin 100, (∑ j : Fin 6, e0 (ix2 s j) * oh0 (ix2 j p)) * (∑ j : Fin 10, e1 (ix2 s j) * oh1 (ix2 j p))
            * (∑ j : Fin 15, eluK (z2 (ix2 s j) * g2 (ix2 (0 : Fin 1) j) + b2 (ix2 (0 : Fin 1) j)) * oh2 (ix2 j p))
            * mw (ix2 p q)) + mb (ix2 (0 : Fin 1) q) := by
  unfold k1_pay5
  simp only [shapeCast_self, select_apply, cmpf_apply, subf_apply, addf_apply, mulf_apply, broadcast_apply,
    broadcastTo_1b_ab_apply, exp_apply, truncf_apply, mm_6_100, mm_10_100, mm_15_100, mm_100_100, scalar_ofBits,
    Ideal.cmpf_def, elu_select]

/-! ## One row of the second pass -/

/-- One entry of a branch at given statistics, from the row of `x` alone. -/
def rowBranch {d : ℕ} (a : Fin d → EReal) (w : Fin d → Fin d → EReal) (m v g b : Fin d → EReal) (j : Fin d) : EReal :=
  eluK (((∑ i : Fin d, a i * w i j) - m j) * Ideal.rsqrt (v j + litEps) * g j + b j)

/-- One row of the result, from the rows of the three inputs alone. -/
def rowStage (a0 : Fin 6 → EReal) (a1 : Fin 10 → EReal) (a2 : Fin 15 → EReal)
    (w0 : Fin 6 → Fin 6 → EReal) (w1 : Fin 10 → Fin 10 → EReal) (w2 : Fin 15 → Fin 15 → EReal)
    (m0 v0 g0 b0 : Fin 6 → EReal) (m1 v1 g1 b1 : Fin 10 → EReal) (m2 v2 g2 b2 : Fin 15 → EReal)
    (oh0 : Fin 6 → Fin NP → EReal) (oh1 : Fin 10 → Fin NP → EReal) (oh2 : Fin 15 → Fin NP → EReal)
    (mwT : Fin NP → Fin NP → EReal) (mb : Fin NP → EReal) (q : Fin NP) : EReal :=
  (∑ p : Fin NP, (∑ j : Fin 6, rowBranch a0 w0 m0 v0 g0 b0 j * oh0 j p) * (∑ j : Fin 10, rowBranch a1 w1 m1 v1 g1 b1 j * oh1 j p)
      * (∑ j : Fin 15, rowBranch a2 w2 m2 v2 g2 b2 j * oh2 j p) * mwT p q) + mb q

/-- The second pass reads each input through the one row it computes. -/
theorem stage1_row (x0 : Fin NB → Fin 6 → EReal) (x1 : Fin NB → Fin 10 → EReal) (x2 : Fin NB → Fin 15 → EReal)
    (w0 : Fin 6 → Fin 6 → EReal) (w1 : Fin 10 → Fin 10 → EReal) (w2 : Fin 15 → Fin 15 → EReal)
    (m0 v0 g0 b0 : Fin 6 → EReal) (m1 v1 g1 b1 : Fin 10 → EReal) (m2 v2 g2 b2 : Fin 15 → EReal)
    (oh0 : Fin 6 → Fin NP → EReal) (oh1 : Fin 10 → Fin NP → EReal) (oh2 : Fin 15 → Fin NP → EReal)
    (mwT : Fin NP → Fin NP → EReal) (mb : Fin NP → EReal) (r : Fin NB) (q : Fin NP) :
    stage1 x0 x1 x2 w0 w1 w2 m0 v0 g0 b0 m1 v1 g1 b1 m2 v2 g2 b2 oh0 oh1 oh2 mwT mb r q
      = rowStage (x0 r) (x1 r) (x2 r) w0 w1 w2 m0 v0 g0 b0 m1 v1 g1 b1 m2 v2 g2 b2 oh0 oh1 oh2 mwT mb q := rfl

theorem hz : (![0, 0] : Fin 2 → Nat) = fun _ => 0 := funext fun a => by fin_cases a <;> rfl

/-- What the body leaves in the output's buffer, at an entry: that row of the second pass over the blocks' entries. -/
theorem out_block_apply (x0 : Vec Ideal S1024x6 .f32) (x1 : Vec Ideal S1024x10 .f32) (x2 : Vec Ideal S1024x15 .f32)
    (x3 : Vec Ideal S6x6 .f32) (x4 : Vec Ideal S10x10 .f32) (x5 : Vec Ideal S15x15 .f32)
    (x6 x7 x8 x9 : Vec Ideal S1x6 .f32) (x10 x11 x12 x13 : Vec Ideal S1x10 .f32) (x14 x15 x16 x17 : Vec Ideal S1x15 .f32)
    (x18 : Vec Ideal S6x100 .f32) (x19 : Vec Ideal S10x100 .f32) (x20 : Vec Ideal S15x100 .f32)
    (x21 : Vec Ideal S100x100 .f32) (x22 : Vec Ideal S1x100 .f32) (s : Fin 1024) (q : Fin 100) :
    out1_23 x0 x1 x2 x3 x4 x5 x6 x7 x8 x9 x10 x11 x12 x13 x14 x15 x16 x17 x18 x19 x20 x21 x22 (ix2 s q)
      = rowStage (fun i => x0 (ix2 s i)) (fun i => x1 (ix2 s i)) (fun i => x2 (ix2 s i)) (cur2 x3) (cur2 x4) (cur2 x5)
          (fun j => x6 (ix2 (0 : Fin 1) j)) (fun j => x7 (ix2 (0 : Fin 1) j)) (fun j => x8 (ix2 (0 : Fin 1) j)) (fun j => x9 (ix2 (0 : Fin 1) j))
          (fun j => x10 (ix2 (0 : Fin 1) j)) (fun j => x11 (ix2 (0 : Fin 1) j)) (fun j => x12 (ix2 (0 : Fin 1) j)) (fun j => x13 (ix2 (0 : Fin 1) j))
          (fun j => x14 (ix2 (0 : Fin 1) j)) (fun j => x15 (ix2 (0 : Fin 1) j)) (fun j => x16 (ix2 (0 : Fin 1) j)) (fun j => x17 (ix2 (0 : Fin 1) j))
          (cur2 x18) (cur2 x19) (cur2 x20) (cur2 x21) (fun q' => x22 (ix2 (0 : Fin 1) q')) q := by
  unfold out1_23
  rw [View.canon_unit_zero hz]
  simp only [View.ld_unit_zero (S := S1024x6) hz, View.ld_unit_zero (S := S6x6) hz, View.ld_unit_zero (S := S1x6) hz,
    View.ld_unit_zero (S := S1024x10) hz, View.ld_unit_zero (S := S10x10) hz, View.ld_unit_zero (S := S1x10) hz,
    View.ld_unit_zero (S := S1024x15) hz, View.ld_unit_zero (S := S15x15) hz, View.ld_unit_zero (S := S1x15) hz,
    View.ld_unit_zero (S := S6x100) hz, View.ld_unit_zero (S := S10x100) hz, View.ld_unit_zero (S := S15x100) hz,
    View.ld_unit_zero (S := S100x100) hz, View.ld_unit_zero (S := S1x100) hz]
  rw [pay5_apply]
  simp only [pay1_apply, pay2_apply, pay3_apply, pay4_apply]
  rfl

/-! ## The region at the contents it is entered with -/

variable (V : (c : Dev nD) → (b : Ref sig .tc) → Buf (Elt Ideal) ((c : Thread nD τ).loc b))

/-- The row of the batch at coordinate `s` of row block `t`. -/
def rowAt (t : Fin cfg1.N) (s : Fin 1024) : Fin NB :=
  ⟨t.val * 1024 + s.val, by
    have ht := t.isLt
    have hN : cfg1.N = 128 := N_1
    have hs := s.isLt
    show t.val * 1024 + s.val < 131072
    omega⟩

/-- The second pass over the arrays as the region finds them, index by index: what the output array ends holding. -/
abbrev outG (c : Dev nD) : S131072x100.Idx → EReal := fun i =>
  stage1 (cur2 (V c main_arg0 : S131072x6.Idx → EReal)) (cur2 (V c main_arg1 : S131072x10.Idx → EReal))
    (cur2 (V c main_arg2 : S131072x15.Idx → EReal)) (cur2 (V c main_arg3 : S6x6.Idx → EReal))
    (cur2 (V c main_arg4 : S10x10.Idx → EReal)) (cur2 (V c main_arg5 : S15x15.Idx → EReal))
    (fun j => (V c main_v2 : S1x6.Idx → EReal) (ix2 (0 : Fin 1) j)) (fun j => (V c main_v8 : S1x6.Idx → EReal) (ix2 (0 : Fin 1) j))
    (fun j => (V c main_v25 : S1x6.Idx → EReal) (ix2 (0 : Fin 1) j)) (fun j => (V c main_v26 : S1x6.Idx → EReal) (ix2 (0 : Fin 1) j))
    (fun j => (V c main_v10 : S1x10.Idx → EReal) (ix2 (0 : Fin 1) j)) (fun j => (V c main_v16 : S1x10.Idx → EReal) (ix2 (0 : Fin 1) j))
    (fun j => (V c main_v27 : S1x10.Idx → EReal) (ix2 (0 : Fin 1) j)) (fun j => (V c main_v28 : S1x10.Idx → EReal) (ix2 (0 : Fin 1) j))
    (fun j => (V c main_v18 : S1x15.Idx → EReal) (ix2 (0 : Fin 1) j)) (fun j => (V c main_v24 : S1x15.Idx → EReal) (ix2 (0 : Fin 1) j))
    (fun j => (V c main_v29 : S1x15.Idx → EReal) (ix2 (0 : Fin 1) j)) (fun j => (V c main_v30 : S1x15.Idx → EReal) (ix2 (0 : Fin 1) j))
    (cur2 (V c main_v36 : S6x100.Idx → EReal)) (cur2 (V c main_v38 : S10x100.Idx → EReal)) (cur2 (V c main_v40 : S15x100.Idx → EReal))
    (cur2 (V c main_v41 : S100x100.Idx → EReal)) (fun q' => (V c main_v42 : S1x100.Idx → EReal) (ix2 (0 : Fin 1) q'))
    (i 0) (i 1)

/-! ### Where each window's block lies in its array -/

/-- The printed index maps, decided over the grid: the three inputs and the output move down the rows one block a point … -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_23.index t (0 : Fin 2) = t.val ∧ win1_23.index t (1 : Fin 2) = 0) :=
  (by decide +kernel : ∀ t : Fin grid1.N, _)

/-- … and every other window stays at its one block. -/
theorem idx_still : ∀ t : Fin cfg1.N,
    (∀ a : Fin 2, win1_3.index t a = 0) ∧ (∀ a : Fin 2, win1_4.index t a = 0) ∧ (∀ a : Fin 2, win1_5.index t a = 0)
    ∧ (∀ a : Fin 2, win1_6.index t a = 0) ∧ (∀ a : Fin 2, win1_7.index t a = 0) ∧ (∀ a : Fin 2, win1_8.index t a = 0)
    ∧ (∀ a : Fin 2, win1_9.index t a = 0) ∧ (∀ a : Fin 2, win1_10.index t a = 0) ∧ (∀ a : Fin 2, win1_11.index t a = 0)
    ∧ (∀ a : Fin 2, win1_12.index t a = 0) ∧ (∀ a : Fin 2, win1_13.index t a = 0) ∧ (∀ a : Fin 2, win1_14.index t a = 0)
    ∧ (∀ a : Fin 2, win1_15.index t a = 0) ∧ (∀ a : Fin 2, win1_16.index t a = 0) ∧ (∀ a : Fin 2, win1_17.index t a = 0)
    ∧ (∀ a : Fin 2, win1_18.index t a = 0) ∧ (∀ a : Fin 2, win1_19.index t a = 0) ∧ (∀ a : Fin 2, win1_20.index t a = 0)
    ∧ (∀ a : Fin 2, win1_21.index t a = 0) ∧ (∀ a : Fin 2, win1_22.index t a = 0) :=
  (by decide +kernel : ∀ t : Fin grid1.N, _)

/-- A block at index zero of the array's own size, read out of the array, is the array. -/
theorem read_whole (b : Ref sig .tc) (ix : Fin b.ty.shape.rank → Nat) (h : ∀ a, ix a = 0)
    (inb : ∀ a, ix a * b.ty.shape.size a + b.ty.shape.size a ≤ b.ty.shape.size a) (f : b.ty.Contents (Elt Ideal)) :
    ((Memref.whole b).access (Rect.unit (fun a => ix a * b.ty.shape.size a) b.ty.shape.size inb) : View sig .tc _ _ _).read (Elt Ideal) f = f :=
  Memref.read_access_unit_zero (Elt Ideal) b (funext fun a => by rw [h a, Nat.zero_mul]) inb f

/-- Row `s` of block `t` of the first input is row `1024·t + s` of the array. -/
theorem read_x0 (c : Dev nD) (t : Fin cfg1.N) (s : Fin 1024) (i : Fin 6) :
    (iblk1 V c 0 t : Vec Ideal S1024x6 .f32) (ix2 s i) = (V c main_arg0 : S131072x6.Idx → EReal) (ix2 (rowAt t s) i) := by
  obtain ⟨⟨e0, e1⟩, -⟩ := idx_rows t
  unfold iblk1
  rw [View.read_apply]
  show V c main_arg0 _ = V c main_arg0 _
  congr 1
  funext a; apply Fin.ext
  match a with
  | ⟨0, _⟩ => show win1_0.index t (0 : Fin 2) * 1024 + 1 * s.val = t.val * 1024 + s.val; rw [e0]; omega
  | ⟨1, _⟩ => show win1_0.index t (1 : Fin 2) * 6 + 1 * i.val = i.val; rw [e1]; omega

/-- The same for the second input … -/
theorem read_x1 (c : Dev nD) (t : Fin cfg1.N) (s : Fin 1024) (i : Fin 10) :
    (iblk1 V c 1 t : Vec Ideal S1024x10 .f32) (ix2 s i) = (V c main_arg1 : S131072x10.Idx → EReal) (ix2 (rowAt t s) i) := by
  obtain ⟨-, ⟨e0, e1⟩, -⟩ := idx_rows t
  unfold iblk1
  rw [View.read_apply]
  show V c main_arg1 _ = V c main_arg1 _
  congr 1
  funext a; apply Fin.ext
  match a with
  | ⟨0, _⟩ => show win1_1.index t (0 : Fin 2) * 1024 + 1 * s.val = t.val * 1024 + s.val; rw [e0]; omega
  | ⟨1, _⟩ => show win1_1.index t (1 : Fin 2) * 10 + 1 * i.val = i.val; rw [e1]; omega

/-- … and the third. -/
theorem read_x2 (c : Dev nD) (t : Fin cfg1.N) (s : Fin 1024) (i : Fin 15) :
    (iblk1 V c 2 t : Vec Ideal S1024x15 .f32) (ix2 s i) = (V c main_arg2 : S131072x15.Idx → EReal) (ix2 (rowAt t s) i) := by
  obtain ⟨-, -, ⟨e0, e1⟩, -⟩ := idx_rows t
  unfold iblk1
  rw [View.read_apply]
  show V c main_arg2 _ = V c main_arg2 _
  congr 1
  funext a; apply Fin.ext
  match a with
  | ⟨0, _⟩ => show win1_2.index t (0 : Fin 2) * 1024 + 1 * s.val = t.val * 1024 + s.val; rw [e0]; omega
  | ⟨1, _⟩ => show win1_2.index t (1 : Fin 2) * 15 + 1 * i.val = i.val; rw [e1]; omega

/-- Entry `(s, q)` of the output's block `t` lies at row `1024·t + s`, column `q` of the array. -/
theorem emb_out (t : Fin cfg1.N) (s : Fin 1024) (q : Fin 100) :
    (((cfg1.win 23).blk t).view.emb (ix2 s q) : S131072x100.Idx) = ix2 (rowAt t s) q := by
  obtain ⟨-, -, -, e0, e1⟩ := idx_rows t
  funext a; apply Fin.ext
  match a with
  | ⟨0, _⟩ => show win1_23.index t (0 : Fin 2) * 1024 + 1 * s.val = t.val * 1024 + s.val; rw [e0]; omega
  | ⟨1, _⟩ => show win1_23.index t (1 : Fin 2) * 100 + 1 * q.val = q.val; rw [e1]; omega

/-! ### What a point writes back, the cover, and the array after the region -/

/-- What point `t` leaves in the output's buffer at `(s, q)` is the second pass over the ARRAYS at row `1024·t + s`:
    the three inputs' blocks are those rows, every other window's block is its whole array. -/
theorem flushed_apply (c : Dev nD) (t : Fin cfg1.N) (s : Fin 1024) (q : Fin 100) :
    out1_23 (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t) (iblk1 V c 10 t) (iblk1 V c 11 t) (iblk1 V c 12 t) (iblk1 V c 13 t)
        (iblk1 V c 14 t) (iblk1 V c 15 t) (iblk1 V c 16 t) (iblk1 V c 17 t) (iblk1 V c 18 t) (iblk1 V c 19 t) (iblk1 V c 20 t)
        (iblk1 V c 21 t) (iblk1 V c 22 t) (ix2 s q)
      = outG V c (ix2 (rowAt t s) q) := by
  obtain ⟨e3, e4, e5, e6, e7, e8, e9, e10, e11, e12, e13, e14, e15, e16, e17, e18, e19, e20, e21, e22⟩ := idx_still t
  have h0 : (fun i => (iblk1 V c 0 t : Vec Ideal S1024x6 .f32) (ix2 s i))
      = cur2 (V c main_arg0 : S131072x6.Idx → EReal) (rowAt t s) := funext fun i => read_x0 V c t s i
  have h1 : (fun i => (iblk1 V c 1 t : Vec Ideal S1024x10 .f32) (ix2 s i))
      = cur2 (V c main_arg1 : S131072x10.Idx → EReal) (rowAt t s) := funext fun i => read_x1 V c t s i
  have h2 : (fun i => (iblk1 V c 2 t : Vec Ideal S1024x15 .f32) (ix2 s i))
      = cur2 (V c main_arg2 : S131072x15.Idx → EReal) (rowAt t s) := funext fun i => read_x2 V c t s i
  have h3 : (iblk1 V c 3 t : Vec Ideal S6x6 .f32) = (V c main_arg3 : S6x6.Idx → EReal) :=
    read_whole main_arg3 (win1_3.index t) e3 _ (V c main_arg3)
  have h4 : (iblk1 V c 4 t : Vec Ideal S10x10 .f32) = (V c main_arg4 : S10x10.Idx → EReal) :=
    read_whole main_arg4 (win1_4.index t) e4 _ (V c main_arg4)
  have h5 : (iblk1 V c 5 t : Vec Ideal S15x15 .f32) = (V c main_arg5 : S15x15.Idx → EReal) :=
    read_whole main_arg5 (win1_5.index t) e5 _ (V c main_arg5)
  have h6 : (iblk1 V c 6 t : Vec Ideal S1x6 .f32) = (V c main_v2 : S1x6.Idx → EReal) :=
    read_whole main_v2 (win1_6.index t) e6 _ (V c main_v2)
  have h7 : (iblk1 V c 7 t : Vec Ideal S1x6 .f32) = (V c main_v8 : S1x6.Idx → EReal) :=
    read_whole main_v8 (win1_7.index t) e7 _ (V c main_v8)
  have h8 : (iblk1 V c 8 t : Vec Ideal S1x6 .f32) = (V c main_v25 : S1x6.Idx → EReal) :=
    read_whole main_v25 (win1_8.index t) e8 _ (V c main_v25)
  have h9 : (iblk1 V c 9 t : Vec Ideal S1x6 .f32) = (V c main_v26 : S1x6.Idx → EReal) :=
    read_whole main_v26 (win1_9.index t) e9 _ (V c main_v26)
  have h10 : (iblk1 V c 10 t : Vec Ideal S1x10 .f32) = (V c main_v10 : S1x10.Idx → EReal) :=
    read_whole main_v10 (win1_10.index t) e10 _ (V c main_v10)
  have h11 : (iblk1 V c 11 t : Vec Ideal S1x10 .f32) = (V c main_v16 : S1x10.Idx → EReal) :=
    read_whole main_v16 (win1_11.index t) e11 _ (V c main_v16)
  have h12 : (iblk1 V c 12 t : Vec Ideal S1x10 .f32) = (V c main_v27 : S1x10.Idx → EReal) :=
    read_whole main_v27 (win1_12.index t) e12 _ (V c main_v27)
  have h13 : (iblk1 V c 13 t : Vec Ideal S1x10 .f32) = (V c main_v28 : S1x10.Idx → EReal) :=
    read_whole main_v28 (win1_13.index t) e13 _ (V c main_v28)
  have h14 : (iblk1 V c 14 t : Vec Ideal S1x15 .f32) = (V c main_v18 : S1x15.Idx → EReal) :=
    read_whole main_v18 (win1_14.index t) e14 _ (V c main_v18)
  have h15 : (iblk1 V c 15 t : Vec Ideal S1x15 .f32) = (V c main_v24 : S1x15.Idx → EReal) :=
    read_whole main_v24 (win1_15.index t) e15 _ (V c main_v24)
  have h16 : (iblk1 V c 16 t : Vec Ideal S1x15 .f32) = (V c main_v29 : S1x15.Idx → EReal) :=
    read_whole main_v29 (win1_16.index t) e16 _ (V c main_v29)
  have h17 : (iblk1 V c 17 t : Vec Ideal S1x15 .f32) = (V c main_v30 : S1x15.Idx → EReal) :=
    read_whole main_v30 (win1_17.index t) e17 _ (V c main_v30)
  have h18 : (iblk1 V c 18 t : Vec Ideal S6x100 .f32) = (V c main_v36 : S6x100.Idx → EReal) :=
    read_whole main_v36 (win1_18.index t) e18 _ (V c main_v36)
  have h19 : (iblk1 V c 19 t : Vec Ideal S10x100 .f32) = (V c main_v38 : S10x100.Idx → EReal) :=
    read_whole main_v38 (win1_19.index t) e19 _ (V c main_v38)
  have h20 : (iblk1 V c 20 t : Vec Ideal S15x100 .f32) = (V c main_v40 : S15x100.Idx → EReal) :=
    read_whole main_v40 (win1_20.index t) e20 _ (V c main_v40)
  have h21 : (iblk1 V c 21 t : Vec Ideal S100x100 .f32) = (V c main_v41 : S100x100.Idx → EReal) :=
    read_whole main_v41 (win1_21.index t) e21 _ (V c main_v41)
  have h22 : (iblk1 V c 22 t : Vec Ideal S1x100 .f32) = (V c main_v42 : S1x100.Idx → EReal) :=
    read_whole main_v42 (win1_22.index t) e22 _ (V c main_v42)
  refine (out_block_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t)
    (iblk1 V c 13 t) (iblk1 V c 14 t) (iblk1 V c 15 t) (iblk1 V c 16 t) (iblk1 V c 17 t) (iblk1 V c 18 t) (iblk1 V c 19 t)
    (iblk1 V c 20 t) (iblk1 V c 21 t) (iblk1 V c 22 t) s q).trans ?_
  rw [h0, h1, h2, h3, h4, h5, h6, h7, h8, h9, h10, h11, h12, h13, h14, h15, h16, h17, h18, h19, h20, h21, h22]
  rfl

/-- WHAT POINT `t` WRITES BACK is block `t` of `outG`. -/
theorem flushed_eq (c : Dev nD) (t : Fin cfg1.N) :
    (dat1 V c).flushed 23 t = ((cfg1.win 23).blk t).view.read (Elt Ideal) (outG V c) := by
  show (cfg1.win 23).cut (grid1.coords t) ((dat1 V c).after 23 t) = _
  rw [after1_23]
  funext y
  obtain ⟨s, q, rfl⟩ : ∃ (s : Fin 1024) (q : Fin 100), y = ix2 s q := ⟨y 0, y 1, eq_ix2 y⟩
  refine (flushed_apply V c t s q).trans ?_
  rw [View.read_apply, emb_out t s q]
  rfl

/-- An index of the array is in point `t`'s block iff each coordinate is in the block's range on its axis. -/
theorem mem_blk (t : Fin cfg1.N) (i : S131072x100.Idx) :
    i ∈ ((cfg1.win 23).blk t).view.set ↔ ∀ a : Fin 2, win1_23.index t a * S1024x100.size a ≤ (i a).val
      ∧ (i a).val < win1_23.index t a * S1024x100.size a + S1024x100.size a := by
  show i ∈ ((View.whole main_v43).slice (win1_23.rect t)).set ↔ _
  rw [View.set_slice_whole, Rect.mem_set_unit]
  exact Iff.rfl

/-- Every index of the output array is in some point's block: row `r` is covered by point `r / 1024`. -/
theorem covered (i : S131072x100.Idx) :
    ∃ t : Fin cfg1.N, (cfg1.win 23).flush t = true ∧ i ∈ ((cfg1.win 23).blk t).view.set := by
  have hN : cfg1.N = 128 := N_1
  have hi0 : (i 0).val < 131072 := (i 0).isLt
  have hi1 : (i 1).val < 100 := (i 1).isLt
  obtain ⟨t, ht⟩ : ∃ t : Fin cfg1.N, t.val = (i 0).val / 1024 := ⟨⟨(i 0).val / 1024, by omega⟩, rfl⟩
  obtain ⟨-, -, -, e0, e1⟩ := idx_rows t
  refine ⟨t, flush1_23 t, ?_⟩
  rw [mem_blk]
  intro a
  match a with
  | ⟨0, _⟩ =>
    show win1_23.index t (0 : Fin 2) * 1024 ≤ (i 0).val ∧ (i 0).val < win1_23.index t (0 : Fin 2) * 1024 + 1024
    rw [e0]; omega
  | ⟨1, _⟩ =>
    show win1_23.index t (1 : Fin 2) * 100 ≤ (i 1).val ∧ (i 1).val < win1_23.index t (1 : Fin 2) * 100 + 100
    rw [e1]; omega

/-- THE OUTPUT ARRAY after the region is the second pass over the arrays the region was entered with. -/
theorem out_array (c : Dev nD) : (dat1 V c).arrAt 23 cfg1.N = outG V c :=
  (dat1 V c).arrAt_eq_of_cover 23 (outG V c) (fun t _ => flushed_eq V c t) (covered)

/-- The same, entry by entry. -/
theorem out_value (c : Dev nD) (r : Fin NB) (q : Fin NP) :
    (dat1 (F := Ideal) V c).arrAt 23 cfg1.N (ix2 r q)
      = stage1 (cur2 (V c main_arg0)) (cur2 (V c main_arg1)) (cur2 (V c main_arg2)) (cur2 (V c main_arg3)) (cur2 (V c main_arg4)) (cur2 (V c main_arg5))
          (fun j => V c main_v2 (ix2 (0 : Fin 1) j)) (fun j => V c main_v8 (ix2 (0 : Fin 1) j)) (fun j => V c main_v25 (ix2 (0 : Fin 1) j)) (fun j => V c main_v26 (ix2 (0 : Fin 1) j))
          (fun j => V c main_v10 (ix2 (0 : Fin 1) j)) (fun j => V c main_v16 (ix2 (0 : Fin 1) j)) (fun j => V c main_v27 (ix2 (0 : Fin 1) j)) (fun j => V c main_v28 (ix2 (0 : Fin 1) j))
          (fun j => V c main_v18 (ix2 (0 : Fin 1) j)) (fun j => V c main_v24 (ix2 (0 : Fin 1) j)) (fun j => V c main_v29 (ix2 (0 : Fin 1) j)) (fun j => V c main_v30 (ix2 (0 : Fin 1) j))
          (cur2 (V c main_v36)) (cur2 (V c main_v38)) (cur2 (V c main_v40)) (cur2 (V c main_v41)) (fun q' => V c main_v42 (ix2 (0 : Fin 1) q')) r q :=
  congrFun (out_array V c) (ix2 r q)

end Cert.KernelIdeal.KMain

end
-- ==== Proof.KGlueF.lean ====
/-
  What the second pass finds in its float inputs, read off the host operations that run between the two passes, in
  terms of what the first pass left in its six accumulators and of the launch memory. The batch inputs and the square
  matrices are as launched. Each mean is its column's sum times `2⁻¹⁷`; each variance is the sum of squares times
  `2⁻¹⁷`, less the mean squared, floored at zero. Scale, shift and bias are the launched vectors with a unit row axis
  put in front; the linear layer's weight is the launched matrix transposed.
-/
import proofs.«431318_j31860067402336_2_alg».proof.Proof.Gen.KernelIdeal.Frame
import proofs.«431318_j31860067402336_2_alg».proof.Proof.Spec
import Idealize.ShloMosaic.Lib.ValueIdx
import Idealize.ShloMosaic.Lib.ValueLayout
import Idealize.ShloMosaic.Lib.StableHlo.Run

noncomputable section

namespace Cert.KernelIdeal.KGlueF

open Idealize.ShloMosaic Idealize.ShloMosaic.TcCoe
open Cert.KernelIdeal Cert.KernelIdeal.Gen Cert.Tri Idealize.ShloMosaic.ValueIdx

variable (m : (ℓ : Loc nD τ sig) → Buf (Elt Ideal) ℓ) (ρ : Dev nD → PrngReg)

/-- One stretch of host operations that does not write the buffer read: the contents after it are the contents before. -/
local macro "keep_step" : tactic => `(tactic| (
  refine (StableHlo.after_of_forall_not_mem _ _ (List.forall_iff_forall_mem.mp ?_)).trans ?_
  · simp only [hostOps1, hostOps1_1, hostOps1_2, hostOps1_3, hostOps1_4, hostOps1_5, hostOps1_6, hostOps1_7, hostOps1_8,
      hostOps1_9, hostOps1_10, hostOps1_11, hostOps1_12, hostOps1_13, List.flatten_cons, List.flatten_nil,
      List.append_nil, List.cons_append, List.nil_append, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The column sums and sums of squares the first pass leaves, by their literal types. -/
abbrev acc0 (c : Dev nD) : Vec Ideal S1x6 .f32 := V1 m ρ c main_v0_0
abbrev acc1 (c : Dev nD) : Vec Ideal S1x6 .f32 := V1 m ρ c main_v0_1
abbrev acc2 (c : Dev nD) : Vec Ideal S1x10 .f32 := V1 m ρ c main_v0_2
abbrev acc3 (c : Dev nD) : Vec Ideal S1x10 .f32 := V1 m ρ c main_v0_3
abbrev acc4 (c : Dev nD) : Vec Ideal S1x15 .f32 := V1 m ρ c main_v0_4
abbrev acc5 (c : Dev nD) : Vec Ideal S1x15 .f32 := V1 m ρ c main_v0_5

/-- What the first pass leaves in each accumulator is what its pipeline's write-backs fold to. -/
theorem acc0_eq (c : Dev nD) : acc0 m ρ c = (dat0 (V0 m ρ) c).arrAt 6 cfg0.N := (hF0 m ρ c 6).symm
theorem acc1_eq (c : Dev nD) : acc1 m ρ c = (dat0 (V0 m ρ) c).arrAt 7 cfg0.N := (hF0 m ρ c 7).symm
theorem acc2_eq (c : Dev nD) : acc2 m ρ c = (dat0 (V0 m ρ) c).arrAt 8 cfg0.N := (hF0 m ρ c 8).symm
theorem acc3_eq (c : Dev nD) : acc3 m ρ c = (dat0 (V0 m ρ) c).arrAt 9 cfg0.N := (hF0 m ρ c 9).symm
theorem acc4_eq (c : Dev nD) : acc4 m ρ c = (dat0 (V0 m ρ) c).arrAt 10 cfg0.N := (hF0 m ρ c 10).symm
theorem acc5_eq (c : Dev nD) : acc5 m ρ c = (dat0 (V0 m ρ) c).arrAt 11 cfg0.N := (hF0 m ρ c 11).symm

/-! ## The batch inputs and the square matrices: nothing between the two passes writes them -/

theorem V15_arg0 (c : Dev nD) : V15 m ρ c main_arg0 = m ((c : Thread nD τ).loc main_arg0) := by
  have h : W16 m ρ c (Proc.devRef .tc main_arg0) = W15 m ρ c (Proc.devRef .tc main_arg0) :=
    (W16_arr m ρ c 0).trans (((dat1 (V15 m ρ) c).arrAt_in 0 rfl _).trans (A_eq1 (V15 m ρ) c 0))
  exact h.symm.trans (W16_main_arg0 m ρ c)

theorem V15_arg1 (c : Dev nD) : V15 m ρ c main_arg1 = m ((c : Thread nD τ).loc main_arg1) := by
  have h : W16 m ρ c (Proc.devRef .tc main_arg1) = W15 m ρ c (Proc.devRef .tc main_arg1) :=
    (W16_arr m ρ c 1).trans (((dat1 (V15 m ρ) c).arrAt_in 1 rfl _).trans (A_eq1 (V15 m ρ) c 1))
  exact h.symm.trans (W16_main_arg1 m ρ c)

theorem V15_arg2 (c : Dev nD) : V15 m ρ c main_arg2 = m ((c : Thread nD τ).loc main_arg2) := by
  have h : W16 m ρ c (Proc.devRef .tc main_arg2) = W15 m ρ c (Proc.devRef .tc main_arg2) :=
    (W16_arr m ρ c 2).trans (((dat1 (V15 m ρ) c).arrAt_in 2 rfl _).trans (A_eq1 (V15 m ρ) c 2))
  exact h.symm.trans (W16_main_arg2 m ρ c)

theorem V15_arg3 (c : Dev nD) : V15 m ρ c main_arg3 = m ((c : Thread nD τ).loc main_arg3) := by
  have h : W16 m ρ c (Proc.devRef .tc main_arg3) = W15 m ρ c (Proc.devRef .tc main_arg3) :=
    (W16_arr m ρ c 3).trans (((dat1 (V15 m ρ) c).arrAt_in 3 rfl _).trans (A_eq1 (V15 m ρ) c 3))
  exact h.symm.trans (W16_main_arg3 m ρ c)

theorem V15_arg4 (c : Dev nD) : V15 m ρ c main_arg4 = m ((c : Thread nD τ).loc main_arg4) := by
  have h : W16 m ρ c (Proc.devRef .tc main_arg4) = W15 m ρ c (Proc.devRef .tc main_arg4) :=
    (W16_arr m ρ c 4).trans (((dat1 (V15 m ρ) c).arrAt_in 4 rfl _).trans (A_eq1 (V15 m ρ) c 4))
  exact h.symm.trans (W16_main_arg4 m ρ c)

theorem V15_arg5 (c : Dev nD) : V15 m ρ c main_arg5 = m ((c : Thread nD τ).loc main_arg5) := by
  have h : W16 m ρ c (Proc.devRef .tc main_arg5) = W15 m ρ c (Proc.devRef .tc main_arg5) :=
    (W16_arr m ρ c 5).trans (((dat1 (V15 m ρ) c).arrAt_in 5 rfl _).trans (A_eq1 (V15 m ρ) c 5))
  exact h.symm.trans (W16_main_arg5 m ρ c)

/-! ## The means: each column's sum times `2⁻¹⁷` -/

theorem mean_tool (c : Dev nD) (j : Fin 6) :
    V15 m ρ c main_v2 (ix2 (0 : Fin 1) j) = acc0 m ρ c (ix2 (0 : Fin 1) j) * litInvN := by
  have h : (W15 m ρ c (Proc.devRef .tc main_v2) : Vec Ideal S1x6 .f32)
      = mulf (acc0 m ρ c) (broadcastInDim S1x6 ![] bcast_S_S1x6 (constant (F := Ideal) S_ .f32 0x37000000#32)) := by
    iterate 13 keep_step
    show StableHlo.after hostOps1 _ (Proc.devRef .tc main_v2) = _
    after_results
    all_goals rfl
  exact (congrFun h (ix2 (0 : Fin 1) j)).trans rfl

theorem mean_verb (c : Dev nD) (j : Fin 10) :
    V15 m ρ c main_v10 (ix2 (0 : Fin 1) j) = acc2 m ρ c (ix2 (0 : Fin 1) j) * litInvN := by
  have h : (W15 m ρ c (Proc.devRef .tc main_v10) : Vec Ideal S1x10 .f32)
      = mulf (acc2 m ρ c) (broadcastInDim S1x10 ![] bcast_S_S1x10 (constant (F := Ideal) S_ .f32 0x37000000#32)) := by
    iterate 13 keep_step
    show StableHlo.after hostOps1 _ (Proc.devRef .tc main_v10) = _
    after_results
    all_goals rfl
  exact (congrFun h (ix2 (0 : Fin 1) j)).trans rfl

theorem mean_target (c : Dev nD) (j : Fin 15) :
    V15 m ρ c main_v18 (ix2 (0 : Fin 1) j) = acc4 m ρ c (ix2 (0 : Fin 1) j) * litInvN := by
  have h : (W15 m ρ c (Proc.devRef .tc main_v18) : Vec Ideal S1x15 .f32)
      = mulf (acc4 m ρ c) (broadcastInDim S1x15 ![] bcast_S_S1x15 (constant (F := Ideal) S_ .f32 0x37000000#32)) := by
    iterate 13 keep_step
    show StableHlo.after hostOps1 _ (Proc.devRef .tc main_v18) = _
    after_results
    all_goals rfl
  exact (congrFun h (ix2 (0 : Fin 1) j)).trans rfl

/-! ## The variances: the mean of the squares less the square of the mean, floored at zero -/

theorem var_tool (c : Dev nD) (j : Fin 6) :
    V15 m ρ c main_v8 (ix2 (0 : Fin 1) j)
      = max (acc1 m ρ c (ix2 (0 : Fin 1) j) * litInvN
          - (acc0 m ρ c (ix2 (0 : Fin 1) j) * litInvN) * (acc0 m ρ c (ix2 (0 : Fin 1) j) * litInvN)) lit0 := by
  have h : (W15 m ρ c (Proc.devRef .tc main_v8) : Vec Ideal S1x6 .f32)
      = maximumf
          (subf (mulf (acc1 m ρ c) (broadcastInDim S1x6 ![] bcast_S_S1x6 (constant (F := Ideal) S_ .f32 0x37000000#32)))
            (mulf (mulf (acc0 m ρ c) (broadcastInDim S1x6 ![] bcast_S_S1x6 (constant (F := Ideal) S_ .f32 0x37000000#32))) (mulf (acc0 m ρ c) (broadcastInDim S1x6 ![] bcast_S_S1x6 (constant (F := Ideal) S_ .f32 0x37000000#32)))))
          (broadcastInDim S1x6 ![] bcast_S_S1x6 (constant (F := Ideal) S_ .f32 0x00000000#32)) := by
    iterate 13 keep_step
    show StableHlo.after hostOps1 _ (Proc.devRef .tc main_v8) = _
    after_results_simp
    all_goals rfl
  exact (congrFun h (ix2 (0 : Fin 1) j)).trans rfl

theorem var_verb (c : Dev nD) (j : Fin 10) :
    V15 m ρ c main_v16 (ix2 (0 : Fin 1) j)
      = max (acc3 m ρ c (ix2 (0 : Fin 1) j) * litInvN
          - (acc2 m ρ c (ix2 (0 : Fin 1) j) * litInvN) * (acc2 m ρ c (ix2 (0 : Fin 1) j) * litInvN)) lit0 := by
  have h : (W15 m ρ c (Proc.devRef .tc main_v16) : Vec Ideal S1x10 .f32)
      = maximumf
          (subf (mulf (acc3 m ρ c) (broadcastInDim S1x10 ![] bcast_S_S1x10 (constant (F := Ideal) S_ .f32 0x37000000#32)))
            (mulf (mulf (acc2 m ρ c) (broadcastInDim S1x10 ![] bcast_S_S1x10 (constant (F := Ideal) S_ .f32 0x37000000#32))) (mulf (acc2 m ρ c) (broadcastInDim S1x10 ![] bcast_S_S1x10 (constant (F := Ideal) S_ .f32 0x37000000#32)))))
          (broadcastInDim S1x10 ![] bcast_S_S1x10 (constant (F := Ideal) S_ .f32 0x00000000#32)) := by
    iterate 13 keep_step
    show StableHlo.after hostOps1 _ (Proc.devRef .tc main_v16) = _
    after_results_simp
    all_goals rfl
  exact (congrFun h (ix2 (0 : Fin 1) j)).trans rfl

theorem var_target (c : Dev nD) (j : Fin 15) :
    V15 m ρ c main_v24 (ix2 (0 : Fin 1) j)
      = max (acc5 m ρ c (ix2 (0 : Fin 1) j) * litInvN
          - (acc4 m ρ c (ix2 (0 : Fin 1) j) * litInvN) * (acc4 m ρ c (ix2 (0 : Fin 1) j) * litInvN)) lit0 := by
  have h : (W15 m ρ c (Proc.devRef .tc main_v24) : Vec Ideal S1x15 .f32)
      = maximumf
          (subf (mulf (acc5 m ρ c) (broadcastInDim S1x15 ![] bcast_S_S1x15 (constant (F := Ideal) S_ .f32 0x37000000#32)))
            (mulf (mulf (acc4 m ρ c) (broadcastInDim S1x15 ![] bcast_S_S1x15 (constant (F := Ideal) S_ .f32 0x37000000#32))) (mulf (acc4 m ρ c) (broadcastInDim S1x15 ![] bcast_S_S1x15 (constant (F := Ideal) S_ .f32 0x37000000#32)))))
          (broadcastInDim S1x15 ![] bcast_S_S1x15 (constant (F := Ideal) S_ .f32 0x00000000#32)) := by
    iterate 13 keep_step
    show StableHlo.after hostOps1 _ (Proc.devRef .tc main_v24) = _
    after_results_simp
    all_goals rfl
  exact (congrFun h (ix2 (0 : Fin 1) j)).trans rfl

/-! ## Scale and shift: each vector with a unit row axis put in front -/

theorem scale_tool (c : Dev nD) (j : Fin 6) :
    V15 m ρ c main_v25 (ix2 (0 : Fin 1) j) = m ((c : Thread nD τ).loc main_arg6) (ix1 j) := by
  have h : (W15 m ρ c (Proc.devRef .tc main_v25) : Vec Ideal S1x6 .f32)
      = shapeCast S1x6 (W1 m ρ c (Proc.devRef .tc main_arg6) : Vec Ideal S6 .f32) shapeCasts_S6_S1x6 := by
    iterate 13 keep_step
    show StableHlo.after hostOps1 _ (Proc.devRef .tc main_v25) = _
    after_results
    all_goals rfl
  refine (congrFun h (ix2 (0 : Fin 1) j)).trans ?_
  refine (shapeCast_a_1a_apply _ _ (0 : Fin 1) j).trans ?_
  exact congrFun (W1_of_ne m ρ c main_arg6 (by decide)) (ix1 j)

theorem shift_tool (c : Dev nD) (j : Fin 6) :
    V15 m ρ c main_v26 (ix2 (0 : Fin 1) j) = m ((c : Thread nD τ).loc main_arg7) (ix1 j) := by
  have h : (W15 m ρ c (Proc.devRef .tc main_v26) : Vec Ideal S1x6 .f32)
      = shapeCast S1x6 (W1 m ρ c (Proc.devRef .tc main_arg7) : Vec Ideal S6 .f32) shapeCasts_S6_S1x6 := by
    iterate 13 keep_step
    show StableHlo.after hostOps1 _ (Proc.devRef .tc main_v26) = _
    after_results
    all_goals rfl
  refine (congrFun h (ix2 (0 : Fin 1) j)).trans ?_
  refine (shapeCast_a_1a_apply _ _ (0 : Fin 1) j).trans ?_
  exact congrFun (W1_of_ne m ρ c main_arg7 (by decide)) (ix1 j)

theorem scale_verb (c : Dev nD) (j : Fin 10) :
    V15 m ρ c main_v27 (ix2 (0 : Fin 1) j) = m ((c : Thread nD τ).loc main_arg8) (ix1 j) := by
  have h : (W15 m ρ c (Proc.devRef .tc main_v27) : Vec Ideal S1x10 .f32)
      = shapeCast S1x10 (W1 m ρ c (Proc.devRef .tc main_arg8) : Vec Ideal S10 .f32) shapeCasts_S10_S1x10 := by
    iterate 13 keep_step
    show StableHlo.after hostOps1 _ (Proc.devRef .tc main_v27) = _
    after_results
    all_goals rfl
  refine (congrFun h (ix2 (0 : Fin 1) j)).trans ?_
  refine (shapeCast_a_1a_apply _ _ (0 : Fin 1) j).trans ?_
  exact congrFun (W1_of_ne m ρ c main_arg8 (by decide)) (ix1 j)

theorem shift_verb (c : Dev nD) (j : Fin 10) :
    V15 m ρ c main_v28 (ix2 (0 : Fin 1) j) = m ((c : Thread nD τ).loc main_arg9) (ix1 j) := by
  have h : (W15 m ρ c (Proc.devRef .tc main_v28) : Vec Ideal S1x10 .f32)
      = shapeCast S1x10 (W1 m ρ c (Proc.devRef .tc main_arg9) : Vec Ideal S10 .f32) shapeCasts_S10_S1x10 := by
    iterate 13 keep_step
    show StableHlo.after hostOps1 _ (Proc.devRef .tc main_v28) = _
    after_results
    all_goals rfl
  refine (congrFun h (ix2 (0 : Fin 1) j)).trans ?_
  refine (shapeCast_a_1a_apply _ _ (0 : Fin 1) j).trans ?_
  exact congrFun (W1_of_ne m ρ c main_arg9 (by decide)) (ix1 j)

theorem scale_target (c : Dev nD) (j : Fin 15) :
    V15 m ρ c main_v29 (ix2 (0 : Fin 1) j) = m ((c : Thread nD τ).loc main_arg10) (ix1 j) := by
  have h : (W15 m ρ c (Proc.devRef .tc main_v29) : Vec Ideal S1x15 .f32)
      = shapeCast S1x15 (W1 m ρ c (Proc.devRef .tc main_arg10) : Vec Ideal S15 .f32) shapeCasts_S15_S1x15 := by
    iterate 13 keep_step
    show StableHlo.after hostOps1 _ (Proc.devRef .tc main_v29) = _
    after_results
    all_goals rfl
  refine (congrFun h (ix2 (0 : Fin 1) j)).trans ?_
  refine (shapeCast_a_1a_apply _ _ (0 : Fin 1) j).trans ?_
  exact congrFun (W1_of_ne m ρ c main_arg10 (by decide)) (ix1 j)

theorem shift_target (c : Dev nD) (j : Fin 15) :
    V15 m ρ c main_v30 (ix2 (0 : Fin 1) j) = m ((c : Thread nD τ).loc main_arg11) (ix1 j) := by
  have h : (W15 m ρ c (Proc.devRef .tc main_v30) : Vec Ideal S1x15 .f32)
      = shapeCast S1x15 (W1 m ρ c (Proc.devRef .tc main_arg11) : Vec Ideal S15 .f32) shapeCasts_S15_S1x15 := by
    iterate 13 keep_step
    show StableHlo.after hostOps1 _ (Proc.devRef .tc main_v30) = _
    after_results
    all_goals rfl
  refine (congrFun h (ix2 (0 : Fin 1) j)).trans ?_
  refine (shapeCast_a_1a_apply _ _ (0 : Fin 1) j).trans ?_
  exact congrFun (W1_of_ne m ρ c main_arg11 (by decide)) (ix1 j)

/-! ## The linear layer: the weight transposed, the bias with a unit row axis put in front -/

/-- The weight as launched is still there before the last stretch of host operations. -/
theorem W14_arg12 (c : Dev nD) : W14 m ρ c (Proc.devRef .tc main_arg12) = m ((c : Thread nD τ).loc main_arg12) := by
  iterate 13 keep_step
  exact W1_of_ne m ρ c main_arg12 (by decide)

/-- The bias as launched is still there before the last stretch of host operations. -/
theorem W14_arg13 (c : Dev nD) : W14 m ρ c (Proc.devRef .tc main_arg13) = m ((c : Thread nD τ).loc main_arg13) := by
  iterate 13 keep_step
  exact W1_of_ne m ρ c main_arg13 (by decide)

theorem weightT (c : Dev nD) (p q : Fin 100) :
    V15 m ρ c main_v41 (ix2 p q) = m ((c : Thread nD τ).loc main_arg12) (ix2 q p) := by
  have h : (W15 m ρ c (Proc.devRef .tc main_v41) : Vec Ideal S100x100 .f32)
      = transpose S100x100 [1, 0] (W14 m ρ c (Proc.devRef .tc main_arg12) : Vec Ideal S100x100 .f32)
          transposes_S100x100_S100x100_1_0 := by
    show StableHlo.after hostOps1_13 _ (Proc.devRef .tc main_v41) = _
    generalize W14 m ρ c = V
    after_results
    all_goals rfl
  refine (congrFun h (ix2 p q)).trans ?_
  refine (transpose_ix2_apply _ _ p q).trans ?_
  exact congrFun (W14_arg12 m ρ c) (ix2 q p)

theorem bias (c : Dev nD) (q : Fin 100) :
    V15 m ρ c main_v42 (ix2 (0 : Fin 1) q) = m ((c : Thread nD τ).loc main_arg13) (ix1 q) := by
  have h : (W15 m ρ c (Proc.devRef .tc main_v42) : Vec Ideal S1x100 .f32)
      = shapeCast S1x100 (W14 m ρ c (Proc.devRef .tc main_arg13) : Vec Ideal S100 .f32) shapeCasts_S100_S1x100 := by
    show StableHlo.after hostOps1_13 _ (Proc.devRef .tc main_v42) = _
    generalize W14 m ρ c = V
    after_results
    all_goals rfl
  refine (congrFun h (ix2 (0 : Fin 1) q)).trans ?_
  refine (shapeCast_a_1a_apply _ _ (0 : Fin 1) q).trans ?_
  exact congrFun (W14_arg13 m ρ c) (ix1 q)

end Cert.KernelIdeal.KGlueF

end
-- ==== Proof.KGlueI.lean ====
/-
  The integer glue between the two kernels, read entry by entry.

  Between the statistics pass and the main pass the host splits each of the 100 flat positions into three
  coordinates on 32-bit words — floor division and floor remainder by 150, then of the remainder by 15 — and
  turns each coordinate vector into a 0/1 table: the vector as a column, spread over the table's width, compared
  with the column numbers, the bit made a float, the table transposed. Here every one of those arrays is read at
  an entry as a function of the launch's flat positions alone: the three coordinate vectors are `iIdx`, `vIdx`,
  `tIdx` of the specification, and entry `(j, p)` of each table is `ohW` of its coordinate vector. Nothing is
  assumed of the positions: each step is the reading of one operation at one index.
-/
import proofs.«431318_j31860067402336_2_alg».proof.Proof.Gen.KernelIdeal.Frame
import proofs.«431318_j31860067402336_2_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.KernelIdeal.KGlueI

open Idealize.ShloMosaic Idealize.ShloMosaic.TcCoe
open Cert.KernelIdeal Cert.KernelIdeal.Gen Cert.Tri Idealize.ShloMosaic.ValueIdx

/-! ## Reading the layout operations of a 0/1 table at an entry -/

/-- A vector of 100 words made a column, spread over `d` columns, compared with the column numbers, the bit made a
    float, and the table transposed: entry `(j, p)` is the bit "word `p` is `j`". -/
theorem onehot_read {d : ℕ} (x : (⟨1, ![100]⟩ : Shape).Idx → BitVec 32)
    (h1 : (⟨1, ![100]⟩ : Shape).BroadcastsInDim ⟨2, ![100, 1]⟩ ![0])
    (h2 : (⟨2, ![100, 1]⟩ : Shape).BroadcastsInDim ⟨2, ![100, d]⟩ ![0, 1])
    (h3 : (⟨2, ![1, d]⟩ : Shape).BroadcastsInDim ⟨2, ![100, d]⟩ ![0, 1])
    (h4 : (⟨2, ![100, d]⟩ : Shape).Transposes [1, 0] ⟨2, ![d, 100]⟩) (j : Fin d) (p : Fin 100) :
    transpose ⟨2, ![d, 100]⟩ [1, 0]
        (uitofp (F := Ideal) .f32
          (cmpi .eq (broadcastInDim ⟨2, ![100, d]⟩ ![0, 1] h2 (broadcastInDim ⟨2, ![100, 1]⟩ ![0] h1 x))
            (broadcastInDim ⟨2, ![100, d]⟩ ![0, 1] h3 (iotaInDim ⟨2, ![1, d]⟩ 32 1)))) h4 (ix2 j p)
      = FloatOps.uitofp (F := Ideal) .f32 (IntOp.cmpi .eq (x (ix1 p)) (BitVec.ofNat 32 j.val)) := by
  rw [transpose_ix2_apply]
  show FloatOps.uitofp (F := Ideal) .f32 (IntOp.cmpi .eq
      (broadcastInDim ⟨2, ![100, d]⟩ ![0, 1] h2 (broadcastInDim ⟨2, ![100, 1]⟩ ![0] h1 x) (ix2 p j))
      (broadcastInDim ⟨2, ![100, d]⟩ ![0, 1] h3 (iotaInDim ⟨2, ![1, d]⟩ 32 1) (ix2 p j))) = _
  have e1 : broadcastInDim ⟨2, ![100, d]⟩ ![0, 1] h2 (broadcastInDim ⟨2, ![100, 1]⟩ ![0] h1 x) (ix2 p j) = x (ix1 p) := by
    refine (broadcastInDim_apply _ h2 _ (ix2 p j) (ix2 p (0 : Fin 1)) (fun a => ?_)).trans ?_
    · match a with
      | ⟨0, _⟩ => rfl
      | ⟨1, _⟩ => rfl
    · exact broadcastInDim_apply _ h1 x (ix2 p (0 : Fin 1)) (ix1 p) (fun a => match a with | ⟨0, _⟩ => rfl)
  have e2 : broadcastInDim ⟨2, ![100, d]⟩ ![0, 1] h3 (iotaInDim ⟨2, ![1, d]⟩ 32 1) (ix2 p j) = BitVec.ofNat 32 j.val := by
    refine (broadcastInDim_apply _ h3 _ (ix2 p j) (ix2 (0 : Fin 1) j) (fun a => ?_)).trans rfl
    match a with
    | ⟨0, _⟩ => rfl
    | ⟨1, _⟩ =>
      show j.val = if d = 1 then 0 else j.val
      have := j.isLt
      split_ifs with hd
      · omega
      · rfl
  rw [e1, e2]

variable (m : (ℓ : Loc nD τ sig) → Buf (Elt Ideal) ℓ) (ρ : Dev nD → PrngReg)

/-! ## Buffers a stretch of host operations leaves alone -/

/-- No operation of the stretch writes the buffer: reference by reference. -/
local macro "keeps_side" : tactic => `(tactic| (
  simp only [hostOps1, hostOps1_1, hostOps1_2, hostOps1_3, hostOps1_4, hostOps1_5, hostOps1_6, hostOps1_7, hostOps1_8,
    hostOps1_9, hostOps1_10, hostOps1_11, hostOps1_12, hostOps1_13, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- One step back through a stretch that does not write the buffer read. -/
local macro "keep1" : tactic => `(tactic|
  refine Eq.trans (StableHlo.after_of_forall_not_mem _ _ (List.forall_iff_forall_mem.mp (by keeps_side))) ?_)

/-- Typed references at literal buffers carry their contents unchanged. -/
local macro "strip_casts" : tactic => `(tactic|
  simp only [StableHlo.TRef.ofBuf, StableHlo.TRef.toBuf, cast_eq])

/-! ## The four divisions, each over the contents its stretch is entered with -/

section Stretches
variable (X : Valuation τ sig (Elt Ideal))

/-- Floor division of the flat position by the scalar the stretch is handed. -/
theorem stretch_fdiv0 (hc : (X (Proc.devRef .tc main_c) : S_.Idx → BitVec 32) = constantI S_ 32 150#32) :
    (StableHlo.after hostOps1_1 X (Proc.devRef .tc main_v31) : S100.Idx → BitVec 32)
      = fun i => fdivW ((X (Proc.devRef .tc main_arg14) : S100.Idx → BitVec 32) (ix1 (i 0))) 150#32 := by
  after_results_simp
  strip_casts
  rw [hc]
  funext i
  obtain ⟨p, rfl⟩ : ∃ p, i = ix1 p := ⟨i 0, eq_ix1 i⟩
  rfl

/-- Floor remainder of the flat position by the scalar the stretch is handed. -/
theorem stretch_frem1 (hc : (X (Proc.devRef .tc main_c_8) : S_.Idx → BitVec 32) = constantI S_ 32 150#32) :
    (StableHlo.after hostOps1_3 X (Proc.devRef .tc main_v32) : S100.Idx → BitVec 32)
      = fun i => fremW ((X (Proc.devRef .tc main_arg14) : S100.Idx → BitVec 32) (ix1 (i 0))) 150#32 := by
  after_results_simp
  strip_casts
  rw [hc]
  funext i
  obtain ⟨p, rfl⟩ : ∃ p, i = ix1 p := ⟨i 0, eq_ix1 i⟩
  rfl

/-- Floor division of the remainder by the scalar the stretch is handed. -/
theorem stretch_fdiv2 (hc : (X (Proc.devRef .tc main_c_9) : S_.Idx → BitVec 32) = constantI S_ 32 15#32) :
    (StableHlo.after hostOps1_5 X (Proc.devRef .tc main_v33) : S100.Idx → BitVec 32)
      = fun i => fdivW ((X (Proc.devRef .tc main_v32) : S100.Idx → BitVec 32) (ix1 (i 0))) 15#32 := by
  after_results_simp
  strip_casts
  rw [hc]
  funext i
  obtain ⟨p, rfl⟩ : ∃ p, i = ix1 p := ⟨i 0, eq_ix1 i⟩
  rfl

/-- Floor remainder of the remainder by the scalar the stretch is handed. -/
theorem stretch_frem3 (hc : (X (Proc.devRef .tc main_c_10) : S_.Idx → BitVec 32) = constantI S_ 32 15#32) :
    (StableHlo.after hostOps1_7 X (Proc.devRef .tc main_v34) : S100.Idx → BitVec 32)
      = fun i => fremW ((X (Proc.devRef .tc main_v32) : S100.Idx → BitVec 32) (ix1 (i 0))) 15#32 := by
  after_results_simp
  strip_casts
  rw [hc]
  funext i
  obtain ⟨p, rfl⟩ : ∃ p, i = ix1 p := ⟨i 0, eq_ix1 i⟩
  rfl

/-! ## The three tables, each over the contents its two stretches are entered with -/

/-- The table of the first coordinate, from the index vector the stretch finds. -/
theorem stretch_oh0 (j : Fin 6) (p : Fin 100) :
    (StableHlo.after hostOps1_9 (StableHlo.after hostOps1_8 X) (Proc.devRef .tc main_v36) : S6x100.Idx → EReal) (ix2 j p)
      = FloatOps.uitofp (F := Ideal) .f32
          (IntOp.cmpi .eq ((X (Proc.devRef .tc main_v31) : S100.Idx → BitVec 32) (ix1 p)) (BitVec.ofNat 32 j.val)) := by
  after_results_simp
  strip_casts
  exact onehot_read _ _ _ _ _ j p

/-- The table of the second coordinate. -/
theorem stretch_oh1 (j : Fin 10) (p : Fin 100) :
    (StableHlo.after hostOps1_11 (StableHlo.after hostOps1_10 X) (Proc.devRef .tc main_v38) : S10x100.Idx → EReal) (ix2 j p)
      = FloatOps.uitofp (F := Ideal) .f32
          (IntOp.cmpi .eq ((X (Proc.devRef .tc main_v33) : S100.Idx → BitVec 32) (ix1 p)) (BitVec.ofNat 32 j.val)) := by
  after_results_simp
  strip_casts
  exact onehot_read _ _ _ _ _ j p

/-- The table of the third coordinate. -/
theorem stretch_oh2 (j : Fin 15) (p : Fin 100) :
    (StableHlo.after hostOps1_13 (StableHlo.after hostOps1_12 X) (Proc.devRef .tc main_v40) : S15x100.Idx → EReal) (ix2 j p)
      = FloatOps.uitofp (F := Ideal) .f32
          (IntOp.cmpi .eq ((X (Proc.devRef .tc main_v34) : S100.Idx → BitVec 32) (ix1 p)) (BitVec.ofNat 32 j.val)) := by
  after_results_simp
  strip_casts
  exact onehot_read _ _ _ _ _ j p

end Stretches

/-! ## The index vectors at the boundaries of the run -/

/-- The flat positions reach the first host stretch's exit as launched. -/
theorem W2_arg14 (c : Dev nD) : W2 m ρ c (Proc.devRef .tc main_arg14) = m ((c : Thread nD τ).loc main_arg14) := by
  keep1
  exact (W1_of_ne m ρ c main_arg14 (by decide)).trans rfl

/-- The first divisor. -/
theorem W2_c (c : Dev nD) : (W2 m ρ c (Proc.devRef .tc main_c) : S_.Idx → BitVec 32) = constantI S_ 32 150#32 := by
  show StableHlo.after hostOps1 _ (Proc.devRef .tc main_c) = _
  after_results

/-- The first coordinates: the flat positions floor-divided by 150. -/
theorem idx_tool (c : Dev nD) :
    (W3 m ρ c (Proc.devRef .tc main_v31) : S100.Idx → BitVec 32)
      = fun i => iIdx (cur1 (m ((c : Thread nD τ).loc main_arg14))) (i 0) :=
  (stretch_fdiv0 (W2 m ρ c) (W2_c m ρ c)).trans (by rw [W2_arg14 m ρ c]; rfl)

theorem W4_arg14 (c : Dev nD) : W4 m ρ c (Proc.devRef .tc main_arg14) = m ((c : Thread nD τ).loc main_arg14) := by
  keep1; keep1
  exact W2_arg14 m ρ c

theorem W4_c8 (c : Dev nD) : (W4 m ρ c (Proc.devRef .tc main_c_8) : S_.Idx → BitVec 32) = constantI S_ 32 150#32 := by
  show StableHlo.after hostOps1_2 _ (Proc.devRef .tc main_c_8) = _
  after_results

/-- What is left of the flat positions: their floor remainder by 150. -/
theorem idx_rem (c : Dev nD) :
    (W5 m ρ c (Proc.devRef .tc main_v32) : S100.Idx → BitVec 32)
      = fun i => remI (cur1 (m ((c : Thread nD τ).loc main_arg14))) (i 0) :=
  (stretch_frem1 (W4 m ρ c) (W4_c8 m ρ c)).trans (by rw [W4_arg14 m ρ c]; rfl)

theorem W6_v32 (c : Dev nD) :
    (W6 m ρ c (Proc.devRef .tc main_v32) : S100.Idx → BitVec 32)
      = fun i => remI (cur1 (m ((c : Thread nD τ).loc main_arg14))) (i 0) := by
  keep1
  exact idx_rem m ρ c

theorem W6_c9 (c : Dev nD) : (W6 m ρ c (Proc.devRef .tc main_c_9) : S_.Idx → BitVec 32) = constantI S_ 32 15#32 := by
  show StableHlo.after hostOps1_4 _ (Proc.devRef .tc main_c_9) = _
  after_results

/-- The second coordinates: the remainders floor-divided by 15. -/
theorem idx_verb (c : Dev nD) :
    (W7 m ρ c (Proc.devRef .tc main_v33) : S100.Idx → BitVec 32)
      = fun i => vIdx (cur1 (m ((c : Thread nD τ).loc main_arg14))) (i 0) :=
  (stretch_fdiv2 (W6 m ρ c) (W6_c9 m ρ c)).trans (by rw [W6_v32 m ρ c]; rfl)

theorem W8_v32 (c : Dev nD) :
    (W8 m ρ c (Proc.devRef .tc main_v32) : S100.Idx → BitVec 32)
      = fun i => remI (cur1 (m ((c : Thread nD τ).loc main_arg14))) (i 0) := by
  keep1; keep1
  exact W6_v32 m ρ c

theorem W8_c10 (c : Dev nD) : (W8 m ρ c (Proc.devRef .tc main_c_10) : S_.Idx → BitVec 32) = constantI S_ 32 15#32 := by
  show StableHlo.after hostOps1_6 _ (Proc.devRef .tc main_c_10) = _
  after_results

/-- The third coordinates: the remainders' floor remainder by 15. -/
theorem idx_target (c : Dev nD) :
    (W9 m ρ c (Proc.devRef .tc main_v34) : S100.Idx → BitVec 32)
      = fun i => tIdx (cur1 (m ((c : Thread nD τ).loc main_arg14))) (i 0) :=
  (stretch_frem3 (W8 m ρ c) (W8_c10 m ρ c)).trans (by rw [W8_v32 m ρ c]; rfl)

/-- The index vectors read at a position. -/
theorem idx_tool_at (c : Dev nD) (p : Fin 100) :
    (W3 m ρ c (Proc.devRef .tc main_v31) : S100.Idx → BitVec 32) (ix1 p)
      = iIdx (cur1 (m ((c : Thread nD τ).loc main_arg14))) p := congrFun (idx_tool m ρ c) (ix1 p)
theorem idx_rem_at (c : Dev nD) (p : Fin 100) :
    (W5 m ρ c (Proc.devRef .tc main_v32) : S100.Idx → BitVec 32) (ix1 p)
      = remI (cur1 (m ((c : Thread nD τ).loc main_arg14))) p := congrFun (idx_rem m ρ c) (ix1 p)
theorem idx_verb_at (c : Dev nD) (p : Fin 100) :
    (W7 m ρ c (Proc.devRef .tc main_v33) : S100.Idx → BitVec 32) (ix1 p)
      = vIdx (cur1 (m ((c : Thread nD τ).loc main_arg14))) p := congrFun (idx_verb m ρ c) (ix1 p)
theorem idx_target_at (c : Dev nD) (p : Fin 100) :
    (W9 m ρ c (Proc.devRef .tc main_v34) : S100.Idx → BitVec 32) (ix1 p)
      = tIdx (cur1 (m ((c : Thread nD τ).loc main_arg14))) p := congrFun (idx_target m ρ c) (ix1 p)

/-! ## The tables the second kernel finds -/

/-- Entry `(j, p)` of the first table: is position `p`'s first coordinate `j`. -/
theorem onehot_tool (c : Dev nD) (j : Fin 6) (p : Fin 100) :
    V15 m ρ c main_v36 (ix2 j p) = ohW (iIdx (cur1 (m ((c : Thread nD τ).loc main_arg14)))) j p := by
  have h : (W15 m ρ c (Proc.devRef .tc main_v36) : S6x100.Idx → EReal) = W11 m ρ c (Proc.devRef .tc main_v36) := by
    keep1; keep1; keep1; keep1
    rfl
  have hv : (W9 m ρ c (Proc.devRef .tc main_v31) : S100.Idx → BitVec 32)
      = fun i => iIdx (cur1 (m ((c : Thread nD τ).loc main_arg14))) (i 0) := by
    keep1; keep1; keep1; keep1; keep1; keep1
    exact idx_tool m ρ c
  refine (congrFun h (ix2 j p)).trans ((stretch_oh0 (W9 m ρ c) j p).trans ?_)
  rw [hv]
  rfl

/-- Entry `(j, p)` of the second table. -/
theorem onehot_verb (c : Dev nD) (j : Fin 10) (p : Fin 100) :
    V15 m ρ c main_v38 (ix2 j p) = ohW (vIdx (cur1 (m ((c : Thread nD τ).loc main_arg14)))) j p := by
  have h : (W15 m ρ c (Proc.devRef .tc main_v38) : S10x100.Idx → EReal) = W13 m ρ c (Proc.devRef .tc main_v38) := by
    keep1; keep1
    rfl
  have hv : (W11 m ρ c (Proc.devRef .tc main_v33) : S100.Idx → BitVec 32)
      = fun i => vIdx (cur1 (m ((c : Thread nD τ).loc main_arg14))) (i 0) := by
    keep1; keep1; keep1; keep1
    exact idx_verb m ρ c
  refine (congrFun h (ix2 j p)).trans ((stretch_oh1 (W11 m ρ c) j p).trans ?_)
  rw [hv]
  rfl

/-- Entry `(j, p)` of the third table. -/
theorem onehot_target (c : Dev nD) (j : Fin 15) (p : Fin 100) :
    V15 m ρ c main_v40 (ix2 j p) = ohW (tIdx (cur1 (m ((c : Thread nD τ).loc main_arg14)))) j p := by
  have hv : (W13 m ρ c (Proc.devRef .tc main_v34) : S100.Idx → BitVec 32)
      = fun i => tIdx (cur1 (m ((c : Thread nD τ).loc main_arg14))) (i 0) := by
    keep1; keep1; keep1; keep1
    exact idx_target m ρ c
  refine (stretch_oh2 (W13 m ρ c) j p).trans ?_
  rw [hv]
  rfl

end Cert.KernelIdeal.KGlueI

end
-- ==== Proof.IdxRange.lean ====
/-
  The position split on 32-bit words, and the pick through a 0/1 table.

  A flat position `n = i·150 + v·15 + t` below 900 is split by floor division and floor remainder, each spelled
  with the truncating quotient and remainder and a correction for operands of opposite sign. For a dividend and a
  positive divisor both below `2³⁰` neither sign bit is set, the truncating operations are the unsigned ones, and
  both corrections are off: the words are `n / k` and `n % k`. Hence the three coordinates lie below 6, 10, 15.

  A sum against a 0/1 column that is `1` at exactly one row is the entry at that row.
-/
import proofs.«431318_j31860067402336_2_alg».proof.Proof.Spec
import Mathlib.Algebra.BigOperators.Group.Finset.Basic
import Mathlib.Data.EReal.Basic

noncomputable section

namespace Cert.Tri

open Idealize.ShloMosaic Idealize.ShloMosaic.ValueIdx
open scoped BigOperators

/-! ## Sign bits, corners, one-bit conditions -/

/-- A word below `2³⁰` has its sign bit clear. -/
theorem msb_false_of_lt (a : BitVec 32) (h : a.toNat < 2 ^ 30) : a.msb = false := by
  rw [BitVec.msb_eq_false_iff_two_mul_lt]; omega

/-- A word whose unsigned value is positive is not the zero word. -/
theorem ne_zero_of_toNat_pos (d : BitVec 32) (h : 0 < d.toNat) : d ≠ 0 := by
  intro h0; rw [h0] at h; simp at h

/-- A positive divisor below `2³⁰` is neither `0` nor `−1`: the signed division is not at its corner. -/
theorem not_sdivCorner (a d : BitVec 32) (h0 : 0 < d.toNat) (h1 : d.toNat < 2 ^ 30) : ¬ IntOp.SDivCorner a d := by
  rintro (h | ⟨_, h⟩)
  · exact ne_zero_of_toNat_pos d h0 h
  · rw [h] at h1; revert h1; decide

/-- `≠` of a word with itself is the bit `0`. -/
theorem cmpi_ne_self {w : ℕ} (x : BitVec w) : IntOp.cmpi .ne x x = 0#1 := by
  simp [IntOp.cmpi]

/-- `=` of two different words is the bit `0`. -/
theorem cmpi_eq_of_ne {w : ℕ} (x y : BitVec w) (h : x ≠ y) : IntOp.cmpi .eq x y = 0#1 := by
  have hb : (x == y) = false := beq_eq_false_iff_ne.mpr h
  show BitVec.ofBool (x == y) = 0#1
  rw [hb]; rfl

/-- `=` of a word with itself is the bit `1`. -/
theorem cmpi_eq_self {w : ℕ} (x : BitVec w) : IntOp.cmpi .eq x x = 1#1 := by
  simp [IntOp.cmpi]

/-- The bit `0` absorbs a conjunction on the left. -/
theorem andi_zero_left (x : BitVec 1) : IntOp.andi 0#1 x = 0#1 := by
  simp [IntOp.andi]

/-- The bit `0` absorbs a conjunction on the right. -/
theorem andi_zero_right (x : BitVec 1) : IntOp.andi x 0#1 = 0#1 := by
  simp [IntOp.andi]

/-- A word with its sign bit clear is not below zero as a signed word. -/
theorem cmpi_slt_zero_of_msb (a : BitVec 32) (h : a.msb = false) : IntOp.cmpi .slt a 0 = 0#1 := by
  have hs : a.slt 0 = a.msb := BitVec.slt_zero_eq_msb
  show BitVec.ofBool (a.slt 0) = 0#1
  rw [hs, h]; rfl

/-! ## The truncating quotient and remainder on small non-negative words -/

/-- The truncating quotient of a non-negative word by a positive one, both below `2³⁰`, is the quotient of naturals. -/
theorem divsi_host_toNat (a d : BitVec 32) (n k : ℕ) (ha : a.toNat = n) (hd : d.toNat = k) (hk : 0 < k)
    (hn : n < 2 ^ 30) (hk' : k < 2 ^ 30) : (IntOp.divsi .host a d).toNat = n / k := by
  have hc := not_sdivCorner a d (by omega) (by omega)
  unfold IntOp.divsi
  rw [if_neg hc, BitVec.sdiv_eq, msb_false_of_lt a (by omega), msb_false_of_lt d (by omega)]
  show (a / d).toNat = n / k
  rw [BitVec.toNat_udiv, ha, hd]

/-- The truncating remainder of a non-negative word by a positive one, both below `2³⁰`, is the remainder of naturals. -/
theorem remsi_host_toNat (a d : BitVec 32) (n k : ℕ) (ha : a.toNat = n) (hd : d.toNat = k) (hk : 0 < k)
    (hn : n < 2 ^ 30) (hk' : k < 2 ^ 30) : (IntOp.remsi .host a d).toNat = n % k := by
  have hc := not_sdivCorner a d (by omega) (by omega)
  unfold IntOp.remsi
  rw [if_neg hc, BitVec.srem_eq, msb_false_of_lt a (by omega), msb_false_of_lt d (by omega)]
  show (a % d).toNat = n % k
  rw [BitVec.toNat_umod, ha, hd]

/-- The sign of a non-zero word with its sign bit clear is `1`. -/
theorem sgnW_pos (a : BitVec 32) (h0 : a ≠ 0) (h : a.msb = false) : sgnW a = 1 := by
  unfold sgnW
  rw [if_neg h0, h]
  rfl

/-! ## Floor division and floor remainder -/

theorem fdivW_nonneg (a d : BitVec 32) (n k : ℕ) (ha : a.toNat = n) (hd : d.toNat = k) (hk : 0 < k)
    (hn : n < 2 ^ 30) (hk' : k < 2 ^ 30) : (fdivW a d).toNat = n / k := by
  have hq := divsi_host_toNat a d n k ha hd hk hn hk'
  have hr := remsi_host_toNat a d n k ha hd hk hn hk'
  have hcond : IntOp.andi (IntOp.cmpi .ne (sgnW a) (sgnW d)) (IntOp.cmpi .ne (IntOp.remsi .host a d) 0) = 0#1 := by
    by_cases h0 : IntOp.remsi .host a d = 0
    · rw [h0, cmpi_ne_self, andi_zero_right]
    · have ha0 : a ≠ 0 := by
        intro h
        apply h0
        apply BitVec.eq_of_toNat_eq
        rw [hr, ← ha, h]
        simp
      rw [sgnW_pos a ha0 (msb_false_of_lt a (by omega)),
        sgnW_pos d (ne_zero_of_toNat_pos d (by omega)) (msb_false_of_lt d (by omega)), cmpi_ne_self, andi_zero_left]
  unfold fdivW
  rw [hcond, select_zero]
  exact hq

/-- A non-zero divisor is the divisor a remainder is taken by. -/
theorem dvsr_of_ne_zero (d : BitVec 32) (h : d ≠ 0) : dvsr d = d := by
  unfold dvsr
  rw [cmpi_eq_of_ne d 0 h, select_zero]

theorem fremW_nonneg (a d : BitVec 32) (n k : ℕ) (ha : a.toNat = n) (hd : d.toNat = k) (hk : 0 < k)
    (hn : n < 2 ^ 30) (hk' : k < 2 ^ 30) : (fremW a d).toNat = n % k := by
  have hr := remsi_host_toNat a d n k ha hd hk hn hk'
  have hlt : n % k < k := Nat.mod_lt n hk
  have hrm : (IntOp.remsi .host a d).msb = false := msb_false_of_lt _ (by omega)
  have hdm : d.msb = false := msb_false_of_lt d (by omega)
  unfold fremW
  rw [dvsr_of_ne_zero d (ne_zero_of_toNat_pos d (by omega)), cmpi_slt_zero_of_msb _ hrm, cmpi_slt_zero_of_msb _ hdm,
    cmpi_ne_self, andi_zero_left, select_zero]
  exact hr

/-! ## The three coordinates of a position below 900 -/

/-- A word in `[0, 900)` read signed is below 900 read unsigned. -/
theorem toNat_lt_of_toInt (a : BitVec 32) (h0 : 0 ≤ a.toInt) (h1 : a.toInt < 900) : a.toNat < 900 := by
  have hlt := a.isLt
  rw [BitVec.toInt_eq_toNat_cond] at h0 h1
  by_cases hc : 2 * a.toNat < 2 ^ 32
  · rw [if_pos hc] at h1; omega
  · rw [if_neg hc] at h0; omega

theorem idx_range (vp : Fin NP → BitVec 32) (h : InRange vp) (p : Fin NP) :
    (iIdx vp p).toNat < 6 ∧ (vIdx vp p).toNat < 10 ∧ (tIdx vp p).toNat < 15 := by
  have hn : (vp p).toNat < 900 := toNat_lt_of_toInt (vp p) (h p).1 (h p).2
  have h150 : (150#32).toNat = 150 := by decide
  have h15 : (15#32).toNat = 15 := by decide
  have hi : (iIdx vp p).toNat = (vp p).toNat / 150 :=
    fdivW_nonneg (vp p) 150#32 _ 150 rfl h150 (by omega) (by omega) (by omega)
  have hr : (remI vp p).toNat = (vp p).toNat % 150 :=
    fremW_nonneg (vp p) 150#32 _ 150 rfl h150 (by omega) (by omega) (by omega)
  have hv : (vIdx vp p).toNat = ((vp p).toNat % 150) / 15 :=
    fdivW_nonneg (remI vp p) 15#32 _ 15 hr h15 (by omega) (by omega) (by omega)
  have ht : (tIdx vp p).toNat = ((vp p).toNat % 150) % 15 :=
    fremW_nonneg (remI vp p) 15#32 _ 15 hr h15 (by omega) (by omega) (by omega)
  rw [hi, hv, ht]
  omega

theorem not_slt_zero_of_toNat_lt (a : BitVec 32) (d : ℕ) (hd : d ≤ 1000) (h : a.toNat < d) :
    IntOp.cmpi .slt a 0 = 0#1 :=
  cmpi_slt_zero_of_msb a (msb_false_of_lt a (by omega))

/-! ## The column a word names, and the pick through the 0/1 table -/

theorem colOf_val (d : ℕ) [NeZero d] (a : BitVec 32) (h : a.toNat < d) : (colOf d a).val = a.toNat := by
  unfold colOf
  rw [Fin.val_ofNat, Nat.mod_eq_of_lt h]

/-- The table's entry is `1` at the column the word names. -/
theorem ohW_at {d : ℕ} [NeZero d] (idx : Fin NP → BitVec 32) (p : Fin NP) (h : (idx p).toNat < d) :
    ohW idx (colOf d (idx p)) p = 1 := by
  unfold ohW
  rw [colOf_val d (idx p) h, BitVec.ofNat_toNat, BitVec.setWidth_eq, cmpi_eq_self]
  show (((1#1).toNat : ℝ) : EReal) = 1
  simp

/-- The table's entry is `0` at every other column. -/
theorem ohW_off {d : ℕ} [NeZero d] (idx : Fin NP → BitVec 32) (p : Fin NP) (j : Fin d) (h : (idx p).toNat < d)
    (hd : d ≤ 1000) (hj : j ≠ colOf d (idx p)) : ohW idx j p = 0 := by
  have hne : idx p ≠ BitVec.ofNat 32 j.val := by
    intro he
    apply hj
    apply Fin.ext
    rw [colOf_val d (idx p) h, he, BitVec.toNat_ofNat, Nat.mod_eq_of_lt]
    have := j.isLt
    omega
  unfold ohW
  rw [cmpi_eq_of_ne _ _ hne]
  show (((0#1).toNat : ℝ) : EReal) = 0
  simp

theorem gatOH_ohW_eq_gat {d : ℕ} [NeZero d] (e : Fin NB → Fin d → EReal) (idx : Fin NP → BitVec 32) (r : Fin NB)
    (p : Fin NP) (h : (idx p).toNat < d) (hd : d ≤ 1000) : gatOH e (ohW idx) r p = gat e idx r p := by
  unfold gatOH gat
  rw [Finset.sum_eq_single (colOf d (idx p))]
  · rw [ohW_at idx p h, mul_one]
  · intro j _ hj
    rw [ohW_off idx p j h hd hj, mul_zero]
  · intro hni
    exact absurd (Finset.mem_univ _) hni

end Cert.Tri

end
-- ==== Proof.KValue.lean ====
/-
  The first program's result array as one function of its arguments.

  The second pass leaves, at row `r` and column `q`, `stage1` of the arrays it was entered with. Those arrays are:
  the six arguments it shares with the first pass, unchanged; each branch's mean and variance, formed between the
  passes from the column sums and sums of squares the first pass left — which is `meanK` and `varK` of the branch's
  product; the scale and shift vectors reshaped; the three 0/1 tables of the positions' coordinates; the weight
  transposed and the bias reshaped. For positions in range a 0/1 table picks a column, so the whole is `outK`.
-/
import proofs.«431318_j31860067402336_2_alg».proof.Proof.KRun
import proofs.«431318_j31860067402336_2_alg».proof.Proof.KStats
import proofs.«431318_j31860067402336_2_alg».proof.Proof.KMain
import proofs.«431318_j31860067402336_2_alg».proof.Proof.KGlueF
import proofs.«431318_j31860067402336_2_alg».proof.Proof.KGlueI
import proofs.«431318_j31860067402336_2_alg».proof.Proof.IdxRange

noncomputable section

namespace Cert.KernelIdeal.KValue

open Cert.KernelIdeal Cert.KernelIdeal.Gen Cert.Tri
open Idealize.ShloMosaic Idealize.ShloMosaic.TcCoe Idealize.ShloMosaic.ValueIdx Idealize.SL.Sem

variable (m : (ℓ : Loc nD τ sig) → Buf (Elt Ideal) ℓ) (ρ : Dev nD → PrngReg)

/-- What the first pass left in its six outputs is what the operations between the passes read. -/
theorem V1_out (c : Dev nD) (w : Fin cfg0.W) : V1 m ρ c (Pipeline.arrRef spec0 w) = (dat0 (V0 m ρ) c).arrAt w cfg0.N :=
  (hF0 m ρ c w).symm

/-! ## Mean and variance between the passes are those of the branch's product -/

theorem mean0 (c : Dev nD) : (fun j : Fin 6 => V15 m ρ c main_v2 (ix2 (0 : Fin 1) j))
    = meanK (ymat (cur2 (m ((c : Thread nD τ).loc main_arg0))) (cur2 (m ((c : Thread nD τ).loc main_arg3)))) := by
  funext j
  rw [KGlueF.mean_tool m ρ c j, KGlueF.acc0_eq m ρ c, KStats.sum_tool (V0 m ρ) c j]
  rfl
theorem var0 (c : Dev nD) : (fun j : Fin 6 => V15 m ρ c main_v8 (ix2 (0 : Fin 1) j))
    = varK (ymat (cur2 (m ((c : Thread nD τ).loc main_arg0))) (cur2 (m ((c : Thread nD τ).loc main_arg3)))) := by
  funext j
  rw [KGlueF.var_tool m ρ c j, KGlueF.acc1_eq m ρ c, KGlueF.acc0_eq m ρ c, KStats.sumsq_tool (V0 m ρ) c j, KStats.sum_tool (V0 m ρ) c j]
  rfl
theorem mean1 (c : Dev nD) : (fun j : Fin 10 => V15 m ρ c main_v10 (ix2 (0 : Fin 1) j))
    = meanK (ymat (cur2 (m ((c : Thread nD τ).loc main_arg1))) (cur2 (m ((c : Thread nD τ).loc main_arg4)))) := by
  funext j
  rw [KGlueF.mean_verb m ρ c j, KGlueF.acc2_eq m ρ c, KStats.sum_verb (V0 m ρ) c j]
  rfl
theorem var1 (c : Dev nD) : (fun j : Fin 10 => V15 m ρ c main_v16 (ix2 (0 : Fin 1) j))
    = varK (ymat (cur2 (m ((c : Thread nD τ).loc main_arg1))) (cur2 (m ((c : Thread nD τ).loc main_arg4)))) := by
  funext j
  rw [KGlueF.var_verb m ρ c j, KGlueF.acc3_eq m ρ c, KGlueF.acc2_eq m ρ c, KStats.sumsq_verb (V0 m ρ) c j, KStats.sum_verb (V0 m ρ) c j]
  rfl
theorem mean2 (c : Dev nD) : (fun j : Fin 15 => V15 m ρ c main_v18 (ix2 (0 : Fin 1) j))
    = meanK (ymat (cur2 (m ((c : Thread nD τ).loc main_arg2))) (cur2 (m ((c : Thread nD τ).loc main_arg5)))) := by
  funext j
  rw [KGlueF.mean_target m ρ c j, KGlueF.acc4_eq m ρ c, KStats.sum_target (V0 m ρ) c j]
  rfl
theorem var2 (c : Dev nD) : (fun j : Fin 15 => V15 m ρ c main_v24 (ix2 (0 : Fin 1) j))
    = varK (ymat (cur2 (m ((c : Thread nD τ).loc main_arg2))) (cur2 (m ((c : Thread nD τ).loc main_arg5)))) := by
  funext j
  rw [KGlueF.var_target m ρ c j, KGlueF.acc5_eq m ρ c, KGlueF.acc4_eq m ρ c, KStats.sumsq_target (V0 m ρ) c j, KStats.sum_target (V0 m ρ) c j]
  rfl

/-! ## The result -/

/-- The result array, at row `r` and column `q`, is `outK` of the arguments, for positions in range. -/
theorem result_eq (c : Dev nD) (hidx : InRange (cur1 (m ((c : Thread nD τ).loc main_arg14)))) (r : Fin NB) (q : Fin NP) :
    W16 m ρ c (Proc.devRef .tc main_v43) (ix2 r q)
      = outK (cur2 (m ((c : Thread nD τ).loc main_arg0))) (cur2 (m ((c : Thread nD τ).loc main_arg1))) (cur2 (m ((c : Thread nD τ).loc main_arg2)))
          (cur2 (m ((c : Thread nD τ).loc main_arg3))) (cur2 (m ((c : Thread nD τ).loc main_arg4))) (cur2 (m ((c : Thread nD τ).loc main_arg5)))
          (cur1 (m ((c : Thread nD τ).loc main_arg6))) (cur1 (m ((c : Thread nD τ).loc main_arg7))) (cur1 (m ((c : Thread nD τ).loc main_arg8))) (cur1 (m ((c : Thread nD τ).loc main_arg9)))
          (cur1 (m ((c : Thread nD τ).loc main_arg10))) (cur1 (m ((c : Thread nD τ).loc main_arg11)))
          (cur2 (m ((c : Thread nD τ).loc main_arg12))) (cur1 (m ((c : Thread nD τ).loc main_arg13))) (cur1 (m ((c : Thread nD τ).loc main_arg14))) r q := by
  have hr := fun p => idx_range _ hidx p
  rw [show W16 m ρ c (Proc.devRef .tc main_v43) = (dat1 (V15 m ρ) c).arrAt 23 cfg1.N from W16_arr m ρ c 23,
    KMain.out_value (V15 m ρ) c r q,
    KGlueF.V15_arg0 m ρ c, KGlueF.V15_arg1 m ρ c, KGlueF.V15_arg2 m ρ c, KGlueF.V15_arg3 m ρ c, KGlueF.V15_arg4 m ρ c,
    KGlueF.V15_arg5 m ρ c, mean0 m ρ c, var0 m ρ c, mean1 m ρ c, var1 m ρ c, mean2 m ρ c, var2 m ρ c,
    show (fun j : Fin 6 => V15 m ρ c main_v25 (ix2 (0 : Fin 1) j)) = cur1 (m ((c : Thread nD τ).loc main_arg6)) from funext fun j => KGlueF.scale_tool m ρ c j,
    show (fun j : Fin 6 => V15 m ρ c main_v26 (ix2 (0 : Fin 1) j)) = cur1 (m ((c : Thread nD τ).loc main_arg7)) from funext fun j => KGlueF.shift_tool m ρ c j,
    show (fun j : Fin 10 => V15 m ρ c main_v27 (ix2 (0 : Fin 1) j)) = cur1 (m ((c : Thread nD τ).loc main_arg8)) from funext fun j => KGlueF.scale_verb m ρ c j,
    show (fun j : Fin 10 => V15 m ρ c main_v28 (ix2 (0 : Fin 1) j)) = cur1 (m ((c : Thread nD τ).loc main_arg9)) from funext fun j => KGlueF.shift_verb m ρ c j,
    show (fun j : Fin 15 => V15 m ρ c main_v29 (ix2 (0 : Fin 1) j)) = cur1 (m ((c : Thread nD τ).loc main_arg10)) from funext fun j => KGlueF.scale_target m ρ c j,
    show (fun j : Fin 15 => V15 m ρ c main_v30 (ix2 (0 : Fin 1) j)) = cur1 (m ((c : Thread nD τ).loc main_arg11)) from funext fun j => KGlueF.shift_target m ρ c j,
    show cur2 (V15 m ρ c main_v36) = ohW (iIdx (cur1 (m ((c : Thread nD τ).loc main_arg14)))) from funext fun j => funext fun p => KGlueI.onehot_tool m ρ c j p,
    show cur2 (V15 m ρ c main_v38) = ohW (vIdx (cur1 (m ((c : Thread nD τ).loc main_arg14)))) from funext fun j => funext fun p => KGlueI.onehot_verb m ρ c j p,
    show cur2 (V15 m ρ c main_v40) = ohW (tIdx (cur1 (m ((c : Thread nD τ).loc main_arg14)))) from funext fun j => funext fun p => KGlueI.onehot_target m ρ c j p,
    show cur2 (V15 m ρ c main_v41) = (fun p q => cur2 (m ((c : Thread nD τ).loc main_arg12)) q p) from funext fun p => funext fun q => KGlueF.weightT m ρ c p q,
    show (fun q' : Fin 100 => V15 m ρ c main_v42 (ix2 (0 : Fin 1) q')) = cur1 (m ((c : Thread nD τ).loc main_arg13)) from funext fun q' => KGlueF.bias m ρ c q']
  unfold stage1 outK outF
  congr 1
  refine Finset.sum_congr rfl fun p _ => ?_
  rw [gatOH_ohW_eq_gat _ _ r p (hr p).1 (by norm_num), gatOH_ohW_eq_gat _ _ r p (hr p).2.1 (by norm_num),
    gatOH_ohW_eq_gat _ _ r p (hr p).2.2 (by norm_num)]
  rfl

end Cert.KernelIdeal.KValue

end
-- ==== Proof.ROps.lean ====
import proofs.«431318_j31860067402336_2_alg».proof.ReferenceIdeal
import proofs.«431318_j31860067402336_2_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem
open Idealize.ShloMosaic.StableHlo

variable {F : FTy → Type} [FloatOps F]

/-! ## The program as a list of operations

@main's 118 statements with every outlined body written out at its call over that call's buffer record come to 294
operations, one per buffer the program declares after its arguments. They are listed in six consecutive stretches, cut
where the mathematics changes (a branch, the index arithmetic, the picks and the linear layer) and where @main's two
windows meet. -/

/-- The first branch (width 6): the product with the square matrix, the column means, the variance through its own mean, the normalisation with scale and shift, ELU: @main's %0 … %20, each outlined body written out at its call. -/
abbrev opsT : List (HloOp τ sig (Elt F)) :=
  [ StableHlo.binary main_arg0 main_arg3 main_v0 ((fun l r => Host.dotGeneral dot_S131072x6_S6x6_S131072x6_1_0_0_1_n_n none l r) : (⟨S131072x6, .f32⟩ : BufTy).Contents (Elt F) → (⟨S6x6, .f32⟩ : BufTy).Contents (Elt F) → (⟨S131072x6, .f32⟩ : BufTy).Contents (Elt F)),
    StableHlo.nullary main_cst (constant S_ .f32 0x00000000#32),
    StableHlo.binary main_v0 main_cst main_v1 ((fun x v => Host.reduceAdd x v reducesTo_S131072x6_S6_d0 h_S_) : (⟨S131072x6, .f32⟩ : BufTy).Contents (Elt F) → (⟨S_, .f32⟩ : BufTy).Contents (Elt F) → (⟨S6, .f32⟩ : BufTy).Contents (Elt F)),
    StableHlo.nullary main_cst_0 (constant S_ .f32 0x48000000#32),
    StableHlo.unary main_cst_0 main_v2 (broadcastInDim S6 ![] bcast_S_S6 : (⟨S_, .f32⟩ : BufTy).Contents (Elt F) → (⟨S6, .f32⟩ : BufTy).Contents (Elt F)),
    StableHlo.binary main_v1 main_v2 main_v3 (Host.divf : (⟨S6, .f32⟩ : BufTy).Contents (Elt F) → (⟨S6, .f32⟩ : BufTy).Contents (Elt F) → (⟨S6, .f32⟩ : BufTy).Contents (Elt F)),
    StableHlo.nullary main_c (constantI S_ 32 0#32),
    StableHlo.TRef.nullary main_call0.cst (constant S_ .f32 0x00000000#32),
    StableHlo.TRef.binary (.of main_v0) main_call0.cst main_call0.v0 (fun x v => Host.reduceAdd x v reducesTo_S131072x6_S6_d0 h_S_),
    StableHlo.TRef.unary main_call0.v0 main_call0.v1 (broadcastInDim S1x6 ![1] bcast_S6_S1x6_1),
    StableHlo.TRef.nullary main_call0.cst_0 (constant S_ .f32 0x48000000#32),
    StableHlo.TRef.unary main_call0.cst_0 main_call0.v2 (broadcastInDim S1x6 ![] bcast_S_S1x6),
    StableHlo.TRef.binary main_call0.v1 main_call0.v2 main_call0.v3 Host.divf,
    StableHlo.TRef.unary main_call0.v3 main_call0.v4 (broadcastInDim S131072x6 ![0, 1] bcast_S1x6_S131072x6_0_1),
    StableHlo.TRef.binary (.of main_v0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x48000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S131072x6_S6_d0 h_S_),
    StableHlo.TRef.unary main_call0.v8 main_call0.v10 (broadcastInDim S6 ![] bcast_S_S6),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S6 ![] bcast_S_S6),
    StableHlo.TRef.ternary main_call0.v12 main_call0.v11 main_call0.call0.v1 main_call0.call0.v2 (fun p a b => select (broadcastInDim S6 ![] bcast_S_S6 p) a b),
    StableHlo.unary main_v3 main_v5 (broadcastInDim S1x6 ![1] bcast_S6_S1x6_1 : (⟨S6, .f32⟩ : BufTy).Contents (Elt F) → (⟨S1x6, .f32⟩ : BufTy).Contents (Elt F)),
    StableHlo.unary main_v5 main_v6 (broadcastInDim S131072x6 ![0, 1] bcast_S1x6_S131072x6_0_1 : (⟨S1x6, .f32⟩ : BufTy).Contents (Elt F) → (⟨S131072x6, .f32⟩ : BufTy).Contents (Elt F)),
    StableHlo.binary main_v0 main_v6 main_v7 (subf : (⟨S131072x6, .f32⟩ : BufTy).Contents (Elt F) → (⟨S131072x6, .f32⟩ : BufTy).Contents (Elt F) → (⟨S131072x6, .f32⟩ : BufTy).Contents (Elt F)),
    StableHlo.nullary main_cst_1 (constant S_ .f32 0x3727C5AC#32),
    StableHlo.unary main_cst_1 main_v8 (broadcastInDim S6 ![] bcast_S_S6 : (⟨S_, .f32⟩ : BufTy).Contents (Elt F) → (⟨S6, .f32⟩ : BufTy).Contents (Elt F)),
    StableHlo.binary main_v4 main_v8 main_v9 (addf : (⟨S6, .f32⟩ : BufTy).Contents (Elt F) → (⟨S6, .f32⟩ : BufTy).Contents (Elt F) → (⟨S6, .f32⟩ : BufTy).Contents (Elt F)),
    StableHlo.unary main_v9 main_v10 (Host.rsqrt : (⟨S6, .f32⟩ : BufTy).Contents (Elt F) → (⟨S6, .f32⟩ : BufTy).Contents (Elt F)),
    StableHlo.unary main_v10 main_v11 (broadcastInDim S1x6 ![1] bcast_S6_S1x6_1 : (⟨S6, .f32⟩ : BufTy).Contents (Elt F) → (⟨S1x6, .f32⟩ : BufTy).Contents (Elt F)),
    StableHlo.unary main_v11 main_v12 (broadcastInDim S131072x6 ![0, 1] bcast_S1x6_S131072x6_0_1 : (⟨S1x6, .f32⟩ : BufTy).Contents (Elt F) → (⟨S131072x6, .f32⟩ : BufTy).Contents (Elt F)),
    StableHlo.binary main_v7 main_v12 main_v13 (mulf : (⟨S131072x6, .f32⟩ : BufTy).Contents (Elt F) → (⟨S131072x6, .f32⟩ : BufTy).Contents (Elt F) → (⟨S131072x6, .f32⟩ : BufTy).Contents (Elt F)),
    StableHlo.unary main_arg6 main_v14 (broadcastInDim S1x6 ![1] bcast_S6_S1x6_1 : (⟨S6, .f32⟩ : BufTy).Contents (Elt F) → (⟨S1x6, .f32⟩ : BufTy).Contents (Elt F)),
    StableHlo.unary main_v14 main_v15 (broadcastInDim S131072x6 ![0, 1] bcast_S1x6_S131072x6_0_1 : (⟨S1x6, .f32⟩ : BufTy).Contents (Elt F) → (⟨S131072x6, .f32⟩ : BufTy).Contents (Elt F)),
    StableHlo.binary main_v13 main_v15 main_v16 (mulf : (⟨S131072x6, .f32⟩ : BufTy).Contents (Elt F) → (⟨S131072x6, .f32⟩ : BufTy).Contents (Elt F) → (⟨S131072x6, .f32⟩ : BufTy).Contents (Elt F)),
    StableHlo.unary main_arg7 main_v17 (broadcastInDim S1x6 ![1] bcast_S6_S1x6_1 : (⟨S6, .f32⟩ : BufTy).Contents (Elt F) → (⟨S1x6, .f32⟩ : BufTy).Contents (Elt F)),
    StableHlo.unary main_v17 main_v18 (broadcastInDim S131072x6 ![0, 1] bcast_S1x6_S131072x6_0_1 : (⟨S1x6, .f32⟩ : BufTy).Contents (Elt F) → (⟨S131072x6, .f32⟩ : BufTy).Contents (Elt F)),
    StableHlo.binary main_v16 main_v18 main_v19 (addf : (⟨S131072x6, .f32⟩ : BufTy).Contents (Elt F) → (⟨S131072x6, .f32⟩ : BufTy).Contents (Elt F) → (⟨S131072x6, .f32⟩ : BufTy).Contents (Elt F)),
    StableHlo.TRef.nullary main_call1.cst (constant S_ .f32 0x00000000#32),
    StableHlo.TRef.unary main_call1.cst main_call1.v0 (broadcastInDim S131072x6 ![] bcast_S_S131072x6),
    StableHlo.TRef.binary (.of main_v19) main_call1.v0 main_call1.v1 (cmpf .ogt),
    StableHlo.TRef.nullary main_call1.cst_0 (constant S_ .f32 0x00000000#32),
    StableHlo.TRef.unary main_call1.cst_0 main_call1.v2 (broadcastInDim S131072x6 ![] bcast_S_S131072x6),
    StableHlo.TRef.binary (.of main_v19) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S131072x6 ![] bcast_S_S131072x6),
    StableHlo.TRef.ternary main_call1.v3 main_call1.call0.v1 (.of main_v19) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S131072x6 ![] bcast_S_S131072x6),
    StableHlo.TRef.binary main_call1.v6 main_call1.v5 main_call1.v7 mulf,
    StableHlo.TRef.ternary main_call1.v1 (.of main_v19) main_call1.v7 main_call1.call1.v0 select ]

/-- The second branch (width 10), the same steps: %21 … %41. -/
abbrev opsV : List (HloOp τ sig (Elt F)) :=
  [ StableHlo.binary main_arg1 main_arg4 main_v21 ((fun l r => Host.dotGeneral dot_S131072x10_S10x10_S131072x10_1_0_0_1_n_n none l r) : (⟨S131072x10, .f32⟩ : BufTy).Contents (Elt F) → (⟨S10x10, .f32⟩ : BufTy).Contents (Elt F) → (⟨S131072x10, .f32⟩ : BufTy).Contents (Elt F)),
    StableHlo.nullary main_cst_2 (constant S_ .f32 0x00000000#32),
    StableHlo.binary main_v21 main_cst_2 main_v22 ((fun x v => Host.reduceAdd x v reducesTo_S131072x10_S10_d0 h_S_) : (⟨S131072x10, .f32⟩ : BufTy).Contents (Elt F) → (⟨S_, .f32⟩ : BufTy).Contents (Elt F) → (⟨S10, .f32⟩ : BufTy).Contents (Elt F)),
    StableHlo.nullary main_cst_3 (constant S_ .f32 0x48000000#32),
    StableHlo.unary main_cst_3 main_v23 (broadcastInDim S10 ![] bcast_S_S10 : (⟨S_, .f32⟩ : BufTy).Contents (Elt F) → (⟨S10, .f32⟩ : BufTy).Contents (Elt F)),
    StableHlo.binary main_v22 main_v23 main_v24 (Host.divf : (⟨S10, .f32⟩ : BufTy).Contents (Elt F) → (⟨S10, .f32⟩ : BufTy).Contents (Elt F) → (⟨S10, .f32⟩ : BufTy).Contents (Elt F)),
    StableHlo.nullary main_c_4 (constantI S_ 32 0#32),
    StableHlo.TRef.nullary main_call2.cst (constant S_ .f32 0x00000000#32),
    StableHlo.TRef.binary (.of main_v21) main_call2.cst main_call2.v0 (fun x v => Host.reduceAdd x v reducesTo_S131072x10_S10_d0 h_S_),
    StableHlo.TRef.unary main_call2.v0 main_call2.v1 (broadcastInDim S1x10 ![1] bcast_S10_S1x10_1),
    StableHlo.TRef.nullary main_call2.cst_0 (constant S_ .f32 0x48000000#32),
    StableHlo.TRef.unary main_call2.cst_0 main_call2.v2 (broadcastInDim S1x10 ![] bcast_S_S1x10),
    StableHlo.TRef.binary main_call2.v1 main_call2.v2 main_call2.v3 Host.divf,
    StableHlo.TRef.unary main_call2.v3 main_call2.v4 (broadcastInDim S131072x10 ![0, 1] bcast_S1x10_S131072x10_0_1),
    StableHlo.TRef.binary (.of main_v21) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x48000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S131072x10_S10_d0 h_S_),
    StableHlo.TRef.unary main_call2.v8 main_call2.v10 (broadcastInDim S10 ![] bcast_S_S10),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S10 ![] bcast_S_S10),
    StableHlo.TRef.ternary main_call2.v12 main_call2.v11 main_call2.call0.v1 main_call2.call0.v2 (fun p a b => select (broadcastInDim S10 ![] bcast_S_S10 p) a b),
    StableHlo.unary main_v24 main_v26 (broadcastInDim S1x10 ![1] bcast_S10_S1x10_1 : (⟨S10, .f32⟩ : BufTy).Contents (Elt F) → (⟨S1x10, .f32⟩ : BufTy).Contents (Elt F)),
    StableHlo.unary main_v26 main_v27 (broadcastInDim S131072x10 ![0, 1] bcast_S1x10_S131072x10_0_1 : (⟨S1x10, .f32⟩ : BufTy).Contents (Elt F) → (⟨S131072x10, .f32⟩ : BufTy).Contents (Elt F)),
    StableHlo.binary main_v21 main_v27 main_v28 (subf : (⟨S131072x10, .f32⟩ : BufTy).Contents (Elt F) → (⟨S131072x10, .f32⟩ : BufTy).Contents (Elt F) → (⟨S131072x10, .f32⟩ : BufTy).Contents (Elt F)),
    StableHlo.nullary main_cst_5 (constant S_ .f32 0x3727C5AC#32),
    StableHlo.unary main_cst_5 main_v29 (broadcastInDim S10 ![] bcast_S_S10 : (⟨S_, .f32⟩ : BufTy).Contents (Elt F) → (⟨S10, .f32⟩ : BufTy).Contents (Elt F)),
    StableHlo.binary main_v25 main_v29 main_v30 (addf : (⟨S10, .f32⟩ : BufTy).Contents (Elt F) → (⟨S10, .f32⟩ : BufTy).Contents (Elt F) → (⟨S10, .f32⟩ : BufTy).Contents (Elt F)),
    StableHlo.unary main_v30 main_v31 (Host.rsqrt : (⟨S10, .f32⟩ : BufTy).Contents (Elt F) → (⟨S10, .f32⟩ : BufTy).Contents (Elt F)),
    StableHlo.unary main_v31 main_v32 (broadcastInDim S1x10 ![1] bcast_S10_S1x10_1 : (⟨S10, .f32⟩ : BufTy).Contents (Elt F) → (⟨S1x10, .f32⟩ : BufTy).Contents (Elt F)),
    StableHlo.unary main_v32 main_v33 (broadcastInDim S131072x10 ![0, 1] bcast_S1x10_S131072x10_0_1 : (⟨S1x10, .f32⟩ : BufTy).Contents (Elt F) → (⟨S131072x10, .f32⟩ : BufTy).Contents (Elt F)),
    StableHlo.binary main_v28 main_v33 main_v34 (mulf : (⟨S131072x10, .f32⟩ : BufTy).Contents (Elt F) → (⟨S131072x10, .f32⟩ : BufTy).Contents (Elt F) → (⟨S131072x10, .f32⟩ : BufTy).Contents (Elt F)),
    StableHlo.unary main_arg8 main_v35 (broadcastInDim S1x10 ![1] bcast_S10_S1x10_1 : (⟨S10, .f32⟩ : BufTy).Contents (Elt F) → (⟨S1x10, .f32⟩ : BufTy).Contents (Elt F)),
    StableHlo.unary main_v35 main_v36 (broadcastInDim S131072x10 ![0, 1] bcast_S1x10_S131072x10_0_1 : (⟨S1x10, .f32⟩ : BufTy).Contents (Elt F) → (⟨S131072x10, .f32⟩ : BufTy).Contents (Elt F)),
    StableHlo.binary main_v34 main_v36 main_v37 (mulf : (⟨S131072x10, .f32⟩ : BufTy).Contents (Elt F) → (⟨S131072x10, .f32⟩ : BufTy).Contents (Elt F) → (⟨S131072x10, .f32⟩ : BufTy).Contents (Elt F)),
    StableHlo.unary main_arg9 main_v38 (broadcastInDim S1x10 ![1] bcast_S10_S1x10_1 : (⟨S10, .f32⟩ : BufTy).Contents (Elt F) → (⟨S1x10, .f32⟩ : BufTy).Contents (Elt F)),
    StableHlo.unary main_v38 main_v39 (broadcastInDim S131072x10 ![0, 1] bcast_S1x10_S131072x10_0_1 : (⟨S1x10, .f32⟩ : BufTy).Contents (Elt F) → (⟨S131072x10, .f32⟩ : BufTy).Contents (Elt F)),
    StableHlo.binary main_v37 main_v39 main_v40 (addf : (⟨S131072x10, .f32⟩ : BufTy).Contents (Elt F) → (⟨S131072x10, .f32⟩ : BufTy).Contents (Elt F) → (⟨S131072x10, .f32⟩ : BufTy).Contents (Elt F)),
    StableHlo.TRef.nullary main_call3.cst (constant S_ .f32 0x00000000#32),
    StableHlo.TRef.unary main_call3.cst main_call3.v0 (broadcastInDim S131072x10 ![] bcast_S_S131072x10),
    StableHlo.TRef.binary (.of main_v40) main_call3.v0 main_call3.v1 (cmpf .ogt),
    StableHlo.TRef.nullary main_call3.cst_0 (constant S_ .f32 0x00000000#32),
    StableHlo.TRef.unary main_call3.cst_0 main_call3.v2 (broadcastInDim S131072x10 ![] bcast_S_S131072x10),
    StableHlo.TRef.binary (.of main_v40) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S131072x10 ![] bcast_S_S131072x10),
    StableHlo.TRef.ternary main_call3.v3 main_call3.call0.v1 (.of main_v40) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S131072x10 ![] bcast_S_S131072x10),
    StableHlo.TRef.binary main_call3.v6 main_call3.v5 main_call3.v7 mulf,
    StableHlo.TRef.ternary main_call3.v1 (.of main_v40) main_call3.v7 main_call3.call1.v0 select ]

/-- The third branch (width 15) up to the broadcast of its mean: %42 … %48, where @main's first window ends. -/
abbrev opsG0 : List (HloOp τ sig (Elt F)) :=
  [ StableHlo.binary main_arg2 main_arg5 main_v42 ((fun l r => Host.dotGeneral dot_S131072x15_S15x15_S131072x15_1_0_0_1_n_n none l r) : (⟨S131072x15, .f32⟩ : BufTy).Contents (Elt F) → (⟨S15x15, .f32⟩ : BufTy).Contents (Elt F) → (⟨S131072x15, .f32⟩ : BufTy).Contents (Elt F)),
    StableHlo.nullary main_cst_6 (constant S_ .f32 0x00000000#32),
    StableHlo.binary main_v42 main_cst_6 main_v43 ((fun x v => Host.reduceAdd x v reducesTo_S131072x15_S15_d0 h_S_) : (⟨S131072x15, .f32⟩ : BufTy).Contents (Elt F) → (⟨S_, .f32⟩ : BufTy).Contents (Elt F) → (⟨S15, .f32⟩ : BufTy).Contents (Elt F)),
    StableHlo.nullary main_cst_7 (constant S_ .f32 0x48000000#32),
    StableHlo.unary main_cst_7 main_v44 (broadcastInDim S15 ![] bcast_S_S15 : (⟨S_, .f32⟩ : BufTy).Contents (Elt F) → (⟨S15, .f32⟩ : BufTy).Contents (Elt F)),
    StableHlo.binary main_v43 main_v44 main_v45 (Host.divf : (⟨S15, .f32⟩ : BufTy).Contents (Elt F) → (⟨S15, .f32⟩ : BufTy).Contents (Elt F) → (⟨S15, .f32⟩ : BufTy).Contents (Elt F)),
    StableHlo.nullary main_c_8 (constantI S_ 32 0#32),
    StableHlo.TRef.nullary main_call4.cst (constant S_ .f32 0x00000000#32),
    StableHlo.TRef.binary (.of main_v42) main_call4.cst main_call4.v0 (fun x v => Host.reduceAdd x v reducesTo_S131072x15_S15_d0 h_S_),
    StableHlo.TRef.unary main_call4.v0 main_call4.v1 (broadcastInDim S1x15 ![1] bcast_S15_S1x15_1),
    StableHlo.TRef.nullary main_call4.cst_0 (constant S_ .f32 0x48000000#32),
    StableHlo.TRef.unary main_call4.cst_0 main_call4.v2 (broadcastInDim S1x15 ![] bcast_S_S1x15),
    StableHlo.TRef.binary main_call4.v1 main_call4.v2 main_call4.v3 Host.divf,
    StableHlo.TRef.unary main_call4.v3 main_call4.v4 (broadcastInDim S131072x15 ![0, 1] bcast_S1x15_S131072x15_0_1),
    StableHlo.TRef.binary (.of main_v42) main_call4.v4 main_call4.v5 subf,
    StableHlo.TRef.binary main_call4.v5 main_call4.v5 main_call4.v6 mulf,
    StableHlo.TRef.unary (.of main_c_8) main_call4.v7 (sitofp .f32),
    StableHlo.TRef.nullary main_call4.cst_1 (constant S_ .f32 0x48000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S131072x15_S15_d0 h_S_),
    StableHlo.TRef.unary main_call4.v8 main_call4.v10 (broadcastInDim S15 ![] bcast_S_S15),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S15 ![] bcast_S_S15),
    StableHlo.TRef.ternary main_call4.v12 main_call4.v11 main_call4.call0.v1 main_call4.call0.v2 (fun p a b => select (broadcastInDim S15 ![] bcast_S_S15 p) a b),
    StableHlo.unary main_v45 main_v47 (broadcastInDim S1x15 ![1] bcast_S15_S1x15_1 : (⟨S15, .f32⟩ : BufTy).Contents (Elt F) → (⟨S1x15, .f32⟩ : BufTy).Contents (Elt F)),
    StableHlo.unary main_v47 main_v48 (broadcastInDim S131072x15 ![0, 1] bcast_S1x15_S131072x15_0_1 : (⟨S1x15, .f32⟩ : BufTy).Contents (Elt F) → (⟨S131072x15, .f32⟩ : BufTy).Contents (Elt F)) ]

/-- The rest of the third branch: %49 … %62. -/
abbrev opsG1 : List (HloOp τ sig (Elt F)) :=
  [ StableHlo.binary main_v42 main_v48 main_v49 (subf : (⟨S131072x15, .f32⟩ : BufTy).Contents (Elt F) → (⟨S131072x15, .f32⟩ : BufTy).Contents (Elt F) → (⟨S131072x15, .f32⟩ : BufTy).Contents (Elt F)),
    StableHlo.nullary main_cst_9 (constant S_ .f32 0x3727C5AC#32),
    StableHlo.unary main_cst_9 main_v50 (broadcastInDim S15 ![] bcast_S_S15 : (⟨S_, .f32⟩ : BufTy).Contents (Elt F) → (⟨S15, .f32⟩ : BufTy).Contents (Elt F)),
    StableHlo.binary main_v46 main_v50 main_v51 (addf : (⟨S15, .f32⟩ : BufTy).Contents (Elt F) → (⟨S15, .f32⟩ : BufTy).Contents (Elt F) → (⟨S15, .f32⟩ : BufTy).Contents (Elt F)),
    StableHlo.unary main_v51 main_v52 (Host.rsqrt : (⟨S15, .f32⟩ : BufTy).Contents (Elt F) → (⟨S15, .f32⟩ : BufTy).Contents (Elt F)),
    StableHlo.unary main_v52 main_v53 (broadcastInDim S1x15 ![1] bcast_S15_S1x15_1 : (⟨S15, .f32⟩ : BufTy).Contents (Elt F) → (⟨S1x15, .f32⟩ : BufTy).Contents (Elt F)),
    StableHlo.unary main_v53 main_v54 (broadcastInDim S131072x15 ![0, 1] bcast_S1x15_S131072x15_0_1 : (⟨S1x15, .f32⟩ : BufTy).Contents (Elt F) → (⟨S131072x15, .f32⟩ : BufTy).Contents (Elt F)),
    StableHlo.binary main_v49 main_v54 main_v55 (mulf : (⟨S131072x15, .f32⟩ : BufTy).Contents (Elt F) → (⟨S131072x15, .f32⟩ : BufTy).Contents (Elt F) → (⟨S131072x15, .f32⟩ : BufTy).Contents (Elt F)),
    StableHlo.unary main_arg10 main_v56 (broadcastInDim S1x15 ![1] bcast_S15_S1x15_1 : (⟨S15, .f32⟩ : BufTy).Contents (Elt F) → (⟨S1x15, .f32⟩ : BufTy).Contents (Elt F)),
    StableHlo.unary main_v56 main_v57 (broadcastInDim S131072x15 ![0, 1] bcast_S1x15_S131072x15_0_1 : (⟨S1x15, .f32⟩ : BufTy).Contents (Elt F) → (⟨S131072x15, .f32⟩ : BufTy).Contents (Elt F)),
    StableHlo.binary main_v55 main_v57 main_v58 (mulf : (⟨S131072x15, .f32⟩ : BufTy).Contents (Elt F) → (⟨S131072x15, .f32⟩ : BufTy).Contents (Elt F) → (⟨S131072x15, .f32⟩ : BufTy).Contents (Elt F)),
    StableHlo.unary main_arg11 main_v59 (broadcastInDim S1x15 ![1] bcast_S15_S1x15_1 : (⟨S15, .f32⟩ : BufTy).Contents (Elt F) → (⟨S1x15, .f32⟩ : BufTy).Contents (Elt F)),
    StableHlo.unary main_v59 main_v60 (broadcastInDim S131072x15 ![0, 1] bcast_S1x15_S131072x15_0_1 : (⟨S1x15, .f32⟩ : BufTy).Contents (Elt F) → (⟨S131072x15, .f32⟩ : BufTy).Contents (Elt F)),
    StableHlo.binary main_v58 main_v60 main_v61 (addf : (⟨S131072x15, .f32⟩ : BufTy).Contents (Elt F) → (⟨S131072x15, .f32⟩ : BufTy).Contents (Elt F) → (⟨S131072x15, .f32⟩ : BufTy).Contents (Elt F)),
    StableHlo.TRef.nullary main_call5.cst (constant S_ .f32 0x00000000#32),
    StableHlo.TRef.unary main_call5.cst main_call5.v0 (broadcastInDim S131072x15 ![] bcast_S_S131072x15),
    StableHlo.TRef.binary (.of main_v61) main_call5.v0 main_call5.v1 (cmpf .ogt),
    StableHlo.TRef.nullary main_call5.cst_0 (constant S_ .f32 0x00000000#32),
    StableHlo.TRef.unary main_call5.cst_0 main_call5.v2 (broadcastInDim S131072x15 ![] bcast_S_S131072x15),
    StableHlo.TRef.binary (.of main_v61) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S131072x15 ![] bcast_S_S131072x15),
    StableHlo.TRef.ternary main_call5.v3 main_call5.call0.v1 (.of main_v61) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S131072x15 ![] bcast_S_S131072x15),
    StableHlo.TRef.binary main_call5.v6 main_call5.v5 main_call5.v7 mulf,
    StableHlo.TRef.ternary main_call5.v1 (.of main_v61) main_call5.v7 main_call5.call1.v0 select ]

/-- The flat position split into its three coordinates, floor division and floor remainder by 150 and then by 15: %63 … %66, each outlined body written out. -/
abbrev opsI : List (HloOp τ sig (Elt F)) :=
  [ StableHlo.nullary main_c_10 (constantI S_ 32 150#32),
    StableHlo.TRef.unary (.of main_c_10) main_call6.v0 id,
    StableHlo.TRef.unary main_call6.v0 main_call6.v1 (broadcastInDim S100 ![] bcast_S_S100),
    StableHlo.TRef.binary (.of main_arg14) main_call6.v1 main_call6.v2 Host.divsi,
    StableHlo.TRef.unary (.of main_arg14) main_call6.v3 signi,
    StableHlo.TRef.unary main_call6.v0 main_call6.v4 signi,
    StableHlo.TRef.unary main_call6.v4 main_call6.v5 (broadcastInDim S100 ![] bcast_S_S100),
    StableHlo.TRef.binary main_call6.v3 main_call6.v5 main_call6.v6 (cmpi .ne),
    StableHlo.TRef.unary main_call6.v0 main_call6.v7 (broadcastInDim S100 ![] bcast_S_S100),
    StableHlo.TRef.binary (.of main_arg14) main_call6.v7 main_call6.v8 Host.remsi,
    StableHlo.TRef.nullary main_call6.c (constantI S_ 32 0#32),
    StableHlo.TRef.unary main_call6.c main_call6.v9 (broadcastInDim S100 ![] bcast_S_S100),
    StableHlo.TRef.binary main_call6.v8 main_call6.v9 main_call6.v10 (cmpi .ne),
    StableHlo.TRef.binary main_call6.v6 main_call6.v10 main_call6.v11 andi,
    StableHlo.TRef.nullary main_call6.c_0 (constantI S_ 32 1#32),
    StableHlo.TRef.unary main_call6.c_0 main_call6.v12 (broadcastInDim S100 ![] bcast_S_S100),
    StableHlo.TRef.binary main_call6.v2 main_call6.v12 main_call6.v13 subi,
    StableHlo.TRef.ternary main_call6.v11 main_call6.v13 main_call6.v2 main_call6.call0.v0 select,
    StableHlo.nullary main_c_11 (constantI S_ 32 150#32),
    StableHlo.TRef.unary (.of main_c_11) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S100 ![] bcast_S_S100),
    StableHlo.TRef.binary (.of main_arg14) main_call7.v3 main_call7.v4 Host.remsi,
    StableHlo.TRef.nullary main_call7.c_1 (constantI S_ 32 0#32),
    StableHlo.TRef.unary main_call7.c_1 main_call7.v5 (broadcastInDim S100 ![] bcast_S_S100),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S100 ![] bcast_S_S100),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S100 ![] bcast_S_S100),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S100 ![] bcast_S_S100),
    StableHlo.TRef.binary main_call7.v4 main_call7.v13 main_call7.v14 addi,
    StableHlo.TRef.ternary main_call7.v12 main_call7.v14 main_call7.v4 main_call7.v15 select,
    StableHlo.nullary main_c_12 (constantI S_ 32 15#32),
    StableHlo.TRef.unary (.of main_c_12) main_call8.v0 id,
    StableHlo.TRef.unary main_call8.v0 main_call8.v1 (broadcastInDim S100 ![] bcast_S_S100),
    StableHlo.TRef.binary (.of main_v64) main_call8.v1 main_call8.v2 Host.divsi,
    StableHlo.TRef.unary (.of main_v64) main_call8.v3 signi,
    StableHlo.TRef.unary main_call8.v0 main_call8.v4 signi,
    StableHlo.TRef.unary main_call8.v4 main_call8.v5 (broadcastInDim S100 ![] bcast_S_S100),
    StableHlo.TRef.binary main_call8.v3 main_call8.v5 main_call8.v6 (cmpi .ne),
    StableHlo.TRef.unary main_call8.v0 main_call8.v7 (broadcastInDim S100 ![] bcast_S_S100),
    StableHlo.TRef.binary (.of main_v64) main_call8.v7 main_call8.v8 Host.remsi,
    StableHlo.TRef.nullary main_call8.c (constantI S_ 32 0#32),
    StableHlo.TRef.unary main_call8.c main_call8.v9 (broadcastInDim S100 ![] bcast_S_S100),
    StableHlo.TRef.binary main_call8.v8 main_call8.v9 main_call8.v10 (cmpi .ne),
    StableHlo.TRef.binary main_call8.v6 main_call8.v10 main_call8.v11 andi,
    StableHlo.TRef.nullary main_call8.c_0 (constantI S_ 32 1#32),
    StableHlo.TRef.unary main_call8.c_0 main_call8.v12 (broadcastInDim S100 ![] bcast_S_S100),
    StableHlo.TRef.binary main_call8.v2 main_call8.v12 main_call8.v13 subi,
    StableHlo.TRef.ternary main_call8.v11 main_call8.v13 main_call8.v2 main_call8.call0.v0 select,
    StableHlo.nullary main_c_13 (constantI S_ 32 15#32),
    StableHlo.TRef.unary (.of main_c_13) main_call9.v0 id,
    StableHlo.TRef.nullary main_call9.c (constantI S_ 32 0#32),
    StableHlo.TRef.binary main_call9.v0 main_call9.c main_call9.v1 (cmpi .eq),
    StableHlo.TRef.nullary main_call9.c_0 (constantI S_ 32 1#32),
    StableHlo.TRef.ternary main_call9.v1 main_call9.c_0 main_call9.v0 main_call9.call0.v0 select,
    StableHlo.TRef.unary main_call9.call0.v0 main_call9.v3 (broadcastInDim S100 ![] bcast_S_S100),
    StableHlo.TRef.binary (.of main_v64) main_call9.v3 main_call9.v4 Host.remsi,
    StableHlo.TRef.nullary main_call9.c_1 (constantI S_ 32 0#32),
    StableHlo.TRef.unary main_call9.c_1 main_call9.v5 (broadcastInDim S100 ![] bcast_S_S100),
    StableHlo.TRef.binary main_call9.v4 main_call9.v5 main_call9.v6 (cmpi .ne),
    StableHlo.TRef.nullary main_call9.c_2 (constantI S_ 32 0#32),
    StableHlo.TRef.unary main_call9.c_2 main_call9.v7 (broadcastInDim S100 ![] bcast_S_S100),
    StableHlo.TRef.binary main_call9.v4 main_call9.v7 main_call9.v8 (cmpi .slt),
    StableHlo.TRef.nullary main_call9.c_3 (constantI S_ 32 0#32),
    StableHlo.TRef.binary main_call9.call0.v0 main_call9.c_3 main_call9.v9 (cmpi .slt),
    StableHlo.TRef.unary main_call9.v9 main_call9.v10 (broadcastInDim S100 ![] bcast_S_S100),
    StableHlo.TRef.binary main_call9.v8 main_call9.v10 main_call9.v11 (cmpi .ne),
    StableHlo.TRef.binary main_call9.v11 main_call9.v6 main_call9.v12 andi,
    StableHlo.TRef.unary main_call9.call0.v0 main_call9.v13 (broadcastInDim S100 ![] bcast_S_S100),
    StableHlo.TRef.binary main_call9.v4 main_call9.v13 main_call9.v14 addi,
    StableHlo.TRef.ternary main_call9.v12 main_call9.v14 main_call9.v4 main_call9.v15 select ]

/-- Negative coordinates wrapped, the three column picks, their product, the linear layer: %67 … %94. -/
abbrev opsO : List (HloOp τ sig (Elt F)) :=
  [ StableHlo.nullary main_c_14 (constantI S_ 32 0#32),
    StableHlo.unary main_c_14 main_v67 (broadcastInDim S100 ![] bcast_S_S100 : (⟨S_, .i32⟩ : BufTy).Contents (Elt F) → (⟨S100, .i32⟩ : BufTy).Contents (Elt F)),
    StableHlo.binary main_v63 main_v67 main_v68 (cmpi .slt : (⟨S100, .i32⟩ : BufTy).Contents (Elt F) → (⟨S100, .i32⟩ : BufTy).Contents (Elt F) → (⟨S100, .i1⟩ : BufTy).Contents (Elt F)),
    StableHlo.nullary main_c_15 (constantI S_ 32 6#32),
    StableHlo.unary main_c_15 main_v69 (broadcastInDim S100 ![] bcast_S_S100 : (⟨S_, .i32⟩ : BufTy).Contents (Elt F) → (⟨S100, .i32⟩ : BufTy).Contents (Elt F)),
    StableHlo.binary main_v63 main_v69 main_v70 (addi : (⟨S100, .i32⟩ : BufTy).Contents (Elt F) → (⟨S100, .i32⟩ : BufTy).Contents (Elt F) → (⟨S100, .i32⟩ : BufTy).Contents (Elt F)),
    StableHlo.ternary main_v68 main_v70 main_v63 main_v71 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v71 main_v72 (broadcastInDim S100x1 ![0] bcast_S100_S100x1_0 : (⟨S100, .i32⟩ : BufTy).Contents (Elt F) → (⟨S100x1, .i32⟩ : BufTy).Contents (Elt F)),
    StableHlo.binary main_v20 main_v72 main_v73 ((fun x i => Host.gather gather_S131072x6_S100x1_S131072x100_0_1_n_n_1_1_1310721 x i) : (⟨S131072x6, .f32⟩ : BufTy).Contents (Elt F) → (⟨S100x1, .i32⟩ : BufTy).Contents (Elt F) → (⟨S131072x100, .f32⟩ : BufTy).Contents (Elt F)),
    StableHlo.nullary main_c_16 (constantI S_ 32 0#32),
    StableHlo.unary main_c_16 main_v74 (broadcastInDim S100 ![] bcast_S_S100 : (⟨S_, .i32⟩ : BufTy).Contents (Elt F) → (⟨S100, .i32⟩ : BufTy).Contents (Elt F)),
    StableHlo.binary main_v65 main_v74 main_v75 (cmpi .slt : (⟨S100, .i32⟩ : BufTy).Contents (Elt F) → (⟨S100, .i32⟩ : BufTy).Contents (Elt F) → (⟨S100, .i1⟩ : BufTy).Contents (Elt F)),
    StableHlo.nullary main_c_17 (constantI S_ 32 10#32),
    StableHlo.unary main_c_17 main_v76 (broadcastInDim S100 ![] bcast_S_S100 : (⟨S_, .i32⟩ : BufTy).Contents (Elt F) → (⟨S100, .i32⟩ : BufTy).Contents (Elt F)),
    StableHlo.binary main_v65 main_v76 main_v77 (addi : (⟨S100, .i32⟩ : BufTy).Contents (Elt F) → (⟨S100, .i32⟩ : BufTy).Contents (Elt F) → (⟨S100, .i32⟩ : BufTy).Contents (Elt F)),
    StableHlo.ternary main_v75 main_v77 main_v65 main_v78 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v78 main_v79 (broadcastInDim S100x1 ![0] bcast_S100_S100x1_0 : (⟨S100, .i32⟩ : BufTy).Contents (Elt F) → (⟨S100x1, .i32⟩ : BufTy).Contents (Elt F)),
    StableHlo.binary main_v41 main_v79 main_v80 ((fun x i => Host.gather gather_S131072x10_S100x1_S131072x100_0_1_n_n_1_1_1310721 x i) : (⟨S131072x10, .f32⟩ : BufTy).Contents (Elt F) → (⟨S100x1, .i32⟩ : BufTy).Contents (Elt F) → (⟨S131072x100, .f32⟩ : BufTy).Contents (Elt F)),
    StableHlo.binary main_v73 main_v80 main_v81 (mulf : (⟨S131072x100, .f32⟩ : BufTy).Contents (Elt F) → (⟨S131072x100, .f32⟩ : BufTy).Contents (Elt F) → (⟨S131072x100, .f32⟩ : BufTy).Contents (Elt F)),
    StableHlo.nullary main_c_18 (constantI S_ 32 0#32),
    StableHlo.unary main_c_18 main_v82 (broadcastInDim S100 ![] bcast_S_S100 : (⟨S_, .i32⟩ : BufTy).Contents (Elt F) → (⟨S100, .i32⟩ : BufTy).Contents (Elt F)),
    StableHlo.binary main_v66 main_v82 main_v83 (cmpi .slt : (⟨S100, .i32⟩ : BufTy).Contents (Elt F) → (⟨S100, .i32⟩ : BufTy).Contents (Elt F) → (⟨S100, .i1⟩ : BufTy).Contents (Elt F)),
    StableHlo.nullary main_c_19 (constantI S_ 32 15#32),
    StableHlo.unary main_c_19 main_v84 (broadcastInDim S100 ![] bcast_S_S100 : (⟨S_, .i32⟩ : BufTy).Contents (Elt F) → (⟨S100, .i32⟩ : BufTy).Contents (Elt F)),
    StableHlo.binary main_v66 main_v84 main_v85 (addi : (⟨S100, .i32⟩ : BufTy).Contents (Elt F) → (⟨S100, .i32⟩ : BufTy).Contents (Elt F) → (⟨S100, .i32⟩ : BufTy).Contents (Elt F)),
    StableHlo.ternary main_v83 main_v85 main_v66 main_v86 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v86 main_v87 (broadcastInDim S100x1 ![0] bcast_S100_S100x1_0 : (⟨S100, .i32⟩ : BufTy).Contents (Elt F) → (⟨S100x1, .i32⟩ : BufTy).Contents (Elt F)),
    StableHlo.binary main_v62 main_v87 main_v88 ((fun x i => Host.gather gather_S131072x15_S100x1_S131072x100_0_1_n_n_1_1_1310721 x i) : (⟨S131072x15, .f32⟩ : BufTy).Contents (Elt F) → (⟨S100x1, .i32⟩ : BufTy).Contents (Elt F) → (⟨S131072x100, .f32⟩ : BufTy).Contents (Elt F)),
    StableHlo.binary main_v81 main_v88 main_v89 (mulf : (⟨S131072x100, .f32⟩ : BufTy).Contents (Elt F) → (⟨S131072x100, .f32⟩ : BufTy).Contents (Elt F) → (⟨S131072x100, .f32⟩ : BufTy).Contents (Elt F)),
    StableHlo.unary main_arg12 main_v90 ((transpose S100x100 [1, 0] · transposes_S100x100_S100x100_1_0) : (⟨S100x100, .f32⟩ : BufTy).Contents (Elt F) → (⟨S100x100, .f32⟩ : BufTy).Contents (Elt F)),
    StableHlo.binary main_v89 main_v90 main_v91 ((fun l r => Host.dotGeneral dot_S131072x100_S100x100_S131072x100_1_0_0_1_n_n none l r) : (⟨S131072x100, .f32⟩ : BufTy).Contents (Elt F) → (⟨S100x100, .f32⟩ : BufTy).Contents (Elt F) → (⟨S131072x100, .f32⟩ : BufTy).Contents (Elt F)),
    StableHlo.unary main_arg13 main_v92 (broadcastInDim S1x100 ![1] bcast_S100_S1x100_1 : (⟨S100, .f32⟩ : BufTy).Contents (Elt F) → (⟨S1x100, .f32⟩ : BufTy).Contents (Elt F)),
    StableHlo.unary main_v92 main_v93 (broadcastInDim S131072x100 ![0, 1] bcast_S1x100_S131072x100_0_1 : (⟨S1x100, .f32⟩ : BufTy).Contents (Elt F) → (⟨S131072x100, .f32⟩ : BufTy).Contents (Elt F)),
    StableHlo.binary main_v91 main_v93 main_v94 (addf : (⟨S131072x100, .f32⟩ : BufTy).Contents (Elt F) → (⟨S131072x100, .f32⟩ : BufTy).Contents (Elt F) → (⟨S131072x100, .f32⟩ : BufTy).Contents (Elt F)) ]

/-- @main's first window: the first two branches and the start of the third. -/
abbrev ops0 : List (HloOp τ sig (Elt F)) := opsT ++ opsV ++ opsG0
/-- @main's second window: the rest of the third branch, the coordinates, the picks and the linear layer. -/
abbrev ops1 : List (HloOp τ sig (Elt F)) := opsG1 ++ opsI ++ opsO
/-- @main's operations, in order. -/
abbrev ops : List (HloOp τ sig (Elt F)) := ops0 ++ ops1

/-! ## One entry per operation

What each stretch writes, by name and in order (an operation writes its result buffer and nothing else); that each
operation touches TensorCore buffers only; that each determines what it writes; and that each one's written buffer is in
its stretch's list. -/

/-- An entry of the last table: the operation's one written buffer, found in the stretch's list by comparison. -/
local macro "in_W" : term =>
  `(Finset.singleton_subset_iff.mpr (List.mem_toFinset.mpr (List.mem_map_of_mem (by decide))))

/-- The buffers opsT writes, in order. -/
abbrev opsT_W : List (Ref sig .tc) :=
  [main_v0, main_cst, main_v1, main_cst_0, main_v2, main_v3, main_c, main_call0_cst,
   main_call0_v0, main_call0_v1, main_call0_cst_0, main_call0_v2, main_call0_v3, main_call0_v4, main_call0_v5, main_call0_v6,
   main_call0_v7, main_call0_cst_1, main_call0_v8, main_call0_cst_2, main_call0_v9, main_call0_v10, main_call0_v11, main_call0_cst_3,
   main_call0_v12, main_call0_cst_4, main_call0_call0_v0, main_call0_call0_v1, main_v4, main_v5, main_v6, main_v7,
   main_cst_1, main_v8, main_v9, main_v10, main_v11, main_v12, main_v13, main_v14,
   main_v15, main_v16, main_v17, main_v18, main_v19, main_call1_cst, main_call1_v0, main_call1_v1,
   main_call1_cst_0, main_call1_v2, main_call1_v3, main_call1_cst_1, main_call1_call0_v0, main_call1_call0_v1, main_call1_v4, main_call1_v5,
   main_call1_cst_2, main_call1_v6, main_call1_v7, main_v20]

set_option maxRecDepth 8192 in
theorem opsT_sub : (opsT : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

theorem opsT_fresh : (opsT : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
theorem opsT_writes : (opsT : List (HloOp τ sig (Elt F))).Forall fun op =>
    op.writes ⊆ (opsT_W.map (Proc.devRef (τ := τ) .tc)).toFinset :=
  ⟨in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W⟩

/-- The buffers opsV writes, in order. -/
abbrev opsV_W : List (Ref sig .tc) :=
  [main_v21, main_cst_2, main_v22, main_cst_3, main_v23, main_v24, main_c_4, main_call2_cst,
   main_call2_v0, main_call2_v1, main_call2_cst_0, main_call2_v2, main_call2_v3, main_call2_v4, main_call2_v5, main_call2_v6,
   main_call2_v7, main_call2_cst_1, main_call2_v8, main_call2_cst_2, main_call2_v9, main_call2_v10, main_call2_v11, main_call2_cst_3,
   main_call2_v12, main_call2_cst_4, main_call2_call0_v0, main_call2_call0_v1, main_v25, main_v26, main_v27, main_v28,
   main_cst_5, main_v29, main_v30, main_v31, main_v32, main_v33, main_v34, main_v35,
   main_v36, main_v37, main_v38, main_v39, main_v40, main_call3_cst, main_call3_v0, main_call3_v1,
   main_call3_cst_0, main_call3_v2, main_call3_v3, main_call3_cst_1, main_call3_call0_v0, main_call3_call0_v1, main_call3_v4, main_call3_v5,
   main_call3_cst_2, main_call3_v6, main_call3_v7, main_v41]

set_option maxRecDepth 8192 in
theorem opsV_sub : (opsV : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

theorem opsV_fresh : (opsV : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
theorem opsV_writes : (opsV : List (HloOp τ sig (Elt F))).Forall fun op =>
    op.writes ⊆ (opsV_W.map (Proc.devRef (τ := τ) .tc)).toFinset :=
  ⟨in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W⟩

/-- The buffers opsG0 writes, in order. -/
abbrev opsG0_W : List (Ref sig .tc) :=
  [main_v42, main_cst_6, main_v43, main_cst_7, main_v44, main_v45, main_c_8, main_call4_cst,
   main_call4_v0, main_call4_v1, main_call4_cst_0, main_call4_v2, main_call4_v3, main_call4_v4, main_call4_v5, main_call4_v6,
   main_call4_v7, main_call4_cst_1, main_call4_v8, main_call4_cst_2, main_call4_v9, main_call4_v10, main_call4_v11, main_call4_cst_3,
   main_call4_v12, main_call4_cst_4, main_call4_call0_v0, main_call4_call0_v1, main_v46, main_v47, main_v48]

set_option maxRecDepth 8192 in
theorem opsG0_sub : (opsG0 : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub ..⟩

theorem opsG0_fresh : (opsG0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

set_option maxRecDepth 8192 in
theorem opsG0_writes : (opsG0 : List (HloOp τ sig (Elt F))).Forall fun op =>
    op.writes ⊆ (opsG0_W.map (Proc.devRef (τ := τ) .tc)).toFinset :=
  ⟨in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W⟩

/-- The buffers opsG1 writes, in order. -/
abbrev opsG1_W : List (Ref sig .tc) :=
  [main_v49, main_cst_9, main_v50, main_v51, main_v52, main_v53, main_v54, main_v55,
   main_v56, main_v57, main_v58, main_v59, main_v60, main_v61, main_call5_cst, main_call5_v0,
   main_call5_v1, main_call5_cst_0, main_call5_v2, main_call5_v3, main_call5_cst_1, main_call5_call0_v0, main_call5_call0_v1, main_call5_v4,
   main_call5_v5, main_call5_cst_2, main_call5_v6, main_call5_v7, main_v62]

set_option maxRecDepth 8192 in
theorem opsG1_sub : (opsG1 : List (HloOp τ sig (Elt F))).Forall fun op => op.bufs ⊆ tcRefs τ sig :=
  ⟨binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub ..⟩

theorem opsG1_fresh : (opsG1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl⟩

set_option maxRecDepth 8192 in
theorem opsG1_writes : (opsG1 : List (HloOp τ sig (Elt F))).Forall fun op =>
    op.writes ⊆ (opsG1_W.map (Proc.devRef (τ := τ) .tc)).toFinset :=
  ⟨in_W, in_W, in_W, in_W, in_W, in_W, in_W, in_W,
    in_W, in_W, in_W, in_W, in_W, in_W, in_W, in_W,
    in_W, in_W, in_W, in_W, in_W, in_W, in_W, in_W,
    in_W, in_W, in_W, in_W, in_W⟩

/-- The buffers opsI writes, in order. -/
abbrev opsI_W : List (Ref sig .tc) :=
  [main_c_10, main_call6_v0, main_call6_v1, main_call6_v2, main_call6_v3, main_call6_v4, main_call6_v5, main_call6_v6,
   main_call6_v7, main_call6_v8, main_call6_c, main_call6_v9, main_call6_v10, main_call6_v11, main_call6_c_0, main_call6_v12,
   main_call6_v13, main_v63, main_c_11, main_call7_v0, main_call7_c, main_call7_v1, main_call7_c_0, main_call7_v2,
   main_call7_v3, main_call7_v4, main_call7_c_1, main_call7_v5, main_call7_v6, main_call7_c_2, main_call7_v7, main_call7_v8,
   main_call7_c_3, main_call7_v9, main_call7_v10, main_call7_v11, main_call7_v12, main_call7_v13, main_call7_v14, main_v64,
   main_c_12, main_call8_v0, main_call8_v1, main_call8_v2, main_call8_v3, main_call8_v4, main_call8_v5, main_call8_v6,
   main_call8_v7, main_call8_v8, main_call8_c, main_call8_v9, main_call8_v10, main_call8_v11, main_call8_c_0, main_call8_v12,
   main_call8_v13, main_v65, main_c_13, main_call9_v0, main_call9_c, main_call9_v1, main_call9_c_0, main_call9_v2,
   main_call9_v3, main_call9_v4, main_call9_c_1, main_call9_v5, main_call9_v6, main_call9_c_2, main_call9_v7, main_call9_v8,
   main_call9_c_3, main_call9_v9, main_call9_v10, main_call9_v11, main_call9_v12, main_call9_v13, main_call9_v14, main_v66]

set_option maxRecDepth 8192 in
theorem opsI_sub : (opsI : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub ..⟩

theorem opsI_fresh : (opsI : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
theorem opsI_writes : (opsI : List (HloOp τ sig (Elt F))).Forall fun op =>
    op.writes ⊆ (opsI_W.map (Proc.devRef (τ := τ) .tc)).toFinset :=
  ⟨in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W⟩

/-- The buffers opsO writes, in order. -/
abbrev opsO_W : List (Ref sig .tc) :=
  [main_c_14, main_v67, main_v68, main_c_15, main_v69, main_v70, main_v71, main_v72,
   main_v73, main_c_16, main_v74, main_v75, main_c_17, main_v76, main_v77, main_v78,
   main_v79, main_v80, main_v81, main_c_18, main_v82, main_v83, main_c_19, main_v84,
   main_v85, main_v86, main_v87, main_v88, main_v89, main_v90, main_v91, main_v92,
   main_v93, main_v94]

set_option maxRecDepth 8192 in
theorem opsO_sub : (opsO : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    binary_bufs_sub .., unary_bufs_sub .., unary_bufs_sub .., binary_bufs_sub ..⟩

theorem opsO_fresh : (opsO : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

set_option maxRecDepth 8192 in
theorem opsO_writes : (opsO : List (HloOp τ sig (Elt F))).Forall fun op =>
    op.writes ⊆ (opsO_W.map (Proc.devRef (τ := τ) .tc)).toFinset :=
  ⟨in_W, in_W, in_W, in_W, in_W, in_W, in_W, in_W,
    in_W, in_W, in_W, in_W, in_W, in_W, in_W, in_W,
    in_W, in_W, in_W, in_W, in_W, in_W, in_W, in_W,
    in_W, in_W, in_W, in_W, in_W, in_W, in_W, in_W,
    in_W, in_W⟩

end Cert.ReferenceIdeal.RRun

end
-- ==== Proof.Lits.lean ====
/-
  The float constants of `Spec.lean` as the extended reals their words denote: zero, one, the batch size 131072,
  its reciprocal 2⁻¹⁷ (an exact dyadic, so multiplying by it IS dividing by 131072), and the variance's guard, a
  positive real.
-/
import proofs.«431318_j31860067402336_2_alg».proof.Proof.Spec

noncomputable section

namespace Cert.Tri

open Idealize.ShloMosaic

theorem lit0_eq : lit0 = 0 := by
  unfold lit0; simp [Ideal.ofBits, Ideal.ieee]

theorem lit1_eq : lit1 = 1 := by
  unfold lit1; simp [Ideal.ofBits, Ideal.ieee, -EReal.coe_mul]; norm_num

theorem litN_eq : litN = ((131072 : ℝ) : EReal) := by
  unfold litN; simp [Ideal.ofBits, Ideal.ieee, -EReal.coe_mul]; norm_num

theorem litInvN_eq : litInvN = ((1 / 131072 : ℝ) : EReal) := by
  unfold litInvN; simp [Ideal.ofBits, Ideal.ieee, -EReal.coe_mul]; norm_num

end Cert.Tri

end
-- ==== Proof.RBranch.lean ====
/-
  One branch of the reference as a pure term, and that term read at an index.

  A branch multiplies the batch by a square weight, takes each column's mean and variance over the batch,
  normalises, scales, shifts, and applies ELU. Read at row r and column j it is the value the specification
  names branchR.
-/
import proofs.«431318_j31860067402336_2_alg».proof.ReferenceIdeal
import proofs.«431318_j31860067402336_2_alg».proof.Proof.Gen.ReferenceIdeal
import proofs.«431318_j31860067402336_2_alg».proof.Proof.Lits
import Idealize.ShloMosaic.PureOps.Ideal.Laws
import Idealize.ShloMosaic.Lib.ValueIdx
import Idealize.ShloMosaic.Lib.IdealHost
import Idealize.ShloMosaic.Lib.KernelVsHost
import Idealize.ShloMosaic.Lib.StackMember
import Idealize.ShloMosaic.Lib.Pipeline.Value

noncomputable section

namespace Cert.ReferenceIdeal.RBranch

open Idealize.ShloMosaic Cert.ReferenceIdeal Cert.Tri Idealize.ShloMosaic.ValueIdx
open Cert.ReferenceIdeal.Facts₀ Cert.ReferenceIdeal.Facts
open scoped BigOperators

section Defs
variable {F : FTy → Type} [FloatOps F] [hF : Cert.ReferenceIdeal.Facts]

/-- The first branch (width 6): product with the weight, batch mean, batch variance (the mean again, the squared
    deviations summed and divided), normalisation with scale and shift, ELU. One line per operation, in the program's order. -/
noncomputable def brTool (x : FVec F S131072x6 .f32) (w : FVec F S6x6 .f32) (g b : FVec F S6 .f32) : FVec F S131072x6 .f32 :=
  have v0 : FVec F S131072x6 .f32 := Host.dotGeneral dot_S131072x6_S6x6_S131072x6_1_0_0_1_n_n none x w
  have cst : FVec F S_ .f32 := constant S_ .f32 0x00000000#32
  have v1 : FVec F S6 .f32 := Host.reduceAdd v0 cst reducesTo_S131072x6_S6_d0 h_S_
  have cst_0 : FVec F S_ .f32 := constant S_ .f32 0x48000000#32
  have v2 : FVec F S6 .f32 := broadcastInDim S6 ![] bcast_S_S6 cst_0
  have v3 : FVec F S6 .f32 := Host.divf v1 v2
  have c : IVec S_ 32 := constantI S_ 32 0#32
  -- the variance of v0 with correction c
  have a_cst : FVec F S_ .f32 := constant S_ .f32 0x00000000#32
  have a_v0 : FVec F S6 .f32 := Host.reduceAdd v0 a_cst reducesTo_S131072x6_S6_d0 h_S_
  have a_v1 : FVec F S1x6 .f32 := broadcastInDim S1x6 ![1] bcast_S6_S1x6_1 a_v0
  have a_cst_0 : FVec F S_ .f32 := constant S_ .f32 0x48000000#32
  have a_v2 : FVec F S1x6 .f32 := broadcastInDim S1x6 ![] bcast_S_S1x6 a_cst_0
  have a_v3 : FVec F S1x6 .f32 := Host.divf a_v1 a_v2
  have a_v4 : FVec F S131072x6 .f32 := broadcastInDim S131072x6 ![0, 1] bcast_S1x6_S131072x6_0_1 a_v3
  have a_v5 : FVec F S131072x6 .f32 := subf v0 a_v4
  have a_v6 : FVec F S131072x6 .f32 := mulf a_v5 a_v5
  have a_v7 : FVec F S_ .f32 := sitofp .f32 c
  have a_cst_1 : FVec F S_ .f32 := constant S_ .f32 0x48000000#32
  have a_v8 : FVec F S_ .f32 := subf a_cst_1 a_v7
  have a_cst_2 : FVec F S_ .f32 := constant S_ .f32 0x00000000#32
  have a_v9 : FVec F S6 .f32 := Host.reduceAdd a_v6 a_cst_2 reducesTo_S131072x6_S6_d0 h_S_
  have a_v10 : FVec F S6 .f32 := broadcastInDim S6 ![] bcast_S_S6 a_v8
  have a_v11 : FVec F S6 .f32 := Host.divf a_v9 a_v10
  have a_cst_3 : FVec F S_ .f32 := constant S_ .f32 0x00000000#32
  have a_v12 : IVec S_ 1 := cmpf .ogt a_v8 a_cst_3
  have a_cst_4 : FVec F S_ .f32 := constant S_ .f32 0x7FC00000#32
  have aw_v0 : FVec F S_ .f32 := id a_cst_4
  have aw_v1 : FVec F S6 .f32 := broadcastInDim S6 ![] bcast_S_S6 aw_v0
  have v4 : FVec F S6 .f32 := select (broadcastInDim S6 ![] bcast_S_S6 a_v12) a_v11 aw_v1
  -- normalise, scale, shift
  have v5 : FVec F S1x6 .f32 := broadcastInDim S1x6 ![1] bcast_S6_S1x6_1 v3
  have v6 : FVec F S131072x6 .f32 := broadcastInDim S131072x6 ![0, 1] bcast_S1x6_S131072x6_0_1 v5
  have v7 : FVec F S131072x6 .f32 := subf v0 v6
  have cst_1 : FVec F S_ .f32 := constant S_ .f32 0x3727C5AC#32
  have v8 : FVec F S6 .f32 := broadcastInDim S6 ![] bcast_S_S6 cst_1
  have v9 : FVec F S6 .f32 := addf v4 v8
  have v10 : FVec F S6 .f32 := Host.rsqrt v9
  have v11 : FVec F S1x6 .f32 := broadcastInDim S1x6 ![1] bcast_S6_S1x6_1 v10
  have v12 : FVec F S131072x6 .f32 := broadcastInDim S131072x6 ![0, 1] bcast_S1x6_S131072x6_0_1 v11
  have v13 : FVec F S131072x6 .f32 := mulf v7 v12
  have v14 : FVec F S1x6 .f32 := broadcastInDim S1x6 ![1] bcast_S6_S1x6_1 g
  have v15 : FVec F S131072x6 .f32 := broadcastInDim S131072x6 ![0, 1] bcast_S1x6_S131072x6_0_1 v14
  have v16 : FVec F S131072x6 .f32 := mulf v13 v15
  have v17 : FVec F S1x6 .f32 := broadcastInDim S1x6 ![1] bcast_S6_S1x6_1 b
  have v18 : FVec F S131072x6 .f32 := broadcastInDim S131072x6 ![0, 1] bcast_S1x6_S131072x6_0_1 v17
  have v19 : FVec F S131072x6 .f32 := addf v16 v18
  -- ELU of v19
  have e_cst : FVec F S_ .f32 := constant S_ .f32 0x00000000#32
  have e_v0 : FVec F S131072x6 .f32 := broadcastInDim S131072x6 ![] bcast_S_S131072x6 e_cst
  have e_v1 : IVec S131072x6 1 := cmpf .ogt v19 e_v0
  have e_cst_0 : FVec F S_ .f32 := constant S_ .f32 0x00000000#32
  have e_v2 : FVec F S131072x6 .f32 := broadcastInDim S131072x6 ![] bcast_S_S131072x6 e_cst_0
  have e_v3 : IVec S131072x6 1 := cmpf .ogt v19 e_v2
  have e_cst_1 : FVec F S_ .f32 := constant S_ .f32 0x00000000#32
  have ew_v0 : FVec F S_ .f32 := id e_cst_1
  have ew_v1 : FVec F S131072x6 .f32 := broadcastInDim S131072x6 ![] bcast_S_S131072x6 ew_v0
  have e_v4 : FVec F S131072x6 .f32 := select e_v3 ew_v1 v19
  have e_v5 : FVec F S131072x6 .f32 := Host.expm1 e_v4
  have e_cst_2 : FVec F S_ .f32 := constant S_ .f32 0x3F800000#32
  have e_v6 : FVec F S131072x6 .f32 := broadcastInDim S131072x6 ![] bcast_S_S131072x6 e_cst_2
  have e_v7 : FVec F S131072x6 .f32 := mulf e_v6 e_v5
  select e_v1 v19 e_v7

/-- The second branch (width 10): product with the weight, batch mean, batch variance (the mean again, the squared
    deviations summed and divided), normalisation with scale and shift, ELU. One line per operation, in the program's order. -/
noncomputable def brVerb (x : FVec F S131072x10 .f32) (w : FVec F S10x10 .f32) (g b : FVec F S10 .f32) : FVec F S131072x10 .f32 :=
  have v0 : FVec F S131072x10 .f32 := Host.dotGeneral dot_S131072x10_S10x10_S131072x10_1_0_0_1_n_n none x w
  have cst : FVec F S_ .f32 := constant S_ .f32 0x00000000#32
  have v1 : FVec F S10 .f32 := Host.reduceAdd v0 cst reducesTo_S131072x10_S10_d0 h_S_
  have cst_0 : FVec F S_ .f32 := constant S_ .f32 0x48000000#32
  have v2 : FVec F S10 .f32 := broadcastInDim S10 ![] bcast_S_S10 cst_0
  have v3 : FVec F S10 .f32 := Host.divf v1 v2
  have c : IVec S_ 32 := constantI S_ 32 0#32
  -- the variance of v0 with correction c
  have a_cst : FVec F S_ .f32 := constant S_ .f32 0x00000000#32
  have a_v0 : FVec F S10 .f32 := Host.reduceAdd v0 a_cst reducesTo_S131072x10_S10_d0 h_S_
  have a_v1 : FVec F S1x10 .f32 := broadcastInDim S1x10 ![1] bcast_S10_S1x10_1 a_v0
  have a_cst_0 : FVec F S_ .f32 := constant S_ .f32 0x48000000#32
  have a_v2 : FVec F S1x10 .f32 := broadcastInDim S1x10 ![] bcast_S_S1x10 a_cst_0
  have a_v3 : FVec F S1x10 .f32 := Host.divf a_v1 a_v2
  have a_v4 : FVec F S131072x10 .f32 := broadcastInDim S131072x10 ![0, 1] bcast_S1x10_S131072x10_0_1 a_v3
  have a_v5 : FVec F S131072x10 .f32 := subf v0 a_v4
  have a_v6 : FVec F S131072x10 .f32 := mulf a_v5 a_v5
  have a_v7 : FVec F S_ .f32 := sitofp .f32 c
  have a_cst_1 : FVec F S_ .f32 := constant S_ .f32 0x48000000#32
  have a_v8 : FVec F S_ .f32 := subf a_cst_1 a_v7
  have a_cst_2 : FVec F S_ .f32 := constant S_ .f32 0x00000000#32
  have a_v9 : FVec F S10 .f32 := Host.reduceAdd a_v6 a_cst_2 reducesTo_S131072x10_S10_d0 h_S_
  have a_v10 : FVec F S10 .f32 := broadcastInDim S10 ![] bcast_S_S10 a_v8
  have a_v11 : FVec F S10 .f32 := Host.divf a_v9 a_v10
  have a_cst_3 : FVec F S_ .f32 := constant S_ .f32 0x00000000#32
  have a_v12 : IVec S_ 1 := cmpf .ogt a_v8 a_cst_3
  have a_cst_4 : FVec F S_ .f32 := constant S_ .f32 0x7FC00000#32
  have aw_v0 : FVec F S_ .f32 := id a_cst_4
  have aw_v1 : FVec F S10 .f32 := broadcastInDim S10 ![] bcast_S_S10 aw_v0
  have v4 : FVec F S10 .f32 := select (broadcastInDim S10 ![] bcast_S_S10 a_v12) a_v11 aw_v1
  -- normalise, scale, shift
  have v5 : FVec F S1x10 .f32 := broadcastInDim S1x10 ![1] bcast_S10_S1x10_1 v3
  have v6 : FVec F S131072x10 .f32 := broadcastInDim S131072x10 ![0, 1] bcast_S1x10_S131072x10_0_1 v5
  have v7 : FVec F S131072x10 .f32 := subf v0 v6
  have cst_1 : FVec F S_ .f32 := constant S_ .f32 0x3727C5AC#32
  have v8 : FVec F S10 .f32 := broadcastInDim S10 ![] bcast_S_S10 cst_1
  have v9 : FVec F S10 .f32 := addf v4 v8
  have v10 : FVec F S10 .f32 := Host.rsqrt v9
  have v11 : FVec F S1x10 .f32 := broadcastInDim S1x10 ![1] bcast_S10_S1x10_1 v10
  have v12 : FVec F S131072x10 .f32 := broadcastInDim S131072x10 ![0, 1] bcast_S1x10_S131072x10_0_1 v11
  have v13 : FVec F S131072x10 .f32 := mulf v7 v12
  have v14 : FVec F S1x10 .f32 := broadcastInDim S1x10 ![1] bcast_S10_S1x10_1 g
  have v15 : FVec F S131072x10 .f32 := broadcastInDim S131072x10 ![0, 1] bcast_S1x10_S131072x10_0_1 v14
  have v16 : FVec F S131072x10 .f32 := mulf v13 v15
  have v17 : FVec F S1x10 .f32 := broadcastInDim S1x10 ![1] bcast_S10_S1x10_1 b
  have v18 : FVec F S131072x10 .f32 := broadcastInDim S131072x10 ![0, 1] bcast_S1x10_S131072x10_0_1 v17
  have v19 : FVec F S131072x10 .f32 := addf v16 v18
  -- ELU of v19
  have e_cst : FVec F S_ .f32 := constant S_ .f32 0x00000000#32
  have e_v0 : FVec F S131072x10 .f32 := broadcastInDim S131072x10 ![] bcast_S_S131072x10 e_cst
  have e_v1 : IVec S131072x10 1 := cmpf .ogt v19 e_v0
  have e_cst_0 : FVec F S_ .f32 := constant S_ .f32 0x00000000#32
  have e_v2 : FVec F S131072x10 .f32 := broadcastInDim S131072x10 ![] bcast_S_S131072x10 e_cst_0
  have e_v3 : IVec S131072x10 1 := cmpf .ogt v19 e_v2
  have e_cst_1 : FVec F S_ .f32 := constant S_ .f32 0x00000000#32
  have ew_v0 : FVec F S_ .f32 := id e_cst_1
  have ew_v1 : FVec F S131072x10 .f32 := broadcastInDim S131072x10 ![] bcast_S_S131072x10 ew_v0
  have e_v4 : FVec F S131072x10 .f32 := select e_v3 ew_v1 v19
  have e_v5 : FVec F S131072x10 .f32 := Host.expm1 e_v4
  have e_cst_2 : FVec F S_ .f32 := constant S_ .f32 0x3F800000#32
  have e_v6 : FVec F S131072x10 .f32 := broadcastInDim S131072x10 ![] bcast_S_S131072x10 e_cst_2
  have e_v7 : FVec F S131072x10 .f32 := mulf e_v6 e_v5
  select e_v1 v19 e_v7

/-- The third branch (width 15): product with the weight, batch mean, batch variance (the mean again, the squared
    deviations summed and divided), normalisation with scale and shift, ELU. One line per operation, in the program's order. -/
noncomputable def brTarget (x : FVec F S131072x15 .f32) (w : FVec F S15x15 .f32) (g b : FVec F S15 .f32) : FVec F S131072x15 .f32 :=
  have v0 : FVec F S131072x15 .f32 := Host.dotGeneral dot_S131072x15_S15x15_S131072x15_1_0_0_1_n_n none x w
  have cst : FVec F S_ .f32 := constant S_ .f32 0x00000000#32
  have v1 : FVec F S15 .f32 := Host.reduceAdd v0 cst reducesTo_S131072x15_S15_d0 h_S_
  have cst_0 : FVec F S_ .f32 := constant S_ .f32 0x48000000#32
  have v2 : FVec F S15 .f32 := broadcastInDim S15 ![] bcast_S_S15 cst_0
  have v3 : FVec F S15 .f32 := Host.divf v1 v2
  have c : IVec S_ 32 := constantI S_ 32 0#32
  -- the variance of v0 with correction c
  have a_cst : FVec F S_ .f32 := constant S_ .f32 0x00000000#32
  have a_v0 : FVec F S15 .f32 := Host.reduceAdd v0 a_cst reducesTo_S131072x15_S15_d0 h_S_
  have a_v1 : FVec F S1x15 .f32 := broadcastInDim S1x15 ![1] bcast_S15_S1x15_1 a_v0
  have a_cst_0 : FVec F S_ .f32 := constant S_ .f32 0x48000000#32
  have a_v2 : FVec F S1x15 .f32 := broadcastInDim S1x15 ![] bcast_S_S1x15 a_cst_0
  have a_v3 : FVec F S1x15 .f32 := Host.divf a_v1 a_v2
  have a_v4 : FVec F S131072x15 .f32 := broadcastInDim S131072x15 ![0, 1] bcast_S1x15_S131072x15_0_1 a_v3
  have a_v5 : FVec F S131072x15 .f32 := subf v0 a_v4
  have a_v6 : FVec F S131072x15 .f32 := mulf a_v5 a_v5
  have a_v7 : FVec F S_ .f32 := sitofp .f32 c
  have a_cst_1 : FVec F S_ .f32 := constant S_ .f32 0x48000000#32
  have a_v8 : FVec F S_ .f32 := subf a_cst_1 a_v7
  have a_cst_2 : FVec F S_ .f32 := constant S_ .f32 0x00000000#32
  have a_v9 : FVec F S15 .f32 := Host.reduceAdd a_v6 a_cst_2 reducesTo_S131072x15_S15_d0 h_S_
  have a_v10 : FVec F S15 .f32 := broadcastInDim S15 ![] bcast_S_S15 a_v8
  have a_v11 : FVec F S15 .f32 := Host.divf a_v9 a_v10
  have a_cst_3 : FVec F S_ .f32 := constant S_ .f32 0x00000000#32
  have a_v12 : IVec S_ 1 := cmpf .ogt a_v8 a_cst_3
  have a_cst_4 : FVec F S_ .f32 := constant S_ .f32 0x7FC00000#32
  have aw_v0 : FVec F S_ .f32 := id a_cst_4
  have aw_v1 : FVec F S15 .f32 := broadcastInDim S15 ![] bcast_S_S15 aw_v0
  have v4 : FVec F S15 .f32 := select (broadcastInDim S15 ![] bcast_S_S15 a_v12) a_v11 aw_v1
  -- normalise, scale, shift
  have v5 : FVec F S1x15 .f32 := broadcastInDim S1x15 ![1] bcast_S15_S1x15_1 v3
  have v6 : FVec F S131072x15 .f32 := broadcastInDim S131072x15 ![0, 1] bcast_S1x15_S131072x15_0_1 v5
  have v7 : FVec F S131072x15 .f32 := subf v0 v6
  have cst_1 : FVec F S_ .f32 := constant S_ .f32 0x3727C5AC#32
  have v8 : FVec F S15 .f32 := broadcastInDim S15 ![] bcast_S_S15 cst_1
  have v9 : FVec F S15 .f32 := addf v4 v8
  have v10 : FVec F S15 .f32 := Host.rsqrt v9
  have v11 : FVec F S1x15 .f32 := broadcastInDim S1x15 ![1] bcast_S15_S1x15_1 v10
  have v12 : FVec F S131072x15 .f32 := broadcastInDim S131072x15 ![0, 1] bcast_S1x15_S131072x15_0_1 v11
  have v13 : FVec F S131072x15 .f32 := mulf v7 v12
  have v14 : FVec F S1x15 .f32 := broadcastInDim S1x15 ![1] bcast_S15_S1x15_1 g
  have v15 : FVec F S131072x15 .f32 := broadcastInDim S131072x15 ![0, 1] bcast_S1x15_S131072x15_0_1 v14
  have v16 : FVec F S131072x15 .f32 := mulf v13 v15
  have v17 : FVec F S1x15 .f32 := broadcastInDim S1x15 ![1] bcast_S15_S1x15_1 b
  have v18 : FVec F S131072x15 .f32 := broadcastInDim S131072x15 ![0, 1] bcast_S1x15_S131072x15_0_1 v17
  have v19 : FVec F S131072x15 .f32 := addf v16 v18
  -- ELU of v19
  have e_cst : FVec F S_ .f32 := constant S_ .f32 0x00000000#32
  have e_v0 : FVec F S131072x15 .f32 := broadcastInDim S131072x15 ![] bcast_S_S131072x15 e_cst
  have e_v1 : IVec S131072x15 1 := cmpf .ogt v19 e_v0
  have e_cst_0 : FVec F S_ .f32 := constant S_ .f32 0x00000000#32
  have e_v2 : FVec F S131072x15 .f32 := broadcastInDim S131072x15 ![] bcast_S_S131072x15 e_cst_0
  have e_v3 : IVec S131072x15 1 := cmpf .ogt v19 e_v2
  have e_cst_1 : FVec F S_ .f32 := constant S_ .f32 0x00000000#32
  have ew_v0 : FVec F S_ .f32 := id e_cst_1
  have ew_v1 : FVec F S131072x15 .f32 := broadcastInDim S131072x15 ![] bcast_S_S131072x15 ew_v0
  have e_v4 : FVec F S131072x15 .f32 := select e_v3 ew_v1 v19
  have e_v5 : FVec F S131072x15 .f32 := Host.expm1 e_v4
  have e_cst_2 : FVec F S_ .f32 := constant S_ .f32 0x3F800000#32
  have e_v6 : FVec F S131072x15 .f32 := broadcastInDim S131072x15 ![] bcast_S_S131072x15 e_cst_2
  have e_v7 : FVec F S131072x15 .f32 := mulf e_v6 e_v5
  select e_v1 v19 e_v7

end Defs

/-! ## Each kind of operation read at an index, at any width -/

section Laws
variable {α : Type} {m d : ℕ}

/-- A vector laid as the one row of a one-row matrix reads, at column j, the vector's entry j. -/
theorem bcast_vec_row_apply (h : (⟨1, ![d]⟩ : Shape).BroadcastsInDim ⟨2, ![1, d]⟩ ![1])
    (v : (⟨1, ![d]⟩ : Shape).Idx → α) (z : Fin 1) (j : Fin d) :
    broadcastInDim ⟨2, ![1, d]⟩ ![1] h v (ix2 z j) = v (ix1 j) := by
  refine broadcastInDim_apply ![1] h v (ix2 z j) (ix1 j) ?_
  intro a
  match a with
  | ⟨0, _⟩ =>
    show j.val = if d = 1 then 0 else j.val
    split_ifs with hn
    · have := j.isLt; omega
    · rfl

/-- The sum over the batch axis of a matrix, from an initial value, reads at column j as the initial value plus
    the sum of column j. -/
theorem reduce_rows_apply {u : Shape} (hred : (⟨2, ![m, d]⟩ : Shape).ReducesTo [0] ⟨1, ![d]⟩) (hu : 0 < u.numel)
    (y : FVec Ideal ⟨2, ![m, d]⟩ .f32) (init : u.Idx → Ideal .f32) (j : Fin d) :
    Host.reduceAdd (F := Ideal) y init hred hu (ix1 j) = init (Shape.Idx.first hu) + ∑ r : Fin m, y (ix2 r j) := by
  have h2 : (⟨2, ![m, d]⟩ : Shape).Reduces [0] ⟨1, ![d]⟩ := ⟨hred.1, Nat.one_pos, hred.2⟩
  rw [hostReduceAdd_apply, Ideal.hostReduceAdd_single hred h2]
  refine congrArg (_ + ·) (Finset.sum_congr rfl fun k _ => ?_)
  refine congrArg y (funext fun a => Fin.ext ?_)
  match a with
  | ⟨0, _⟩ => rfl
  | ⟨1, _⟩ => rfl

/-- The product of the batch with a square weight reads at (r, j) as the row of the batch against the column of the
    weight. -/
theorem dot_rows_apply (wf : DotDims.WF ⟨2, ![m, d]⟩ ⟨2, ![d, d]⟩ ⟨2, ![m, d]⟩ [1] [0] [0] [1] [] [])
    (x : FVec Ideal ⟨2, ![m, d]⟩ .f32) (w : FVec Ideal ⟨2, ![d, d]⟩ .f32) (r : Fin m) (j : Fin d) :
    Host.dotGeneral (F := Ideal) (⟨[1], [0], [0], [1], [], [], wf⟩ : DotDims _ _ _) none x w (ix2 r j)
      = ∑ i : Fin d, x (ix2 r i) * w (ix2 i j) :=
  StackMember.dotGeneral_plain_apply none x w r j

/-- A select on a decided comparison is the conditional. -/
theorem select_ogt (a c p q : EReal) :
    Scalar.select (FloatOps.cmpf (F := Ideal) (φ := .f32) .ogt a c) p q = if a > c then p else q := by
  show Scalar.select (BitVec.ofBool (decide (c < a))) p q = if c < a then p else q
  by_cases h : c < a
  · simp [h, Scalar.select]
  · simp [h, Scalar.select]

/-- The reciprocal square root and the exponential less one act entry by entry. -/
theorem hostRsqrt_apply {s : Shape} (v : FVec Ideal s .f32) (i : s.Idx) : Host.rsqrt v i = Ideal.rsqrt (v i) := rfl
theorem hostExpm1_apply {s : Shape} (v : FVec Ideal s .f32) (i : s.Idx) : Host.expm1 v i = Ideal.exp (v i) - 1 := rfl

/-- The batch size is positive, so the variance's guard holds. -/
theorem guard_one : FloatOps.cmpf (F := Ideal) (φ := .f32) .ogt litN (Ideal.ofBits .f32 0x00000000#32) = 1#1 := by
  show BitVec.ofBool (decide (Ideal.ofBits .f32 0x00000000#32 < litN)) = 1#1
  rw [Ideal.ofBits_zero_f32, litN_eq]
  have h : (0 : EReal) < ((131072 : ℝ) : EReal) := by exact_mod_cast (by norm_num : (0 : ℝ) < 131072)
  simp [h]

end Laws

/-! ## A branch over any batch size and width, in pieces -/

/-- The shape facts a branch of batch size m and width d uses. -/
structure BF (m d : ℕ) : Prop where
  red : (⟨2, ![m, d]⟩ : Shape).ReducesTo [0] ⟨1, ![d]⟩
  hS : 0 < S_.numel
  b0v : S_.BroadcastsInDim ⟨1, ![d]⟩ (![] : Fin 0 → Fin (⟨1, ![d]⟩ : Shape).rank)
  bv1 : (⟨1, ![d]⟩ : Shape).BroadcastsInDim ⟨2, ![1, d]⟩ (![1] : Fin 1 → Fin (⟨2, ![1, d]⟩ : Shape).rank)
  b01 : S_.BroadcastsInDim ⟨2, ![1, d]⟩ (![] : Fin 0 → Fin (⟨2, ![1, d]⟩ : Shape).rank)
  b1x : (⟨2, ![1, d]⟩ : Shape).BroadcastsInDim ⟨2, ![m, d]⟩ (![0, 1] : Fin 2 → Fin (⟨2, ![m, d]⟩ : Shape).rank)
  b0x : S_.BroadcastsInDim ⟨2, ![m, d]⟩ (![] : Fin 0 → Fin (⟨2, ![m, d]⟩ : Shape).rank)
  wf : DotDims.WF ⟨2, ![m, d]⟩ ⟨2, ![d, d]⟩ ⟨2, ![m, d]⟩ [1] [0] [0] [1] [] []

section Pieces
variable {m d : ℕ} (h : BF m d)

/-- A column's sum from zero. -/
def sumG (y : FVec Ideal ⟨2, ![m, d]⟩ .f32) : FVec Ideal ⟨1, ![d]⟩ .f32 :=
  Host.reduceAdd (F := Ideal) y (constant (F := Ideal) S_ .f32 0x00000000#32) h.red h.hS

/-- The mean as the normalisation takes it: the column sums over the batch size. -/
def meanG (y : FVec Ideal ⟨2, ![m, d]⟩ .f32) : FVec Ideal ⟨1, ![d]⟩ .f32 :=
  Host.divf (F := Ideal) (sumG h y) (broadcastInDim ⟨1, ![d]⟩ ![] h.b0v (constant (F := Ideal) S_ .f32 0x48000000#32))

/-- The mean as the variance takes it: the column sums as a one-row matrix over the batch size, down the rows. -/
def meanRowsG (y : FVec Ideal ⟨2, ![m, d]⟩ .f32) : FVec Ideal ⟨2, ![m, d]⟩ .f32 :=
  broadcastInDim ⟨2, ![m, d]⟩ ![0, 1] h.b1x
    (Host.divf (F := Ideal) (broadcastInDim ⟨2, ![1, d]⟩ ![1] h.bv1 (sumG h y))
      (broadcastInDim ⟨2, ![1, d]⟩ ![] h.b01 (constant (F := Ideal) S_ .f32 0x48000000#32)))

/-- The squared deviations. -/
def devSqG (y : FVec Ideal ⟨2, ![m, d]⟩ .f32) : FVec Ideal ⟨2, ![m, d]⟩ .f32 :=
  mulf (subf y (meanRowsG h y)) (subf y (meanRowsG h y))

/-- The variance's divisor: the batch size less the correction 0. -/
def cntG : FVec Ideal S_ .f32 :=
  subf (constant (F := Ideal) S_ .f32 0x48000000#32) (sitofp .f32 (constantI S_ 32 0#32))

/-- The variance: the summed squared deviations over the divisor where the divisor is positive. -/
def varG (y : FVec Ideal ⟨2, ![m, d]⟩ .f32) : FVec Ideal ⟨1, ![d]⟩ .f32 :=
  select (broadcastInDim ⟨1, ![d]⟩ ![] h.b0v (cmpf .ogt cntG (constant (F := Ideal) S_ .f32 0x00000000#32)))
    (Host.divf (F := Ideal) (sumG h (devSqG h y)) (broadcastInDim ⟨1, ![d]⟩ ![] h.b0v cntG))
    (broadcastInDim ⟨1, ![d]⟩ ![] h.b0v (id (constant (F := Ideal) S_ .f32 0x7FC00000#32)))

/-- A vector down the rows. -/
def rowsG (v : FVec Ideal ⟨1, ![d]⟩ .f32) : FVec Ideal ⟨2, ![m, d]⟩ .f32 :=
  broadcastInDim ⟨2, ![m, d]⟩ ![0, 1] h.b1x (broadcastInDim ⟨2, ![1, d]⟩ ![1] h.bv1 v)

/-- Normalise, scale, shift. -/
def normG (y : FVec Ideal ⟨2, ![m, d]⟩ .f32) (g b : FVec Ideal ⟨1, ![d]⟩ .f32) : FVec Ideal ⟨2, ![m, d]⟩ .f32 :=
  addf
    (mulf
      (mulf (subf y (rowsG h (meanG h y)))
        (rowsG h (Host.rsqrt (F := Ideal)
          (addf (varG h y) (broadcastInDim ⟨1, ![d]⟩ ![] h.b0v (constant (F := Ideal) S_ .f32 0x3727C5AC#32))))))
      (rowsG h g))
    (rowsG h b)

/-- ELU. -/
def eluG (z : FVec Ideal ⟨2, ![m, d]⟩ .f32) : FVec Ideal ⟨2, ![m, d]⟩ .f32 :=
  select (cmpf .ogt z (broadcastInDim ⟨2, ![m, d]⟩ ![] h.b0x (constant (F := Ideal) S_ .f32 0x00000000#32))) z
    (mulf (broadcastInDim ⟨2, ![m, d]⟩ ![] h.b0x (constant (F := Ideal) S_ .f32 0x3F800000#32))
      (Host.expm1 (F := Ideal)
        (select (cmpf .ogt z (broadcastInDim ⟨2, ![m, d]⟩ ![] h.b0x (constant (F := Ideal) S_ .f32 0x00000000#32)))
          (broadcastInDim ⟨2, ![m, d]⟩ ![] h.b0x (id (constant (F := Ideal) S_ .f32 0x00000000#32))) z)))

/-- The branch. -/
def brG (x : FVec Ideal ⟨2, ![m, d]⟩ .f32) (w : FVec Ideal ⟨2, ![d, d]⟩ .f32) (g b : FVec Ideal ⟨1, ![d]⟩ .f32) :
    FVec Ideal ⟨2, ![m, d]⟩ .f32 :=
  eluG h (normG h (Host.dotGeneral (F := Ideal) (⟨[1], [0], [0], [1], [], [], h.wf⟩ : DotDims _ _ _) none x w) g b)

theorem rowsG_apply (v : FVec Ideal ⟨1, ![d]⟩ .f32) (r : Fin m) (j : Fin d) : rowsG h v (ix2 r j) = v (ix1 j) := by
  unfold rowsG
  rw [broadcastInDim_oneRow_apply, bcast_vec_row_apply]

theorem sumG_apply (y : FVec Ideal ⟨2, ![m, d]⟩ .f32) (j : Fin d) : sumG h y (ix1 j) = ∑ r : Fin m, y (ix2 r j) := by
  unfold sumG
  rw [reduce_rows_apply, constant_apply, Ideal.ofBits_zero_f32, zero_add]

theorem meanG_apply (y : FVec Ideal ⟨2, ![m, d]⟩ .f32) (j : Fin d) :
    meanG h y (ix1 j) = Ideal.div (∑ r : Fin m, y (ix2 r j)) litN := by
  unfold meanG
  rw [hostDivf_apply, sumG_apply, broadcastInDim_scalar_apply, constant_apply]
  rfl

theorem meanRowsG_apply (y : FVec Ideal ⟨2, ![m, d]⟩ .f32) (r : Fin m) (j : Fin d) :
    meanRowsG h y (ix2 r j) = Ideal.div (∑ r : Fin m, y (ix2 r j)) litN := by
  unfold meanRowsG
  rw [broadcastInDim_oneRow_apply, hostDivf_apply, bcast_vec_row_apply, sumG_apply, broadcastInDim_scalar_apply,
    constant_apply]
  rfl

theorem devSqG_apply (y : FVec Ideal ⟨2, ![m, d]⟩ .f32) (r : Fin m) (j : Fin d) :
    devSqG h y (ix2 r j)
      = (y (ix2 r j) - Ideal.div (∑ r : Fin m, y (ix2 r j)) litN)
        * (y (ix2 r j) - Ideal.div (∑ r : Fin m, y (ix2 r j)) litN) := by
  unfold devSqG
  rw [mulf_apply, subf_apply, meanRowsG_apply]

theorem cntG_apply : cntG ix0 = litN := by
  unfold cntG
  rw [subf_apply, constant_apply, sitofp_apply]
  show litN - (((constantI S_ 32 0#32 ix0).toInt : ℝ) : EReal) = litN
  simp [constantI]

theorem varG_apply (y : FVec Ideal ⟨2, ![m, d]⟩ .f32) (j : Fin d) :
    varG h y (ix1 j)
      = Ideal.div (∑ r : Fin m, (y (ix2 r j) - Ideal.div (∑ r : Fin m, y (ix2 r j)) litN)
          * (y (ix2 r j) - Ideal.div (∑ r : Fin m, y (ix2 r j)) litN)) litN := by
  unfold varG
  rw [select_apply, broadcastInDim_scalar_apply, cmpf_apply, cntG_apply, constant_apply, guard_one, select_one,
    hostDivf_apply, sumG_apply, broadcastInDim_scalar_apply, cntG_apply]
  exact congrArg (Ideal.div · litN) (Finset.sum_congr rfl fun r _ => devSqG_apply h y r j)

end Pieces

section PiecesRead
variable {m d : ℕ} (h : BF m d)

theorem normG_apply (y : FVec Ideal ⟨2, ![NB, d]⟩ .f32) (g b : FVec Ideal ⟨1, ![d]⟩ .f32) (h : BF NB d)
    (r : Fin NB) (j : Fin d) :
    normG h y g b (ix2 r j) = normd (cur2 y) (meanR (cur2 y)) (varR (cur2 y)) (cur1 g) (cur1 b) r j := by
  unfold normG
  rw [addf_apply, mulf_apply, mulf_apply, subf_apply, rowsG_apply, rowsG_apply, rowsG_apply, rowsG_apply, meanG_apply,
    hostRsqrt_apply, addf_apply, varG_apply, broadcastInDim_scalar_apply, constant_apply]
  rfl

theorem eluG_apply (z : FVec Ideal ⟨2, ![m, d]⟩ .f32) (i : (⟨2, ![m, d]⟩ : Shape).Idx) :
    eluG h z i = eluR (z i) := by
  unfold eluG
  rw [select_apply, cmpf_apply, broadcastInDim_scalar_apply, constant_apply, select_ogt, mulf_apply,
    broadcastInDim_scalar_apply, constant_apply, hostExpm1_apply, select_apply, cmpf_apply, broadcastInDim_scalar_apply,
    constant_apply, select_ogt, broadcastInDim_scalar_apply]
  rfl

/-- A branch read at row r and column j is the specification's value there. -/
theorem brG_apply (h : BF NB d) (x : FVec Ideal ⟨2, ![NB, d]⟩ .f32) (w : FVec Ideal ⟨2, ![d, d]⟩ .f32)
    (g b : FVec Ideal ⟨1, ![d]⟩ .f32) (r : Fin NB) (j : Fin d) :
    brG h x w g b (ix2 r j) = branchR (cur2 x) (cur2 w) (cur1 g) (cur1 b) r j := by
  unfold brG
  rw [eluG_apply, normG_apply]
  have hy : cur2 (Host.dotGeneral (F := Ideal) (⟨[1], [0], [0], [1], [], [], h.wf⟩ : DotDims _ _ _) none x w)
      = ymat (cur2 x) (cur2 w) := by
    funext r j
    exact dot_rows_apply h.wf x w r j
  rw [hy]
  rfl

end PiecesRead

/-! ## The three branches are the generic branch at their widths -/

section Branches
variable [hF : Cert.ReferenceIdeal.Facts]

theorem bfTool : BF NB 6 :=
  ⟨reducesTo_S131072x6_S6_d0, h_S_, bcast_S_S6, bcast_S6_S1x6_1, bcast_S_S1x6, bcast_S1x6_S131072x6_0_1, bcast_S_S131072x6,
    dot_S131072x6_S6x6_S131072x6_1_0_0_1_n_n_wf⟩
theorem bfVerb : BF NB 10 :=
  ⟨reducesTo_S131072x10_S10_d0, h_S_, bcast_S_S10, bcast_S10_S1x10_1, bcast_S_S1x10, bcast_S1x10_S131072x10_0_1,
    bcast_S_S131072x10, dot_S131072x10_S10x10_S131072x10_1_0_0_1_n_n_wf⟩
theorem bfTarget : BF NB 15 :=
  ⟨reducesTo_S131072x15_S15_d0, h_S_, bcast_S_S15, bcast_S15_S1x15_1, bcast_S_S1x15, bcast_S1x15_S131072x15_0_1,
    bcast_S_S131072x15, dot_S131072x15_S15x15_S131072x15_1_0_0_1_n_n_wf⟩

theorem brTool_eq (x : FVec Ideal S131072x6 .f32) (w : FVec Ideal S6x6 .f32) (g b : FVec Ideal S6 .f32) :
    brTool (F := Ideal) x w g b = brG bfTool x w g b := rfl
theorem brVerb_eq (x : FVec Ideal S131072x10 .f32) (w : FVec Ideal S10x10 .f32) (g b : FVec Ideal S10 .f32) :
    brVerb (F := Ideal) x w g b = brG bfVerb x w g b := rfl
theorem brTarget_eq (x : FVec Ideal S131072x15 .f32) (w : FVec Ideal S15x15 .f32) (g b : FVec Ideal S15 .f32) :
    brTarget (F := Ideal) x w g b = brG bfTarget x w g b := rfl

theorem brTool_apply (x : FVec Ideal S131072x6 .f32) (w : FVec Ideal S6x6 .f32) (g b : FVec Ideal S6 .f32)
    (r : Fin NB) (j : Fin 6) :
    brTool (F := Ideal) x w g b (ix2 r j) = branchR (cur2 x) (cur2 w) (cur1 g) (cur1 b) r j := by
  rw [brTool_eq]; exact brG_apply bfTool x w g b r j

theorem brVerb_apply (x : FVec Ideal S131072x10 .f32) (w : FVec Ideal S10x10 .f32) (g b : FVec Ideal S10 .f32)
    (r : Fin NB) (j : Fin 10) :
    brVerb (F := Ideal) x w g b (ix2 r j) = branchR (cur2 x) (cur2 w) (cur1 g) (cur1 b) r j := by
  rw [brVerb_eq]; exact brG_apply bfVerb x w g b r j

theorem brTarget_apply (x : FVec Ideal S131072x15 .f32) (w : FVec Ideal S15x15 .f32) (g b : FVec Ideal S15 .f32)
    (r : Fin NB) (j : Fin 15) :
    brTarget (F := Ideal) x w g b (ix2 r j) = branchR (cur2 x) (cur2 w) (cur1 g) (cur1 b) r j := by
  rw [brTarget_eq]; exact brG_apply bfTarget x w g b r j

end Branches

end Cert.ReferenceIdeal.RBranch

end
-- ==== Proof.RTail.lean ====
/-
  The last stretch of the reference: the flat position split into its three coordinates by floor division and
  floor remainder on 32-bit words, each coordinate wrapped if negative, one column of each branch picked per
  position, the three picked values multiplied, and the linear layer applied. First as a term over any float
  instance, then read index by index over the extended reals.
-/
import proofs.«431318_j31860067402336_2_alg».proof.ReferenceIdeal
import proofs.«431318_j31860067402336_2_alg».proof.Proof.Gen.ReferenceIdeal
import proofs.«431318_j31860067402336_2_alg».proof.Proof.Spec
import Idealize.ShloMosaic.PureOps.Ideal.Laws
import Idealize.ShloMosaic.Lib.ValueIdx
import Idealize.ShloMosaic.Lib.ValueLayout

noncomputable section

namespace Cert.ReferenceIdeal.RTail

open Idealize.ShloMosaic Idealize.ShloMosaic.ValueIdx
open Cert.ReferenceIdeal Cert.Tri
open Cert.ReferenceIdeal.Facts₀ Cert.ReferenceIdeal.Facts
open scoped BigOperators

section Defs

variable [hF : Cert.ReferenceIdeal.Facts]

/-- Floor division of every position by a scalar divisor: the truncated quotient, less one where the signs differ
    and the truncated remainder is not zero. -/
def fdivR (a : IVec S100 32) (d : IVec S_ 32) : IVec S100 32 :=
  let v0 : IVec S_ 32 := id d
  let v1 : IVec S100 32 := broadcastInDim S100 ![] bcast_S_S100 v0
  let v2 : IVec S100 32 := Host.divsi a v1
  let v3 : IVec S100 32 := signi a
  let v4 : IVec S_ 32 := signi v0
  let v5 : IVec S100 32 := broadcastInDim S100 ![] bcast_S_S100 v4
  let v6 : IVec S100 1 := cmpi .ne v3 v5
  let v7 : IVec S100 32 := broadcastInDim S100 ![] bcast_S_S100 v0
  let v8 : IVec S100 32 := Host.remsi a v7
  let v9 : IVec S100 32 := broadcastInDim S100 ![] bcast_S_S100 (constantI S_ 32 0#32)
  let v10 : IVec S100 1 := cmpi .ne v8 v9
  let v11 : IVec S100 1 := andi v6 v10
  let v12 : IVec S100 32 := broadcastInDim S100 ![] bcast_S_S100 (constantI S_ 32 1#32)
  let v13 : IVec S100 32 := subi v2 v12
  select v11 v13 v2

/-- Floor remainder of every position by a scalar divisor (one in place of zero): the truncated remainder, plus
    the divisor where the remainder is not zero and its sign differs from the divisor's. -/
def fremR (a : IVec S100 32) (d : IVec S_ 32) : IVec S100 32 :=
  let v0 : IVec S_ 32 := id d
  let v1 : IVec S_ 1 := cmpi .eq v0 (constantI S_ 32 0#32)
  let v2 : IVec S_ 32 := select v1 (constantI S_ 32 1#32) v0
  let v3 : IVec S100 32 := broadcastInDim S100 ![] bcast_S_S100 v2
  let v4 : IVec S100 32 := Host.remsi a v3
  let v5 : IVec S100 32 := broadcastInDim S100 ![] bcast_S_S100 (constantI S_ 32 0#32)
  let v6 : IVec S100 1 := cmpi .ne v4 v5
  let v7 : IVec S100 32 := broadcastInDim S100 ![] bcast_S_S100 (constantI S_ 32 0#32)
  let v8 : IVec S100 1 := cmpi .slt v4 v7
  let v9 : IVec S_ 1 := cmpi .slt v2 (constantI S_ 32 0#32)
  let v10 : IVec S100 1 := broadcastInDim S100 ![] bcast_S_S100 v9
  let v11 : IVec S100 1 := cmpi .ne v8 v10
  let v12 : IVec S100 1 := andi v11 v6
  let v13 : IVec S100 32 := broadcastInDim S100 ![] bcast_S_S100 v2
  let v14 : IVec S100 32 := addi v4 v13
  select v12 v14 v4

/-- The first coordinate of every position: the flat position floor-divided by 150. -/
def idxI (vp : IVec S100 32) : IVec S100 32 := fdivR vp (constantI S_ 32 150#32)
/-- What is left after the first coordinate: the flat position modulo 150. -/
def idxRem (vp : IVec S100 32) : IVec S100 32 := fremR vp (constantI S_ 32 150#32)
/-- The second coordinate: the remainder floor-divided by 15. -/
def idxV (rem : IVec S100 32) : IVec S100 32 := fdivR rem (constantI S_ 32 15#32)
/-- The third coordinate: the remainder modulo 15. -/
def idxT (rem : IVec S100 32) : IVec S100 32 := fremR rem (constantI S_ 32 15#32)

/-- A coordinate wrapped by the width where it is negative, as a column of start indices. -/
def wrapR (d : BitVec 32) (idx : IVec S100 32) : IVec S100x1 32 :=
  let z : IVec S100 32 := broadcastInDim S100 ![] bcast_S_S100 (constantI S_ 32 0#32)
  let neg : IVec S100 1 := cmpi .slt idx z
  let w : IVec S100 32 := broadcastInDim S100 ![] bcast_S_S100 (constantI S_ 32 d)
  let sum : IVec S100 32 := addi idx w
  let sel : IVec S100 32 := select neg sum idx
  broadcastInDim S100x1 ![0] bcast_S100_S100x1_0 sel

variable {F : FTy → Type} [FloatOps F]

/-- The picked columns of the three branches multiplied, through the linear layer. -/
def tailR (e0 : FVec F S131072x6 .f32) (e1 : FVec F S131072x10 .f32) (e2 : FVec F S131072x15 .f32)
    (vp : IVec S100 32) (mw : FVec F S100x100 .f32) (mb : FVec F S100 .f32) : FVec F S131072x100 .f32 :=
  let v73 : FVec F S131072x100 .f32 :=
    Host.gather gather_S131072x6_S100x1_S131072x100_0_1_n_n_1_1_1310721 e0 (wrapR 6#32 (idxI vp))
  let v80 : FVec F S131072x100 .f32 :=
    Host.gather gather_S131072x10_S100x1_S131072x100_0_1_n_n_1_1_1310721 e1 (wrapR 10#32 (idxV (idxRem vp)))
  let v81 : FVec F S131072x100 .f32 := mulf v73 v80
  let v88 : FVec F S131072x100 .f32 :=
    Host.gather gather_S131072x15_S100x1_S131072x100_0_1_n_n_1_1_1310721 e2 (wrapR 15#32 (idxT (idxRem vp)))
  let v89 : FVec F S131072x100 .f32 := mulf v81 v88
  let v90 : FVec F S100x100 .f32 := transpose S100x100 [1, 0] mw transposes_S100x100_S100x100_1_0
  let v91 : FVec F S131072x100 .f32 := Host.dotGeneral dot_S131072x100_S100x100_S131072x100_1_0_0_1_n_n none v89 v90
  let v92 : FVec F S1x100 .f32 := broadcastInDim S1x100 ![1] bcast_S100_S1x100_1 mb
  let v93 : FVec F S131072x100 .f32 := broadcastInDim S131072x100 ![0, 1] bcast_S1x100_S131072x100_0_1 v92
  addf v91 v93

end Defs

/-! ## The coordinates read at a position -/

section Idx
variable [hF : Cert.ReferenceIdeal.Facts]

/-- Floor division read at a position is the word floor division of that position's word. -/
theorem fdivR_apply (a : IVec S100 32) (d : BitVec 32) (p : Fin 100) :
    fdivR a (constantI S_ 32 d) (ix1 p) = fdivW (a (ix1 p)) d := rfl
/-- Floor remainder read at a position is the word floor remainder of that position's word. -/
theorem fremR_apply (a : IVec S100 32) (d : BitVec 32) (p : Fin 100) :
    fremR a (constantI S_ 32 d) (ix1 p) = fremW (a (ix1 p)) d := rfl

theorem idxI_apply (vp : IVec S100 32) (p : Fin 100) : idxI vp (ix1 p) = iIdx (cur1 vp) p := rfl
theorem idxRem_apply (vp : IVec S100 32) (p : Fin 100) : idxRem vp (ix1 p) = remI (cur1 vp) p := rfl
theorem idxV_apply (vp : IVec S100 32) (p : Fin 100) : idxV (idxRem vp) (ix1 p) = vIdx (cur1 vp) p := rfl
theorem idxT_apply (vp : IVec S100 32) (p : Fin 100) : idxT (idxRem vp) (ix1 p) = tIdx (cur1 vp) p := rfl

end Idx

/-! ## A pick of one column per position, read at an index -/

section Gather
variable {α : Type}

/-- The dimension numbers of a pick along the column axis: operand `[B, D]`, start indices `[P, 1]`, result
    `[B, P]`; the row axis is carried whole, the column axis is collapsed and named by the start index. -/
abbrev colDims (B D P : Nat) (wf : GatherDims.WF ⟨2, ![B, D]⟩ ⟨2, ![P, 1]⟩ ⟨2, ![B, P]⟩ [0] [1] [] [1] [] 1 ![B, 1]) :
    GatherDims ⟨2, ![B, D]⟩ ⟨2, ![P, 1]⟩ ⟨2, ![B, P]⟩ where
  offsetDims := [0]
  collapsedSliceDims := [1]
  operandBatchingDims := []
  startIndicesBatchingDims := []
  startIndexMap := [1]
  indexVectorDim := 1
  sliceSizes := ![B, 1]
  wf := wf

/-- The pick read at `(r, p)`: the operand's row `r` at the column the start index `idx[p, 0]` names, read signed
    and clamped into `[0, D − 1]`. -/
theorem gather_col_apply {B D P w : Nat} (hD : 0 < D)
    (wf : GatherDims.WF ⟨2, ![B, D]⟩ ⟨2, ![P, 1]⟩ ⟨2, ![B, P]⟩ [0] [1] [] [1] [] 1 ![B, 1])
    (x : (⟨2, ![B, D]⟩ : Shape).Idx → α) (idx : IVec ⟨2, ![P, 1]⟩ w) (r : Fin B) (p : Fin P) :
    Host.gather (colDims B D P wf) x idx (ix2 r p)
      = x (ix2 r ⟨min (idx (ix2 p (0 : Fin 1))).toInt.toNat (D - 1), by omega⟩) := by
  unfold Host.gather
  congr 1
  funext a
  refine Fin.ext ?_
  show (colDims B D P wf).start (ix2 r p) idx a + (colDims B D P wf).batchCoord (ix2 r p) a
      + (colDims B D P wf).offCoord (ix2 r p) a = _
  rw [GatherDims.batchCoord_eq_zero _ _ _ List.not_mem_nil]
  match a with
  | ⟨0, h0⟩ =>
    have hs : (colDims B D P wf).start (ix2 r p) idx ⟨0, h0⟩ = 0 := by
      unfold GatherDims.start; rw [dif_neg (fun h => Nat.zero_ne_one (congrArg Fin.val (List.mem_singleton.mp h)))]
    have ho : (colDims B D P wf).offCoord (ix2 r p) ⟨0, h0⟩ = r.val := by
      unfold GatherDims.offCoord
      rw [dif_pos ((GatherDims.mem_sKept _ _).mpr
        ⟨fun h => Nat.zero_ne_one (congrArg Fin.val (List.mem_singleton.mp h)), List.not_mem_nil⟩)]
      rfl
    rw [hs, ho]; simp
  | ⟨1, h1⟩ =>
    rw [GatherDims.offCoord_eq_zero _ _ _ (fun h => ((GatherDims.mem_sKept _ _).mp h).1 (List.mem_singleton.mpr rfl))]
    simp only [Nat.add_zero]
    unfold GatherDims.start
    rw [dif_pos (show (⟨1, h1⟩ : Fin 2) ∈ (colDims B D P wf).startIndexMap from List.mem_singleton.mpr rfl)]
    have hsi : (colDims B D P wf).siIdx (ix2 r p) ⟨List.idxOf (⟨1, h1⟩ : Fin 2) (colDims B D P wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl

end Gather

/-! ## A small coordinate is not negative, so the wrap leaves it -/

section Wrap

/-- A word below `2³¹` read as a natural number is not negative as a signed word. -/
theorem slt_zero_of_lt (a : BitVec 32) (d : Nat) (hd : d ≤ 2147483648) (h : a.toNat < d) :
    IntOp.cmpi .slt a 0#32 = 0#1 := by
  have hs : a.slt 0#32 = false := by
    simp only [BitVec.slt, BitVec.toInt, BitVec.toNat_ofNat, decide_eq_false_iff_not]
    omega
  unfold IntOp.cmpi
  simp only [hs]
  rfl

/-- Such a word read signed is its natural number. -/
theorem toInt_toNat_of_lt (a : BitVec 32) (d : Nat) (hd : d ≤ 2147483648) (h : a.toNat < d) :
    a.toInt.toNat = a.toNat := by
  simp only [BitVec.toInt]
  split <;> omega

variable [hF : Cert.ReferenceIdeal.Facts]

/-- The wrapped column of start indices read at a position. -/
theorem wrapR_apply (d : BitVec 32) (idx : IVec S100 32) (p : Fin 100) :
    wrapR d idx (ix2 p (0 : Fin 1))
      = Scalar.select (IntOp.cmpi .slt (idx (ix1 p)) 0#32) (IntOp.addi (idx (ix1 p)) d) (idx (ix1 p)) := by
  unfold wrapR
  exact broadcastInDim_apply _ _ _ (ix2 p (0 : Fin 1)) (ix1 p) (by intro a; match a with | ⟨0, _⟩ => rfl)

/-- Where the coordinate is below a width of at most `2³¹`, the wrap leaves it. -/
theorem wrapR_of_lt (d : BitVec 32) (idx : IVec S100 32) (p : Fin 100) (n : Nat) (hn : n ≤ 2147483648)
    (h : (idx (ix1 p)).toNat < n) : wrapR d idx (ix2 p (0 : Fin 1)) = idx (ix1 p) := by
  rw [wrapR_apply, slt_zero_of_lt _ n hn h, select_zero]

end Wrap

/-! ## The linear layer read at an index -/

section Dot
variable [hF : Cert.ReferenceIdeal.Facts]

/-- The left operand's row axis reads the result's row. -/
theorem lhs_dot_S131072x100_S100x100_S131072x100_1_0_0_1_n_n_0 (j : S131072x100.Idx)
    (k : dot_S131072x100_S100x100_S131072x100_1_0_0_1_n_n.contr.Idx) :
    (dot_S131072x100_S100x100_S131072x100_1_0_0_1_n_n.lhsIdx j k 0).val = (j 0).val := by
  unfold DotDims.lhsIdx
  rw [dif_neg (show ¬(0 : Fin S131072x100.rank) ∈ dot_S131072x100_S100x100_S131072x100_1_0_0_1_n_n.lhsBatch from List.not_mem_nil),
    dif_pos (show (0 : Fin S131072x100.rank) ∈ dot_S131072x100_S100x100_S131072x100_1_0_0_1_n_n.lhsNonContracting from
      List.mem_singleton.mpr rfl)]
  rfl

/-- The left operand's column axis reads the contraction position. -/
theorem lhs_dot_S131072x100_S100x100_S131072x100_1_0_0_1_n_n_1 (j : S131072x100.Idx)
    (k : dot_S131072x100_S100x100_S131072x100_1_0_0_1_n_n.contr.Idx) :
    (dot_S131072x100_S100x100_S131072x100_1_0_0_1_n_n.lhsIdx j k 1).val = (k ⟨0, by decide⟩).val :=
  DotDims.lhsIdx_val_of_single _ rfl j k

/-- The right operand's row axis reads the contraction position. -/
theorem rhs_dot_S131072x100_S100x100_S131072x100_1_0_0_1_n_n_0 (j : S131072x100.Idx)
    (k : dot_S131072x100_S100x100_S131072x100_1_0_0_1_n_n.contr.Idx) :
    (dot_S131072x100_S100x100_S131072x100_1_0_0_1_n_n.rhsIdx j k 0).val = (k ⟨0, by decide⟩).val :=
  DotDims.rhsIdx_val_of_single _ rfl j k

/-- The right operand's column axis reads the result's column. -/
theorem rhs_dot_S131072x100_S100x100_S131072x100_1_0_0_1_n_n_1 (j : S131072x100.Idx)
    (k : dot_S131072x100_S100x100_S131072x100_1_0_0_1_n_n.contr.Idx) :
    (dot_S131072x100_S100x100_S131072x100_1_0_0_1_n_n.rhsIdx j k 1).val = (j 1).val := by
  unfold DotDims.rhsIdx
  rw [dif_neg (show ¬(1 : Fin S100x100.rank) ∈ dot_S131072x100_S100x100_S131072x100_1_0_0_1_n_n.rhsBatch from List.not_mem_nil),
    dif_pos (show (1 : Fin S100x100.rank) ∈ dot_S131072x100_S100x100_S131072x100_1_0_0_1_n_n.rhsNonContracting from
      List.mem_singleton.mpr rfl)]
  rfl

/-- The product of a `[131072, 100]` array with a `[100, 100]` matrix at `(r, q)`: the sum over the shared axis. -/
theorem dot_apply (l : FVec Ideal S131072x100 .f32) (m : FVec Ideal S100x100 .f32) (r : Fin NB) (q : Fin NP) :
    Host.dotGeneral (F := Ideal) dot_S131072x100_S100x100_S131072x100_1_0_0_1_n_n none l m (ix2 r q)
      = ∑ p : Fin NP, l (ix2 r p) * m (ix2 p q) := by
  simp only [Host.dotGeneral]
  rw [Ideal.dotGeneral_apply]
  refine (Equiv.sum_comp (contrEquiv1 dot_S131072x100_S100x100_S131072x100_1_0_0_1_n_n NP rfl rfl).symm _).symm.trans ?_
  refine Finset.sum_congr rfl fun p _ => ?_
  have hk := contrEquiv1_symm_val dot_S131072x100_S100x100_S131072x100_1_0_0_1_n_n NP rfl rfl p
  have hl : dot_S131072x100_S100x100_S131072x100_1_0_0_1_n_n.lhsIdx (ix2 r q)
      ((contrEquiv1 dot_S131072x100_S100x100_S131072x100_1_0_0_1_n_n NP rfl rfl).symm p) = ix2 r p := by
    funext a; refine Fin.ext ?_
    match a with
    | ⟨0, _⟩ => exact lhs_dot_S131072x100_S100x100_S131072x100_1_0_0_1_n_n_0 _ _
    | ⟨1, _⟩ => exact (lhs_dot_S131072x100_S100x100_S131072x100_1_0_0_1_n_n_1 _ _).trans hk
  have hr : dot_S131072x100_S100x100_S131072x100_1_0_0_1_n_n.rhsIdx (ix2 r q)
      ((contrEquiv1 dot_S131072x100_S100x100_S131072x100_1_0_0_1_n_n NP rfl rfl).symm p) = ix2 p q := by
    funext a; refine Fin.ext ?_
    match a with
    | ⟨0, _⟩ => exact (rhs_dot_S131072x100_S100x100_S131072x100_1_0_0_1_n_n_0 _ _).trans hk
    | ⟨1, _⟩ => exact rhs_dot_S131072x100_S100x100_S131072x100_1_0_0_1_n_n_1 _ _
  rw [hl, hr]

/-- The bias row spread over the batch reads, at `(r, q)`, its entry `q`. -/
theorem bias_apply {α : Type} (mb : S100.Idx → α) (r : Fin NB) (q : Fin NP) :
    broadcastInDim S131072x100 ![0, 1] bcast_S1x100_S131072x100_0_1
        (broadcastInDim S1x100 ![1] bcast_S100_S1x100_1 mb) (ix2 r q) = mb (ix1 q) :=
  (broadcastInDim_apply _ _ _ (ix2 r q) (ix2 (0 : Fin 1) q)
      (by intro a; match a with | ⟨0, _⟩ => rfl | ⟨1, _⟩ => rfl)).trans
    (broadcastInDim_apply _ _ mb (ix2 (0 : Fin 1) q) (ix1 q) (by intro a; match a with | ⟨0, _⟩ => rfl))

end Dot

/-! ## The tail read at an index -/

section Tail
variable [hF : Cert.ReferenceIdeal.Facts]

/-- A pick through the wrapped coordinates, where the coordinate at a position is below the width: the branch's
    row at the column the coordinate names. -/
theorem pick_apply {α : Type} {D : Nat} [NeZero D] (hD : D ≤ 2147483648)
    (wf : GatherDims.WF ⟨2, ![NB, D]⟩ ⟨2, ![NP, 1]⟩ ⟨2, ![NB, NP]⟩ [0] [1] [] [1] [] 1 ![NB, 1])
    (e : (⟨2, ![NB, D]⟩ : Shape).Idx → α) (d : BitVec 32) (idx : IVec S100 32) (p : Fin NP)
    (h : (idx (ix1 p)).toNat < D) (r : Fin NB) :
    Host.gather (colDims NB D NP wf) e (wrapR d idx) (ix2 r p) = e (ix2 r (colOf D (idx (ix1 p)))) := by
  rw [gather_col_apply (Nat.pos_of_neZero D) wf e (wrapR d idx) r p]
  have hw : (wrapR d idx (ix2 p (0 : Fin 1))).toInt.toNat = (idx (ix1 p)).toNat := by
    rw [wrapR_of_lt d idx p D hD h, toInt_toNat_of_lt _ D hD h]
  refine congrArg e (congrArg (ix2 r) (Fin.ext ?_))
  show min (wrapR d idx (ix2 p (0 : Fin 1))).toInt.toNat (D - 1) = (idx (ix1 p)).toNat % D
  rw [hw, Nat.mod_eq_of_lt h]
  omega

/-- The reference's tail at `(r, q)`: the three picked values multiplied, summed against row `q` of the weight,
    plus the bias, where every coordinate is below its branch's width. -/
theorem tailR_apply (e0 : FVec Ideal S131072x6 .f32) (e1 : FVec Ideal S131072x10 .f32) (e2 : FVec Ideal S131072x15 .f32)
    (vp : IVec S100 32) (mw : FVec Ideal S100x100 .f32) (mb : FVec Ideal S100 .f32)
    (hI : ∀ p : Fin 100, (iIdx (cur1 vp) p).toNat < 6) (hV : ∀ p : Fin 100, (vIdx (cur1 vp) p).toNat < 10)
    (hT : ∀ p : Fin 100, (tIdx (cur1 vp) p).toNat < 15) (r : Fin NB) (q : Fin NP) :
    tailR (F := Ideal) e0 e1 e2 vp mw mb (ix2 r q)
      = outF (gat (cur2 e0) (iIdx (cur1 vp))) (gat (cur2 e1) (vIdx (cur1 vp))) (gat (cur2 e2) (tIdx (cur1 vp)))
          (cur2 mw) (cur1 mb) r q := by
  have h0 : ∀ p : Fin NP, Host.gather gather_S131072x6_S100x1_S131072x100_0_1_n_n_1_1_1310721 e0 (wrapR 6#32 (idxI vp)) (ix2 r p)
      = gat (cur2 e0) (iIdx (cur1 vp)) r p := fun p =>
    pick_apply (D := 6) (by decide) gather_S131072x6_S100x1_S131072x100_0_1_n_n_1_1_1310721_wf e0 6#32 (idxI vp) p (hI p) r
  have h1 : ∀ p : Fin NP, Host.gather gather_S131072x10_S100x1_S131072x100_0_1_n_n_1_1_1310721 e1 (wrapR 10#32 (idxV (idxRem vp))) (ix2 r p)
      = gat (cur2 e1) (vIdx (cur1 vp)) r p := fun p =>
    pick_apply (D := 10) (by decide) gather_S131072x10_S100x1_S131072x100_0_1_n_n_1_1_1310721_wf e1 10#32 (idxV (idxRem vp)) p (hV p) r
  have h2 : ∀ p : Fin NP, Host.gather gather_S131072x15_S100x1_S131072x100_0_1_n_n_1_1_1310721 e2 (wrapR 15#32 (idxT (idxRem vp))) (ix2 r p)
      = gat (cur2 e2) (tIdx (cur1 vp)) r p := fun p =>
    pick_apply (D := 15) (by decide) gather_S131072x15_S100x1_S131072x100_0_1_n_n_1_1_1310721_wf e2 15#32 (idxT (idxRem vp)) p (hT p) r
  unfold tailR
  dsimp only
  rw [addf_apply, dot_apply, bias_apply]
  unfold outF
  congr 1
  refine Finset.sum_congr rfl fun p _ => ?_
  rw [mulf_apply, mulf_apply, transpose_ix2_apply, h0, h1, h2]

end Tail

end Cert.ReferenceIdeal.RTail

end
-- ==== Proof.RRun.lean ====
/-
  The reference program as one straight line, and what it leaves in memory.

  @main is a straight line of whole-array operations; the functions it calls are themselves straight lines that call
  further ones. Written out at its calls the program is ONE list of operations (the module this one imports lists
  them), each reading earlier buffers and writing a buffer of its own. Running the list folds the operations over the
  launch contents, so what any buffer holds at the end is a computation: an argument, which no operation writes, holds
  what it held; a result holds its operation's value of its operands' contents.
-/
import proofs.«431318_j31860067402336_2_alg».proof.Proof.ROps
import proofs.«431318_j31860067402336_2_alg».proof.Proof.RBranch
import proofs.«431318_j31860067402336_2_alg».proof.Proof.RTail
import Idealize.ShloMosaic.Lib.StableHlo.Run
import Idealize.ShloMosaic.Lib.Pipeline.Frame
import Idealize.ShloMosaic.Lib.Tactic
import Idealize.ShloMosaic.PureOps.Ideal

noncomputable section

namespace Cert.ReferenceIdeal.RRun

open Cert.ReferenceIdeal Cert.ReferenceIdeal.Gen Idealize.ShloMosaic Idealize.ShloMosaic.TcCoe Idealize.SL.Sem
open Idealize.ShloMosaic.StableHlo

variable {F : FTy → Type} [FloatOps F]

/-! ## @main is that straight line

Each window is its list by computation: a call unfolds to its body's steps, and sequencing a body that ends in the
empty return before the rest is the rest after the body's steps. Two lists run one after the other are their
concatenation run as one. -/

set_option maxRecDepth 65536 in
set_option maxHeartbeats 4000000 in
theorem part0_eq (c : Dev nD) : main_part0 (F := F) c = seq ops0 := rfl

set_option maxRecDepth 65536 in
set_option maxHeartbeats 4000000 in
theorem part1_eq (c : Dev nD) : main_part1 (F := F) c = seq ops1 := rfl

theorem main_eq (c : Dev nD) : main (F := F) c = seq ops := by
  show (main_part0 (F := F) c >>= fun _ => main_part1 (F := F) c) = seq (ops0 ++ ops1)
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun a h =>
    (List.mem_append.mp h).elim (List.forall_iff_forall_mem.mp h₁ a) (List.forall_iff_forall_mem.mp h₂ a)

/-- Every operation touches TensorCore buffers only: each stretch's do. -/
theorem ops_sub : (ops : List (HloOp τ sig (Elt F))).Forall fun op => op.bufs ⊆ tcRefs τ sig :=
  forall_append (forall_append (forall_append opsT_sub opsV_sub) opsG0_sub)
    (forall_append (forall_append opsG1_sub opsI_sub) opsO_sub)

/-- Every operation determines what it writes: each stretch's do. -/
theorem ops_fresh : (ops : List (HloOp τ sig (Elt F))).Forall fun op => op.fresh = ∅ :=
  forall_append (forall_append (forall_append opsT_fresh opsV_fresh) opsG0_fresh)
    (forall_append (forall_append opsG1_fresh opsI_fresh) opsO_fresh)

/-! ## The run

From any memory with zero counters every weakly fair execution of @main terminates, and every buffer ends at the fold
of the operations over the launch contents. -/

theorem raw (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## What a stretch leaves alone

An operation writes its result buffer and nothing else, so a buffer that is not among a stretch's results holds after
the stretch what it held before. No operation's result is an argument: the arguments come through the whole line. -/

/-- A buffer `opsT` does not write keeps its contents through it. -/
theorem opsT_keep (V : Valuation τ sig (Elt F)) (r : Ref sig .tc) (h : r ∉ opsT_W) :
    after opsT V (Proc.devRef .tc r) = V (Proc.devRef .tc r) :=
  after_of_writes_sub opsT V opsT_writes h

/-- A buffer `opsV` does not write keeps its contents through it. -/
theorem opsV_keep (V : Valuation τ sig (Elt F)) (r : Ref sig .tc) (h : r ∉ opsV_W) :
    after opsV V (Proc.devRef .tc r) = V (Proc.devRef .tc r) :=
  after_of_writes_sub opsV V opsV_writes h

/-- A buffer `opsG0` does not write keeps its contents through it. -/
theorem opsG0_keep (V : Valuation τ sig (Elt F)) (r : Ref sig .tc) (h : r ∉ opsG0_W) :
    after opsG0 V (Proc.devRef .tc r) = V (Proc.devRef .tc r) :=
  after_of_writes_sub opsG0 V opsG0_writes h

/-- A buffer `opsG1` does not write keeps its contents through it. -/
theorem opsG1_keep (V : Valuation τ sig (Elt F)) (r : Ref sig .tc) (h : r ∉ opsG1_W) :
    after opsG1 V (Proc.devRef .tc r) = V (Proc.devRef .tc r) :=
  after_of_writes_sub opsG1 V opsG1_writes h

/-- A buffer `opsI` does not write keeps its contents through it. -/
theorem opsI_keep (V : Valuation τ sig (Elt F)) (r : Ref sig .tc) (h : r ∉ opsI_W) :
    after opsI V (Proc.devRef .tc r) = V (Proc.devRef .tc r) :=
  after_of_writes_sub opsI V opsI_writes h

/-- A buffer `opsO` does not write keeps its contents through it. -/
theorem opsO_keep (V : Valuation τ sig (Elt F)) (r : Ref sig .tc) (h : r ∉ opsO_W) :
    after opsO V (Proc.devRef .tc r) = V (Proc.devRef .tc r) :=
  after_of_writes_sub opsO V opsO_writes h

/-- A buffer none of the six stretches writes comes through the whole line. -/
theorem ops_keep (V : Valuation τ sig (Elt F)) (r : Ref sig .tc)
    (h : r ∉ opsT_W ++ opsV_W ++ opsG0_W ++ opsG1_W ++ opsI_W ++ opsO_W) :
    after ops V (Proc.devRef .tc r) = V (Proc.devRef .tc r) := by
  simp only [List.mem_append, not_or] at h
  obtain ⟨⟨⟨⟨⟨hT, hV⟩, hG0⟩, hG1⟩, hI⟩, hO⟩ := h
  simp only [ops, ops0, ops1, after_append]
  rw [opsO_keep _ r hO, opsI_keep _ r hI, opsG1_keep _ r hG1, opsG0_keep _ r hG0, opsV_keep _ r hV, opsT_keep _ r hT]

/-! ## The frame -/

/-- Every weakly fair execution of @main terminates with the fifteen argument arrays as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c main_arg0).trans (ops_keep _ main_arg0 (by decide)),
     (h c main_arg1).trans (ops_keep _ main_arg1 (by decide)),
     (h c main_arg2).trans (ops_keep _ main_arg2 (by decide)),
     (h c main_arg3).trans (ops_keep _ main_arg3 (by decide)),
     (h c main_arg4).trans (ops_keep _ main_arg4 (by decide)),
     (h c main_arg5).trans (ops_keep _ main_arg5 (by decide)),
     (h c main_arg6).trans (ops_keep _ main_arg6 (by decide)),
     (h c main_arg7).trans (ops_keep _ main_arg7 (by decide)),
     (h c main_arg8).trans (ops_keep _ main_arg8 (by decide)),
     (h c main_arg9).trans (ops_keep _ main_arg9 (by decide)),
     (h c main_arg10).trans (ops_keep _ main_arg10 (by decide)),
     (h c main_arg11).trans (ops_keep _ main_arg11 (by decide)),
     (h c main_arg12).trans (ops_keep _ main_arg12 (by decide)),
     (h c main_arg13).trans (ops_keep _ main_arg13 (by decide)),
     (h c main_arg14).trans (ops_keep _ main_arg14 (by decide))⟩)
    (raw m ρ)

/-! ## The values

Each branch's last buffer holds the branch's term of its four arguments, and the last buffer of all holds the tail's
term of the three branch buffers and the three remaining arguments: each operation's result is its function of its
operands' contents, composed along the stretch. A stretch is read with the earlier stretches' results as given buffers,
so no branch is expanded more than once. -/

set_option maxRecDepth 8192 in
set_option maxHeartbeats 4000000 in
theorem val_T (V : Valuation τ sig (Elt F)) :
    after opsT V (Proc.devRef .tc main_v20) = RBranch.brTool (V (Proc.devRef .tc main_arg0)) (V (Proc.devRef .tc main_arg3)) (V (Proc.devRef .tc main_arg6)) (V (Proc.devRef .tc main_arg7)) := by
  simp only [opsT]
  after_results_simp
  -- contents moved to a buffer's own type and back: the identity at these literal buffers
  simp only [TRef.toBuf, TRef.ofBuf, cast_eq]
  rfl

set_option maxRecDepth 8192 in
set_option maxHeartbeats 4000000 in
theorem val_V (V : Valuation τ sig (Elt F)) :
    after opsV V (Proc.devRef .tc main_v41) = RBranch.brVerb (V (Proc.devRef .tc main_arg1)) (V (Proc.devRef .tc main_arg4)) (V (Proc.devRef .tc main_arg8)) (V (Proc.devRef .tc main_arg9)) := by
  simp only [opsV]
  after_results_simp
  -- contents moved to a buffer's own type and back: the identity at these literal buffers
  simp only [TRef.toBuf, TRef.ofBuf, cast_eq]
  rfl

set_option maxRecDepth 8192 in
set_option maxHeartbeats 4000000 in
theorem val_G (V : Valuation τ sig (Elt F)) :
    after opsG1 (after opsG0 V) (Proc.devRef .tc main_v62) = RBranch.brTarget (V (Proc.devRef .tc main_arg2)) (V (Proc.devRef .tc main_arg5)) (V (Proc.devRef .tc main_arg10)) (V (Proc.devRef .tc main_arg11)) := by
  simp only [opsG0, opsG1]
  after_results_simp
  -- contents moved to a buffer's own type and back: the identity at these literal buffers
  simp only [TRef.toBuf, TRef.ofBuf, cast_eq]
  rfl

set_option maxRecDepth 8192 in
set_option maxHeartbeats 8000000 in
theorem val_X (V : Valuation τ sig (Elt F)) :
    after opsO (after opsI V) (Proc.devRef .tc main_v94)
      = RTail.tailR (V (Proc.devRef .tc main_v20)) (V (Proc.devRef .tc main_v41)) (V (Proc.devRef .tc main_v62))
          (V (Proc.devRef .tc main_arg14)) (V (Proc.devRef .tc main_arg12)) (V (Proc.devRef .tc main_arg13)) := by
  simp only [opsI, opsO]
  after_results_simp
  -- contents moved to a buffer's own type and back: the identity at these literal buffers
  simp only [TRef.toBuf, TRef.ofBuf, cast_eq]
  rfl

/-- The result buffer after the whole line: the tail's term of the three branches' terms of the arguments. -/
theorem out_eq (V : Valuation τ sig (Elt F)) :
    after ops V (Proc.devRef .tc main_v94)
      = RTail.tailR (RBranch.brTool (V (Proc.devRef .tc main_arg0)) (V (Proc.devRef .tc main_arg3)) (V (Proc.devRef .tc main_arg6)) (V (Proc.devRef .tc main_arg7)))
          (RBranch.brVerb (V (Proc.devRef .tc main_arg1)) (V (Proc.devRef .tc main_arg4)) (V (Proc.devRef .tc main_arg8)) (V (Proc.devRef .tc main_arg9)))
          (RBranch.brTarget (V (Proc.devRef .tc main_arg2)) (V (Proc.devRef .tc main_arg5)) (V (Proc.devRef .tc main_arg10)) (V (Proc.devRef .tc main_arg11)))
          (V (Proc.devRef .tc main_arg14)) (V (Proc.devRef .tc main_arg12)) (V (Proc.devRef .tc main_arg13)) := by
  simp only [ops, ops0, ops1, after_append]
  rw [val_X, val_G]
  rw [opsG1_keep _ main_v20 (by decide), opsG0_keep _ main_v20 (by decide),
    opsG1_keep _ main_v41 (by decide), opsG0_keep _ main_v41 (by decide),
    opsG1_keep _ main_arg14 (by decide), opsG0_keep _ main_arg14 (by decide),
    opsG1_keep _ main_arg12 (by decide), opsG0_keep _ main_arg12 (by decide),
    opsG1_keep _ main_arg13 (by decide), opsG0_keep _ main_arg13 (by decide),
    val_V,
    opsV_keep _ main_v20 (by decide), opsV_keep _ main_arg14 (by decide), opsV_keep _ main_arg12 (by decide), opsV_keep _ main_arg13 (by decide), opsV_keep _ main_arg2 (by decide), opsV_keep _ main_arg5 (by decide), opsV_keep _ main_arg10 (by decide), opsV_keep _ main_arg11 (by decide),
    val_T,
    opsT_keep _ main_arg14 (by decide), opsT_keep _ main_arg12 (by decide), opsT_keep _ main_arg13 (by decide), opsT_keep _ main_arg2 (by decide), opsT_keep _ main_arg5 (by decide), opsT_keep _ main_arg10 (by decide), opsT_keep _ main_arg11 (by decide), opsT_keep _ main_arg1 (by decide), opsT_keep _ main_arg4 (by decide), opsT_keep _ main_arg8 (by decide), opsT_keep _ main_arg9 (by decide)]

/-- Every weakly fair execution of @main terminates with the result array at the tail's term of the three branches'
    terms of the launch contents, and the fifteen argument arrays as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v94)
        = RTail.tailR (F := Ideal) (RBranch.brTool (F := Ideal) (m ((c.tc : Thread nD τ).loc main_arg0)) (m ((c.tc : Thread nD τ).loc main_arg3)) (m ((c.tc : Thread nD τ).loc main_arg6)) (m ((c.tc : Thread nD τ).loc main_arg7)))
            (RBranch.brVerb (F := Ideal) (m ((c.tc : Thread nD τ).loc main_arg1)) (m ((c.tc : Thread nD τ).loc main_arg4)) (m ((c.tc : Thread nD τ).loc main_arg8)) (m ((c.tc : Thread nD τ).loc main_arg9)))
            (RBranch.brTarget (F := Ideal) (m ((c.tc : Thread nD τ).loc main_arg2)) (m ((c.tc : Thread nD τ).loc main_arg5)) (m ((c.tc : Thread nD τ).loc main_arg10)) (m ((c.tc : Thread nD τ).loc main_arg11)))
            (m ((c.tc : Thread nD τ).loc main_arg14)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c main_v94).trans (out_eq _),
     (h c main_arg0).trans (ops_keep _ main_arg0 (by decide)),
     (h c main_arg1).trans (ops_keep _ main_arg1 (by decide)),
     (h c main_arg2).trans (ops_keep _ main_arg2 (by decide)),
     (h c main_arg3).trans (ops_keep _ main_arg3 (by decide)),
     (h c main_arg4).trans (ops_keep _ main_arg4 (by decide)),
     (h c main_arg5).trans (ops_keep _ main_arg5 (by decide)),
     (h c main_arg6).trans (ops_keep _ main_arg6 (by decide)),
     (h c main_arg7).trans (ops_keep _ main_arg7 (by decide)),
     (h c main_arg8).trans (ops_keep _ main_arg8 (by decide)),
     (h c main_arg9).trans (ops_keep _ main_arg9 (by decide)),
     (h c main_arg10).trans (ops_keep _ main_arg10 (by decide)),
     (h c main_arg11).trans (ops_keep _ main_arg11 (by decide)),
     (h c main_arg12).trans (ops_keep _ main_arg12 (by decide)),
     (h c main_arg13).trans (ops_keep _ main_arg13 (by decide)),
     (h c main_arg14).trans (ops_keep _ main_arg14 (by decide))⟩)
    (raw m ρ)

end Cert.ReferenceIdeal.RRun

end
-- ==== Proof.BridgeReal.lean ====
/-
  The two spellings of a branch's statistics and of ELU's negative side agree on real entries.

  Everything here is arithmetic on the extended reals, reduced to arithmetic on the reals by pushing the
  coercion out of finite sums, products and differences. The one real identity is the classical
  `E[y²] − E[y]² = E[(y − E[y])²]`, stated over an arbitrary finite index whose cardinality is `N`; the right
  side is a scaled sum of squares, hence nonnegative, so the clamp `max _ 0` is the identity.
-/
import proofs.«431318_j31860067402336_2_alg».proof.Proof.Lits
import Mathlib.Data.EReal.Basic
import Mathlib.Data.EReal.Operations
import Mathlib.Algebra.BigOperators.Ring.Finset
import Mathlib.Algebra.Order.BigOperators.Group.Finset
import Mathlib.Tactic.Ring
import Mathlib.Tactic.FieldSimp
import Mathlib.Tactic.NormNum
import Mathlib.Tactic.Choose

noncomputable section

namespace Cert.Tri

open Idealize.ShloMosaic
open scoped BigOperators

/-! ## Coercion and finite sums -/

/-- The coercion of the reals into the extended reals commutes with finite sums: additivity, by induction
    on the index set. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The variance identity over the reals -/

/-- `E[a²] − E[a]² = E[(a − E[a])²]` for a family over a finite index of cardinality `N ≠ 0`, with every mean
    written as a product with `1 / N`. Expand the square, split the sum, and use `∑ 1 = N`. -/
theorem real_var_identity {ι : Type*} [Fintype ι] (a : ι → ℝ) (N : ℝ)
    (hc : (Fintype.card ι : ℝ) = N) (hN : N ≠ 0) :
    (∑ r, a r * a r) * (1 / N) - (∑ r, a r) * (1 / N) * ((∑ r, a r) * (1 / N))
      = (∑ r, (a r - (∑ r, a r) * (1 / N)) * (a r - (∑ r, a r) * (1 / N))) * (1 / N) := by
  generalize hm : (∑ r, a r) * (1 / N) = m
  have hS : (∑ r, a r) = m * N := by rw [← hm]; field_simp
  have h1 : ∀ r, (a r - m) * (a r - m) = a r * a r - (2 * m) * a r + m * m := fun r => by ring
  have h2 : (∑ r, (a r - m) * (a r - m)) = (∑ r, a r * a r) - (2 * m) * (m * N) + N * (m * m) := by
    rw [Finset.sum_congr rfl (fun r _ => h1 r), Finset.sum_add_distrib, Finset.sum_sub_distrib,
      ← Finset.mul_sum, hS, Finset.sum_const, Finset.card_univ, nsmul_eq_mul, hc]
  rw [h2]
  field_simp
  ring

/-- The mean of squared deviations is nonnegative when `N > 0`. -/
theorem real_var_nonneg {ι : Type*} [Fintype ι] (a : ι → ℝ) (m N : ℝ) (hN : 0 < N) :
    0 ≤ (∑ r, (a r - m) * (a r - m)) * (1 / N) :=
  mul_nonneg (Finset.sum_nonneg (fun r _ => mul_self_nonneg _)) (by positivity)

/-! ## ELU -/

/-- On `z > 0` both are `z`; otherwise the inner choice is `z` and the factor `1` drops. -/
theorem eluK_eq_eluR (z : EReal) : eluK z = eluR z := by
  unfold eluK eluR
  by_cases h : z > lit0
  · rw [if_pos h, if_pos h]
  · rw [if_neg h, if_neg h, if_neg h, lit1_eq, one_mul]

/-! ## Mean -/

/-- Dividing by `131072` is multiplying by `1 / 131072`, for every extended real. -/
theorem meanK_eq_meanR {d : ℕ} (y : Fin NB → Fin d → EReal) (j : Fin d) : meanK y j = meanR y j := by
  unfold meanK meanR
  rw [litN_eq, litInvN_eq, Ideal.div_coe (by norm_num)]

/-! ## Real entries stay real through the matrix product -/

theorem ymat_real {d : ℕ} (x : Fin NB → Fin d → EReal) (w : Fin d → Fin d → EReal)
    (hx : ∀ r i, ∃ a : ℝ, x r i = (a : EReal)) (hw : ∀ i j, ∃ a : ℝ, w i j = (a : EReal)) :
    ∀ r j, ∃ a : ℝ, ymat x w r j = (a : EReal) := by
  intro r j
  choose a ha using hx
  choose c hc using hw
  refine ⟨∑ i, a r i * c i j, ?_⟩
  unfold ymat
  rw [coe_sum_real]
  refine Finset.sum_congr rfl (fun i _ => ?_)
  rw [ha, hc, EReal.coe_mul]

/-! ## Variance -/

/-- A real column's sum is the coercion of the real sum. -/
theorem colSum_coe {d : ℕ} (y : Fin NB → Fin d → EReal) (j : Fin d) (a : Fin NB → ℝ)
    (ha : ∀ r, y r j = (a r : EReal)) : colSum y j = ((∑ r, a r : ℝ) : EReal) := by
  unfold colSum
  rw [coe_sum_real]
  exact Finset.sum_congr rfl (fun r _ => ha r)

/-- A real column's sum of squares is the coercion of the real sum of squares. -/
theorem colSumSq_coe {d : ℕ} (y : Fin NB → Fin d → EReal) (j : Fin d) (a : Fin NB → ℝ)
    (ha : ∀ r, y r j = (a r : EReal)) : colSumSq y j = ((∑ r, a r * a r : ℝ) : EReal) := by
  unfold colSumSq
  rw [coe_sum_real]
  refine Finset.sum_congr rfl (fun r _ => ?_)
  rw [ha r, EReal.coe_mul]

/-- A real column's mean is the coercion of the real mean. -/
theorem meanK_coe {d : ℕ} (y : Fin NB → Fin d → EReal) (j : Fin d) (a : Fin NB → ℝ)
    (ha : ∀ r, y r j = (a r : EReal)) :
    meanK y j = (((∑ r, a r) * (1 / 131072) : ℝ) : EReal) := by
  unfold meanK
  rw [colSum_coe y j a ha, litInvN_eq, EReal.coe_mul]

/-- A real column's sum of squared deviations from a real `m` is the coercion of the real one. -/
theorem devSq_coe {d : ℕ} (y : Fin NB → Fin d → EReal) (j : Fin d) (a : Fin NB → ℝ) (m : ℝ)
    (ha : ∀ r, y r j = (a r : EReal)) :
    (∑ r : Fin NB, (y r j - (m : EReal)) * (y r j - (m : EReal)))
      = ((∑ r, (a r - m) * (a r - m) : ℝ) : EReal) := by
  rw [coe_sum_real]
  refine Finset.sum_congr rfl (fun r _ => ?_)
  rw [ha r, EReal.coe_mul, EReal.coe_sub]

/-- The batch size as a real. -/
theorem card_NB_real : (Fintype.card (Fin NB) : ℝ) = 131072 := by
  rw [Fintype.card_fin]
  norm_num

theorem varK_eq_varR {d : ℕ} (y : Fin NB → Fin d → EReal) (hy : ∀ r j, ∃ a : ℝ, y r j = (a : EReal)) (j : Fin d) :
    varK y j = varR y j := by
  choose a ha using fun r => hy r j
  unfold varK varR
  rw [← meanK_eq_meanR, meanK_coe y j a ha, devSq_coe y j a _ ha, colSumSq_coe y j a ha,
    litInvN_eq, litN_eq, lit0_eq, Ideal.div_coe (by norm_num),
    ← EReal.coe_mul, ← EReal.coe_mul, ← EReal.coe_mul, ← EReal.coe_sub,
    real_var_identity a 131072 card_NB_real (by norm_num)]
  exact max_eq_left (EReal.coe_nonneg.mpr (real_var_nonneg a _ 131072 (by norm_num)))

/-! ## A branch, and the result -/

theorem branchK_eq_branchR {d : ℕ} (x : Fin NB → Fin d → EReal) (w : Fin d → Fin d → EReal) (g b : Fin d → EReal)
    (hx : ∀ r i, ∃ a : ℝ, x r i = (a : EReal)) (hw : ∀ i j, ∃ a : ℝ, w i j = (a : EReal)) :
    branchK x w g b = branchR x w g b := by
  funext r j
  have hm : meanK (ymat x w) = meanR (ymat x w) := funext (meanK_eq_meanR _)
  have hv : varK (ymat x w) = varR (ymat x w) :=
    funext (varK_eq_varR _ (ymat_real x w hx hw))
  unfold branchK branchR
  rw [eluK_eq_eluR, hm, hv]

theorem outK_eq_outR (x0 : Fin NB → Fin 6 → EReal) (x1 : Fin NB → Fin 10 → EReal) (x2 : Fin NB → Fin 15 → EReal)
    (w0 : Fin 6 → Fin 6 → EReal) (w1 : Fin 10 → Fin 10 → EReal) (w2 : Fin 15 → Fin 15 → EReal)
    (g0 b0 : Fin 6 → EReal) (g1 b1 : Fin 10 → EReal) (g2 b2 : Fin 15 → EReal)
    (mw : Fin NP → Fin NP → EReal) (mb : Fin NP → EReal) (vp : Fin NP → BitVec 32)
    (hx0 : ∀ r i, ∃ a : ℝ, x0 r i = (a : EReal)) (hx1 : ∀ r i, ∃ a : ℝ, x1 r i = (a : EReal)) (hx2 : ∀ r i, ∃ a : ℝ, x2 r i = (a : EReal))
    (hw0 : ∀ i j, ∃ a : ℝ, w0 i j = (a : EReal)) (hw1 : ∀ i j, ∃ a : ℝ, w1 i j = (a : EReal)) (hw2 : ∀ i j, ∃ a : ℝ, w2 i j = (a : EReal)) :
    outK x0 x1 x2 w0 w1 w2 g0 b0 g1 b1 g2 b2 mw mb vp = outR x0 x1 x2 w0 w1 w2 g0 b0 g1 b1 g2 b2 mw mb vp := by
  funext r q
  unfold outK outR
  rw [branchK_eq_branchR x0 w0 g0 b0 hx0 hw0, branchK_eq_branchR x1 w1 g1 b1 hx1 hw1,
    branchK_eq_branchR x2 w2 g2 b2 hx2 hw2]

end Cert.Tri

end
-- ==== Proof.PreDecode.lean ====
/-
  The printed precondition read back. It is a conjunction of sixteen tests, each a test at every element joined by
  `and` from 1: for each float array, that the absolute value of every entry is below +∞ — so every entry is a real
  number —, and for the array of flat positions, that every word is at least 0 and below 900 as a signed number.
-/
import proofs.«431318_j31860067402336_2_alg».proof.Proof.Spec
import proofs.«431318_j31860067402336_2_alg».proof.Pre_finite_inputs
import proofs.«431318_j31860067402336_2_alg».proof.Proof.Gen.Pre_finite_inputs
import Idealize.ShloMosaic.Lib.ReduceAll
import Idealize.ShloMosaic.Lib.Affine

noncomputable section

namespace Cert.Tri.Pre

open Idealize.ShloMosaic Idealize.ShloMosaic.ValueIdx
open Cert.Pre_finite_inputs

/-- The rank-0 shape has one index. -/
instance subsingleton_scalar_idx : Subsingleton S_.Idx := ⟨fun a b => funext fun d => d.elim0⟩

/-- The pattern `0x7F800000` is +∞. -/
theorem inf_eq_top : Ideal.ofBits .f32 0x7F800000#32 = (⊤ : EReal) := by simp [Ideal.ofBits, Ideal.ieee]

/-- An extended real whose absolute value `max x (−x)` is below +∞ is a real number: at either infinity the
    absolute value is +∞ itself. -/
theorem real_of_abs_lt (x : EReal) (h : Ideal.cmp .olt (max x (-x)) (Ideal.ofBits .f32 0x7F800000#32) = 1#1) :
    ∃ r : ℝ, x = (r : EReal) := by
  rw [inf_eq_top] at h
  induction x using EReal.rec with
  | bot => simp [Ideal.cmp] at h
  | coe r => exact ⟨r, rfl⟩
  | top => simp [Ideal.cmp] at h

/-- One float test read back: where the `and` over every element of `|a| < +∞` is 1, every entry of `a` is real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) (i : s.Idx) : ∃ r : ℝ, a i = (r : EReal) :=
  real_of_abs_lt (a i) (Host.reduce_andi_all _ _ hr hu ix0 e i)

/-- The test `a ≥ 0` at every element read back: every word is at least 0 as a signed number. -/
theorem all_ge {s : Shape} {axes : List (Fin s.rank)} (a : IVec s 32)
    (hb : S_.BroadcastsInDim s (![] : Fin 0 → Fin s.rank)) (hr : s.ReducesTo axes S_) (hu : 0 < S_.numel)
    (e : Host.reduce IntOp.andi (cmpi .sge a (broadcastInDim s ![] hb (constantI S_ 32 0#32)))
        (constantI S_ 1 1#1) hr hu ix0 = 1#1) (i : s.Idx) : 0 ≤ (a i).toInt := by
  have h1 : IntOp.cmpi .sge (a i) 0#32 = 1#1 := Host.reduce_andi_all _ _ hr hu ix0 e i
  have h2 := IntOp.cmpi_sge.1 h1
  have h3 : (0#32 : BitVec 32).toInt = 0 := by decide
  omega

/-- The test `a < 900` at every element read back: every word is below 900 as a signed number. -/
theorem all_lt {s : Shape} {axes : List (Fin s.rank)} (a : IVec s 32)
    (hb : S_.BroadcastsInDim s (![] : Fin 0 → Fin s.rank)) (hr : s.ReducesTo axes S_) (hu : 0 < S_.numel)
    (e : Host.reduce IntOp.andi (cmpi .slt a (broadcastInDim s ![] hb (constantI S_ 32 900#32)))
        (constantI S_ 1 1#1) hr hu ix0 = 1#1) (i : s.Idx) : (a i).toInt < 900 := by
  have h1 : IntOp.cmpi .slt (a i) 900#32 = 1#1 := Host.reduce_andi_all _ _ hr hu ix0 e i
  have h2 := IntOp.cmpi_slt.1 h1
  have h3 : (900#32 : BitVec 32).toInt = 900 := by decide
  omega

/-- The precondition read back: the six arrays the branches multiply hold real numbers, and every flat position lies
    in `[0, 900)`. The sixteen tests are joined by `and`, nested to the left; each is read back on its own. -/
theorem decode (a0 : FVec Ideal S131072x6 .f32) (a1 : FVec Ideal S131072x10 .f32) (a2 : FVec Ideal S131072x15 .f32)
    (a3 : FVec Ideal S6x6 .f32) (a4 : FVec Ideal S10x10 .f32) (a5 : FVec Ideal S15x15 .f32)
    (a6 a7 : FVec Ideal S6 .f32) (a8 a9 : FVec Ideal S10 .f32) (a10 a11 : FVec Ideal S15 .f32)
    (a12 : FVec Ideal S100x100 .f32) (a13 : FVec Ideal S100 .f32) (a14 : IVec S100 32)
    (h : Cert.Pre_finite_inputs.fn (F := Ideal) a0 a1 a2 a3 a4 a5 a6 a7 a8 a9 a10 a11 a12 a13 a14 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ Cert.Tri.InRange (Cert.Tri.cur1 a14) := by
  have e := congrFun h ix0
  dsimp only [fn] at e
  dsimp only [fn_part1] at e
  dsimp only [fn_part2] at e
  dsimp only [fn_part3] at e
  dsimp only [fn_part4] at e
  dsimp only [andi] at e
  simp only [IntOp.andi_eq_one] at e
  obtain ⟨⟨⟨⟨⟨⟨⟨⟨⟨⟨⟨⟨⟨⟨⟨h0, h1⟩, h2⟩, h3⟩, h4⟩, h5⟩, -⟩, -⟩, -⟩, -⟩, -⟩, -⟩, -⟩, -⟩, hge⟩, hlt⟩ := e
  exact ⟨all_real a0 _ _ _ h0, all_real a1 _ _ _ h1, all_real a2 _ _ _ h2, all_real a3 _ _ _ h3,
    all_real a4 _ _ _ h4, all_real a5 _ _ _ h5,
    fun p => ⟨all_ge a14 _ _ _ hge (ix1 p), all_lt a14 _ _ _ hlt (ix1 p)⟩⟩

end Cert.Tri.Pre

end
-- ==== Proof.lean ====
/-
  The certificate of a three-branch classifier head computed in two passes over the batch against its one-pass
  reference.

  Each branch multiplies a batch of 131072 rows by a small square matrix, normalises every column by the batch's mean
  and variance, scales, shifts and applies ELU; one column of each branch is then picked per output position, the
  three picked values are multiplied, and a linear layer is applied. The first program accumulates each column's sum
  and sum of squares over 64 row blocks, forms mean and variance as `sum · 2⁻¹⁷` and
  `max (sumsq · 2⁻¹⁷ − mean²) 0`, picks columns by multiplying with 0/1 tables, and streams the batch a second time.
  The reference takes the mean, subtracts it, averages the squared deviations, and picks columns by a gather.

  Over the extended reals the two agree when every float input is a real number and every flat position lies in
  `[0, 900)`: on reals `E[y²] − E[y]²` is the mean squared deviation and is not negative, `2⁻¹⁷` is exactly the
  reciprocal of the batch size, and a 0/1 table with its one at an in-range column picks that column. Outside
  `[0, 900)` a position's first coordinate leaves `[0, 6)`: the table is then all zeros while the gather wraps or
  clamps, which is why the range is part of the precondition.

  `Spec.lean` states both results index by index; `KStats`, `KGlueF`, `KGlueI`, `KMain` read the first program's two
  passes and the operations between them, `KValue` joins them; `RBranch`, `RTail`, `RRun` read the reference;
  `BridgeReal`, `IdxRange` hold the two mathematical facts above; `PreDecode` reads the precondition.
-/
import proofs.«431318_j31860067402336_2_alg».proof.Defs
import proofs.«431318_j31860067402336_2_alg».proof.Proof.Gen.Kernel
import proofs.«431318_j31860067402336_2_alg».proof.Proof.Gen.Kernel.Frame
import proofs.«431318_j31860067402336_2_alg».proof.Proof.Gen.KernelIdeal
import proofs.«431318_j31860067402336_2_alg».proof.Proof.Gen.KernelIdeal.Frame
import proofs.«431318_j31860067402336_2_alg».proof.Proof.Gen.ReferenceIdeal
import proofs.«431318_j31860067402336_2_alg».proof.Proof.Gen.Pre_finite_inputs
import proofs.«431318_j31860067402336_2_alg».proof.Proof.KValue
import proofs.«431318_j31860067402336_2_alg».proof.Proof.RRun
import proofs.«431318_j31860067402336_2_alg».proof.Proof.RBranch
import proofs.«431318_j31860067402336_2_alg».proof.Proof.RTail
import proofs.«431318_j31860067402336_2_alg».proof.Proof.BridgeReal
import proofs.«431318_j31860067402336_2_alg».proof.Proof.IdxRange
import proofs.«431318_j31860067402336_2_alg».proof.Proof.PreDecode
import Idealize.ShloMosaic.Adequacy
import Idealize.ShloMosaic.Init

noncomputable section

namespace Cert.Proof

open Idealize.ShloMosaic Idealize.SL.Sem Idealize.ShloMosaic.ValueIdx Cert.Tri

/-- The first program, as printed, runs and leaves its arguments unchanged. -/
theorem frame_k : Cert.frame_Kernel := fun m ρ _ => Cert.Kernel.Gen.frame m ρ
/-- So does its reading over the extended reals. -/
theorem frame_ki : Cert.frame_KernelIdeal := fun m ρ _ => Cert.KernelIdeal.Gen.frame m ρ
/-- The reference runs and leaves its arguments unchanged: no operation writes one. -/
theorem frame_ri : Cert.frame_ReferenceIdeal := fun m ρ _ => Cert.ReferenceIdeal.RRun.frame m ρ

/-- Both programs end at the same array: the first at `outK` of its arguments, the reference at `outR` of arguments
    that agree, and on real entries and in-range positions the two functions are one. -/
theorem algebraic : Cert.algebraic_KernelIdeal_ReferenceIdeal := by
  intro m ρ m' ρ' hpre hagree
  refine ⟨fun c => Cert.KernelIdeal.Gen.W16 m ρ c (Proc.devRef .tc Cert.KernelIdeal.main_v43),
    Cert.KernelIdeal.KRun.run_value (F := Ideal) m ρ, ?_⟩
  refine (θ_run Cert.ReferenceIdeal.defs _ _).mono (fun _ h c => ⟨(h c).1.trans ?_, (h c).2⟩)
    (Cert.ReferenceIdeal.RRun.run m' ρ')
  obtain ⟨hx0, hx1, hx2, hw0, hw1, hw2, hidx⟩ := Cert.Tri.Pre.decode _ _ _ _ _ _ _ _ _ _ _ _ _ _ _ (hpre c)
  obtain ⟨e0, e1, e2, e3, e4, e5, e6, e7, e8, e9, e10, e11, e12, e13, e14⟩ := hagree c
  rw [e0, e1, e2, e3, e4, e5, e6, e7, e8, e9, e10, e11, e12, e13, e14]
  have hr := fun p => Cert.Tri.idx_range _ hidx p
  funext ix
  obtain ⟨r, q, rfl⟩ : ∃ (r : Fin NB) (q : Fin NP), ix = ix2 r q := ⟨ix 0, ix 1, eq_ix2 ix⟩
  rw [Cert.ReferenceIdeal.RTail.tailR_apply _ _ _ _ _ _ (fun p => (hr p).1) (fun p => (hr p).2.1) (fun p => (hr p).2.2) r q]
  rw [show Cert.Tri.cur2 (Cert.ReferenceIdeal.RBranch.brTool (F := Ideal) _ _ _ _) = _ from
        funext fun r => funext fun j => Cert.ReferenceIdeal.RBranch.brTool_apply _ _ _ _ r j,
      show Cert.Tri.cur2 (Cert.ReferenceIdeal.RBranch.brVerb (F := Ideal) _ _ _ _) = _ from
        funext fun r => funext fun j => Cert.ReferenceIdeal.RBranch.brVerb_apply _ _ _ _ r j,
      show Cert.Tri.cur2 (Cert.ReferenceIdeal.RBranch.brTarget (F := Ideal) _ _ _ _) = _ from
        funext fun r => funext fun j => Cert.ReferenceIdeal.RBranch.brTarget_apply _ _ _ _ r j]
  show _ = Cert.KernelIdeal.Gen.W16 m ρ c (Proc.devRef .tc Cert.KernelIdeal.main_v43) (ix2 r q)
  rw [Cert.KernelIdeal.KValue.result_eq m ρ c hidx r q]
  exact (congrFun (congrFun (Cert.Tri.outK_eq_outR _ _ _ _ _ _ _ _ _ _ _ _ _ _ _
    (fun r i => hx0 (ix2 r i)) (fun r i => hx1 (ix2 r i)) (fun r i => hx2 (ix2 r i))
    (fun i j => hw0 (ix2 i j)) (fun i j => hw1 (ix2 i j)) (fun i j => hw2 (ix2 i j))) r) q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
